-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x8 : Shape := ⟨2, ![200000, 8]⟩
abbrev S2x1280000 : Shape := ⟨2, ![2, 1280000]⟩
abbrev S1280000 : Shape := ⟨1, ![1280000]⟩
abbrev S200000 : Shape := ⟨1, ![200000]⟩
abbrev S4096 : Shape := ⟨1, ![4096]⟩
abbrev S20x32 : Shape := ⟨2, ![20, 32]⟩
abbrev S3x10 : Shape := ⟨2, ![3, 10]⟩
abbrev S40x64 : Shape := ⟨2, ![40, 64]⟩
abbrev S64 : Shape := ⟨1, ![64]⟩
abbrev S64x64 : Shape := ⟨2, ![64, 64]⟩
abbrev S74x128 : Shape := ⟨2, ![74, 128]⟩
abbrev S128 : Shape := ⟨1, ![128]⟩
abbrev S128x96 : Shape := ⟨2, ![128, 96]⟩
abbrev S96 : Shape := ⟨1, ![96]⟩
abbrev S96x32 : Shape := ⟨2, ![96, 32]⟩
abbrev S32 : Shape := ⟨1, ![32]⟩
abbrev S32x1 : Shape := ⟨2, ![32, 1]⟩
abbrev S1 : Shape := ⟨1, ![1]⟩
abbrev S_ : Shape := ⟨0, ![]⟩
abbrev S200000x1 : Shape := ⟨2, ![200000, 1]⟩

class Facts : Prop where
  bcast_S_S200000x8 : S_.BroadcastsInDim S200000x8 (![] : Fin 0 → Fin S200000x8.rank)
  reducesTo_S200000x8_S_d0_1 : S200000x8.ReducesTo [0, 1] S_
  h_S_ : 0 < S_.numel
  bcast_S_S1280000 : S_.BroadcastsInDim S1280000 (![] : Fin 0 → Fin S1280000.rank)
  reducesTo_S1280000_S_d0 : S1280000.ReducesTo [0] S_
  bcast_S_S20x32 : S_.BroadcastsInDim S20x32 (![] : Fin 0 → Fin S20x32.rank)
  reducesTo_S20x32_S_d0_1 : S20x32.ReducesTo [0, 1] S_
  bcast_S_S3x10 : S_.BroadcastsInDim S3x10 (![] : Fin 0 → Fin S3x10.rank)
  reducesTo_S3x10_S_d0_1 : S3x10.ReducesTo [0, 1] S_
  bcast_S_S40x64 : S_.BroadcastsInDim S40x64 (![] : Fin 0 → Fin S40x64.rank)
  reducesTo_S40x64_S_d0_1 : S40x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S74x128 : S_.BroadcastsInDim S74x128 (![] : Fin 0 → Fin S74x128.rank)
  reducesTo_S74x128_S_d0_1 : S74x128.ReducesTo [0, 1] S_
  bcast_S_S128 : S_.BroadcastsInDim S128 (![] : Fin 0 → Fin S128.rank)
  reducesTo_S128_S_d0 : S128.ReducesTo [0] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  slices_S200000x8_S200000x1_0_0 : S200000x8.Slices ![0, 0] S200000x1
  shapeCasts_S200000x1_S200000 : S200000x1.ShapeCasts S200000
  bcast_S_S200000 : S_.BroadcastsInDim S200000 (![] : Fin 0 → Fin S200000.rank)
  reducesTo_S200000_S_d0 : S200000.ReducesTo [0] S_
  bcast_S_S4096 : S_.BroadcastsInDim S4096 (![] : Fin 0 → Fin S4096.rank)
  reducesTo_S4096_S_d0 : S4096.ReducesTo [0] S_

variable [Facts]

def fn_part7 {F : FTy → Type} [FloatOps F] (main_arg4 : IVec S4096 32) (main_v108 : IVec S_ 1) (main_v120 : IVec S_ 1) : IVec S_ 1 :=
  let main_v121 : IVec S_ 1 := andi main_v108 main_v120
  let main_c_45 : IVec S_ 32 := constantI S_ 32 0#32
  let main_v122 : IVec S4096 32 := broadcastInDim S4096 ![] bcast_S_S4096 main_c_45
  let main_v123 : IVec S4096 1 := cmpi .sge main_arg4 main_v122
  let main_c_46 : IVec S_ 32 := constantI S_ 32 3#32
  let main_v124 : IVec S4096 32 := broadcastInDim S4096 ![] bcast_S_S4096 main_c_46
  let main_v125 : IVec S4096 1 := cmpi .slt main_arg4 main_v124
  let main_v126 : IVec S4096 1 := andi main_v123 main_v125
  let main_c_47 : IVec S_ 1 := constantI S_ 1 1#1
  let main_v127 : IVec S_ 1 := (fun x v => Host.reduce IntOp.andi x v reducesTo_S4096_S_d0 h_S_) main_v126 main_c_47
  let main_v128 : IVec S_ 1 := andi main_v121 main_v127
  main_v128

def fn_part6 {F : FTy → Type} [FloatOps F] (main_arg0 : FVec F S200000x8 .f32) (main_arg4 : IVec S4096 32) (main_arg24 : FVec F S1 .f32) (main_v98 : IVec S_ 1) (main_v101 : IVec S32x1 1) (main_c_39 : IVec S_ 1) : IVec S_ 1 :=
  let main_v102 : IVec S_ 1 := (fun x v => Host.reduce IntOp.andi x v reducesTo_S32x1_S_d0_1 h_S_) main_v101 main_c_39
  let main_v103 : IVec S_ 1 := andi main_v98 main_v102
  let main_v104 : FVec F S1 .f32 := Host.absf main_arg24
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : FVec F S200000x1 .f32 := (extractStridedSlice S200000x1 ![0, 0] · slices_S200000x8_S200000x1_0_0) main_arg0
  let main_v110 : FVec F S200000 .f32 := shapeCast S200000 main_v109 shapeCasts_S200000x1_S200000
  let main_v111 : IVec S200000 32 := fptosi 32 main_v110
  let main_c_42 : IVec S_ 32 := constantI S_ 32 0#32
  let main_v112 : IVec S200000 32 := broadcastInDim S200000 ![] bcast_S_S200000 main_c_42
  let main_v113 : IVec S200000 1 := cmpi .sge main_v111 main_v112
  let main_v114 : FVec F S200000x1 .f32 := (extractStridedSlice S200000x1 ![0, 0] · slices_S200000x8_S200000x1_0_0) main_arg0
  let main_v115 : FVec F S200000 .f32 := shapeCast S200000 main_v114 shapeCasts_S200000x1_S200000
  let main_v116 : IVec S200000 32 := fptosi 32 main_v115
  let main_c_43 : IVec S_ 32 := constantI S_ 32 20#32
  let main_v117 : IVec S200000 32 := broadcastInDim S200000 ![] bcast_S_S200000 main_c_43
  let main_v118 : IVec S200000 1 := cmpi .slt main_v116 main_v117
  let main_v119 : IVec S200000 1 := andi main_v113 main_v118
  let main_c_44 : IVec S_ 1 := constantI S_ 1 1#1
  let main_v120 : IVec S_ 1 := (fun x v => Host.reduce IntOp.andi x v reducesTo_S200000_S_d0 h_S_) main_v119 main_c_44
  fn_part7 (F := F) main_arg4 main_v108 main_v120

def fn_part5 {F : FTy → Type} [FloatOps F] (main_arg0 : FVec F S200000x8 .f32) (main_arg4 : IVec S4096 32) (main_arg21 : FVec F S96x32 .f32) (main_arg22 : FVec F S32 .f32) (main_arg23 : FVec F S32x1 .f32) (main_arg24 : FVec F S1 .f32) (main_v83 : IVec S_ 1) (main_v84 : FVec F S96 .f32) (main_cst_32 : FVec F S_ .f32) : IVec S_ 1 :=
  let main_v85 : FVec F S96 .f32 := broadcastInDim S96 ![] bcast_S_S96 main_cst_32
  let main_v86 : IVec S96 1 := cmpf .olt main_v84 main_v85
  let main_c_33 : IVec S_ 1 := constantI S_ 1 1#1
  let main_v87 : IVec S_ 1 := (fun x v => Host.reduce IntOp.andi x v reducesTo_S96_S_d0 h_S_) main_v86 main_c_33
  let main_v88 : IVec S_ 1 := andi main_v83 main_v87
  let main_v89 : FVec F S96x32 .f32 := Host.absf main_arg21
  let main_cst_34 : FVec F S_ .f32 := constant S_ .f32 0x7F800000#32
  let main_v90 : FVec F S96x32 .f32 := broadcastInDim S96x32 ![] bcast_S_S96x32 main_cst_34
  let main_v91 : IVec S96x32 1 := cmpf .olt main_v89 main_v90
  let main_c_35 : IVec S_ 1 := constantI S_ 1 1#1
  let main_v92 : IVec S_ 1 := (fun x v => Host.reduce IntOp.andi x v reducesTo_S96x32_S_d0_1 h_S_) main_v91 main_c_35
  let main_v93 : IVec S_ 1 := andi main_v88 main_v92
  let main_v94 : FVec F S32 .f32 := Host.absf main_arg22
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x1 .f32 := Host.absf main_arg23
  let main_cst_38 : FVec F S_ .f32 := constant S_ .f32 0x7F800000#32
  let main_v100 : FVec F S32x1 .f32 := broadcastInDim S32x1 ![] bcast_S_S32x1 main_cst_38
  let main_v101 : IVec S32x1 1 := cmpf .olt main_v99 main_v100
  let main_c_39 : IVec S_ 1 := constantI S_ 1 1#1
  fn_part6 (F := F) main_arg0 main_arg4 main_arg24 main_v98 main_v101 main_c_39

def fn_part4 {F : FTy → Type} [FloatOps F] (main_arg0 : FVec F S200000x8 .f32) (main_arg4 : IVec S4096 32) (main_arg17 : FVec F S74x128 .f32) (main_arg18 : FVec F S128 .f32) (main_arg19 : FVec F S128x96 .f32) (main_arg20 : FVec F S96 .f32) (main_arg21 : FVec F S96x32 .f32) (main_arg22 : FVec F S32 .f32) (main_arg23 : FVec F S32x1 .f32) (main_arg24 : FVec F S1 .f32) (main_v63 : IVec S_ 1) (main_v67 : IVec S_ 1) : IVec S_ 1 :=
  let main_v68 : IVec S_ 1 := andi main_v63 main_v67
  let main_v69 : FVec F S74x128 .f32 := Host.absf main_arg17
  let main_cst_26 : FVec F S_ .f32 := constant S_ .f32 0x7F800000#32
  let main_v70 : FVec F S74x128 .f32 := broadcastInDim S74x128 ![] bcast_S_S74x128 main_cst_26
  let main_v71 : IVec S74x128 1 := cmpf .olt main_v69 main_v70
  let main_c_27 : IVec S_ 1 := constantI S_ 1 1#1
  let main_v72 : IVec S_ 1 := (fun x v => Host.reduce IntOp.andi x v reducesTo_S74x128_S_d0_1 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x96 .f32 := Host.absf main_arg19
  let main_cst_30 : FVec F S_ .f32 := constant S_ .f32 0x7F800000#32
  let main_v80 : FVec F S128x96 .f32 := broadcastInDim S128x96 ![] bcast_S_S128x96 main_cst_30
  let main_v81 : IVec S128x96 1 := cmpf .olt main_v79 main_v80
  let main_c_31 : IVec S_ 1 := constantI S_ 1 1#1
  let main_v82 : IVec S_ 1 := (fun x v => Host.reduce IntOp.andi x v reducesTo_S128x96_S_d0_1 h_S_) main_v81 main_c_31
  let main_v83 : IVec S_ 1 := andi main_v78 main_v82
  let main_v84 : FVec F S96 .f32 := Host.absf main_arg20
  let main_cst_32 : FVec F S_ .f32 := constant S_ .f32 0x7F800000#32
  fn_part5 (F := F) main_arg0 main_arg4 main_arg21 main_arg22 main_arg23 main_arg24 main_v83 main_v84 main_cst_32

def fn_part3 {F : FTy → Type} [FloatOps F] (main_arg0 : FVec F S200000x8 .f32) (main_arg4 : IVec S4096 32) (main_arg14 : FVec F S64 .f32) (main_arg15 : FVec F S64x64 .f32) (main_arg16 : FVec F S64 .f32) (main_arg17 : FVec F S74x128 .f32) (main_arg18 : FVec F S128 .f32) (main_arg19 : FVec F S128x96 .f32) (main_arg20 : FVec F S96 .f32) (main_arg21 : FVec F S96x32 .f32) (main_arg22 : FVec F S32 .f32) (main_arg23 : FVec F S32x1 .f32) (main_arg24 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg15
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg16
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg0 main_arg4 main_arg17 main_arg18 main_arg19 main_arg20 main_arg21 main_arg22 main_arg23 main_arg24 main_v63 main_v67

def fn_part2 {F : FTy → Type} [FloatOps F] (main_arg0 : FVec F S200000x8 .f32) (main_arg4 : IVec S4096 32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S74x128 .f32) (main_arg18 : FVec F S128 .f32) (main_arg19 : FVec F S128x96 .f32) (main_arg20 : FVec F S96 .f32) (main_arg21 : FVec F S96x32 .f32) (main_arg22 : FVec F S32 .f32) (main_arg23 : FVec F S32x1 .f32) (main_arg24 : FVec F S1 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg11
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg13
  let main_cst_18 : FVec F S_ .f32 := constant S_ .f32 0x7F800000#32
  let main_v50 : FVec F S64x64 .f32 := broadcastInDim S64x64 ![] bcast_S_S64x64 main_cst_18
  fn_part3 (F := F) main_arg0 main_arg4 main_arg14 main_arg15 main_arg16 main_arg17 main_arg18 main_arg19 main_arg20 main_arg21 main_arg22 main_arg23 main_arg24 main_v48 main_v49 main_v50

def fn_part1 {F : FTy → Type} [FloatOps F] (main_arg0 : FVec F S200000x8 .f32) (main_arg4 : IVec S4096 32) (main_arg7 : FVec F S40x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S74x128 .f32) (main_arg18 : FVec F S128 .f32) (main_arg19 : FVec F S128x96 .f32) (main_arg20 : FVec F S96 .f32) (main_arg21 : FVec F S96x32 .f32) (main_arg22 : FVec F S32 .f32) (main_arg23 : FVec F S32x1 .f32) (main_arg24 : FVec F S1 .f32) (main_v13 : IVec S_ 1) (main_v16 : IVec S3x10 1) : IVec S_ 1 :=
  let main_c_5 : IVec S_ 1 := constantI S_ 1 1#1
  let main_v17 : IVec S_ 1 := (fun x v => Host.reduce IntOp.andi x v reducesTo_S3x10_S_d0_1 h_S_) main_v16 main_c_5
  let main_v18 : IVec S_ 1 := andi main_v13 main_v17
  let main_v19 : FVec F S40x64 .f32 := Host.absf main_arg7
  let main_cst_6 : FVec F S_ .f32 := constant S_ .f32 0x7F800000#32
  let main_v20 : FVec F S40x64 .f32 := broadcastInDim S40x64 ![] bcast_S_S40x64 main_cst_6
  let main_v21 : IVec S40x64 1 := cmpf .olt main_v19 main_v20
  let main_c_7 : IVec S_ 1 := constantI S_ 1 1#1
  let main_v22 : IVec S_ 1 := (fun x v => Host.reduce IntOp.andi x v reducesTo_S40x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg0 main_arg4 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S200000x8 .f32) (main_arg1 : IVec S2x1280000 32) (main_arg2 : FVec F S1280000 .f32) (main_arg3 : IVec S200000 32) (main_arg4 : IVec S4096 32) (main_arg5 : FVec F S20x32 .f32) (main_arg6 : FVec F S3x10 .f32) (main_arg7 : FVec F S40x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S74x128 .f32) (main_arg18 : FVec F S128 .f32) (main_arg19 : FVec F S128x96 .f32) (main_arg20 : FVec F S96 .f32) (main_arg21 : FVec F S96x32 .f32) (main_arg22 : FVec F S32 .f32) (main_arg23 : FVec F S32x1 .f32) (main_arg24 : FVec F S1 .f32) : IVec S_ 1 :=
  let main_v0 : FVec F S200000x8 .f32 := Host.absf main_arg0
  let main_cst : FVec F S_ .f32 := constant S_ .f32 0x7F800000#32
  let main_v1 : FVec F S200000x8 .f32 := broadcastInDim S200000x8 ![] bcast_S_S200000x8 main_cst
  let main_v2 : IVec S200000x8 1 := cmpf .olt main_v0 main_v1
  let main_c : IVec S_ 1 := constantI S_ 1 1#1
  let main_v3 : IVec S_ 1 := (fun x v => Host.reduce IntOp.andi x v reducesTo_S200000x8_S_d0_1 h_S_) main_v2 main_c
  let main_v4 : FVec F S1280000 .f32 := Host.absf main_arg2
  let main_cst_0 : FVec F S_ .f32 := constant S_ .f32 0x7F800000#32
  let main_v5 : FVec F S1280000 .f32 := broadcastInDim S1280000 ![] bcast_S_S1280000 main_cst_0
  let main_v6 : IVec S1280000 1 := cmpf .olt main_v4 main_v5
  let main_c_1 : IVec S_ 1 := constantI S_ 1 1#1
  let main_v7 : IVec S_ 1 := (fun x v => Host.reduce IntOp.andi x v reducesTo_S1280000_S_d0 h_S_) main_v6 main_c_1
  let main_v8 : IVec S_ 1 := andi main_v3 main_v7
  let main_v9 : FVec F S20x32 .f32 := Host.absf main_arg5
  let main_cst_2 : FVec F S_ .f32 := constant S_ .f32 0x7F800000#32
  let main_v10 : FVec F S20x32 .f32 := broadcastInDim S20x32 ![] bcast_S_S20x32 main_cst_2
  let main_v11 : IVec S20x32 1 := cmpf .olt main_v9 main_v10
  let main_c_3 : IVec S_ 1 := constantI S_ 1 1#1
  let main_v12 : IVec S_ 1 := (fun x v => Host.reduce IntOp.andi x v reducesTo_S20x32_S_d0_1 h_S_) main_v11 main_c_3
  let main_v13 : IVec S_ 1 := andi main_v8 main_v12
  let main_v14 : FVec F S3x10 .f32 := Host.absf main_arg6
  let main_cst_4 : FVec F S_ .f32 := constant S_ .f32 0x7F800000#32
  let main_v15 : FVec F S3x10 .f32 := broadcastInDim S3x10 ![] bcast_S_S3x10 main_cst_4
  let main_v16 : IVec S3x10 1 := cmpf .olt main_v14 main_v15
  fn_part1 (F := F) main_arg0 main_arg4 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S200000x8 : Shape := ⟨2, ![200000, 8]⟩
abbrev S2x1280000 : Shape := ⟨2, ![2, 1280000]⟩
abbrev S1280000 : Shape := ⟨1, ![1280000]⟩
abbrev S200000 : Shape := ⟨1, ![200000]⟩
abbrev S4096 : Shape := ⟨1, ![4096]⟩
abbrev S20x32 : Shape := ⟨2, ![20, 32]⟩
abbrev S3x10 : Shape := ⟨2, ![3, 10]⟩
abbrev S40x64 : Shape := ⟨2, ![40, 64]⟩
abbrev S64 : Shape := ⟨1, ![64]⟩
abbrev S64x64 : Shape := ⟨2, ![64, 64]⟩
abbrev S74x128 : Shape := ⟨2, ![74, 128]⟩
abbrev S128 : Shape := ⟨1, ![128]⟩
abbrev S128x96 : Shape := ⟨2, ![128, 96]⟩
abbrev S96 : Shape := ⟨1, ![96]⟩
abbrev S96x32 : Shape := ⟨2, ![96, 32]⟩
abbrev S32 : Shape := ⟨1, ![32]⟩
abbrev S32x1 : Shape := ⟨2, ![32, 1]⟩
abbrev S1 : Shape := ⟨1, ![1]⟩
abbrev S1x1280000 : Shape := ⟨2, ![1, 1280000]⟩
abbrev S_ : Shape := ⟨0, ![]⟩
abbrev S1280000x1 : Shape := ⟨2, ![1280000, 1]⟩
abbrev S200000x40 : Shape := ⟨2, ![200000, 40]⟩
abbrev S5000x8 : Shape := ⟨2, ![5000, 8]⟩
abbrev S5000x40 : Shape := ⟨2, ![5000, 40]⟩
abbrev S5000x1 : Shape := ⟨2, ![5000, 1]⟩
abbrev S5000x20 : Shape := ⟨2, ![5000, 20]⟩
abbrev S5000x32 : Shape := ⟨2, ![5000, 32]⟩
abbrev S200000x64 : Shape := ⟨2, ![200000, 64]⟩
abbrev S5000x64 : Shape := ⟨2, ![5000, 64]⟩
abbrev S1280000x64 : Shape := ⟨2, ![1280000, 64]⟩
abbrev S200000x1 : Shape := ⟨2, ![200000, 1]⟩
abbrev S1x64 : Shape := ⟨2, ![1, 64]⟩
abbrev S4096x64 : Shape := ⟨2, ![4096, 64]⟩
abbrev S4096x1 : Shape := ⟨2, ![4096, 1]⟩
abbrev S1x128 : Shape := ⟨2, ![1, 128]⟩
abbrev S1x96 : Shape := ⟨2, ![1, 96]⟩
abbrev S1x32 : Shape := ⟨2, ![1, 32]⟩
abbrev S1x1 : Shape := ⟨2, ![1, 1]⟩
abbrev S4096x3 : Shape := ⟨2, ![4096, 3]⟩
abbrev S4096x10 : Shape := ⟨2, ![4096, 10]⟩
abbrev S4096x74 : Shape := ⟨2, ![4096, 74]⟩
abbrev S4096x128 : Shape := ⟨2, ![4096, 128]⟩
abbrev S4096x96 : Shape := ⟨2, ![4096, 96]⟩
abbrev S4096x32 : Shape := ⟨2, ![4096, 32]⟩

abbrev nBuf : Space → Nat
  | .hbm => 159
  | .vmem => 79
  | .smem => 0
  | _ => 0

abbrev hbmTy0_0 (i : Nat) : BufTy := match i % 128 with
  | 0 => ⟨S200000x8, .f32⟩
  | 1 => ⟨S2x1280000, .i32⟩
  | 2 => ⟨S1280000, .f32⟩
  | 3 => ⟨S200000, .i32⟩
  | 4 => ⟨S4096, .i32⟩
  | 5 => ⟨S20x32, .f32⟩
  | 6 => ⟨S3x10, .f32⟩
  | 7 => ⟨S40x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S74x128, .f32⟩
  | 18 => ⟨S128, .f32⟩
  | 19 => ⟨S128x96, .f32⟩
  | 20 => ⟨S96, .f32⟩
  | 21 => ⟨S96x32, .f32⟩
  | 22 => ⟨S32, .f32⟩
  | 23 => ⟨S32x1, .f32⟩
  | 24 => ⟨S1, .f32⟩
  | 25 => ⟨S1x1280000, .i32⟩
  | 26 => ⟨S1280000, .i32⟩
  | 27 => ⟨S1x1280000, .i32⟩
  | 28 => ⟨S1280000, .i32⟩
  | 29 => ⟨S_, .f32⟩
  | 30 => ⟨S200000, .f32⟩
  | 31 => ⟨S1280000x1, .i32⟩
  | 32 => ⟨S200000, .f32⟩
  | 33 => ⟨S_, .f32⟩
  | 34 => ⟨S200000, .f32⟩
  | 35 => ⟨S200000, .f32⟩
  | 36 => ⟨S200000, .f32⟩
  | 37 => ⟨S_, .i32⟩
  | 38 => ⟨S1280000, .i32⟩
  | 39 => ⟨S1280000, .i1⟩
  | 40 => ⟨S_, .i32⟩
  | 41 => ⟨S1280000, .i32⟩
  | 42 => ⟨S1280000, .i32⟩
  | 43 => ⟨S1280000, .i32⟩
  | 44 => ⟨S1280000x1, .i32⟩
  | 45 => ⟨S1280000, .f32⟩
  | 46 => ⟨S1280000, .f32⟩
  | 47 => ⟨S_, .i32⟩
  | 48 => ⟨S1280000, .i32⟩
  | 49 => ⟨S1280000, .i1⟩
  | 50 => ⟨S_, .i32⟩
  | 51 => ⟨S1280000, .i32⟩
  | 52 => ⟨S1280000, .i32⟩
  | 53 => ⟨S1280000, .i32⟩
  | 54 => ⟨S1280000x1, .i32⟩
  | 55 => ⟨S1280000, .f32⟩
  | 56 => ⟨S1280000, .f32⟩
  | 57 => ⟨S200000, .f32⟩
  | 58 => ⟨S200000x40, .f32⟩
  | 59 => ⟨S200000x64, .f32⟩
  | 60 => ⟨S_, .i32⟩
  | 61 => ⟨S1280000, .i32⟩
  | 62 => ⟨S1280000, .i1⟩
  | 63 => ⟨S_, .i32⟩
  | 64 => ⟨S1280000, .i32⟩
  | 65 => ⟨S1280000, .i32⟩
  | 66 => ⟨S1280000, .i32⟩
  | 67 => ⟨S1280000x1, .i32⟩
  | 68 => ⟨S1280000x64, .f32⟩
  | 69 => ⟨S1280000x1, .f32⟩
  | 70 => ⟨S1280000x64, .f32⟩
  | 71 => ⟨S1280000x64, .f32⟩
  | 72 => ⟨S_, .f32⟩
  | 73 => ⟨S200000x64, .f32⟩
  | 74 => ⟨S1280000x1, .i32⟩
  | 75 => ⟨S200000x64, .f32⟩
  | 76 => ⟨S200000x1, .f32⟩
  | 77 => ⟨S1x64, .f32⟩
  | 78 => ⟨S200000x64, .f32⟩
  | 79 => ⟨S200000x64, .f32⟩
  | 80 => ⟨S_, .i32⟩
  | 81 => ⟨S1280000, .i32⟩
  | 82 => ⟨S1280000, .i1⟩
  | 83 => ⟨S_, .i32⟩
  | 84 => ⟨S1280000, .i32⟩
  | 85 => ⟨S1280000, .i32⟩
  | 86 => ⟨S1280000, .i32⟩
  | 87 => ⟨S1280000x1, .i32⟩
  | 88 => ⟨S1280000x64, .f32⟩
  | 89 => ⟨S1280000x1, .f32⟩
  | 90 => ⟨S1280000x64, .f32⟩
  | 91 => ⟨S1280000x64, .f32⟩
  | 92 => ⟨S_, .f32⟩
  | 93 => ⟨S200000x64, .f32⟩
  | 94 => ⟨S1280000x1, .i32⟩
  | 95 => ⟨S200000x64, .f32⟩
  | 96 => ⟨S200000x1, .f32⟩
  | 97 => ⟨S1x64, .f32⟩
  | 98 => ⟨S200000x64, .f32⟩
  | 99 => ⟨S200000x64, .f32⟩
  | 100 => ⟨S_, .i32⟩
  | 101 => ⟨S1280000, .i32⟩
  | 102 => ⟨S1280000, .i1⟩
  | 103 => ⟨S_, .i32⟩
  | 104 => ⟨S1280000, .i32⟩
  | 105 => ⟨S1280000, .i32⟩
  | 106 => ⟨S1280000, .i32⟩
  | 107 => ⟨S1280000x1, .i32⟩
  | 108 => ⟨S1280000x64, .f32⟩
  | 109 => ⟨S1280000x1, .f32⟩
  | 110 => ⟨S1280000x64, .f32⟩
  | 111 => ⟨S1280000x64, .f32⟩
  | 112 => ⟨S_, .f32⟩
  | 113 => ⟨S200000x64, .f32⟩
  | 114 => ⟨S1280000x1, .i32⟩
  | 115 => ⟨S200000x64, .f32⟩
  | 116 => ⟨S200000x1, .f32⟩
  | 117 => ⟨S1x64, .f32⟩
  | 118 => ⟨S200000x64, .f32⟩
  | 119 => ⟨S200000x64, .f32⟩
  | 120 => ⟨S_, .i32⟩
  | 121 => ⟨S1280000, .i32⟩
  | 122 => ⟨S1280000, .i1⟩
  | 123 => ⟨S_, .i32⟩
  | 124 => ⟨S1280000, .i32⟩
  | 125 => ⟨S1280000, .i32⟩
  | 126 => ⟨S1280000, .i32⟩
  | 127 => ⟨S1280000x1, .i32⟩
  | _ => ⟨S200000x8, .f32⟩

abbrev hbmTy0_1 (i : Nat) : BufTy := match i % 128 with
  | 0 => ⟨S1280000x64, .f32⟩
  | 1 => ⟨S1280000x1, .f32⟩
  | 2 => ⟨S1280000x64, .f32⟩
  | 3 => ⟨S1280000x64, .f32⟩
  | 4 => ⟨S_, .f32⟩
  | 5 => ⟨S200000x64, .f32⟩
  | 6 => ⟨S1280000x1, .i32⟩
  | 7 => ⟨S200000x64, .f32⟩
  | 8 => ⟨S200000x1, .f32⟩
  | 9 => ⟨S1x64, .f32⟩
  | 10 => ⟨S200000x64, .f32⟩
  | 11 => ⟨S1x64, .f32⟩
  | 12 => ⟨S200000x64, .f32⟩
  | 13 => ⟨S_, .f32⟩
  | 14 => ⟨S4096x64, .f32⟩
  | 15 => ⟨S200000x1, .i32⟩
  | 16 => ⟨S4096x64, .f32⟩
  | 17 => ⟨S_, .f32⟩
  | 18 => ⟨S200000x1, .f32⟩
  | 19 => ⟨S_, .f32⟩
  | 20 => ⟨S4096x1, .f32⟩
  | 21 => ⟨S200000x1, .i32⟩
  | 22 => ⟨S4096x1, .f32⟩
  | 23 => ⟨S4096x64, .f32⟩
  | 24 => ⟨S4096x64, .f32⟩
  | 25 => ⟨S4096x1, .i32⟩
  | 26 => ⟨S1x128, .f32⟩
  | 27 => ⟨S1x96, .f32⟩
  | 28 => ⟨S1x32, .f32⟩
  | 29 => ⟨S1x1, .f32⟩
  | 30 => ⟨S4096x1, .f32⟩
  | _ => ⟨S200000x8, .f32⟩

abbrev hbmTy (i : Nat) : BufTy := match i / 128 with
  | 0 => hbmTy0_0 i
  | 1 => hbmTy0_1 i
  | _ => ⟨S200000x8, .f32⟩

abbrev bufTy : (tb : Table) → Fin (tcTables nBuf tb) → BufTy
  | .hbm, ⟨i, _⟩ => hbmTy i
  | .local _ .vmem, ⟨0, _⟩ => ⟨S5000x8, .f32⟩
  | .local _ .vmem, ⟨1, _⟩ => ⟨S5000x8, .f32⟩
  | .local _ .vmem, ⟨2, _⟩ => ⟨S20x32, .f32⟩
  | .local _ .vmem, ⟨3, _⟩ => ⟨S5000x40, .f32⟩
  | .local _ .vmem, ⟨4, _⟩ => ⟨S5000x40, .f32⟩
  | .local _ .vmem, ⟨5, _⟩ => ⟨S5000x40, .f32⟩
  | .local _ .vmem, ⟨6, _⟩ => ⟨S5000x40, .f32⟩
  | .local _ .vmem, ⟨7, _⟩ => ⟨S40x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x1, .f32⟩
  | .local _ .vmem, ⟨29, _⟩ => ⟨S5000x1, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S64x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x1, .f32⟩
  | .local _ .vmem, ⟨43, _⟩ => ⟨S5000x1, .f32⟩
  | .local _ .vmem, ⟨44, _⟩ => ⟨S1x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S64x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x1, .f32⟩
  | .local _ .vmem, ⟨57, _⟩ => ⟨S5000x1, .f32⟩
  | .local _ .vmem, ⟨58, _⟩ => ⟨S1x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S64x64, .f32⟩
  | .local _ .vmem, ⟨64, _⟩ => ⟨S1x64, .f32⟩
  | .local _ .vmem, ⟨65, _⟩ => ⟨S5000x64, .f32⟩
  | .local _ .vmem, ⟨66, _⟩ => ⟨S5000x64, .f32⟩
  | .local _ .vmem, ⟨67, _⟩ => ⟨S4096x64, .f32⟩
  | .local _ .vmem, ⟨68, _⟩ => ⟨S4096x1, .i32⟩
  | .local _ .vmem, ⟨69, _⟩ => ⟨S3x10, .f32⟩
  | .local _ .vmem, ⟨70, _⟩ => ⟨S74x128, .f32⟩
  | .local _ .vmem, ⟨71, _⟩ => ⟨S1x128, .f32⟩
  | .local _ .vmem, ⟨72, _⟩ => ⟨S128x96, .f32⟩
  | .local _ .vmem, ⟨73, _⟩ => ⟨S1x96, .f32⟩
  | .local _ .vmem, ⟨74, _⟩ => ⟨S96x32, .f32⟩
  | .local _ .vmem, ⟨75, _⟩ => ⟨S1x32, .f32⟩
  | .local _ .vmem, ⟨76, _⟩ => ⟨S32x1, .f32⟩
  | .local _ .vmem, ⟨77, _⟩ => ⟨S1x1, .f32⟩
  | .local _ .vmem, ⟨78, _⟩ => ⟨S4096x1, .f32⟩
  | _, _ => ⟨S200000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c : Ref sig .tc := ⟨.hbm, 37, rfl⟩
abbrev main_v10 : Ref sig .tc := ⟨.hbm, 38, rfl⟩
abbrev main_v11 : Ref sig .tc := ⟨.hbm, 39, rfl⟩
abbrev main_c_1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_4 : Ref sig .tc := ⟨.hbm, 60, rfl⟩
abbrev main_v29 : Ref sig .tc := ⟨.hbm, 61, rfl⟩
abbrev main_v30 : Ref sig .tc := ⟨.hbm, 62, rfl⟩
abbrev main_c_5 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_6 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_7 : Ref sig .tc := ⟨.hbm, 80, rfl⟩
abbrev main_v46 : Ref sig .tc := ⟨.hbm, 81, rfl⟩
abbrev main_v47 : Ref sig .tc := ⟨.hbm, 82, rfl⟩
abbrev main_c_8 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_9 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_10 : Ref sig .tc := ⟨.hbm, 100, rfl⟩
abbrev main_v63 : Ref sig .tc := ⟨.hbm, 101, rfl⟩
abbrev main_v64 : Ref sig .tc := ⟨.hbm, 102, rfl⟩
abbrev main_c_11 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_12 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_13 : Ref sig .tc := ⟨.hbm, 120, rfl⟩
abbrev main_v80 : Ref sig .tc := ⟨.hbm, 121, rfl⟩
abbrev main_v81 : Ref sig .tc := ⟨.hbm, 122, rfl⟩
abbrev main_c_14 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_15 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_16 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_17 : Ref sig .tc := ⟨.hbm, 145, rfl⟩
abbrev main_v101 : Ref sig .tc := ⟨.hbm, 146, rfl⟩
abbrev main_cst_18 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg4_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg4_0 : Ref sig .tc := ⟨.vmem, 45, rfl⟩
abbrev cc6_stg4_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg2_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg1_1 : Ref sig .tc := ⟨.vmem, 55, rfl⟩
abbrev cc8_stg2_0 : Ref sig .tc := ⟨.vmem, 56, rfl⟩
abbrev cc8_stg2_1 : Ref sig .tc := ⟨.vmem, 57, rfl⟩
abbrev cc8_stg3_0 : Ref sig .tc := ⟨.vmem, 58, rfl⟩
abbrev cc8_stg4_0 : Ref sig .tc := ⟨.vmem, 59, rfl⟩
abbrev cc8_stg4_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg2_0 : Ref sig .tc := ⟨.vmem, 64, rfl⟩
abbrev cc9_stg3_0 : Ref sig .tc := ⟨.vmem, 65, rfl⟩
abbrev cc9_stg3_1 : Ref sig .tc := ⟨.vmem, 66, rfl⟩
abbrev cc10_stg0_0 : Ref sig .tc := ⟨.vmem, 67, rfl⟩
abbrev cc10_stg1_0 : Ref sig .tc := ⟨.vmem, 68, rfl⟩
abbrev cc10_stg2_0 : Ref sig .tc := ⟨.vmem, 69, rfl⟩
abbrev cc10_stg3_0 : Ref sig .tc := ⟨.vmem, 70, rfl⟩
abbrev cc10_stg4_0 : Ref sig .tc := ⟨.vmem, 71, rfl⟩
abbrev cc10_stg5_0 : Ref sig .tc := ⟨.vmem, 72, rfl⟩
abbrev cc10_stg6_0 : Ref sig .tc := ⟨.vmem, 73, rfl⟩
abbrev cc10_stg7_0 : Ref sig .tc := ⟨.vmem, 74, rfl⟩
abbrev cc10_stg8_0 : Ref sig .tc := ⟨.vmem, 75, rfl⟩
abbrev cc10_stg9_0 : Ref sig .tc := ⟨.vmem, 76, rfl⟩
abbrev cc10_stg10_0 : Ref sig .tc := ⟨.vmem, 77, rfl⟩
abbrev cc10_stg11_0 : Ref sig .tc := ⟨.vmem, 78, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem4_0 : DmaSem sig := 31
abbrev cc4_sem4_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem4_0 : DmaSem sig := 45
abbrev cc6_sem4_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem2_1 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem2_1 : DmaSem sig := 57
abbrev cc8_sem3_0 : DmaSem sig := 58
abbrev cc8_sem4_0 : DmaSem sig := 59
abbrev cc8_sem4_1 : DmaSem sig := 60
abbrev cc9_sem0_0 : DmaSem sig := 61
abbrev cc9_sem0_1 : DmaSem sig := 62
abbrev cc9_sem1_0 : DmaSem sig := 63
abbrev cc9_sem2_0 : DmaSem sig := 64
abbrev cc9_sem3_0 : DmaSem sig := 65
abbrev cc9_sem3_1 : DmaSem sig := 66
abbrev cc10_sem0_0 : DmaSem sig := 67
abbrev cc10_sem1_0 : DmaSem sig := 68
abbrev cc10_sem2_0 : DmaSem sig := 69
abbrev cc10_sem3_0 : DmaSem sig := 70
abbrev cc10_sem4_0 : DmaSem sig := 71
abbrev cc10_sem5_0 : DmaSem sig := 72
abbrev cc10_sem6_0 : DmaSem sig := 73
abbrev cc10_sem7_0 : DmaSem sig := 74
abbrev cc10_sem8_0 : DmaSem sig := 75
abbrev cc10_sem9_0 : DmaSem sig := 76
abbrev cc10_sem10_0 : DmaSem sig := 77
abbrev cc10_sem11_0 : DmaSem sig := 78

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S40x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![40], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![40], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_10 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_11 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S4096x64 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S4096x1 .i32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S3x10 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S74x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x96 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x96 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S96x32 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x32 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S32x1 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev stage10_10 : Fin 1 → Memref sig .tc .vmem S1x1 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))
abbrev reads10_10 : Fin grid10.rank → Bool := ![false]

abbrev stage10_11 : Fin 1 → Memref sig .tc .vmem S4096x1 .f32 := fun | 0 => Memref.whole cc10_stg11_0 | ⟨_ + 1, h⟩ => absurd h (Nat.not_lt.2 (Nat.le_add_left _ _))
abbrev sem10_11 : Fin 1 → DmaSem sig := fun | 0 => cc10_sem11_0 | ⟨_ + 1, h⟩ => absurd h (Nat.not_lt.2 (Nat.le_add_left _ _))
abbrev reads10_11 : Fin grid10.rank → Bool := ![false]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S200000 : S_.BroadcastsInDim S200000 (![] : Fin 0 → Fin S200000.rank)
  bcast_S1280000_S1280000x1_0 : S1280000.BroadcastsInDim S1280000x1 (![0] : Fin 1 → Fin S1280000x1.rank)
  bcast_S_S1280000 : S_.BroadcastsInDim S1280000 (![] : Fin 0 → Fin S1280000.rank)
  inb_S5000x8_S5000x8_0_0 : ∀ a, (![0, 0] : Fin 2 → Nat) a + S5000x8.size a ≤ S5000x8.size a
  h_S5000x8 : 0 < S5000x8.numel
  slices_S5000x8_o0_0_S5000x1 : S5000x8.Slices ![0, 0] S5000x1
  iota_S5000x20_d1_w32 : S5000x20.Iotas .tc 32 [1]
  broadcasts_S5000x1_S5000x20 : S5000x1.Broadcasts S5000x20
  natLt_1_32 : 1 < 32
  inb_S20x32_S20x32_0_0 : ∀ a, (![0, 0] : Fin 2 → Nat) a + S20x32.size a ≤ S20x32.size a
  h_S20x32 : 0 < S20x32.numel
  concatenates_S5000x8_S5000x32_S5000x40_d1 : Shape.Concatenates [S5000x8, S5000x32] S5000x40 1
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  bitsLt_bf16_f32 : FTy.bits .bf16 < FTy.bits .f32
  inb_S40x64_S40x64_0_0 : ∀ a, (![0, 0] : Fin 2 → Nat) a + S40x64.size a ≤ S40x64.size a
  h_S40x64 : 0 < S40x64.numel
  inb_S5000x64_S5000x64_0_0 : ∀ a, (![0, 0] : Fin 2 → Nat) a + S5000x64.size a ≤ S5000x64.size a
  h_S5000x64 : 0 < S5000x64.numel
  bcast_S1280000x1_S1280000x64_0_1 : S1280000x1.BroadcastsInDim S1280000x64 (![0, 1] : Fin 2 → Fin S1280000x64.rank)
  bcast_S_S200000x64 : S_.BroadcastsInDim S200000x64 (![] : Fin 0 → Fin S200000x64.rank)
  shapeCasts_S200000_S200000x1 : S200000.ShapeCasts S200000x1
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S4096x64 : S_.BroadcastsInDim S4096x64 (![] : Fin 0 → Fin S4096x64.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  shapeCasts_S4096_S4096x1 : S4096.ShapeCasts S4096x1
  shapeCasts_S128_S1x128 : S128.ShapeCasts S1x128
  shapeCasts_S96_S1x96 : S96.ShapeCasts S1x96
  shapeCasts_S32_S1x32 : S32.ShapeCasts S1x32
  shapeCasts_S1_S1x1 : S1.ShapeCasts S1x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x3_d1_w32 : S4096x3.Iotas .tc 32 [1]
  broadcasts_S4096x1_S4096x3 : S4096x1.Broadcasts S4096x3
  inb_S3x10_S3x10_0_0 : ∀ a, (![0, 0] : Fin 2 → Nat) a + S3x10.size a ≤ S3x10.size a
  h_S3x10 : 0 < S3x10.numel
  concatenates_S4096x64_S4096x10_S4096x74_d1 : Shape.Concatenates [S4096x64, S4096x10] S4096x74 1
  inb_S74x128_S74x128_0_0 : ∀ a, (![0, 0] : Fin 2 → Nat) a + S74x128.size a ≤ S74x128.size a
  h_S74x128 : 0 < S74x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x96_S128x96_0_0 : ∀ a, (![0, 0] : Fin 2 → Nat) a + S128x96.size a ≤ S128x96.size a
  h_S128x96 : 0 < S128x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S4096x96 : S1x96.Broadcasts S4096x96
  inb_S96x32_S96x32_0_0 : ∀ a, (![0, 0] : Fin 2 → Nat) a + S96x32.size a ≤ S96x32.size a
  h_S96x32 : 0 < S96x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  scatter_S200000_S1280000x1_S1280000_n_0_0_1_wf : ScatterDims.WF S200000 S1280000x1 S1280000 [] [0] [0] 1
  gather_S200000_S1280000x1_S1280000_n_0_n_n_0_1_1_wf : GatherDims.WF S200000 S1280000x1 S1280000 [] [0] [] [0] [] 1 ![1]
  dot_S5000x20_S20x32_S5000x32_1_0_0_1_n_n_wf : DotDims.WF S5000x20 S20x32 S5000x32 [1] [0] [0] [1] [] []
  dot_S5000x40_S40x64_S5000x64_1_0_0_1_n_n_wf : DotDims.WF S5000x40 S40x64 S5000x64 [1] [0] [0] [1] [] []
  gather_S200000x64_S1280000x1_S1280000x64_1_0_n_n_0_1_164_wf : GatherDims.WF S200000x64 S1280000x1 S1280000x64 [1] [0] [] [0] [] 1 ![1, 64]
  scatter_S200000x64_S1280000x1_S1280000x64_1_0_0_1_wf : ScatterDims.WF S200000x64 S1280000x1 S1280000x64 [1] [0] [0] 1
  dot_S5000x64_S64x64_S5000x64_1_0_0_1_n_n_wf : DotDims.WF S5000x64 S64x64 S5000x64 [1] [0] [0] [1] [] []
  scatter_S4096x64_S200000x1_S200000x64_1_0_0_1_wf : ScatterDims.WF S4096x64 S200000x1 S200000x64 [1] [0] [0] 1
  scatter_S4096x1_S200000x1_S200000x1_1_0_0_1_wf : ScatterDims.WF S4096x1 S200000x1 S200000x1 [1] [0] [0] 1
  dot_S4096x3_S3x10_S4096x10_1_0_0_1_n_n_wf : DotDims.WF S4096x3 S3x10 S4096x10 [1] [0] [0] [1] [] []
  dot_S4096x74_S74x128_S4096x128_1_0_0_1_n_n_wf : DotDims.WF S4096x74 S74x128 S4096x128 [1] [0] [0] [1] [] []
  dot_S4096x128_S128x96_S4096x96_1_0_0_1_n_n_wf : DotDims.WF S4096x128 S128x96 S4096x96 [1] [0] [0] [1] [] []
  dot_S4096x96_S96x32_S4096x32_1_0_0_1_n_n_wf : DotDims.WF S4096x96 S96x32 S4096x32 [1] [0] [0] [1] [] []
  dot_S4096x32_S32x1_S4096x1_1_0_0_1_n_n_wf : DotDims.WF S4096x32 S32x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S200000x8.size a
  hwx0_0 : ∀ i : grid0.Coords, EltTy.bits .f32 = 32 ∨ (Rect.block (s := S200000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x32.size a ≤ S20x32.size a
  hwx0_1 : ∀ i : grid0.Coords, EltTy.bits .f32 = 32 ∨ (Rect.block (s := S20x32) S20x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x40.size a ≤ S200000x40.size a
  hwx0_2 : ∀ i : grid0.Coords, EltTy.bits .f32 = 32 ∨ (Rect.block (s := S200000x40) S5000x40.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x40.size a ≤ S200000x40.size a
  hwx1_0 : ∀ i : grid1.Coords, EltTy.bits .f32 = 32 ∨ (Rect.block (s := S200000x40) S5000x40.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S40x64.size a ≤ S40x64.size a
  hwx1_1 : ∀ i : grid1.Coords, EltTy.bits .f32 = 32 ∨ (Rect.block (s := S40x64) S40x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S200000x64.size a
  hwx1_2 : ∀ i : grid1.Coords, EltTy.bits .f32 = 32 ∨ (Rect.block (s := S200000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S200000x64.size a
  hwx2_0 : ∀ i : grid2.Coords, EltTy.bits .f32 = 32 ∨ (Rect.block (s := S200000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S200000x64.size a
  hwx2_1 : ∀ i : grid2.Coords, EltTy.bits .f32 = 32 ∨ (Rect.block (s := S200000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S200000x1.size a
  hwx2_2 : ∀ i : grid2.Coords, EltTy.bits .f32 = 32 ∨ (Rect.block (s := S200000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S200000x64.size a
  hwx2_4 : ∀ i : grid2.Coords, EltTy.bits .f32 = 32 ∨ (Rect.block (s := S200000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S200000x64.size a
  hwx3_2 : ∀ i : grid3.Coords, EltTy.bits .f32 = 32 ∨ (Rect.block (s := S200000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S200000x64.size a
  hwx4_0 : ∀ i : grid4.Coords, EltTy.bits .f32 = 32 ∨ (Rect.block (s := S200000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S200000x64.size a
  hwx4_1 : ∀ i : grid4.Coords, EltTy.bits .f32 = 32 ∨ (Rect.block (s := S200000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S200000x1.size a
  hwx4_2 : ∀ i : grid4.Coords, EltTy.bits .f32 = 32 ∨ (Rect.block (s := S200000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S200000x64.size a
  hwx4_4 : ∀ i : grid4.Coords, EltTy.bits .f32 = 32 ∨ (Rect.block (s := S200000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S200000x64.size a
  hwx5_0 : ∀ i : grid5.Coords, EltTy.bits .f32 = 32 ∨ (Rect.block (s := S200000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S200000x64.size a
  hwx5_2 : ∀ i : grid5.Coords, EltTy.bits .f32 = 32 ∨ (Rect.block (s := S200000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S200000x64.size a
  hwx6_0 : ∀ i : grid6.Coords, EltTy.bits .f32 = 32 ∨ (Rect.block (s := S200000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S200000x64.size a
  hwx6_1 : ∀ i : grid6.Coords, EltTy.bits .f32 = 32 ∨ (Rect.block (s := S200000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S200000x1.size a
  hwx6_2 : ∀ i : grid6.Coords, EltTy.bits .f32 = 32 ∨ (Rect.block (s := S200000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S200000x64.size a
  hwx6_4 : ∀ i : grid6.Coords, EltTy.bits .f32 = 32 ∨ (Rect.block (s := S200000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S200000x64.size a
  hwx7_0 : ∀ i : grid7.Coords, EltTy.bits .f32 = 32 ∨ (Rect.block (s := S200000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S200000x64.size a
  hwx7_2 : ∀ i : grid7.Coords, EltTy.bits .f32 = 32 ∨ (Rect.block (s := S200000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S200000x64.size a
  hwx8_0 : ∀ i : grid8.Coords, EltTy.bits .f32 = 32 ∨ (Rect.block (s := S200000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S200000x64.size a
  hwx8_1 : ∀ i : grid8.Coords, EltTy.bits .f32 = 32 ∨ (Rect.block (s := S200000x64) S5000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S200000x1.size a
  hwx8_2 : ∀ i : grid8.Coords, EltTy.bits .f32 = 32 ∨ (Rect.block (s := S200000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S200000x64.size a
  hwx8_4 : ∀ i : grid8.Coords, EltTy.bits .f32 = 32 ∨ (Rect.block (s := S200000x64) S5000x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S200000x64.size a
  hwx9_0 : ∀ i : grid9.Coords, EltTy.bits .f32 = 32 ∨ (Rect.block (s := S200000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S200000x64.size a
  hwx9_3 : ∀ i : grid9.Coords, EltTy.bits .f32 = 32 ∨ (Rect.block (s := S200000x64) S5000x64.size (cc9_transform_3 i) (hinb9_3 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S4096x64.size a ≤ S4096x64.size a
  hwx10_0 : ∀ i : grid10.Coords, EltTy.bits .f32 = 32 ∨ (Rect.block (s := S4096x64) S4096x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S4096x1.size a ≤ S4096x1.size a
  hwx10_1 : ∀ i : grid10.Coords, EltTy.bits .i32 = 32 ∨ (Rect.block (s := S4096x1) S4096x1.size (cc10_transform_1 i) (hinb10_1 i)).WholeWords (EltTy.packing .i32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S3x10.size a ≤ S3x10.size a
  hwx10_2 : ∀ i : grid10.Coords, EltTy.bits .f32 = 32 ∨ (Rect.block (s := S3x10) S3x10.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S74x128.size a ≤ S74x128.size a
  hwx10_3 : ∀ i : grid10.Coords, EltTy.bits .f32 = 32 ∨ (Rect.block (s := S74x128) S74x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x96.size a ≤ S128x96.size a
  hwx10_5 : ∀ i : grid10.Coords, EltTy.bits .f32 = 32 ∨ (Rect.block (s := S128x96) S128x96.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x96.size a ≤ S1x96.size a
  hwx10_6 : ∀ i : grid10.Coords, EltTy.bits .f32 = 32 ∨ (Rect.block (s := S1x96) S1x96.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S96x32.size a ≤ S96x32.size a
  hwx10_7 : ∀ i : grid10.Coords, EltTy.bits .f32 = 32 ∨ (Rect.block (s := S96x32) S96x32.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x32.size a ≤ S1x32.size a
  hwx10_8 : ∀ i : grid10.Coords, EltTy.bits .f32 = 32 ∨ (Rect.block (s := S1x32) S1x32.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S32x1.size a ≤ S32x1.size a
  hwx10_9 : ∀ i : grid10.Coords, EltTy.bits .f32 = 32 ∨ (Rect.block (s := S32x1) S32x1.size (cc10_transform_9 i) (hinb10_9 i)).WholeWords (EltTy.packing .f32)
  hstage10_10 : ∀ j, (stage10_10 j).IsWhole
  nbuf10_10 : grid10.bufCount reads10_10 true = 1
  hreads10_10 : ∀ i i' : grid10.Coords, (∀ a, reads10_10 a = true → i a = i' a) → cc10_transform_10 i = cc10_transform_10 i'
  hinb10_10 : ∀ (i : grid10.Coords) a, (cc10_transform_10 i a + 1) * S1x1.size a ≤ S1x1.size a
  hwx10_10 : ∀ i : grid10.Coords, EltTy.bits .f32 = 32 ∨ (Rect.block (s := S1x1) S1x1.size (cc10_transform_10 i) (hinb10_10 i)).WholeWords (EltTy.packing .f32)
  hstage10_11 : ∀ j, (stage10_11 j).IsWhole
  nbuf10_11 : grid10.bufCount reads10_11 true = 1
  hreads10_11 : ∀ i i' : grid10.Coords, (∀ a, reads10_11 a = true → i a = i' a) → cc10_transform_11 i = cc10_transform_11 i'
  hinb10_11 : ∀ (i : grid10.Coords) a, (cc10_transform_11 i a + 1) * S4096x1.size a ≤ S4096x1.size a
  hwx10_11 : ∀ i : grid10.Coords, EltTy.bits .f32 = 32 ∨ (Rect.block (s := S4096x1) S4096x1.size (cc10_transform_11 i) (hinb10_11 i)).WholeWords (EltTy.packing .f32)

variable [Facts₀]

def scatter_S200000_S1280000x1_S1280000_n_0_0_1 : ScatterDims S200000 S1280000x1 S1280000 where
  updateWindowDims := []
  insertedWindowDims := [0]
  scatterDimsToOperandDims := [0]
  indexVectorDim := 1
  wf := scatter_S200000_S1280000x1_S1280000_n_0_0_1_wf
def gather_S200000_S1280000x1_S1280000_n_0_n_n_0_1_1 : GatherDims S200000 S1280000x1 S1280000 where
  offsetDims := []
  collapsedSliceDims := [0]
  operandBatchingDims := []
  startIndicesBatchingDims := []
  startIndexMap := [0]
  indexVectorDim := 1
  sliceSizes := ![1]
  wf := gather_S200000_S1280000x1_S1280000_n_0_n_n_0_1_1_wf
def dot_S5000x20_S20x32_S5000x32_1_0_0_1_n_n : DotDims S5000x20 S20x32 S5000x32 where
  lhsContracting := [1]
  rhsContracting := [0]
  lhsNonContracting := [0]
  rhsNonContracting := [1]
  lhsBatch := []
  rhsBatch := []
  wf := dot_S5000x20_S20x32_S5000x32_1_0_0_1_n_n_wf
def dot_S5000x40_S40x64_S5000x64_1_0_0_1_n_n : DotDims S5000x40 S40x64 S5000x64 where
  lhsContracting := [1]
  rhsContracting := [0]
  lhsNonContracting := [0]
  rhsNonContracting := [1]
  lhsBatch := []
  rhsBatch := []
  wf := dot_S5000x40_S40x64_S5000x64_1_0_0_1_n_n_wf
def gather_S200000x64_S1280000x1_S1280000x64_1_0_n_n_0_1_164 : GatherDims S200000x64 S1280000x1 S1280000x64 where
  offsetDims := [1]
  collapsedSliceDims := [0]
  operandBatchingDims := []
  startIndicesBatchingDims := []
  startIndexMap := [0]
  indexVectorDim := 1
  sliceSizes := ![1, 64]
  wf := gather_S200000x64_S1280000x1_S1280000x64_1_0_n_n_0_1_164_wf
def scatter_S200000x64_S1280000x1_S1280000x64_1_0_0_1 : ScatterDims S200000x64 S1280000x1 S1280000x64 where
  updateWindowDims := [1]
  insertedWindowDims := [0]
  scatterDimsToOperandDims := [0]
  indexVectorDim := 1
  wf := scatter_S200000x64_S1280000x1_S1280000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S4096x64_S200000x1_S200000x64_1_0_0_1 : ScatterDims S4096x64 S200000x1 S200000x64 where
  updateWindowDims := [1]
  insertedWindowDims := [0]
  scatterDimsToOperandDims := [0]
  indexVectorDim := 1
  wf := scatter_S4096x64_S200000x1_S200000x64_1_0_0_1_wf
def scatter_S4096x1_S200000x1_S200000x1_1_0_0_1 : ScatterDims S4096x1 S200000x1 S200000x1 where
  updateWindowDims := [1]
  insertedWindowDims := [0]
  scatterDimsToOperandDims := [0]
  indexVectorDim := 1
  wf := scatter_S4096x1_S200000x1_S200000x1_1_0_0_1_wf
def dot_S4096x3_S3x10_S4096x10_1_0_0_1_n_n : DotDims S4096x3 S3x10 S4096x10 where
  lhsContracting := [1]
  rhsContracting := [0]
  lhsNonContracting := [0]
  rhsNonContracting := [1]
  lhsBatch := []
  rhsBatch := []
  wf := dot_S4096x3_S3x10_S4096x10_1_0_0_1_n_n_wf
def dot_S4096x74_S74x128_S4096x128_1_0_0_1_n_n : DotDims S4096x74 S74x128 S4096x128 where
  lhsContracting := [1]
  rhsContracting := [0]
  lhsNonContracting := [0]
  rhsNonContracting := [1]
  lhsBatch := []
  rhsBatch := []
  wf := dot_S4096x74_S74x128_S4096x128_1_0_0_1_n_n_wf
def dot_S4096x128_S128x96_S4096x96_1_0_0_1_n_n : DotDims S4096x128 S128x96 S4096x96 where
  lhsContracting := [1]
  rhsContracting := [0]
  lhsNonContracting := [0]
  rhsNonContracting := [1]
  lhsBatch := []
  rhsBatch := []
  wf := dot_S4096x128_S128x96_S4096x96_1_0_0_1_n_n_wf
def dot_S4096x96_S96x32_S4096x32_1_0_0_1_n_n : DotDims S4096x96 S96x32 S4096x32 where
  lhsContracting := [1]
  rhsContracting := [0]
  lhsNonContracting := [0]
  rhsNonContracting := [1]
  lhsBatch := []
  rhsBatch := []
  wf := dot_S4096x96_S96x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S20x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x40.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S5000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S40x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v44) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v60) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v61) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v75) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v62) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v76) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v77) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v78) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v78) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v79) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v92) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v79) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v93) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v94) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v95) S5000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v95) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg15) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v96) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v97) S5000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v106) S4096x64.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_v107) S4096x1.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg6) S3x10.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg17) S74x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v108) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg19) S128x96.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v109) S1x96.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_arg21) S96x32.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v110) S1x32.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_arg23) S32x1.size cc10_transform_9 reads10_9 false true 1 stage10_9 sem10_9
    hrank10 hreads10_9 hinb10_9 nbuf10_9 (Memref.isWhole_whole _) hwx10_9 hstage10_9

abbrev win10_10 : Pipeline.Window sig grid10 :=
  Pipeline.Window.ofSpec (Memref.whole main_v111) S1x1.size cc10_transform_10 reads10_10 false true 1 stage10_10 sem10_10
    hrank10 hreads10_10 hinb10_10 nbuf10_10 (Memref.isWhole_whole _) hwx10_10 hstage10_10

abbrev win10_11 : Pipeline.Window sig grid10 :=
  Pipeline.Window.ofSpec (Memref.whole main_v112) S4096x1.size cc10_transform_11 reads10_11 true true 1 stage10_11 sem10_11
    hrank10 hreads10_11 hinb10_11 nbuf10_11 (Memref.isWhole_whole _) hwx10_11 hstage10_11

abbrev win10 : Fin 12 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | 11 => win10_11 | ⟨_ + 12, h⟩ => absurd h (Nat.not_lt.2 (Nat.le_add_left _ _))
abbrev spec10 : Fin 12 → Pipeline.WinSpec sig grid10.rank := fun w => (win10 w).toWinSpec

class Facts : Prop extends Facts₀ where

variable [Facts]
-- ==== ReferenceIdeal.lean ====
abbrev S200000x8 : Shape := ⟨2, ![200000, 8]⟩
abbrev S2x1280000 : Shape := ⟨2, ![2, 1280000]⟩
abbrev S1280000 : Shape := ⟨1, ![1280000]⟩
abbrev S200000 : Shape := ⟨1, ![200000]⟩
abbrev S4096 : Shape := ⟨1, ![4096]⟩
abbrev S20x32 : Shape := ⟨2, ![20, 32]⟩
abbrev S3x10 : Shape := ⟨2, ![3, 10]⟩
abbrev S40x64 : Shape := ⟨2, ![40, 64]⟩
abbrev S64 : Shape := ⟨1, ![64]⟩
abbrev S64x64 : Shape := ⟨2, ![64, 64]⟩
abbrev S74x128 : Shape := ⟨2, ![74, 128]⟩
abbrev S128 : Shape := ⟨1, ![128]⟩
abbrev S128x96 : Shape := ⟨2, ![128, 96]⟩
abbrev S96 : Shape := ⟨1, ![96]⟩
abbrev S96x32 : Shape := ⟨2, ![96, 32]⟩
abbrev S32 : Shape := ⟨1, ![32]⟩
abbrev S32x1 : Shape := ⟨2, ![32, 1]⟩
abbrev S1 : Shape := ⟨1, ![1]⟩
abbrev S1x1280000 : Shape := ⟨2, ![1, 1280000]⟩
abbrev S_ : Shape := ⟨0, ![]⟩
abbrev S1280000x1 : Shape := ⟨2, ![1280000, 1]⟩
abbrev S200000x1 : Shape := ⟨2, ![200000, 1]⟩
abbrev S200000x32 : Shape := ⟨2, ![200000, 32]⟩
abbrev S200000x40 : Shape := ⟨2, ![200000, 40]⟩
abbrev S200000x64 : Shape := ⟨2, ![200000, 64]⟩
abbrev S1280000x64 : Shape := ⟨2, ![1280000, 64]⟩
abbrev S1x64 : Shape := ⟨2, ![1, 64]⟩
abbrev S4096x64 : Shape := ⟨2, ![4096, 64]⟩
abbrev S4096x1 : Shape := ⟨2, ![4096, 1]⟩
abbrev S4096x10 : Shape := ⟨2, ![4096, 10]⟩
abbrev S4096x74 : Shape := ⟨2, ![4096, 74]⟩
abbrev S4096x128 : Shape := ⟨2, ![4096, 128]⟩
abbrev S1x128 : Shape := ⟨2, ![1, 128]⟩
abbrev S4096x96 : Shape := ⟨2, ![4096, 96]⟩
abbrev S1x96 : Shape := ⟨2, ![1, 96]⟩
abbrev S4096x32 : Shape := ⟨2, ![4096, 32]⟩
abbrev S1x32 : Shape := ⟨2, ![1, 32]⟩
abbrev S1x1 : Shape := ⟨2, ![1, 1]⟩

abbrev nBuf : Space → Nat
  | .hbm => 241
  | .vmem => 0
  | .smem => 0
  | _ => 0

abbrev hbmTy0_0 (i : Nat) : BufTy := match i % 128 with
  | 0 => ⟨S200000x8, .f32⟩
  | 1 => ⟨S2x1280000, .i32⟩
  | 2 => ⟨S1280000, .f32⟩
  | 3 => ⟨S200000, .i32⟩
  | 4 => ⟨S4096, .i32⟩
  | 5 => ⟨S20x32, .f32⟩
  | 6 => ⟨S3x10, .f32⟩
  | 7 => ⟨S40x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S74x128, .f32⟩
  | 18 => ⟨S128, .f32⟩
  | 19 => ⟨S128x96, .f32⟩
  | 20 => ⟨S96, .f32⟩
  | 21 => ⟨S96x32, .f32⟩
  | 22 => ⟨S32, .f32⟩
  | 23 => ⟨S32x1, .f32⟩
  | 24 => ⟨S1, .f32⟩
  | 25 => ⟨S1x1280000, .i32⟩
  | 26 => ⟨S1280000, .i32⟩
  | 27 => ⟨S1x1280000, .i32⟩
  | 28 => ⟨S1280000, .i32⟩
  | 29 => ⟨S_, .f32⟩
  | 30 => ⟨S200000, .f32⟩
  | 31 => ⟨S1280000x1, .i32⟩
  | 32 => ⟨S200000, .f32⟩
  | 33 => ⟨S_, .f32⟩
  | 34 => ⟨S200000, .f32⟩
  | 35 => ⟨S200000, .f32⟩
  | 36 => ⟨S200000, .f32⟩
  | 37 => ⟨S_, .i32⟩
  | 38 => ⟨S1280000, .i32⟩
  | 39 => ⟨S1280000, .i1⟩
  | 40 => ⟨S_, .i32⟩
  | 41 => ⟨S1280000, .i32⟩
  | 42 => ⟨S1280000, .i32⟩
  | 43 => ⟨S1280000, .i32⟩
  | 44 => ⟨S1280000x1, .i32⟩
  | 45 => ⟨S1280000, .f32⟩
  | 46 => ⟨S1280000, .f32⟩
  | 47 => ⟨S_, .i32⟩
  | 48 => ⟨S1280000, .i32⟩
  | 49 => ⟨S1280000, .i1⟩
  | 50 => ⟨S_, .i32⟩
  | 51 => ⟨S1280000, .i32⟩
  | 52 => ⟨S1280000, .i32⟩
  | 53 => ⟨S1280000, .i32⟩
  | 54 => ⟨S1280000x1, .i32⟩
  | 55 => ⟨S1280000, .f32⟩
  | 56 => ⟨S1280000, .f32⟩
  | 57 => ⟨S200000, .f32⟩
  | 58 => ⟨S200000x1, .f32⟩
  | 59 => ⟨S200000, .f32⟩
  | 60 => ⟨S200000, .i32⟩
  | 61 => ⟨S_, .i32⟩
  | 62 => ⟨S200000, .i32⟩
  | 63 => ⟨S200000, .i1⟩
  | 64 => ⟨S_, .i32⟩
  | 65 => ⟨S200000, .i32⟩
  | 66 => ⟨S200000, .i32⟩
  | 67 => ⟨S200000, .i32⟩
  | 68 => ⟨S200000x1, .i32⟩
  | 69 => ⟨S200000x32, .f32⟩
  | 70 => ⟨S200000x40, .f32⟩
  | 71 => ⟨S200000x64, .f32⟩
  | 72 => ⟨S_, .i32⟩
  | 73 => ⟨S1280000, .i32⟩
  | 74 => ⟨S1280000, .i1⟩
  | 75 => ⟨S_, .i32⟩
  | 76 => ⟨S1280000, .i32⟩
  | 77 => ⟨S1280000, .i32⟩
  | 78 => ⟨S1280000, .i32⟩
  | 79 => ⟨S1280000x1, .i32⟩
  | 80 => ⟨S1280000x64, .f32⟩
  | 81 => ⟨S1280000x1, .f32⟩
  | 82 => ⟨S1280000x64, .f32⟩
  | 83 => ⟨S1280000x64, .f32⟩
  | 84 => ⟨S_, .f32⟩
  | 85 => ⟨S200000x64, .f32⟩
  | 86 => ⟨S1280000x1, .i32⟩
  | 87 => ⟨S200000x64, .f32⟩
  | 88 => ⟨S200000x1, .f32⟩
  | 89 => ⟨S200000x64, .f32⟩
  | 90 => ⟨S200000x64, .f32⟩
  | 91 => ⟨S200000x64, .f32⟩
  | 92 => ⟨S1x64, .f32⟩
  | 93 => ⟨S200000x64, .f32⟩
  | 94 => ⟨S200000x64, .f32⟩
  | 95 => ⟨S_, .f32⟩
  | 96 => ⟨S200000x64, .f32⟩
  | 97 => ⟨S200000x64, .f32⟩
  | 98 => ⟨S200000x64, .f32⟩
  | 99 => ⟨S_, .i32⟩
  | 100 => ⟨S1280000, .i32⟩
  | 101 => ⟨S1280000, .i1⟩
  | 102 => ⟨S_, .i32⟩
  | 103 => ⟨S1280000, .i32⟩
  | 104 => ⟨S1280000, .i32⟩
  | 105 => ⟨S1280000, .i32⟩
  | 106 => ⟨S1280000x1, .i32⟩
  | 107 => ⟨S1280000x64, .f32⟩
  | 108 => ⟨S1280000x1, .f32⟩
  | 109 => ⟨S1280000x64, .f32⟩
  | 110 => ⟨S1280000x64, .f32⟩
  | 111 => ⟨S_, .f32⟩
  | 112 => ⟨S200000x64, .f32⟩
  | 113 => ⟨S1280000x1, .i32⟩
  | 114 => ⟨S200000x64, .f32⟩
  | 115 => ⟨S200000x1, .f32⟩
  | 116 => ⟨S200000x64, .f32⟩
  | 117 => ⟨S200000x64, .f32⟩
  | 118 => ⟨S200000x64, .f32⟩
  | 119 => ⟨S1x64, .f32⟩
  | 120 => ⟨S200000x64, .f32⟩
  | 121 => ⟨S200000x64, .f32⟩
  | 122 => ⟨S_, .f32⟩
  | 123 => ⟨S200000x64, .f32⟩
  | 124 => ⟨S200000x64, .f32⟩
  | 125 => ⟨S200000x64, .f32⟩
  | 126 => ⟨S_, .i32⟩
  | 127 => ⟨S1280000, .i32⟩
  | _ => ⟨S200000x8, .f32⟩

abbrev hbmTy0_1 (i : Nat) : BufTy := match i % 128 with
  | 0 => ⟨S1280000, .i1⟩
  | 1 => ⟨S_, .i32⟩
  | 2 => ⟨S1280000, .i32⟩
  | 3 => ⟨S1280000, .i32⟩
  | 4 => ⟨S1280000, .i32⟩
  | 5 => ⟨S1280000x1, .i32⟩
  | 6 => ⟨S1280000x64, .f32⟩
  | 7 => ⟨S1280000x1, .f32⟩
  | 8 => ⟨S1280000x64, .f32⟩
  | 9 => ⟨S1280000x64, .f32⟩
  | 10 => ⟨S_, .f32⟩
  | 11 => ⟨S200000x64, .f32⟩
  | 12 => ⟨S1280000x1, .i32⟩
  | 13 => ⟨S200000x64, .f32⟩
  | 14 => ⟨S200000x1, .f32⟩
  | 15 => ⟨S200000x64, .f32⟩
  | 16 => ⟨S200000x64, .f32⟩
  | 17 => ⟨S200000x64, .f32⟩
  | 18 => ⟨S1x64, .f32⟩
  | 19 => ⟨S200000x64, .f32⟩
  | 20 => ⟨S200000x64, .f32⟩
  | 21 => ⟨S_, .f32⟩
  | 22 => ⟨S200000x64, .f32⟩
  | 23 => ⟨S200000x64, .f32⟩
  | 24 => ⟨S200000x64, .f32⟩
  | 25 => ⟨S_, .i32⟩
  | 26 => ⟨S1280000, .i32⟩
  | 27 => ⟨S1280000, .i1⟩
  | 28 => ⟨S_, .i32⟩
  | 29 => ⟨S1280000, .i32⟩
  | 30 => ⟨S1280000, .i32⟩
  | 31 => ⟨S1280000, .i32⟩
  | 32 => ⟨S1280000x1, .i32⟩
  | 33 => ⟨S1280000x64, .f32⟩
  | 34 => ⟨S1280000x1, .f32⟩
  | 35 => ⟨S1280000x64, .f32⟩
  | 36 => ⟨S1280000x64, .f32⟩
  | 37 => ⟨S_, .f32⟩
  | 38 => ⟨S200000x64, .f32⟩
  | 39 => ⟨S1280000x1, .i32⟩
  | 40 => ⟨S200000x64, .f32⟩
  | 41 => ⟨S200000x1, .f32⟩
  | 42 => ⟨S200000x64, .f32⟩
  | 43 => ⟨S200000x64, .f32⟩
  | 44 => ⟨S200000x64, .f32⟩
  | 45 => ⟨S1x64, .f32⟩
  | 46 => ⟨S200000x64, .f32⟩
  | 47 => ⟨S200000x64, .f32⟩
  | 48 => ⟨S_, .f32⟩
  | 49 => ⟨S200000x64, .f32⟩
  | 50 => ⟨S200000x64, .f32⟩
  | 51 => ⟨S200000x64, .f32⟩
  | 52 => ⟨S1x64, .f32⟩
  | 53 => ⟨S200000x64, .f32⟩
  | 54 => ⟨S200000x64, .f32⟩
  | 55 => ⟨S_, .f32⟩
  | 56 => ⟨S4096x64, .f32⟩
  | 57 => ⟨S200000x1, .i32⟩
  | 58 => ⟨S4096x64, .f32⟩
  | 59 => ⟨S_, .f32⟩
  | 60 => ⟨S200000x1, .f32⟩
  | 61 => ⟨S_, .f32⟩
  | 62 => ⟨S4096x1, .f32⟩
  | 63 => ⟨S200000x1, .i32⟩
  | 64 => ⟨S4096x1, .f32⟩
  | 65 => ⟨S4096x64, .f32⟩
  | 66 => ⟨S4096x64, .f32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S4096x1, .i32⟩
  | 75 => ⟨S4096x10, .f32⟩
  | 76 => ⟨S_, .f32⟩
  | 77 => ⟨S4096x10, .f32⟩
  | 78 => ⟨S4096x10, .f32⟩
  | 79 => ⟨S4096x74, .f32⟩
  | 80 => ⟨S4096x128, .f32⟩
  | 81 => ⟨S1x128, .f32⟩
  | 82 => ⟨S4096x128, .f32⟩
  | 83 => ⟨S4096x128, .f32⟩
  | 84 => ⟨S_, .f32⟩
  | 85 => ⟨S4096x128, .f32⟩
  | 86 => ⟨S4096x128, .f32⟩
  | 87 => ⟨S4096x96, .f32⟩
  | 88 => ⟨S1x96, .f32⟩
  | 89 => ⟨S4096x96, .f32⟩
  | 90 => ⟨S4096x96, .f32⟩
  | 91 => ⟨S_, .f32⟩
  | 92 => ⟨S4096x96, .f32⟩
  | 93 => ⟨S4096x96, .f32⟩
  | 94 => ⟨S4096x32, .f32⟩
  | 95 => ⟨S1x32, .f32⟩
  | 96 => ⟨S4096x32, .f32⟩
  | 97 => ⟨S4096x32, .f32⟩
  | 98 => ⟨S_, .f32⟩
  | 99 => ⟨S4096x32, .f32⟩
  | 100 => ⟨S4096x32, .f32⟩
  | 101 => ⟨S4096x1, .f32⟩
  | 102 => ⟨S1x1, .f32⟩
  | 103 => ⟨S4096x1, .f32⟩
  | 104 => ⟨S4096x1, .f32⟩
  | 105 => ⟨S4096x1, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096x1, .f32⟩
  | 112 => ⟨S4096x1, .f32⟩
  | _ => ⟨S200000x8, .f32⟩

abbrev hbmTy (i : Nat) : BufTy := match i / 128 with
  | 0 => hbmTy0_0 i
  | 1 => hbmTy0_1 i
  | _ => ⟨S200000x8, .f32⟩

abbrev bufTy : (tb : Table) → Fin (tcTables nBuf tb) → BufTy
  | .hbm, ⟨i, _⟩ => hbmTy i
  | _, _ => ⟨S200000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c : Ref sig .tc := ⟨.hbm, 37, rfl⟩
abbrev main_v10 : Ref sig .tc := ⟨.hbm, 38, rfl⟩
abbrev main_v11 : Ref sig .tc := ⟨.hbm, 39, rfl⟩
abbrev main_c_1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_4 : Ref sig .tc := ⟨.hbm, 61, rfl⟩
abbrev main_v30 : Ref sig .tc := ⟨.hbm, 62, rfl⟩
abbrev main_v31 : Ref sig .tc := ⟨.hbm, 63, rfl⟩
abbrev main_c_5 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_c_6 : Ref sig .tc := ⟨.hbm, 72, rfl⟩
abbrev main_v39 : Ref sig .tc := ⟨.hbm, 73, rfl⟩
abbrev main_v40 : Ref sig .tc := ⟨.hbm, 74, rfl⟩
abbrev main_c_7 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_8 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_call0_cst : Ref sig .tc := ⟨.hbm, 95, rfl⟩
abbrev main_call0_v0 : Ref sig .tc := ⟨.hbm, 96, rfl⟩
abbrev main_v59 : Ref sig .tc := ⟨.hbm, 97, rfl⟩
abbrev main_v60 : Ref sig .tc := ⟨.hbm, 98, rfl⟩
abbrev main_c_9 : Ref sig .tc := ⟨.hbm, 99, rfl⟩
abbrev main_v61 : Ref sig .tc := ⟨.hbm, 100, rfl⟩
abbrev main_v62 : Ref sig .tc := ⟨.hbm, 101, rfl⟩
abbrev main_c_10 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_11 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_call1_cst : Ref sig .tc := ⟨.hbm, 122, rfl⟩
abbrev main_call1_v0 : Ref sig .tc := ⟨.hbm, 123, rfl⟩
abbrev main_v81 : Ref sig .tc := ⟨.hbm, 124, rfl⟩
abbrev main_v82 : Ref sig .tc := ⟨.hbm, 125, rfl⟩
abbrev main_c_12 : Ref sig .tc := ⟨.hbm, 126, rfl⟩
abbrev main_v83 : Ref sig .tc := ⟨.hbm, 127, rfl⟩
abbrev main_v84 : Ref sig .tc := ⟨.hbm, 128, rfl⟩
abbrev main_c_13 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_14 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_call2_cst : Ref sig .tc := ⟨.hbm, 149, rfl⟩
abbrev main_call2_v0 : Ref sig .tc := ⟨.hbm, 150, rfl⟩
abbrev main_v103 : Ref sig .tc := ⟨.hbm, 151, rfl⟩
abbrev main_v104 : Ref sig .tc := ⟨.hbm, 152, rfl⟩
abbrev main_c_15 : Ref sig .tc := ⟨.hbm, 153, rfl⟩
abbrev main_v105 : Ref sig .tc := ⟨.hbm, 154, rfl⟩
abbrev main_v106 : Ref sig .tc := ⟨.hbm, 155, rfl⟩
abbrev main_c_16 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_17 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_call3_cst : Ref sig .tc := ⟨.hbm, 176, rfl⟩
abbrev main_call3_v0 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_18 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_19 : Ref sig .tc := ⟨.hbm, 187, rfl⟩
abbrev main_v133 : Ref sig .tc := ⟨.hbm, 188, rfl⟩
abbrev main_cst_20 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_c_21 : Ref sig .tc := ⟨.hbm, 195, rfl⟩
abbrev main_v139 : Ref sig .tc := ⟨.hbm, 196, rfl⟩
abbrev main_v140 : Ref sig .tc := ⟨.hbm, 197, rfl⟩
abbrev main_c_22 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_call4_cst : Ref sig .tc := ⟨.hbm, 204, rfl⟩
abbrev main_call4_v0 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_call5_cst : Ref sig .tc := ⟨.hbm, 212, rfl⟩
abbrev main_call5_v0 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_call6_cst : Ref sig .tc := ⟨.hbm, 219, rfl⟩
abbrev main_call6_v0 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_call7_cst : Ref sig .tc := ⟨.hbm, 226, rfl⟩
abbrev main_call7_v0 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_cst_23 : Ref sig .tc := ⟨.hbm, 235, rfl⟩
abbrev main_v169 : Ref sig .tc := ⟨.hbm, 236, rfl⟩
abbrev main_v170 : Ref sig .tc := ⟨.hbm, 237, rfl⟩
abbrev main_cst_24 : Ref sig .tc := ⟨.hbm, 238, rfl⟩
abbrev main_v171 : Ref sig .tc := ⟨.hbm, 239, rfl⟩
abbrev main_v172 : Ref sig .tc := ⟨.hbm, 240, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S200000 : S_.BroadcastsInDim S200000 (![] : Fin 0 → Fin S200000.rank)
  bcast_S1280000_S1280000x1_0 : S1280000.BroadcastsInDim S1280000x1 (![0] : Fin 1 → Fin S1280000x1.rank)
  bcast_S_S1280000 : S_.BroadcastsInDim S1280000 (![] : Fin 0 → Fin S1280000.rank)
  slices_S200000x8_S200000x1_0_0 : S200000x8.Slices ![0, 0] S200000x1
  shapeCasts_S200000x1_S200000 : S200000x1.ShapeCasts S200000
  bcast_S200000_S200000x1_0 : S200000.BroadcastsInDim S200000x1 (![0] : Fin 1 → Fin S200000x1.rank)
  concatenates_S200000x8_S200000x32_S200000x40_d1 : Shape.Concatenates [S200000x8, S200000x32] S200000x40 1
  bcast_S1280000x1_S1280000x64_0_1 : S1280000x1.BroadcastsInDim S1280000x64 (![0, 1] : Fin 2 → Fin S1280000x64.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S4096x64 : S_.BroadcastsInDim S4096x64 (![] : Fin 0 → Fin S4096x64.rank)
  bcast_S_S200000x1 : S_.BroadcastsInDim S200000x1 (![] : Fin 0 → Fin S200000x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x10 : S_.BroadcastsInDim S4096x10 (![] : Fin 0 → Fin S4096x10.rank)
  concatenates_S4096x64_S4096x10_S4096x74_d1 : Shape.Concatenates [S4096x64, S4096x10] S4096x74 1
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S96_S1x96_1 : S96.BroadcastsInDim S1x96 (![1] : Fin 1 → Fin S1x96.rank)
  bcast_S1x96_S4096x96_0_1 : S1x96.BroadcastsInDim S4096x96 (![0, 1] : Fin 2 → Fin S4096x96.rank)
  bcast_S_S4096x96 : S_.BroadcastsInDim S4096x96 (![] : Fin 0 → Fin S4096x96.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  scatter_S200000_S1280000x1_S1280000_n_0_0_1_wf : ScatterDims.WF S200000 S1280000x1 S1280000 [] [0] [0] 1
  gather_S200000_S1280000x1_S1280000_n_0_n_n_0_1_1_wf : GatherDims.WF S200000 S1280000x1 S1280000 [] [0] [] [0] [] 1 ![1]
  gather_S20x32_S200000x1_S200000x32_1_0_n_n_0_1_132_wf : GatherDims.WF S20x32 S200000x1 S200000x32 [1] [0] [] [0] [] 1 ![1, 32]
  dot_S200000x40_S40x64_S200000x64_1_0_0_1_n_n_wf : DotDims.WF S200000x40 S40x64 S200000x64 [1] [0] [0] [1] [] []
  gather_S200000x64_S1280000x1_S1280000x64_1_0_n_n_0_1_164_wf : GatherDims.WF S200000x64 S1280000x1 S1280000x64 [1] [0] [] [0] [] 1 ![1, 64]
  scatter_S200000x64_S1280000x1_S1280000x64_1_0_0_1_wf : ScatterDims.WF S200000x64 S1280000x1 S1280000x64 [1] [0] [0] 1
  dot_S200000x64_S64x64_S200000x64_1_0_0_1_n_n_wf : DotDims.WF S200000x64 S64x64 S200000x64 [1] [0] [0] [1] [] []
  scatter_S4096x64_S200000x1_S200000x64_1_0_0_1_wf : ScatterDims.WF S4096x64 S200000x1 S200000x64 [1] [0] [0] 1
  scatter_S4096x1_S200000x1_S200000x1_1_0_0_1_wf : ScatterDims.WF S4096x1 S200000x1 S200000x1 [1] [0] [0] 1
  gather_S3x10_S4096x1_S4096x10_1_0_n_n_0_1_110_wf : GatherDims.WF S3x10 S4096x1 S4096x10 [1] [0] [] [0] [] 1 ![1, 10]
  dot_S4096x74_S74x128_S4096x128_1_0_0_1_n_n_wf : DotDims.WF S4096x74 S74x128 S4096x128 [1] [0] [0] [1] [] []
  dot_S4096x128_S128x96_S4096x96_1_0_0_1_n_n_wf : DotDims.WF S4096x128 S128x96 S4096x96 [1] [0] [0] [1] [] []
  dot_S4096x96_S96x32_S4096x32_1_0_0_1_n_n_wf : DotDims.WF S4096x96 S96x32 S4096x32 [1] [0] [0] [1] [] []
  dot_S4096x32_S32x1_S4096x1_1_0_0_1_n_n_wf : DotDims.WF S4096x32 S32x1 S4096x1 [1] [0] [0] [1] [] []

variable [Facts₀]

def scatter_S200000_S1280000x1_S1280000_n_0_0_1 : ScatterDims S200000 S1280000x1 S1280000 where
  updateWindowDims := []
  insertedWindowDims := [0]
  scatterDimsToOperandDims := [0]
  indexVectorDim := 1
  wf := scatter_S200000_S1280000x1_S1280000_n_0_0_1_wf
def gather_S200000_S1280000x1_S1280000_n_0_n_n_0_1_1 : GatherDims S200000 S1280000x1 S1280000 where
  offsetDims := []
  collapsedSliceDims := [0]
  operandBatchingDims := []
  startIndicesBatchingDims := []
  startIndexMap := [0]
  indexVectorDim := 1
  sliceSizes := ![1]
  wf := gather_S200000_S1280000x1_S1280000_n_0_n_n_0_1_1_wf
def gather_S20x32_S200000x1_S200000x32_1_0_n_n_0_1_132 : GatherDims S20x32 S200000x1 S200000x32 where
  offsetDims := [1]
  collapsedSliceDims := [0]
  operandBatchingDims := []
  startIndicesBatchingDims := []
  startIndexMap := [0]
  indexVectorDim := 1
  sliceSizes := ![1, 32]
  wf := gather_S20x32_S200000x1_S200000x32_1_0_n_n_0_1_132_wf
def dot_S200000x40_S40x64_S200000x64_1_0_0_1_n_n : DotDims S200000x40 S40x64 S200000x64 where
  lhsContracting := [1]
  rhsContracting := [0]
  lhsNonContracting := [0]
  rhsNonContracting := [1]
  lhsBatch := []
  rhsBatch := []
  wf := dot_S200000x40_S40x64_S200000x64_1_0_0_1_n_n_wf
def gather_S200000x64_S1280000x1_S1280000x64_1_0_n_n_0_1_164 : GatherDims S200000x64 S1280000x1 S1280000x64 where
  offsetDims := [1]
  collapsedSliceDims := [0]
  operandBatchingDims := []
  startIndicesBatchingDims := []
  startIndexMap := [0]
  indexVectorDim := 1
  sliceSizes := ![1, 64]
  wf := gather_S200000x64_S1280000x1_S1280000x64_1_0_n_n_0_1_164_wf
def scatter_S200000x64_S1280000x1_S1280000x64_1_0_0_1 : ScatterDims S200000x64 S1280000x1 S1280000x64 where
  updateWindowDims := [1]
  insertedWindowDims := [0]
  scatterDimsToOperandDims := [0]
  indexVectorDim := 1
  wf := scatter_S200000x64_S1280000x1_S1280000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def scatter_S4096x64_S200000x1_S200000x64_1_0_0_1 : ScatterDims S4096x64 S200000x1 S200000x64 where
  updateWindowDims := [1]
  insertedWindowDims := [0]
  scatterDimsToOperandDims := [0]
  indexVectorDim := 1
  wf := scatter_S4096x64_S200000x1_S200000x64_1_0_0_1_wf
def scatter_S4096x1_S200000x1_S200000x1_1_0_0_1 : ScatterDims S4096x1 S200000x1 S200000x1 where
  updateWindowDims := [1]
  insertedWindowDims := [0]
  scatterDimsToOperandDims := [0]
  indexVectorDim := 1
  wf := scatter_S4096x1_S200000x1_S200000x1_1_0_0_1_wf
def gather_S3x10_S4096x1_S4096x10_1_0_n_n_0_1_110 : GatherDims S3x10 S4096x1 S4096x10 where
  offsetDims := [1]
  collapsedSliceDims := [0]
  operandBatchingDims := []
  startIndicesBatchingDims := []
  startIndexMap := [0]
  indexVectorDim := 1
  sliceSizes := ![1, 10]
  wf := gather_S3x10_S4096x1_S4096x10_1_0_n_n_0_1_110_wf
def dot_S4096x74_S74x128_S4096x128_1_0_0_1_n_n : DotDims S4096x74 S74x128 S4096x128 where
  lhsContracting := [1]
  rhsContracting := [0]
  lhsNonContracting := [0]
  rhsNonContracting := [1]
  lhsBatch := []
  rhsBatch := []
  wf := dot_S4096x74_S74x128_S4096x128_1_0_0_1_n_n_wf
def dot_S4096x128_S128x96_S4096x96_1_0_0_1_n_n : DotDims S4096x128 S128x96 S4096x96 where
  lhsContracting := [1]
  rhsContracting := [0]
  lhsNonContracting := [0]
  rhsNonContracting := [1]
  lhsBatch := []
  rhsBatch := []
  wf := dot_S4096x128_S128x96_S4096x96_1_0_0_1_n_n_wf
def dot_S4096x96_S96x32_S4096x32_1_0_0_1_n_n : DotDims S4096x96 S96x32 S4096x32 where
  lhsContracting := [1]
  rhsContracting := [0]
  lhsNonContracting := [0]
  rhsNonContracting := [1]
  lhsBatch := []
  rhsBatch := []
  wf := dot_S4096x96_S96x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.ChainCarry.lean ====
import proofs.«424127_j32091995635825_2_alg».proof.Proof.Gen.KernelIdeal.Frame
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen

/-- No operation of a literal list of host operations writes the buffer in the goal. -/
macro "host_unwritten" ops:ident : tactic => `(tactic| (
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg) (c : Dev nD)

/-- Buffer arg0: untouched from boundary 0 to boundary 1. -/
theorem carry_arg0_0_1 : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by host_unwritten hostOps0))

/-- Buffer arg3: untouched from boundary 0 to boundary 16. -/
theorem carry_arg3_0_16 : W16 m ρ c (Proc.devRef .tc main_arg3) = W0 m ρ c (Proc.devRef .tc main_arg3) :=
  calc W16 m ρ c (Proc.devRef .tc main_arg3)
    _ = W15 m ρ c (Proc.devRef .tc main_arg3) := W16_of_ne m ρ c main_arg3 (by decide)
    _ = W14 m ρ c (Proc.devRef .tc main_arg3) := StableHlo.after_of_forall_not_mem (b := Proc.devRef .tc main_arg3) _ _ (List.forall_iff_forall_mem.mp (by host_unwritten hostOps9))
    _ = W13 m ρ c (Proc.devRef .tc main_arg3) := W14_of_ne m ρ c main_arg3 (by decide)
    _ = W12 m ρ c (Proc.devRef .tc main_arg3) := StableHlo.after_of_forall_not_mem (b := Proc.devRef .tc main_arg3) _ _ (List.forall_iff_forall_mem.mp (by host_unwritten hostOps8))
    _ = W11 m ρ c (Proc.devRef .tc main_arg3) := W12_of_ne m ρ c main_arg3 (by decide)
    _ = W10 m ρ c (Proc.devRef .tc main_arg3) := W11_of_ne m ρ c main_arg3 (by decide)
    _ = W9 m ρ c (Proc.devRef .tc main_arg3) := StableHlo.after_of_forall_not_mem (b := Proc.devRef .tc main_arg3) _ _ (List.forall_iff_forall_mem.mp (by host_unwritten hostOps6))
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by host_unwritten hostOps4))
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by host_unwritten hostOps2))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by host_unwritten hostOps0))

/-- Buffer arg4: untouched from boundary 0 to boundary 16. -/
theorem carry_arg4_0_16 : W16 m ρ c (Proc.devRef .tc main_arg4) = W0 m ρ c (Proc.devRef .tc main_arg4) :=
  calc W16 m ρ c (Proc.devRef .tc main_arg4)
    _ = W15 m ρ c (Proc.devRef .tc main_arg4) := W16_of_ne m ρ c main_arg4 (by decide)
    _ = W14 m ρ c (Proc.devRef .tc main_arg4) := StableHlo.after_of_forall_not_mem (b := Proc.devRef .tc main_arg4) _ _ (List.forall_iff_forall_mem.mp (by host_unwritten hostOps9))
    _ = W13 m ρ c (Proc.devRef .tc main_arg4) := W14_of_ne m ρ c main_arg4 (by decide)
    _ = W12 m ρ c (Proc.devRef .tc main_arg4) := StableHlo.after_of_forall_not_mem (b := Proc.devRef .tc main_arg4) _ _ (List.forall_iff_forall_mem.mp (by host_unwritten hostOps8))
    _ = W11 m ρ c (Proc.devRef .tc main_arg4) := W12_of_ne m ρ c main_arg4 (by decide)
    _ = W10 m ρ c (Proc.devRef .tc main_arg4) := W11_of_ne m ρ c main_arg4 (by decide)
    _ = W9 m ρ c (Proc.devRef .tc main_arg4) := StableHlo.after_of_forall_not_mem (b := Proc.devRef .tc main_arg4) _ _ (List.forall_iff_forall_mem.mp (by host_unwritten hostOps6))
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by host_unwritten hostOps4))
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by host_unwritten hostOps2))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by host_unwritten hostOps0))

/-- Buffer arg5: untouched from boundary 0 to boundary 1. -/
theorem carry_arg5_0_1 : W1 m ρ c (Proc.devRef .tc main_arg5) = W0 m ρ c (Proc.devRef .tc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by host_unwritten hostOps0))

/-- Buffer arg6: untouched from boundary 0 to boundary 17. -/
theorem carry_arg6_0_17 : W17 m ρ c (Proc.devRef .tc main_arg6) = W0 m ρ c (Proc.devRef .tc main_arg6) :=
  calc W17 m ρ c (Proc.devRef .tc main_arg6)
    _ = W16 m ρ c (Proc.devRef .tc main_arg6) := StableHlo.after_of_forall_not_mem (b := Proc.devRef .tc main_arg6) _ _ (List.forall_iff_forall_mem.mp (by host_unwritten hostOps10))
    _ = W15 m ρ c (Proc.devRef .tc main_arg6) := W16_of_ne m ρ c main_arg6 (by decide)
    _ = W14 m ρ c (Proc.devRef .tc main_arg6) := StableHlo.after_of_forall_not_mem (b := Proc.devRef .tc main_arg6) _ _ (List.forall_iff_forall_mem.mp (by host_unwritten hostOps9))
    _ = W13 m ρ c (Proc.devRef .tc main_arg6) := W14_of_ne m ρ c main_arg6 (by decide)
    _ = W12 m ρ c (Proc.devRef .tc main_arg6) := StableHlo.after_of_forall_not_mem (b := Proc.devRef .tc main_arg6) _ _ (List.forall_iff_forall_mem.mp (by host_unwritten hostOps8))
    _ = W11 m ρ c (Proc.devRef .tc main_arg6) := W12_of_ne m ρ c main_arg6 (by decide)
    _ = W10 m ρ c (Proc.devRef .tc main_arg6) := W11_of_ne m ρ c main_arg6 (by decide)
    _ = W9 m ρ c (Proc.devRef .tc main_arg6) := StableHlo.after_of_forall_not_mem (b := Proc.devRef .tc main_arg6) _ _ (List.forall_iff_forall_mem.mp (by host_unwritten hostOps6))
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by host_unwritten hostOps4))
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by host_unwritten hostOps2))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by host_unwritten hostOps0))

/-- Buffer arg7: untouched from boundary 0 to boundary 2. -/
theorem carry_arg7_0_2 : W2 m ρ c (Proc.devRef .tc main_arg7) = W0 m ρ c (Proc.devRef .tc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by host_unwritten hostOps0))

/-- Buffer arg8: untouched from boundary 0 to boundary 3. -/
theorem carry_arg8_0_3 : W3 m ρ c (Proc.devRef .tc main_arg8) = W0 m ρ c (Proc.devRef .tc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by host_unwritten hostOps0))

/-- Buffer arg9: untouched from boundary 0 to boundary 5. -/
theorem carry_arg9_0_5 : W5 m ρ c (Proc.devRef .tc main_arg9) = W0 m ρ c (Proc.devRef .tc main_arg9) :=
  calc W5 m ρ c (Proc.devRef .tc main_arg9)
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (List.forall_iff_forall_mem.mp (by host_unwritten hostOps2))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by host_unwritten hostOps0))

/-- Buffer arg10: untouched from boundary 0 to boundary 6. -/
theorem carry_arg10_0_6 : W6 m ρ c (Proc.devRef .tc main_arg10) = W0 m ρ c (Proc.devRef .tc main_arg10) :=
  calc W6 m ρ c (Proc.devRef .tc main_arg10)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by host_unwritten hostOps2))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by host_unwritten hostOps0))

/-- Buffer arg11: untouched from boundary 0 to boundary 8. -/
theorem carry_arg11_0_8 : W8 m ρ c (Proc.devRef .tc main_arg11) = W0 m ρ c (Proc.devRef .tc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by host_unwritten hostOps4))
    _ = W5 m ρ c (Proc.devRef .tc main_arg11) := W6_of_ne m ρ c main_arg11 (by decide)
    _ = W4 m ρ c (Proc.devRef .tc main_arg11) := W5_of_ne m ρ c main_arg11 (by decide)
    _ = W3 m ρ c (Proc.devRef .tc main_arg11) := StableHlo.after_of_forall_not_mem (b := Proc.devRef .tc main_arg11) _ _ (List.forall_iff_forall_mem.mp (by host_unwritten hostOps2))
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by host_unwritten hostOps0))

/-- Buffer arg12: untouched from boundary 0 to boundary 9. -/
theorem carry_arg12_0_9 : W9 m ρ c (Proc.devRef .tc main_arg12) = W0 m ρ c (Proc.devRef .tc main_arg12) :=
  calc W9 m ρ c (Proc.devRef .tc main_arg12)
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by host_unwritten hostOps4))
    _ = W5 m ρ c (Proc.devRef .tc main_arg12) := W6_of_ne m ρ c main_arg12 (by decide)
    _ = W4 m ρ c (Proc.devRef .tc main_arg12) := W5_of_ne m ρ c main_arg12 (by decide)
    _ = W3 m ρ c (Proc.devRef .tc main_arg12) := StableHlo.after_of_forall_not_mem (b := Proc.devRef .tc main_arg12) _ _ (List.forall_iff_forall_mem.mp (by host_unwritten hostOps2))
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by host_unwritten hostOps0))

/-- Buffer arg13: untouched from boundary 0 to boundary 11. -/
theorem carry_arg13_0_11 : W11 m ρ c (Proc.devRef .tc main_arg13) = W0 m ρ c (Proc.devRef .tc main_arg13) :=
  calc W11 m ρ c (Proc.devRef .tc main_arg13)
    _ = W10 m ρ c (Proc.devRef .tc main_arg13) := W11_of_ne m ρ c main_arg13 (by decide)
    _ = W9 m ρ c (Proc.devRef .tc main_arg13) := StableHlo.after_of_forall_not_mem (b := Proc.devRef .tc main_arg13) _ _ (List.forall_iff_forall_mem.mp (by host_unwritten hostOps6))
    _ = W8 m ρ c (Proc.devRef .tc main_arg13) := W9_of_ne m ρ c main_arg13 (by decide)
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by host_unwritten hostOps4))
    _ = W5 m ρ c (Proc.devRef .tc main_arg13) := W6_of_ne m ρ c main_arg13 (by decide)
    _ = W4 m ρ c (Proc.devRef .tc main_arg13) := W5_of_ne m ρ c main_arg13 (by decide)
    _ = W3 m ρ c (Proc.devRef .tc main_arg13) := StableHlo.after_of_forall_not_mem (b := Proc.devRef .tc main_arg13) _ _ (List.forall_iff_forall_mem.mp (by host_unwritten hostOps2))
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by host_unwritten hostOps0))

/-- Buffer arg14: untouched from boundary 0 to boundary 12. -/
theorem carry_arg14_0_12 : W12 m ρ c (Proc.devRef .tc main_arg14) = W0 m ρ c (Proc.devRef .tc main_arg14) :=
  calc W12 m ρ c (Proc.devRef .tc main_arg14)
    _ = W11 m ρ c (Proc.devRef .tc main_arg14) := W12_of_ne m ρ c main_arg14 (by decide)
    _ = W10 m ρ c (Proc.devRef .tc main_arg14) := W11_of_ne m ρ c main_arg14 (by decide)
    _ = W9 m ρ c (Proc.devRef .tc main_arg14) := StableHlo.after_of_forall_not_mem (b := Proc.devRef .tc main_arg14) _ _ (List.forall_iff_forall_mem.mp (by host_unwritten hostOps6))
    _ = W8 m ρ c (Proc.devRef .tc main_arg14) := W9_of_ne m ρ c main_arg14 (by decide)
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by host_unwritten hostOps4))
    _ = W5 m ρ c (Proc.devRef .tc main_arg14) := W6_of_ne m ρ c main_arg14 (by decide)
    _ = W4 m ρ c (Proc.devRef .tc main_arg14) := W5_of_ne m ρ c main_arg14 (by decide)
    _ = W3 m ρ c (Proc.devRef .tc main_arg14) := StableHlo.after_of_forall_not_mem (b := Proc.devRef .tc main_arg14) _ _ (List.forall_iff_forall_mem.mp (by host_unwritten hostOps2))
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by host_unwritten hostOps0))

/-- Buffer arg15: untouched from boundary 0 to boundary 15. -/
theorem carry_arg15_0_15 : W15 m ρ c (Proc.devRef .tc main_arg15) = W0 m ρ c (Proc.devRef .tc main_arg15) :=
  calc W15 m ρ c (Proc.devRef .tc main_arg15)
    _ = W14 m ρ c (Proc.devRef .tc main_arg15) := StableHlo.after_of_forall_not_mem (b := Proc.devRef .tc main_arg15) _ _ (List.forall_iff_forall_mem.mp (by host_unwritten hostOps9))
    _ = W13 m ρ c (Proc.devRef .tc main_arg15) := W14_of_ne m ρ c main_arg15 (by decide)
    _ = W12 m ρ c (Proc.devRef .tc main_arg15) := StableHlo.after_of_forall_not_mem (b := Proc.devRef .tc main_arg15) _ _ (List.forall_iff_forall_mem.mp (by host_unwritten hostOps8))
    _ = W11 m ρ c (Proc.devRef .tc main_arg15) := W12_of_ne m ρ c main_arg15 (by decide)
    _ = W10 m ρ c (Proc.devRef .tc main_arg15) := W11_of_ne m ρ c main_arg15 (by decide)
    _ = W9 m ρ c (Proc.devRef .tc main_arg15) := StableHlo.after_of_forall_not_mem (b := Proc.devRef .tc main_arg15) _ _ (List.forall_iff_forall_mem.mp (by host_unwritten hostOps6))
    _ = W8 m ρ c (Proc.devRef .tc main_arg15) := W9_of_ne m ρ c main_arg15 (by decide)
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by host_unwritten hostOps4))
    _ = W5 m ρ c (Proc.devRef .tc main_arg15) := W6_of_ne m ρ c main_arg15 (by decide)
    _ = W4 m ρ c (Proc.devRef .tc main_arg15) := W5_of_ne m ρ c main_arg15 (by decide)
    _ = W3 m ρ c (Proc.devRef .tc main_arg15) := StableHlo.after_of_forall_not_mem (b := Proc.devRef .tc main_arg15) _ _ (List.forall_iff_forall_mem.mp (by host_unwritten hostOps2))
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by host_unwritten hostOps0))

/-- Buffer arg16: untouched from boundary 0 to boundary 14. -/
theorem carry_arg16_0_14 : W14 m ρ c (Proc.devRef .tc main_arg16) = W0 m ρ c (Proc.devRef .tc main_arg16) :=
  calc W14 m ρ c (Proc.devRef .tc main_arg16)
    _ = W13 m ρ c (Proc.devRef .tc main_arg16) := W14_of_ne m ρ c main_arg16 (by decide)
    _ = W12 m ρ c (Proc.devRef .tc main_arg16) := StableHlo.after_of_forall_not_mem (b := Proc.devRef .tc main_arg16) _ _ (List.forall_iff_forall_mem.mp (by host_unwritten hostOps8))
    _ = W11 m ρ c (Proc.devRef .tc main_arg16) := W12_of_ne m ρ c main_arg16 (by decide)
    _ = W10 m ρ c (Proc.devRef .tc main_arg16) := W11_of_ne m ρ c main_arg16 (by decide)
    _ = W9 m ρ c (Proc.devRef .tc main_arg16) := StableHlo.after_of_forall_not_mem (b := Proc.devRef .tc main_arg16) _ _ (List.forall_iff_forall_mem.mp (by host_unwritten hostOps6))
    _ = W8 m ρ c (Proc.devRef .tc main_arg16) := W9_of_ne m ρ c main_arg16 (by decide)
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by host_unwritten hostOps4))
    _ = W5 m ρ c (Proc.devRef .tc main_arg16) := W6_of_ne m ρ c main_arg16 (by decide)
    _ = W4 m ρ c (Proc.devRef .tc main_arg16) := W5_of_ne m ρ c main_arg16 (by decide)
    _ = W3 m ρ c (Proc.devRef .tc main_arg16) := StableHlo.after_of_forall_not_mem (b := Proc.devRef .tc main_arg16) _ _ (List.forall_iff_forall_mem.mp (by host_unwritten hostOps2))
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by host_unwritten hostOps0))

/-- Buffer arg17: untouched from boundary 0 to boundary 17. -/
theorem carry_arg17_0_17 : W17 m ρ c (Proc.devRef .tc main_arg17) = W0 m ρ c (Proc.devRef .tc main_arg17) :=
  calc W17 m ρ c (Proc.devRef .tc main_arg17)
    _ = W16 m ρ c (Proc.devRef .tc main_arg17) := StableHlo.after_of_forall_not_mem (b := Proc.devRef .tc main_arg17) _ _ (List.forall_iff_forall_mem.mp (by host_unwritten hostOps10))
    _ = W15 m ρ c (Proc.devRef .tc main_arg17) := W16_of_ne m ρ c main_arg17 (by decide)
    _ = W14 m ρ c (Proc.devRef .tc main_arg17) := StableHlo.after_of_forall_not_mem (b := Proc.devRef .tc main_arg17) _ _ (List.forall_iff_forall_mem.mp (by host_unwritten hostOps9))
    _ = W13 m ρ c (Proc.devRef .tc main_arg17) := W14_of_ne m ρ c main_arg17 (by decide)
    _ = W12 m ρ c (Proc.devRef .tc main_arg17) := StableHlo.after_of_forall_not_mem (b := Proc.devRef .tc main_arg17) _ _ (List.forall_iff_forall_mem.mp (by host_unwritten hostOps8))
    _ = W11 m ρ c (Proc.devRef .tc main_arg17) := W12_of_ne m ρ c main_arg17 (by decide)
    _ = W10 m ρ c (Proc.devRef .tc main_arg17) := W11_of_ne m ρ c main_arg17 (by decide)
    _ = W9 m ρ c (Proc.devRef .tc main_arg17) := StableHlo.after_of_forall_not_mem (b := Proc.devRef .tc main_arg17) _ _ (List.forall_iff_forall_mem.mp (by host_unwritten hostOps6))
    _ = W8 m ρ c (Proc.devRef .tc main_arg17) := W9_of_ne m ρ c main_arg17 (by decide)
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by host_unwritten hostOps4))
    _ = W5 m ρ c (Proc.devRef .tc main_arg17) := W6_of_ne m ρ c main_arg17 (by decide)
    _ = W4 m ρ c (Proc.devRef .tc main_arg17) := W5_of_ne m ρ c main_arg17 (by decide)
    _ = W3 m ρ c (Proc.devRef .tc main_arg17) := StableHlo.after_of_forall_not_mem (b := Proc.devRef .tc main_arg17) _ _ (List.forall_iff_forall_mem.mp (by host_unwritten hostOps2))
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by host_unwritten hostOps0))

/-- Buffer arg18: untouched from boundary 0 to boundary 16. -/
theorem carry_arg18_0_16 : W16 m ρ c (Proc.devRef .tc main_arg18) = W0 m ρ c (Proc.devRef .tc main_arg18) :=
  calc W16 m ρ c (Proc.devRef .tc main_arg18)
    _ = W15 m ρ c (Proc.devRef .tc main_arg18) := W16_of_ne m ρ c main_arg18 (by decide)
    _ = W14 m ρ c (Proc.devRef .tc main_arg18) := StableHlo.after_of_forall_not_mem (b := Proc.devRef .tc main_arg18) _ _ (List.forall_iff_forall_mem.mp (by host_unwritten hostOps9))
    _ = W13 m ρ c (Proc.devRef .tc main_arg18) := W14_of_ne m ρ c main_arg18 (by decide)
    _ = W12 m ρ c (Proc.devRef .tc main_arg18) := StableHlo.after_of_forall_not_mem (b := Proc.devRef .tc main_arg18) _ _ (List.forall_iff_forall_mem.mp (by host_unwritten hostOps8))
    _ = W11 m ρ c (Proc.devRef .tc main_arg18) := W12_of_ne m ρ c main_arg18 (by decide)
    _ = W10 m ρ c (Proc.devRef .tc main_arg18) := W11_of_ne m ρ c main_arg18 (by decide)
    _ = W9 m ρ c (Proc.devRef .tc main_arg18) := StableHlo.after_of_forall_not_mem (b := Proc.devRef .tc main_arg18) _ _ (List.forall_iff_forall_mem.mp (by host_unwritten hostOps6))
    _ = W8 m ρ c (Proc.devRef .tc main_arg18) := W9_of_ne m ρ c main_arg18 (by decide)
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by host_unwritten hostOps4))
    _ = W5 m ρ c (Proc.devRef .tc main_arg18) := W6_of_ne m ρ c main_arg18 (by decide)
    _ = W4 m ρ c (Proc.devRef .tc main_arg18) := W5_of_ne m ρ c main_arg18 (by decide)
    _ = W3 m ρ c (Proc.devRef .tc main_arg18) := StableHlo.after_of_forall_not_mem (b := Proc.devRef .tc main_arg18) _ _ (List.forall_iff_forall_mem.mp (by host_unwritten hostOps2))
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by host_unwritten hostOps0))

/-- Buffer arg19: untouched from boundary 0 to boundary 17. -/
theorem carry_arg19_0_17 : W17 m ρ c (Proc.devRef .tc main_arg19) = W0 m ρ c (Proc.devRef .tc main_arg19) :=
  calc W17 m ρ c (Proc.devRef .tc main_arg19)
    _ = W16 m ρ c (Proc.devRef .tc main_arg19) := StableHlo.after_of_forall_not_mem (b := Proc.devRef .tc main_arg19) _ _ (List.forall_iff_forall_mem.mp (by host_unwritten hostOps10))
    _ = W15 m ρ c (Proc.devRef .tc main_arg19) := W16_of_ne m ρ c main_arg19 (by decide)
    _ = W14 m ρ c (Proc.devRef .tc main_arg19) := StableHlo.after_of_forall_not_mem (b := Proc.devRef .tc main_arg19) _ _ (List.forall_iff_forall_mem.mp (by host_unwritten hostOps9))
    _ = W13 m ρ c (Proc.devRef .tc main_arg19) := W14_of_ne m ρ c main_arg19 (by decide)
    _ = W12 m ρ c (Proc.devRef .tc main_arg19) := StableHlo.after_of_forall_not_mem (b := Proc.devRef .tc main_arg19) _ _ (List.forall_iff_forall_mem.mp (by host_unwritten hostOps8))
    _ = W11 m ρ c (Proc.devRef .tc main_arg19) := W12_of_ne m ρ c main_arg19 (by decide)
    _ = W10 m ρ c (Proc.devRef .tc main_arg19) := W11_of_ne m ρ c main_arg19 (by decide)
    _ = W9 m ρ c (Proc.devRef .tc main_arg19) := StableHlo.after_of_forall_not_mem (b := Proc.devRef .tc main_arg19) _ _ (List.forall_iff_forall_mem.mp (by host_unwritten hostOps6))
    _ = W8 m ρ c (Proc.devRef .tc main_arg19) := W9_of_ne m ρ c main_arg19 (by decide)
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by host_unwritten hostOps4))
    _ = W5 m ρ c (Proc.devRef .tc main_arg19) := W6_of_ne m ρ c main_arg19 (by decide)
    _ = W4 m ρ c (Proc.devRef .tc main_arg19) := W5_of_ne m ρ c main_arg19 (by decide)
    _ = W3 m ρ c (Proc.devRef .tc main_arg19) := StableHlo.after_of_forall_not_mem (b := Proc.devRef .tc main_arg19) _ _ (List.forall_iff_forall_mem.mp (by host_unwritten hostOps2))
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by host_unwritten hostOps0))

/-- Buffer arg20: untouched from boundary 0 to boundary 16. -/
theorem carry_arg20_0_16 : W16 m ρ c (Proc.devRef .tc main_arg20) = W0 m ρ c (Proc.devRef .tc main_arg20) :=
  calc W16 m ρ c (Proc.devRef .tc main_arg20)
    _ = W15 m ρ c (Proc.devRef .tc main_arg20) := W16_of_ne m ρ c main_arg20 (by decide)
    _ = W14 m ρ c (Proc.devRef .tc main_arg20) := StableHlo.after_of_forall_not_mem (b := Proc.devRef .tc main_arg20) _ _ (List.forall_iff_forall_mem.mp (by host_unwritten hostOps9))
    _ = W13 m ρ c (Proc.devRef .tc main_arg20) := W14_of_ne m ρ c main_arg20 (by decide)
    _ = W12 m ρ c (Proc.devRef .tc main_arg20) := StableHlo.after_of_forall_not_mem (b := Proc.devRef .tc main_arg20) _ _ (List.forall_iff_forall_mem.mp (by host_unwritten hostOps8))
    _ = W11 m ρ c (Proc.devRef .tc main_arg20) := W12_of_ne m ρ c main_arg20 (by decide)
    _ = W10 m ρ c (Proc.devRef .tc main_arg20) := W11_of_ne m ρ c main_arg20 (by decide)
    _ = W9 m ρ c (Proc.devRef .tc main_arg20) := StableHlo.after_of_forall_not_mem (b := Proc.devRef .tc main_arg20) _ _ (List.forall_iff_forall_mem.mp (by host_unwritten hostOps6))
    _ = W8 m ρ c (Proc.devRef .tc main_arg20) := W9_of_ne m ρ c main_arg20 (by decide)
    _ = W7 m ρ c (Proc.devRef .tc main_arg20) := W8_of_ne m ρ c main_arg20 (by decide)
    _ = W6 m ρ c (Proc.devRef .tc main_arg20) := StableHlo.after_of_forall_not_mem (b := Proc.devRef .tc main_arg20) _ _ (List.forall_iff_forall_mem.mp (by host_unwritten hostOps4))
    _ = W5 m ρ c (Proc.devRef .tc main_arg20) := W6_of_ne m ρ c main_arg20 (by decide)
    _ = W4 m ρ c (Proc.devRef .tc main_arg20) := W5_of_ne m ρ c main_arg20 (by decide)
    _ = W3 m ρ c (Proc.devRef .tc main_arg20) := StableHlo.after_of_forall_not_mem (b := Proc.devRef .tc main_arg20) _ _ (List.forall_iff_forall_mem.mp (by host_unwritten hostOps2))
    _ = W2 m ρ c (Proc.devRef .tc main_arg20) := W3_of_ne m ρ c main_arg20 (by decide)
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by host_unwritten hostOps0))

/-- Buffer arg21: untouched from boundary 0 to boundary 17. -/
theorem carry_arg21_0_17 : W17 m ρ c (Proc.devRef .tc main_arg21) = W0 m ρ c (Proc.devRef .tc main_arg21) :=
  calc W17 m ρ c (Proc.devRef .tc main_arg21)
    _ = W16 m ρ c (Proc.devRef .tc main_arg21) := StableHlo.after_of_forall_not_mem (b := Proc.devRef .tc main_arg21) _ _ (List.forall_iff_forall_mem.mp (by host_unwritten hostOps10))
    _ = W15 m ρ c (Proc.devRef .tc main_arg21) := W16_of_ne m ρ c main_arg21 (by decide)
    _ = W14 m ρ c (Proc.devRef .tc main_arg21) := StableHlo.after_of_forall_not_mem (b := Proc.devRef .tc main_arg21) _ _ (List.forall_iff_forall_mem.mp (by host_unwritten hostOps9))
    _ = W13 m ρ c (Proc.devRef .tc main_arg21) := W14_of_ne m ρ c main_arg21 (by decide)
    _ = W12 m ρ c (Proc.devRef .tc main_arg21) := StableHlo.after_of_forall_not_mem (b := Proc.devRef .tc main_arg21) _ _ (List.forall_iff_forall_mem.mp (by host_unwritten hostOps8))
    _ = W11 m ρ c (Proc.devRef .tc main_arg21) := W12_of_ne m ρ c main_arg21 (by decide)
    _ = W10 m ρ c (Proc.devRef .tc main_arg21) := W11_of_ne m ρ c main_arg21 (by decide)
    _ = W9 m ρ c (Proc.devRef .tc main_arg21) := StableHlo.after_of_forall_not_mem (b := Proc.devRef .tc main_arg21) _ _ (List.forall_iff_forall_mem.mp (by host_unwritten hostOps6))
    _ = W8 m ρ c (Proc.devRef .tc main_arg21) := W9_of_ne m ρ c main_arg21 (by decide)
    _ = W7 m ρ c (Proc.devRef .tc main_arg21) := W8_of_ne m ρ c main_arg21 (by decide)
    _ = W6 m ρ c (Proc.devRef .tc main_arg21) := StableHlo.after_of_forall_not_mem (b := Proc.devRef .tc main_arg21) _ _ (List.forall_iff_forall_mem.mp (by host_unwritten hostOps4))
    _ = W5 m ρ c (Proc.devRef .tc main_arg21) := W6_of_ne m ρ c main_arg21 (by decide)
    _ = W4 m ρ c (Proc.devRef .tc main_arg21) := W5_of_ne m ρ c main_arg21 (by decide)
    _ = W3 m ρ c (Proc.devRef .tc main_arg21) := StableHlo.after_of_forall_not_mem (b := Proc.devRef .tc main_arg21) _ _ (List.forall_iff_forall_mem.mp (by host_unwritten hostOps2))
    _ = W2 m ρ c (Proc.devRef .tc main_arg21) := W3_of_ne m ρ c main_arg21 (by decide)
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by host_unwritten hostOps0))

/-- Buffer arg22: untouched from boundary 0 to boundary 16. -/
theorem carry_arg22_0_16 : W16 m ρ c (Proc.devRef .tc main_arg22) = W0 m ρ c (Proc.devRef .tc main_arg22) :=
  calc W16 m ρ c (Proc.devRef .tc main_arg22)
    _ = W15 m ρ c (Proc.devRef .tc main_arg22) := W16_of_ne m ρ c main_arg22 (by decide)
    _ = W14 m ρ c (Proc.devRef .tc main_arg22) := StableHlo.after_of_forall_not_mem (b := Proc.devRef .tc main_arg22) _ _ (List.forall_iff_forall_mem.mp (by host_unwritten hostOps9))
    _ = W13 m ρ c (Proc.devRef .tc main_arg22) := W14_of_ne m ρ c main_arg22 (by decide)
    _ = W12 m ρ c (Proc.devRef .tc main_arg22) := StableHlo.after_of_forall_not_mem (b := Proc.devRef .tc main_arg22) _ _ (List.forall_iff_forall_mem.mp (by host_unwritten hostOps8))
    _ = W11 m ρ c (Proc.devRef .tc main_arg22) := W12_of_ne m ρ c main_arg22 (by decide)
    _ = W10 m ρ c (Proc.devRef .tc main_arg22) := W11_of_ne m ρ c main_arg22 (by decide)
    _ = W9 m ρ c (Proc.devRef .tc main_arg22) := StableHlo.after_of_forall_not_mem (b := Proc.devRef .tc main_arg22) _ _ (List.forall_iff_forall_mem.mp (by host_unwritten hostOps6))
    _ = W8 m ρ c (Proc.devRef .tc main_arg22) := W9_of_ne m ρ c main_arg22 (by decide)
    _ = W7 m ρ c (Proc.devRef .tc main_arg22) := W8_of_ne m ρ c main_arg22 (by decide)
    _ = W6 m ρ c (Proc.devRef .tc main_arg22) := StableHlo.after_of_forall_not_mem (b := Proc.devRef .tc main_arg22) _ _ (List.forall_iff_forall_mem.mp (by host_unwritten hostOps4))
    _ = W5 m ρ c (Proc.devRef .tc main_arg22) := W6_of_ne m ρ c main_arg22 (by decide)
    _ = W4 m ρ c (Proc.devRef .tc main_arg22) := W5_of_ne m ρ c main_arg22 (by decide)
    _ = W3 m ρ c (Proc.devRef .tc main_arg22) := StableHlo.after_of_forall_not_mem (b := Proc.devRef .tc main_arg22) _ _ (List.forall_iff_forall_mem.mp (by host_unwritten hostOps2))
    _ = W2 m ρ c (Proc.devRef .tc main_arg22) := W3_of_ne m ρ c main_arg22 (by decide)
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by host_unwritten hostOps0))

/-- Buffer arg23: untouched from boundary 0 to boundary 17. -/
theorem carry_arg23_0_17 : W17 m ρ c (Proc.devRef .tc main_arg23) = W0 m ρ c (Proc.devRef .tc main_arg23) :=
  calc W17 m ρ c (Proc.devRef .tc main_arg23)
    _ = W16 m ρ c (Proc.devRef .tc main_arg23) := StableHlo.after_of_forall_not_mem (b := Proc.devRef .tc main_arg23) _ _ (List.forall_iff_forall_mem.mp (by host_unwritten hostOps10))
    _ = W15 m ρ c (Proc.devRef .tc main_arg23) := W16_of_ne m ρ c main_arg23 (by decide)
    _ = W14 m ρ c (Proc.devRef .tc main_arg23) := StableHlo.after_of_forall_not_mem (b := Proc.devRef .tc main_arg23) _ _ (List.forall_iff_forall_mem.mp (by host_unwritten hostOps9))
    _ = W13 m ρ c (Proc.devRef .tc main_arg23) := W14_of_ne m ρ c main_arg23 (by decide)
    _ = W12 m ρ c (Proc.devRef .tc main_arg23) := StableHlo.after_of_forall_not_mem (b := Proc.devRef .tc main_arg23) _ _ (List.forall_iff_forall_mem.mp (by host_unwritten hostOps8))
    _ = W11 m ρ c (Proc.devRef .tc main_arg23) := W12_of_ne m ρ c main_arg23 (by decide)
    _ = W10 m ρ c (Proc.devRef .tc main_arg23) := W11_of_ne m ρ c main_arg23 (by decide)
    _ = W9 m ρ c (Proc.devRef .tc main_arg23) := StableHlo.after_of_forall_not_mem (b := Proc.devRef .tc main_arg23) _ _ (List.forall_iff_forall_mem.mp (by host_unwritten hostOps6))
    _ = W8 m ρ c (Proc.devRef .tc main_arg23) := W9_of_ne m ρ c main_arg23 (by decide)
    _ = W7 m ρ c (Proc.devRef .tc main_arg23) := W8_of_ne m ρ c main_arg23 (by decide)
    _ = W6 m ρ c (Proc.devRef .tc main_arg23) := StableHlo.after_of_forall_not_mem (b := Proc.devRef .tc main_arg23) _ _ (List.forall_iff_forall_mem.mp (by host_unwritten hostOps4))
    _ = W5 m ρ c (Proc.devRef .tc main_arg23) := W6_of_ne m ρ c main_arg23 (by decide)
    _ = W4 m ρ c (Proc.devRef .tc main_arg23) := W5_of_ne m ρ c main_arg23 (by decide)
    _ = W3 m ρ c (Proc.devRef .tc main_arg23) := StableHlo.after_of_forall_not_mem (b := Proc.devRef .tc main_arg23) _ _ (List.forall_iff_forall_mem.mp (by host_unwritten hostOps2))
    _ = W2 m ρ c (Proc.devRef .tc main_arg23) := W3_of_ne m ρ c main_arg23 (by decide)
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by host_unwritten hostOps0))

/-- Buffer arg24: untouched from boundary 0 to boundary 16. -/
theorem carry_arg24_0_16 : W16 m ρ c (Proc.devRef .tc main_arg24) = W0 m ρ c (Proc.devRef .tc main_arg24) :=
  calc W16 m ρ c (Proc.devRef .tc main_arg24)
    _ = W15 m ρ c (Proc.devRef .tc main_arg24) := W16_of_ne m ρ c main_arg24 (by decide)
    _ = W14 m ρ c (Proc.devRef .tc main_arg24) := StableHlo.after_of_forall_not_mem (b := Proc.devRef .tc main_arg24) _ _ (List.forall_iff_forall_mem.mp (by host_unwritten hostOps9))
    _ = W13 m ρ c (Proc.devRef .tc main_arg24) := W14_of_ne m ρ c main_arg24 (by decide)
    _ = W12 m ρ c (Proc.devRef .tc main_arg24) := StableHlo.after_of_forall_not_mem (b := Proc.devRef .tc main_arg24) _ _ (List.forall_iff_forall_mem.mp (by host_unwritten hostOps8))
    _ = W11 m ρ c (Proc.devRef .tc main_arg24) := W12_of_ne m ρ c main_arg24 (by decide)
    _ = W10 m ρ c (Proc.devRef .tc main_arg24) := W11_of_ne m ρ c main_arg24 (by decide)
    _ = W9 m ρ c (Proc.devRef .tc main_arg24) := StableHlo.after_of_forall_not_mem (b := Proc.devRef .tc main_arg24) _ _ (List.forall_iff_forall_mem.mp (by host_unwritten hostOps6))
    _ = W8 m ρ c (Proc.devRef .tc main_arg24) := W9_of_ne m ρ c main_arg24 (by decide)
    _ = W7 m ρ c (Proc.devRef .tc main_arg24) := W8_of_ne m ρ c main_arg24 (by decide)
    _ = W6 m ρ c (Proc.devRef .tc main_arg24) := StableHlo.after_of_forall_not_mem (b := Proc.devRef .tc main_arg24) _ _ (List.forall_iff_forall_mem.mp (by host_unwritten hostOps4))
    _ = W5 m ρ c (Proc.devRef .tc main_arg24) := W6_of_ne m ρ c main_arg24 (by decide)
    _ = W4 m ρ c (Proc.devRef .tc main_arg24) := W5_of_ne m ρ c main_arg24 (by decide)
    _ = W3 m ρ c (Proc.devRef .tc main_arg24) := StableHlo.after_of_forall_not_mem (b := Proc.devRef .tc main_arg24) _ _ (List.forall_iff_forall_mem.mp (by host_unwritten hostOps2))
    _ = W2 m ρ c (Proc.devRef .tc main_arg24) := W3_of_ne m ρ c main_arg24 (by decide)
    _ = W1 m ρ c (Proc.devRef .tc main_arg24) := W2_of_ne m ρ c main_arg24 (by decide)
    _ = W0 m ρ c (Proc.devRef .tc main_arg24) := StableHlo.after_of_forall_not_mem (b := Proc.devRef .tc main_arg24) _ _ (List.forall_iff_forall_mem.mp (by host_unwritten hostOps0))

/-- Buffer v1: untouched from boundary 1 to boundary 3. -/
theorem carry_v1_1_3 : W3 m ρ c (Proc.devRef .tc main_v1) = W1 m ρ c (Proc.devRef .tc main_v1) :=
  calc W3 m ρ c (Proc.devRef .tc main_v1)
    _ = W2 m ρ c (Proc.devRef .tc main_v1) := W3_of_ne m ρ c main_v1 (by decide)
    _ = W1 m ρ c (Proc.devRef .tc main_v1) := W2_of_ne m ρ c main_v1 (by decide)

/-- Buffer v1: untouched from boundary 3 to boundary 6. -/
theorem carry_v1_3_6 : W6 m ρ c (Proc.devRef .tc main_v1) = W3 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := W5_of_ne m ρ c main_v1 (by decide)
    _ = W3 m ρ c (Proc.devRef .tc main_v1) := StableHlo.after_of_forall_not_mem (b := Proc.devRef .tc main_v1) _ _ (List.forall_iff_forall_mem.mp (by host_unwritten hostOps2))

/-- Buffer v1: untouched from boundary 6 to boundary 9. -/
theorem carry_v1_6_9 : W9 m ρ c (Proc.devRef .tc main_v1) = W6 m ρ c (Proc.devRef .tc main_v1) :=
  calc W9 m ρ c (Proc.devRef .tc main_v1)
    _ = W8 m ρ c (Proc.devRef .tc main_v1) := W9_of_ne m ρ c main_v1 (by decide)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by host_unwritten hostOps4))

/-- Buffer v1: untouched from boundary 9 to boundary 12. -/
theorem carry_v1_9_12 : W12 m ρ c (Proc.devRef .tc main_v1) = W9 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := W11_of_ne m ρ c main_v1 (by decide)
    _ = W9 m ρ c (Proc.devRef .tc main_v1) := StableHlo.after_of_forall_not_mem (b := Proc.devRef .tc main_v1) _ _ (List.forall_iff_forall_mem.mp (by host_unwritten hostOps6))

/-- Buffer v3: untouched from boundary 1 to boundary 3. -/
theorem carry_v3_1_3 : W3 m ρ c (Proc.devRef .tc main_v3) = W1 m ρ c (Proc.devRef .tc main_v3) :=
  calc W3 m ρ c (Proc.devRef .tc main_v3)
    _ = W2 m ρ c (Proc.devRef .tc main_v3) := W3_of_ne m ρ c main_v3 (by decide)
    _ = W1 m ρ c (Proc.devRef .tc main_v3) := W2_of_ne m ρ c main_v3 (by decide)

/-- Buffer v3: untouched from boundary 3 to boundary 6. -/
theorem carry_v3_3_6 : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := W5_of_ne m ρ c main_v3 (by decide)
    _ = W3 m ρ c (Proc.devRef .tc main_v3) := StableHlo.after_of_forall_not_mem (b := Proc.devRef .tc main_v3) _ _ (List.forall_iff_forall_mem.mp (by host_unwritten hostOps2))

/-- Buffer v3: untouched from boundary 6 to boundary 9. -/
theorem carry_v3_6_9 : W9 m ρ c (Proc.devRef .tc main_v3) = W6 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by host_unwritten hostOps4))

/-- Buffer v3: untouched from boundary 9 to boundary 12. -/
theorem carry_v3_9_12 : W12 m ρ c (Proc.devRef .tc main_v3) = W9 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by host_unwritten hostOps6))

/-- Buffer v25: untouched from boundary 1 to boundary 3. -/
theorem carry_v25_1_3 : W3 m ρ c (Proc.devRef .tc main_v25) = W1 m ρ c (Proc.devRef .tc main_v25) :=
  calc W3 m ρ c (Proc.devRef .tc main_v25)
    _ = W2 m ρ c (Proc.devRef .tc main_v25) := W3_of_ne m ρ c main_v25 (by decide)
    _ = W1 m ρ c (Proc.devRef .tc main_v25) := W2_of_ne m ρ c main_v25 (by decide)

/-- Buffer v25: untouched from boundary 3 to boundary 6. -/
theorem carry_v25_3_6 : W6 m ρ c (Proc.devRef .tc main_v25) = W3 m ρ c (Proc.devRef .tc main_v25) :=
  calc W6 m ρ c (Proc.devRef .tc main_v25)
    _ = W5 m ρ c (Proc.devRef .tc main_v25) := W6_of_ne m ρ c main_v25 (by decide)
    _ = W4 m ρ c (Proc.devRef .tc main_v25) := W5_of_ne m ρ c main_v25 (by decide)
    _ = W3 m ρ c (Proc.devRef .tc main_v25) := StableHlo.after_of_forall_not_mem (b := Proc.devRef .tc main_v25) _ _ (List.forall_iff_forall_mem.mp (by host_unwritten hostOps2))

/-- Buffer v25: untouched from boundary 6 to boundary 9. -/
theorem carry_v25_6_9 : W9 m ρ c (Proc.devRef .tc main_v25) = W6 m ρ c (Proc.devRef .tc main_v25) :=
  calc W9 m ρ c (Proc.devRef .tc main_v25)
    _ = W8 m ρ c (Proc.devRef .tc main_v25) := W9_of_ne m ρ c main_v25 (by decide)
    _ = W7 m ρ c (Proc.devRef .tc main_v25) := W8_of_ne m ρ c main_v25 (by decide)
    _ = W6 m ρ c (Proc.devRef .tc main_v25) := StableHlo.after_of_forall_not_mem (b := Proc.devRef .tc main_v25) _ _ (List.forall_iff_forall_mem.mp (by host_unwritten hostOps4))

/-- Buffer v25: untouched from boundary 9 to boundary 12. -/
theorem carry_v25_9_12 : W12 m ρ c (Proc.devRef .tc main_v25) = W9 m ρ c (Proc.devRef .tc main_v25) :=
  calc W12 m ρ c (Proc.devRef .tc main_v25)
    _ = W11 m ρ c (Proc.devRef .tc main_v25) := W12_of_ne m ρ c main_v25 (by decide)
    _ = W10 m ρ c (Proc.devRef .tc main_v25) := W11_of_ne m ρ c main_v25 (by decide)
    _ = W9 m ρ c (Proc.devRef .tc main_v25) := StableHlo.after_of_forall_not_mem (b := Proc.devRef .tc main_v25) _ _ (List.forall_iff_forall_mem.mp (by host_unwritten hostOps6))

/-- Buffer v26: untouched from boundary 1 to boundary 3. -/
theorem carry_v26_1_3 : W3 m ρ c (Proc.devRef .tc main_v26) = W1 m ρ c (Proc.devRef .tc main_v26) :=
  calc W3 m ρ c (Proc.devRef .tc main_v26)
    _ = W2 m ρ c (Proc.devRef .tc main_v26) := W3_of_ne m ρ c main_v26 (by decide)
    _ = W1 m ρ c (Proc.devRef .tc main_v26) := W2_of_ne m ρ c main_v26 (by decide)

/-- Buffer v26: untouched from boundary 3 to boundary 6. -/
theorem carry_v26_3_6 : W6 m ρ c (Proc.devRef .tc main_v26) = W3 m ρ c (Proc.devRef .tc main_v26) :=
  calc W6 m ρ c (Proc.devRef .tc main_v26)
    _ = W5 m ρ c (Proc.devRef .tc main_v26) := W6_of_ne m ρ c main_v26 (by decide)
    _ = W4 m ρ c (Proc.devRef .tc main_v26) := W5_of_ne m ρ c main_v26 (by decide)
    _ = W3 m ρ c (Proc.devRef .tc main_v26) := StableHlo.after_of_forall_not_mem (b := Proc.devRef .tc main_v26) _ _ (List.forall_iff_forall_mem.mp (by host_unwritten hostOps2))

/-- Buffer v26: untouched from boundary 6 to boundary 9. -/
theorem carry_v26_6_9 : W9 m ρ c (Proc.devRef .tc main_v26) = W6 m ρ c (Proc.devRef .tc main_v26) :=
  calc W9 m ρ c (Proc.devRef .tc main_v26)
    _ = W8 m ρ c (Proc.devRef .tc main_v26) := W9_of_ne m ρ c main_v26 (by decide)
    _ = W7 m ρ c (Proc.devRef .tc main_v26) := W8_of_ne m ρ c main_v26 (by decide)
    _ = W6 m ρ c (Proc.devRef .tc main_v26) := StableHlo.after_of_forall_not_mem (b := Proc.devRef .tc main_v26) _ _ (List.forall_iff_forall_mem.mp (by host_unwritten hostOps4))

/-- Buffer v26: untouched from boundary 9 to boundary 12. -/
theorem carry_v26_9_12 : W12 m ρ c (Proc.devRef .tc main_v26) = W9 m ρ c (Proc.devRef .tc main_v26) :=
  calc W12 m ρ c (Proc.devRef .tc main_v26)
    _ = W11 m ρ c (Proc.devRef .tc main_v26) := W12_of_ne m ρ c main_v26 (by decide)
    _ = W10 m ρ c (Proc.devRef .tc main_v26) := W11_of_ne m ρ c main_v26 (by decide)
    _ = W9 m ρ c (Proc.devRef .tc main_v26) := StableHlo.after_of_forall_not_mem (b := Proc.devRef .tc main_v26) _ _ (List.forall_iff_forall_mem.mp (by host_unwritten hostOps6))

/-- Buffer v28: untouched from boundary 3 to boundary 4. -/
theorem carry_v28_3_4 : W4 m ρ c (Proc.devRef .tc main_v28) = W3 m ρ c (Proc.devRef .tc main_v28) :=
  calc W4 m ρ c (Proc.devRef .tc main_v28)
    _ = W3 m ρ c (Proc.devRef .tc main_v28) := StableHlo.after_of_forall_not_mem (b := Proc.devRef .tc main_v28) _ _ (List.forall_iff_forall_mem.mp (by host_unwritten hostOps2))

/-- Buffer v45: untouched from boundary 6 to boundary 7. -/
theorem carry_v45_6_7 : W7 m ρ c (Proc.devRef .tc main_v45) = W6 m ρ c (Proc.devRef .tc main_v45) :=
  calc W7 m ρ c (Proc.devRef .tc main_v45)
    _ = W6 m ρ c (Proc.devRef .tc main_v45) := StableHlo.after_of_forall_not_mem (b := Proc.devRef .tc main_v45) _ _ (List.forall_iff_forall_mem.mp (by host_unwritten hostOps4))

/-- Buffer v62: untouched from boundary 9 to boundary 10. -/
theorem carry_v62_9_10 : W10 m ρ c (Proc.devRef .tc main_v62) = W9 m ρ c (Proc.devRef .tc main_v62) :=
  calc W10 m ρ c (Proc.devRef .tc main_v62)
    _ = W9 m ρ c (Proc.devRef .tc main_v62) := StableHlo.after_of_forall_not_mem (b := Proc.devRef .tc main_v62) _ _ (List.forall_iff_forall_mem.mp (by host_unwritten hostOps6))

/-- Buffer v79: untouched from boundary 12 to boundary 13. -/
theorem carry_v79_12_13 : W13 m ρ c (Proc.devRef .tc main_v79) = W12 m ρ c (Proc.devRef .tc main_v79) :=
  calc W13 m ρ c (Proc.devRef .tc main_v79)
    _ = W12 m ρ c (Proc.devRef .tc main_v79) := StableHlo.after_of_forall_not_mem (b := Proc.devRef .tc main_v79) _ _ (List.forall_iff_forall_mem.mp (by host_unwritten hostOps8))

/-- Buffer v95: untouched from boundary 14 to boundary 15. -/
theorem carry_v95_14_15 : W15 m ρ c (Proc.devRef .tc main_v95) = W14 m ρ c (Proc.devRef .tc main_v95) :=
  calc W15 m ρ c (Proc.devRef .tc main_v95)
    _ = W14 m ρ c (Proc.devRef .tc main_v95) := StableHlo.after_of_forall_not_mem (b := Proc.devRef .tc main_v95) _ _ (List.forall_iff_forall_mem.mp (by host_unwritten hostOps9))

end Cert.KernelIdeal.Chain

end
-- ==== Proof.RefStages.lean ====
import proofs.«424127_j32091995635825_2_alg».proof.Proof.Gen.ReferenceIdeal.Run
import proofs.«424127_j32091995635825_2_alg».proof.Proof.Gen.ReferenceIdeal.Read
-- ==== Proof.Spec.lean ====
/-
  The reference's stages as functions of ARRAYS (not of the program's arguments): each is the composition of host
  operations the reference program applies at that stage, with the stage's inputs as variables. The kernel's
  pallas regions are each shown to compute one of these; the reference's run is a composition of them.
-/
import proofs.«424127_j32091995635825_2_alg».proof.Proof.Gen.ReferenceIdeal
import Idealize.ShloMosaic.PureOps.Ideal

noncomputable section

namespace Cert.Proof.Spec

open Idealize.ShloMosaic Cert.ReferenceIdeal Cert.ReferenceIdeal.Gen

variable {F : FTy → Type} [FloatOps F]

/-- The zero array a relu compares against. -/
abbrev zeros (S : Shape) (h : (S_).BroadcastsInDim S ![]) : FVec F S .f32 :=
  broadcastInDim S ![] h (constant (F := F) S_ .f32 0x00000000#32)

/-- Atom ids: column 0 of the node features, converted to integers. -/
def atomIds (x : FVec F S200000x8 .f32) : IVec S200000 32 :=
  fptosi 32 (shapeCast S200000 (extractStridedSlice S200000x1 ![0, 0] x slices_S200000x8_S200000x1_0_0) shapeCasts_S200000x1_S200000)

/-- Node features joined with the atom embedding's row for the node's id (negative ids wrapped, then clamped by the gather). -/
def embedRef (x : FVec F S200000x8 .f32) (emb : FVec F S20x32 .f32) : FVec F S200000x40 .f32 :=
  concatenate S200000x40 1 [⟨S200000x8, x⟩, ⟨S200000x32,
    Host.gather gather_S20x32_S200000x1_S200000x32_1_0_n_n_0_1_132 emb
      (broadcastInDim S200000x1 ![0] bcast_S200000_S200000x1_0
        (select (cmpi .slt (atomIds x) (broadcastInDim S200000 ![] bcast_S_S200000 (constantI S_ 32 0#32)))
          (addi (atomIds x) (broadcastInDim S200000 ![] bcast_S_S200000 (constantI S_ 32 20#32))) (atomIds x)))⟩]
    concatenates_S200000x8_S200000x32_S200000x40_d1

/-- h · W for the first layer (40 input features). -/
def linRef40 (h : FVec F S200000x40 .f32) (w : FVec F S40x64 .f32) : FVec F S200000x64 .f32 :=
  Host.dotGeneral dot_S200000x40_S40x64_S200000x64_1_0_0_1_n_n none h w

/-- h · W for the later layers (64 input features). -/
def linRef64 (h : FVec F S200000x64 .f32) (w : FVec F S64x64 .f32) : FVec F S200000x64 .f32 :=
  Host.dotGeneral dot_S200000x64_S64x64_S200000x64_1_0_0_1_n_n none h w

/-- relu(agg + selfcoef · hw + b): the self coefficient a column [N,1], the bias a row [1,64]. -/
def combRef (agg hw : FVec F S200000x64 .f32) (sc : FVec F S200000x1 .f32) (b : FVec F S1x64 .f32) : FVec F S200000x64 .f32 :=
  maximumf (addf (addf agg (mulf (broadcastInDim S200000x64 ![0, 1] bcast_S200000x1_S200000x64_0_1 sc) hw))
    (broadcastInDim S200000x64 ![0, 1] bcast_S1x64_S200000x64_0_1 b))
    (broadcastInDim S200000x64 ![] bcast_S_S200000x64 (constant (F := F) S_ .f32 0x00000000#32))

/-- h · Wg + bg, the bias a row [1,64]. -/
def linbRef (h : FVec F S200000x64 .f32) (w : FVec F S64x64 .f32) (b : FVec F S1x64 .f32) : FVec F S200000x64 .f32 :=
  addf (Host.dotGeneral dot_S200000x64_S64x64_S200000x64_1_0_0_1_n_n none h w)
    (broadcastInDim S200000x64 ![0, 1] bcast_S1x64_S200000x64_0_1 b)

/-- The head's input: pooled features joined with relu of the protein embedding's row. -/
def headZ0 (P : FVec F S4096x64 .f32) (q : IVec S4096x1 32) (pe : FVec F S3x10 .f32) : FVec F S4096x74 .f32 :=
  concatenate S4096x74 1 [⟨S4096x64, P⟩, ⟨S4096x10,
    maximumf (Host.gather gather_S3x10_S4096x1_S4096x10_1_0_n_n_0_1_110 pe q)
      (broadcastInDim S4096x10 ![] bcast_S_S4096x10 (constant (F := F) S_ .f32 0x00000000#32))⟩]
    concatenates_S4096x64_S4096x10_S4096x74_d1

def headZ1 (z : FVec F S4096x74 .f32) (w : FVec F S74x128 .f32) (b : FVec F S1x128 .f32) : FVec F S4096x128 .f32 :=
  maximumf (addf (Host.dotGeneral dot_S4096x74_S74x128_S4096x128_1_0_0_1_n_n none z w)
    (broadcastInDim S4096x128 ![0, 1] bcast_S1x128_S4096x128_0_1 b))
    (broadcastInDim S4096x128 ![] bcast_S_S4096x128 (constant (F := F) S_ .f32 0x00000000#32))

def headZ2 (z : FVec F S4096x128 .f32) (w : FVec F S128x96 .f32) (b : FVec F S1x96 .f32) : FVec F S4096x96 .f32 :=
  maximumf (addf (Host.dotGeneral dot_S4096x128_S128x96_S4096x96_1_0_0_1_n_n none z w)
    (broadcastInDim S4096x96 ![0, 1] bcast_S1x96_S4096x96_0_1 b))
    (broadcastInDim S4096x96 ![] bcast_S_S4096x96 (constant (F := F) S_ .f32 0x00000000#32))

def headZ3 (z : FVec F S4096x96 .f32) (w : FVec F S96x32 .f32) (b : FVec F S1x32 .f32) : FVec F S4096x32 .f32 :=
  maximumf (addf (Host.dotGeneral dot_S4096x96_S96x32_S4096x32_1_0_0_1_n_n none z w)
    (broadcastInDim S4096x32 ![0, 1] bcast_S1x32_S4096x32_0_1 b))
    (broadcastInDim S4096x32 ![] bcast_S_S4096x32 (constant (F := F) S_ .f32 0x00000000#32))

/-- The last layer and the logistic, spelt 1 / (1 + exp(−y)). -/
def headOut (z : FVec F S4096x32 .f32) (w : FVec F S32x1 .f32) (b : FVec F S1x1 .f32) : FVec F S4096x1 .f32 :=
  Host.divf (broadcastInDim S4096x1 ![] bcast_S_S4096x1 (constant (F := F) S_ .f32 0x3F800000#32))
    (addf (broadcastInDim S4096x1 ![] bcast_S_S4096x1 (constant (F := F) S_ .f32 0x3F800000#32))
      (Host.exp (Host.negf (addf (Host.dotGeneral dot_S4096x32_S32x1_S4096x1_1_0_0_1_n_n none z w)
        (broadcastInDim S4096x1 ![0, 1] bcast_S1x1_S4096x1_0_1 b)))))

/-- The whole head. -/
def headRef (P : FVec F S4096x64 .f32) (q : IVec S4096x1 32) (pe : FVec F S3x10 .f32)
    (w1 : FVec F S74x128 .f32) (b1 : FVec F S1x128 .f32) (w2 : FVec F S128x96 .f32) (b2 : FVec F S1x96 .f32)
    (w3 : FVec F S96x32 .f32) (b3 : FVec F S1x32 .f32) (w4 : FVec F S32x1 .f32) (b4 : FVec F S1x1 .f32) : FVec F S4096x1 .f32 :=
  headOut (headZ3 (headZ2 (headZ1 (headZ0 P q pe) w1 b1) w2 b2) w3 b3) w4 b4

end Cert.Proof.Spec

end
-- ==== Proof.Spec2.lean ====
/-
  Two more of the reference's stages as functions of arrays: the message aggregation of one layer (gather the
  source rows, scale by the edge coefficient, scatter-add to the destination rows) and the mean pooling over graphs.
-/
import proofs.«424127_j32091995635825_2_alg».proof.Proof.Gen.ReferenceIdeal
import Idealize.ShloMosaic.PureOps.Ideal

noncomputable section

namespace Cert.Proof.Spec

open Idealize.ShloMosaic Cert.ReferenceIdeal Cert.ReferenceIdeal.Gen

variable {F : FTy → Type} [FloatOps F]

/-- ∑ over edges into each destination row of coef · hw[source row] (a negative source index wrapped by the node count). -/
def aggRef (hw : FVec F S200000x64 .f32) (src dst : IVec S1280000 32) (coef : FVec F S1280000 .f32) : FVec F S200000x64 .f32 :=
  Host.scatterAdd scatter_S200000x64_S1280000x1_S1280000x64_1_0_0_1
    (broadcastInDim S200000x64 ![] bcast_S_S200000x64 (constant (F := F) S_ .f32 0x00000000#32))
    (broadcastInDim S1280000x1 ![0] bcast_S1280000_S1280000x1_0 dst)
    (mulf (Host.gather gather_S200000x64_S1280000x1_S1280000x64_1_0_n_n_0_1_164 hw
        (broadcastInDim S1280000x1 ![0] bcast_S1280000_S1280000x1_0
          (select (cmpi .slt src (broadcastInDim S1280000 ![] bcast_S_S1280000 (constantI S_ 32 0#32)))
            (addi src (broadcastInDim S1280000 ![] bcast_S_S1280000 (constantI S_ 32 200000#32))) src)))
      (broadcastInDim S1280000x64 ![0, 1] bcast_S1280000x1_S1280000x64_0_1
        (broadcastInDim S1280000x1 ![0] bcast_S1280000_S1280000x1_0 coef)))

/-- Per graph: the sum of its nodes' rows divided by the number of its nodes. -/
def poolRef (h : FVec F S200000x64 .f32) (batch : IVec S200000 32) : FVec F S4096x64 .f32 :=
  Host.divf
    (Host.scatterAdd scatter_S4096x64_S200000x1_S200000x64_1_0_0_1
      (broadcastInDim S4096x64 ![] bcast_S_S4096x64 (constant (F := F) S_ .f32 0x00000000#32))
      (broadcastInDim S200000x1 ![0] bcast_S200000_S200000x1_0 batch) h)
    (broadcastInDim S4096x64 ![0, 1] bcast_S4096x1_S4096x64_0_1
      (Host.scatterAdd scatter_S4096x1_S200000x1_S200000x1_1_0_0_1
        (broadcastInDim S4096x1 ![] bcast_S_S4096x1 (constant (F := F) S_ .f32 0x00000000#32))
        (broadcastInDim S200000x1 ![0] bcast_S200000_S200000x1_0 batch)
        (broadcastInDim S200000x1 ![] bcast_S_S200000x1 (constant (F := F) S_ .f32 0x3F800000#32))))

end Cert.Proof.Spec

end
-- ==== Proof.ChainHost.lean ====
/-
  The kernel program's host stretches, each as a function of the buffers it reads (for any contents W), stated with
  the reference's own stage functions; and each of the reference's stages that a pallas region replaces, as the
  array-level function the region is shown to compute.
-/
import proofs.«424127_j32091995635825_2_alg».proof.Proof.Gen.KernelIdeal.Frame
import proofs.«424127_j32091995635825_2_alg».proof.Proof.RefStages
import proofs.«424127_j32091995635825_2_alg».proof.Proof.Spec
import proofs.«424127_j32091995635825_2_alg».proof.Proof.Spec2
import Idealize.ShloMosaic.Lib.StableHlo.Run
import Idealize.ShloMosaic.Lib.Pipeline.Value
import Idealize.ShloMosaic.Lib.ValueIdx

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.Proof

/-- Reshaping a vector of N entries to a column [N,1] is broadcasting it along axis 0 of [N,1]: both read entry `j 0`. -/
theorem reshape_col_eq {α : Type} {N : Nat} (y : (⟨1, ![N]⟩ : Shape).Idx → α)
    (h : (⟨1, ![N]⟩ : Shape).ShapeCasts ⟨2, ![N, 1]⟩) (h' : (⟨1, ![N]⟩ : Shape).BroadcastsInDim ⟨2, ![N, 1]⟩ ![0]) :
    shapeCast ⟨2, ![N, 1]⟩ y h = broadcastInDim ⟨2, ![N, 1]⟩ ![0] h' y := by
  funext j
  have h0 : (j 0).val < N := (j 0).isLt
  have h1 : (j 1).val = 0 := by have : (j 1).val < 1 := (j 1).isLt; omega
  let k : (⟨1, ![N]⟩ : Shape).Idx := ValueIdx.ix1 ⟨(j 0).val, h0⟩
  rw [shapeCast_apply y h j k (by
        rewrite [Shape.rowMajor_val_one, Shape.rowMajor_val_two]
        show (j 0).val = (j 0).val * 1 + (j 1).val
        omega),
    broadcastInDim_apply _ h' y j k (fun a => by
        obtain rfl : a = 0 := Subsingleton.elim _ _
        show (j 0).val = if N = 1 then 0 else (j 0).val
        split <;> omega)]

/-- Reshaping a vector of D entries to a row [1,D] is broadcasting it along axis 1 of [1,D]: both read entry `j 1`. -/
theorem reshape_row_eq {α : Type} {D : Nat} (y : (⟨1, ![D]⟩ : Shape).Idx → α)
    (h : (⟨1, ![D]⟩ : Shape).ShapeCasts ⟨2, ![1, D]⟩) (h' : (⟨1, ![D]⟩ : Shape).BroadcastsInDim ⟨2, ![1, D]⟩ ![1]) :
    shapeCast ⟨2, ![1, D]⟩ y h = broadcastInDim ⟨2, ![1, D]⟩ ![1] h' y := by
  funext j
  have h1 : (j 1).val < D := (j 1).isLt
  have h0 : (j 0).val = 0 := by have : (j 0).val < 1 := (j 0).isLt; omega
  let k : (⟨1, ![D]⟩ : Shape).Idx := ValueIdx.ix1 ⟨(j 1).val, h1⟩
  rw [shapeCast_apply y h j k (by
        rewrite [Shape.rowMajor_val_one, Shape.rowMajor_val_two]
        show (j 1).val = (j 0).val * D + (j 1).val
        rw [h0]; omega),
    broadcastInDim_apply _ h' y j k (fun a => by
        obtain rfl : a = 0 := Subsingleton.elim _ _
        show (j 1).val = if D = 1 then 0 else (j 1).val
        split <;> omega)]

variable {F : FTy → Type} [FloatOps F]

/-! ## The reference's stages as the array-level functions -/

theorem val37_eq (x0 : (⟨Cert.ReferenceIdeal.S200000x8, .f32⟩ : BufTy).Contents (Elt F)) (x5 : (⟨Cert.ReferenceIdeal.S20x32, .f32⟩ : BufTy).Contents (Elt F)) :
    Cert.ReferenceIdeal.Read.val_main_v37 (F := F) x0 x5 = Spec.embedRef (F := F) x0 x5 := rfl
theorem val38_eq (x0 : (⟨Cert.ReferenceIdeal.S200000x8, .f32⟩ : BufTy).Contents (Elt F)) (x5 : (⟨Cert.ReferenceIdeal.S20x32, .f32⟩ : BufTy).Contents (Elt F)) (x7 : (⟨Cert.ReferenceIdeal.S40x64, .f32⟩ : BufTy).Contents (Elt F)) :
    Cert.ReferenceIdeal.Read.val_main_v38 (F := F) x0 x5 x7 = Spec.linRef40 (F := F) (Cert.ReferenceIdeal.Read.val_main_v37 (F := F) x0 x5) x7 := rfl
theorem val51_eq (x0 : (⟨Cert.ReferenceIdeal.S200000x8, .f32⟩ : BufTy).Contents (Elt F)) (x1 : (⟨Cert.ReferenceIdeal.S2x1280000, .i32⟩ : BufTy).Contents (Elt F)) (x2 : (⟨Cert.ReferenceIdeal.S1280000, .f32⟩ : BufTy).Contents (Elt F)) (x5 : (⟨Cert.ReferenceIdeal.S20x32, .f32⟩ : BufTy).Contents (Elt F)) (x7 : (⟨Cert.ReferenceIdeal.S40x64, .f32⟩ : BufTy).Contents (Elt F)) :
    Cert.ReferenceIdeal.Read.val_main_v51 (F := F) x0 x1 x2 x5 x7 = Spec.aggRef (F := F) (Cert.ReferenceIdeal.Read.val_main_v38 (F := F) x0 x5 x7) (Cert.ReferenceIdeal.Read.val_main_v1 (F := F) x1) (Cert.ReferenceIdeal.Read.val_main_v3 (F := F) x1) (Cert.ReferenceIdeal.Read.val_main_v25 (F := F) x1 x2) := rfl
theorem val59_eq (x0 : (⟨Cert.ReferenceIdeal.S200000x8, .f32⟩ : BufTy).Contents (Elt F)) (x1 : (⟨Cert.ReferenceIdeal.S2x1280000, .i32⟩ : BufTy).Contents (Elt F)) (x2 : (⟨Cert.ReferenceIdeal.S1280000, .f32⟩ : BufTy).Contents (Elt F)) (x5 : (⟨Cert.ReferenceIdeal.S20x32, .f32⟩ : BufTy).Contents (Elt F)) (x7 : (⟨Cert.ReferenceIdeal.S40x64, .f32⟩ : BufTy).Contents (Elt F)) (x8 : (⟨Cert.ReferenceIdeal.S64, .f32⟩ : BufTy).Contents (Elt F)) :
    Cert.ReferenceIdeal.Read.val_main_v59 (F := F) x0 x1 x2 x5 x7 x8 = Spec.combRef (F := F) (Cert.ReferenceIdeal.Read.val_main_v51 (F := F) x0 x1 x2 x5 x7) (Cert.ReferenceIdeal.Read.val_main_v38 (F := F) x0 x5 x7) (Cert.ReferenceIdeal.Read.val_main_v52 (F := F) x1 x2) (Cert.ReferenceIdeal.Read.val_main_v56 (F := F) x8) := rfl
theorem val60_eq (x0 : (⟨Cert.ReferenceIdeal.S200000x8, .f32⟩ : BufTy).Contents (Elt F)) (x1 : (⟨Cert.ReferenceIdeal.S2x1280000, .i32⟩ : BufTy).Contents (Elt F)) (x2 : (⟨Cert.ReferenceIdeal.S1280000, .f32⟩ : BufTy).Contents (Elt F)) (x5 : (⟨Cert.ReferenceIdeal.S20x32, .f32⟩ : BufTy).Contents (Elt F)) (x7 : (⟨Cert.ReferenceIdeal.S40x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) :
    Cert.ReferenceIdeal.Read.val_main_v60 (F := F) x0 x1 x2 x5 x7 x8 x9 = Spec.linRef64 (F := F) (Cert.ReferenceIdeal.Read.val_main_v59 (F := F) x0 x1 x2 x5 x7 x8) x9 := rfl
theorem val73_eq (x0 : (⟨Cert.ReferenceIdeal.S200000x8, .f32⟩ : BufTy).Contents (Elt F)) (x1 : (⟨Cert.ReferenceIdeal.S2x1280000, .i32⟩ : BufTy).Contents (Elt F)) (x2 : (⟨Cert.ReferenceIdeal.S1280000, .f32⟩ : BufTy).Contents (Elt F)) (x5 : (⟨Cert.ReferenceIdeal.S20x32, .f32⟩ : BufTy).Contents (Elt F)) (x7 : (⟨Cert.ReferenceIdeal.S40x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) :
    Cert.ReferenceIdeal.Read.val_main_v73 (F := F) x0 x1 x2 x5 x7 x8 x9 = Spec.aggRef (F := F) (Cert.ReferenceIdeal.Read.val_main_v60 (F := F) x0 x1 x2 x5 x7 x8 x9) (Cert.ReferenceIdeal.Read.val_main_v1 (F := F) x1) (Cert.ReferenceIdeal.Read.val_main_v3 (F := F) x1) (Cert.ReferenceIdeal.Read.val_main_v25 (F := F) x1 x2) := rfl
theorem val81_eq (x0 : (⟨Cert.ReferenceIdeal.S200000x8, .f32⟩ : BufTy).Contents (Elt F)) (x1 : (⟨Cert.ReferenceIdeal.S2x1280000, .i32⟩ : BufTy).Contents (Elt F)) (x2 : (⟨Cert.ReferenceIdeal.S1280000, .f32⟩ : BufTy).Contents (Elt F)) (x5 : (⟨Cert.ReferenceIdeal.S20x32, .f32⟩ : BufTy).Contents (Elt F)) (x7 : (⟨Cert.ReferenceIdeal.S40x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) (x10 : (⟨Cert.ReferenceIdeal.S64, .f32⟩ : BufTy).Contents (Elt F)) :
    Cert.ReferenceIdeal.Read.val_main_v81 (F := F) x0 x1 x2 x5 x7 x8 x9 x10 = Spec.combRef (F := F) (Cert.ReferenceIdeal.Read.val_main_v73 (F := F) x0 x1 x2 x5 x7 x8 x9) (Cert.ReferenceIdeal.Read.val_main_v60 (F := F) x0 x1 x2 x5 x7 x8 x9) (Cert.ReferenceIdeal.Read.val_main_v74 (F := F) x1 x2) (Cert.ReferenceIdeal.Read.val_main_v78 (F := F) x10) := rfl
theorem val82_eq (x0 : (⟨Cert.ReferenceIdeal.S200000x8, .f32⟩ : BufTy).Contents (Elt F)) (x1 : (⟨Cert.ReferenceIdeal.S2x1280000, .i32⟩ : BufTy).Contents (Elt F)) (x2 : (⟨Cert.ReferenceIdeal.S1280000, .f32⟩ : BufTy).Contents (Elt F)) (x5 : (⟨Cert.ReferenceIdeal.S20x32, .f32⟩ : BufTy).Contents (Elt F)) (x7 : (⟨Cert.ReferenceIdeal.S40x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) (x10 : (⟨Cert.ReferenceIdeal.S64, .f32⟩ : BufTy).Contents (Elt F)) (x11 : (⟨Cert.ReferenceIdeal.S64x64, .f32⟩ : BufTy).Contents (Elt F)) :
    Cert.ReferenceIdeal.Read.val_main_v82 (F := F) x0 x1 x2 x5 x7 x8 x9 x10 x11 = Spec.linRef64 (F := F) (Cert.ReferenceIdeal.Read.val_main_v81 (F := F) x0 x1 x2 x5 x7 x8 x9 x10) x11 := rfl
theorem val95_eq (x0 : (⟨Cert.ReferenceIdeal.S200000x8, .f32⟩ : BufTy).Contents (Elt F)) (x1 : (⟨Cert.ReferenceIdeal.S2x1280000, .i32⟩ : BufTy).Contents (Elt F)) (x2 : (⟨Cert.ReferenceIdeal.S1280000, .f32⟩ : BufTy).Contents (Elt F)) (x5 : (⟨Cert.ReferenceIdeal.S20x32, .f32⟩ : BufTy).Contents (Elt F)) (x7 : (⟨Cert.ReferenceIdeal.S40x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) (x10 : (⟨Cert.ReferenceIdeal.S64, .f32⟩ : BufTy).Contents (Elt F)) (x11 : (⟨Cert.ReferenceIdeal.S64x64, .f32⟩ : BufTy).Contents (Elt F)) :
    Cert.ReferenceIdeal.Read.val_main_v95 (F := F) x0 x1 x2 x5 x7 x8 x9 x10 x11 = Spec.aggRef (F := F) (Cert.ReferenceIdeal.Read.val_main_v82 (F := F) x0 x1 x2 x5 x7 x8 x9 x10 x11) (Cert.ReferenceIdeal.Read.val_main_v1 (F := F) x1) (Cert.ReferenceIdeal.Read.val_main_v3 (F := F) x1) (Cert.ReferenceIdeal.Read.val_main_v25 (F := F) x1 x2) := rfl
theorem val103_eq (x0 : (⟨Cert.ReferenceIdeal.S200000x8, .f32⟩ : BufTy).Contents (Elt F)) (x1 : (⟨Cert.ReferenceIdeal.S2x1280000, .i32⟩ : BufTy).Contents (Elt F)) (x2 : (⟨Cert.ReferenceIdeal.S1280000, .f32⟩ : BufTy).Contents (Elt F)) (x5 : (⟨Cert.ReferenceIdeal.S20x32, .f32⟩ : BufTy).Contents (Elt F)) (x7 : (⟨Cert.ReferenceIdeal.S40x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) (x10 : (⟨Cert.ReferenceIdeal.S64, .f32⟩ : BufTy).Contents (Elt F)) (x11 : (⟨Cert.ReferenceIdeal.S64x64, .f32⟩ : BufTy).Contents (Elt F)) (x12 : (⟨Cert.ReferenceIdeal.S64, .f32⟩ : BufTy).Contents (Elt F)) :
    Cert.ReferenceIdeal.Read.val_main_v103 (F := F) x0 x1 x2 x5 x7 x8 x9 x10 x11 x12 = Spec.combRef (F := F) (Cert.ReferenceIdeal.Read.val_main_v95 (F := F) x0 x1 x2 x5 x7 x8 x9 x10 x11) (Cert.ReferenceIdeal.Read.val_main_v82 (F := F) x0 x1 x2 x5 x7 x8 x9 x10 x11) (Cert.ReferenceIdeal.Read.val_main_v96 (F := F) x1 x2) (Cert.ReferenceIdeal.Read.val_main_v100 (F := F) x12) := rfl
theorem val104_eq (x0 : (⟨Cert.ReferenceIdeal.S200000x8, .f32⟩ : BufTy).Contents (Elt F)) (x1 : (⟨Cert.ReferenceIdeal.S2x1280000, .i32⟩ : BufTy).Contents (Elt F)) (x2 : (⟨Cert.ReferenceIdeal.S1280000, .f32⟩ : BufTy).Contents (Elt F)) (x5 : (⟨Cert.ReferenceIdeal.S20x32, .f32⟩ : BufTy).Contents (Elt F)) (x7 : (⟨Cert.ReferenceIdeal.S40x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) (x10 : (⟨Cert.ReferenceIdeal.S64, .f32⟩ : BufTy).Contents (Elt F)) (x11 : (⟨Cert.ReferenceIdeal.S64x64, .f32⟩ : BufTy).Contents (Elt F)) (x12 : (⟨Cert.ReferenceIdeal.S64, .f32⟩ : BufTy).Contents (Elt F)) (x13 : (⟨Cert.ReferenceIdeal.S64x64, .f32⟩ : BufTy).Contents (Elt F)) :
    Cert.ReferenceIdeal.Read.val_main_v104 (F := F) x0 x1 x2 x5 x7 x8 x9 x10 x11 x12 x13 = Spec.linRef64 (F := F) (Cert.ReferenceIdeal.Read.val_main_v103 (F := F) x0 x1 x2 x5 x7 x8 x9 x10 x11 x12) x13 := rfl
theorem val117_eq (x0 : (⟨Cert.ReferenceIdeal.S200000x8, .f32⟩ : BufTy).Contents (Elt F)) (x1 : (⟨Cert.ReferenceIdeal.S2x1280000, .i32⟩ : BufTy).Contents (Elt F)) (x2 : (⟨Cert.ReferenceIdeal.S1280000, .f32⟩ : BufTy).Contents (Elt F)) (x5 : (⟨Cert.ReferenceIdeal.S20x32, .f32⟩ : BufTy).Contents (Elt F)) (x7 : (⟨Cert.ReferenceIdeal.S40x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) (x10 : (⟨Cert.ReferenceIdeal.S64, .f32⟩ : BufTy).Contents (Elt F)) (x11 : (⟨Cert.ReferenceIdeal.S64x64, .f32⟩ : BufTy).Contents (Elt F)) (x12 : (⟨Cert.ReferenceIdeal.S64, .f32⟩ : BufTy).Contents (Elt F)) (x13 : (⟨Cert.ReferenceIdeal.S64x64, .f32⟩ : BufTy).Contents (Elt F)) :
    Cert.ReferenceIdeal.Read.val_main_v117 (F := F) x0 x1 x2 x5 x7 x8 x9 x10 x11 x12 x13 = Spec.aggRef (F := F) (Cert.ReferenceIdeal.Read.val_main_v104 (F := F) x0 x1 x2 x5 x7 x8 x9 x10 x11 x12 x13) (Cert.ReferenceIdeal.Read.val_main_v1 (F := F) x1) (Cert.ReferenceIdeal.Read.val_main_v3 (F := F) x1) (Cert.ReferenceIdeal.Read.val_main_v25 (F := F) x1 x2) := rfl
theorem val125_eq (x0 : (⟨Cert.ReferenceIdeal.S200000x8, .f32⟩ : BufTy).Contents (Elt F)) (x1 : (⟨Cert.ReferenceIdeal.S2x1280000, .i32⟩ : BufTy).Contents (Elt F)) (x2 : (⟨Cert.ReferenceIdeal.S1280000, .f32⟩ : BufTy).Contents (Elt F)) (x5 : (⟨Cert.ReferenceIdeal.S20x32, .f32⟩ : BufTy).Contents (Elt F)) (x7 : (⟨Cert.ReferenceIdeal.S40x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) (x10 : (⟨Cert.ReferenceIdeal.S64, .f32⟩ : BufTy).Contents (Elt F)) (x11 : (⟨Cert.ReferenceIdeal.S64x64, .f32⟩ : BufTy).Contents (Elt F)) (x12 : (⟨Cert.ReferenceIdeal.S64, .f32⟩ : BufTy).Contents (Elt F)) (x13 : (⟨Cert.ReferenceIdeal.S64x64, .f32⟩ : BufTy).Contents (Elt F)) (x14 : (⟨Cert.ReferenceIdeal.S64, .f32⟩ : BufTy).Contents (Elt F)) :
    Cert.ReferenceIdeal.Read.val_main_v125 (F := F) x0 x1 x2 x5 x7 x8 x9 x10 x11 x12 x13 x14 = Spec.combRef (F := F) (Cert.ReferenceIdeal.Read.val_main_v117 (F := F) x0 x1 x2 x5 x7 x8 x9 x10 x11 x12 x13) (Cert.ReferenceIdeal.Read.val_main_v104 (F := F) x0 x1 x2 x5 x7 x8 x9 x10 x11 x12 x13) (Cert.ReferenceIdeal.Read.val_main_v118 (F := F) x1 x2) (Cert.ReferenceIdeal.Read.val_main_v122 (F := F) x14) := rfl
theorem val129_eq (x0 : (⟨Cert.ReferenceIdeal.S200000x8, .f32⟩ : BufTy).Contents (Elt F)) (x1 : (⟨Cert.ReferenceIdeal.S2x1280000, .i32⟩ : BufTy).Contents (Elt F)) (x2 : (⟨Cert.ReferenceIdeal.S1280000, .f32⟩ : BufTy).Contents (Elt F)) (x5 : (⟨Cert.ReferenceIdeal.S20x32, .f32⟩ : BufTy).Contents (Elt F)) (x7 : (⟨Cert.ReferenceIdeal.S40x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) (x10 : (⟨Cert.ReferenceIdeal.S64, .f32⟩ : BufTy).Contents (Elt F)) (x11 : (⟨Cert.ReferenceIdeal.S64x64, .f32⟩ : BufTy).Contents (Elt F)) (x12 : (⟨Cert.ReferenceIdeal.S64, .f32⟩ : BufTy).Contents (Elt F)) (x13 : (⟨Cert.ReferenceIdeal.S64x64, .f32⟩ : BufTy).Contents (Elt F)) (x14 : (⟨Cert.ReferenceIdeal.S64, .f32⟩ : BufTy).Contents (Elt F)) (x15 : (⟨Cert.ReferenceIdeal.S64x64, .f32⟩ : BufTy).Contents (Elt F)) (x16 : (⟨Cert.ReferenceIdeal.S64, .f32⟩ : BufTy).Contents (Elt F)) :
    Cert.ReferenceIdeal.Read.val_main_v129 (F := F) x0 x1 x2 x5 x7 x8 x9 x10 x11 x12 x13 x14 x15 x16 = Spec.linbRef (F := F) (Cert.ReferenceIdeal.Read.val_main_v125 (F := F) x0 x1 x2 x5 x7 x8 x9 x10 x11 x12 x13 x14) x15 (Cert.ReferenceIdeal.Read.val_main_v127 (F := F) x16) := rfl
theorem val138_eq (x0 : (⟨Cert.ReferenceIdeal.S200000x8, .f32⟩ : BufTy).Contents (Elt F)) (x1 : (⟨Cert.ReferenceIdeal.S2x1280000, .i32⟩ : BufTy).Contents (Elt F)) (x2 : (⟨Cert.ReferenceIdeal.S1280000, .f32⟩ : BufTy).Contents (Elt F)) (x3 : (⟨Cert.ReferenceIdeal.S200000, .i32⟩ : BufTy).Contents (Elt F)) (x5 : (⟨Cert.ReferenceIdeal.S20x32, .f32⟩ : BufTy).Contents (Elt F)) (x7 : (⟨Cert.ReferenceIdeal.S40x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) (x10 : (⟨Cert.ReferenceIdeal.S64, .f32⟩ : BufTy).Contents (Elt F)) (x11 : (⟨Cert.ReferenceIdeal.S64x64, .f32⟩ : BufTy).Contents (Elt F)) (x12 : (⟨Cert.ReferenceIdeal.S64, .f32⟩ : BufTy).Contents (Elt F)) (x13 : (⟨Cert.ReferenceIdeal.S64x64, .f32⟩ : BufTy).Contents (Elt F)) (x14 : (⟨Cert.ReferenceIdeal.S64, .f32⟩ : BufTy).Contents (Elt F)) (x15 : (⟨Cert.ReferenceIdeal.S64x64, .f32⟩ : BufTy).Contents (Elt F)) (x16 : (⟨Cert.ReferenceIdeal.S64, .f32⟩ : BufTy).Contents (Elt F)) :
    Cert.ReferenceIdeal.Read.val_main_v138 (F := F) x0 x1 x2 x3 x5 x7 x8 x9 x10 x11 x12 x13 x14 x15 x16 = Spec.poolRef (F := F) (Cert.ReferenceIdeal.Read.val_main_v129 (F := F) x0 x1 x2 x5 x7 x8 x9 x10 x11 x12 x13 x14 x15 x16) x3 := rfl
theorem val172_eq (x0 : (⟨Cert.ReferenceIdeal.S200000x8, .f32⟩ : BufTy).Contents (Elt F)) (x1 : (⟨Cert.ReferenceIdeal.S2x1280000, .i32⟩ : BufTy).Contents (Elt F)) (x2 : (⟨Cert.ReferenceIdeal.S1280000, .f32⟩ : BufTy).Contents (Elt F)) (x3 : (⟨Cert.ReferenceIdeal.S200000, .i32⟩ : BufTy).Contents (Elt F)) (x4 : (⟨Cert.ReferenceIdeal.S4096, .i32⟩ : BufTy).Contents (Elt F)) (x5 : (⟨Cert.ReferenceIdeal.S20x32, .f32⟩ : BufTy).Contents (Elt F)) (x6 : (⟨Cert.ReferenceIdeal.S3x10, .f32⟩ : BufTy).Contents (Elt F)) (x7 : (⟨Cert.ReferenceIdeal.S40x64, .f32⟩ : BufTy).Contents (Elt F)) (x8 : (⟨Cert.ReferenceIdeal.S64, .f32⟩ : BufTy).Contents (Elt F)) (x9 : (⟨Cert.ReferenceIdeal.S64x64, .f32⟩ : BufTy).Contents (Elt F)) (x10 : (⟨Cert.ReferenceIdeal.S64, .f32⟩ : BufTy).Contents (Elt F)) (x11 : (⟨Cert.ReferenceIdeal.S64x64, .f32⟩ : BufTy).Contents (Elt F)) (x12 : (⟨Cert.ReferenceIdeal.S64, .f32⟩ : BufTy).Contents (Elt F)) (x13 : (⟨Cert.ReferenceIdeal.S64x64, .f32⟩ : BufTy).Contents (Elt F)) (x14 : (⟨Cert.ReferenceIdeal.S64, .f32⟩ : BufTy).Contents (Elt F)) (x15 : (⟨Cert.ReferenceIdeal.S64x64, .f32⟩ : BufTy).Contents (Elt F)) (x16 : (⟨Cert.ReferenceIdeal.S64, .f32⟩ : BufTy).Contents (Elt F)) (x17 : (⟨Cert.ReferenceIdeal.S74x128, .f32⟩ : BufTy).Contents (Elt F)) (x18 : (⟨Cert.ReferenceIdeal.S128, .f32⟩ : BufTy).Contents (Elt F)) (x19 : (⟨Cert.ReferenceIdeal.S128x96, .f32⟩ : BufTy).Contents (Elt F)) (x20 : (⟨Cert.ReferenceIdeal.S96, .f32⟩ : BufTy).Contents (Elt F)) (x21 : (⟨Cert.ReferenceIdeal.S96x32, .f32⟩ : BufTy).Contents (Elt F)) (x22 : (⟨Cert.ReferenceIdeal.S32, .f32⟩ : BufTy).Contents (Elt F)) (x23 : (⟨Cert.ReferenceIdeal.S32x1, .f32⟩ : BufTy).Contents (Elt F)) (x24 : (⟨Cert.ReferenceIdeal.S1, .f32⟩ : BufTy).Contents (Elt F)) :
    Cert.ReferenceIdeal.Read.val_main_v172 (F := F) x0 x1 x2 x3 x4 x5 x6 x7 x8 x9 x10 x11 x12 x13 x14 x15 x16 x17 x18 x19 x20 x21 x22 x23 x24 = Spec.headRef (F := F) (Cert.ReferenceIdeal.Read.val_main_v138 (F := F) x0 x1 x2 x3 x5 x7 x8 x9 x10 x11 x12 x13 x14 x15 x16) (Cert.ReferenceIdeal.Read.val_main_v144 (F := F) x4) x6 x17 (Cert.ReferenceIdeal.Read.val_main_v149 (F := F) x18) x19 (Cert.ReferenceIdeal.Read.val_main_v154 (F := F) x20) x21 (Cert.ReferenceIdeal.Read.val_main_v159 (F := F) x22) x23 (Cert.ReferenceIdeal.Read.val_main_v164 (F := F) x24) := rfl
theorem val52_eq (x1 : (⟨Cert.ReferenceIdeal.S2x1280000, .i32⟩ : BufTy).Contents (Elt F)) (x2 : (⟨Cert.ReferenceIdeal.S1280000, .f32⟩ : BufTy).Contents (Elt F)) :
    Cert.ReferenceIdeal.Read.val_main_v52 (F := F) x1 x2 = shapeCast Cert.ReferenceIdeal.S200000x1 (Cert.ReferenceIdeal.Read.val_main_v26 (F := F) x1 x2) (by decide) :=
  (reshape_col_eq _ _ _).symm
theorem val74_eq (x1 : (⟨Cert.ReferenceIdeal.S2x1280000, .i32⟩ : BufTy).Contents (Elt F)) (x2 : (⟨Cert.ReferenceIdeal.S1280000, .f32⟩ : BufTy).Contents (Elt F)) :
    Cert.ReferenceIdeal.Read.val_main_v74 (F := F) x1 x2 = shapeCast Cert.ReferenceIdeal.S200000x1 (Cert.ReferenceIdeal.Read.val_main_v26 (F := F) x1 x2) (by decide) :=
  (reshape_col_eq _ _ _).symm
theorem val96_eq (x1 : (⟨Cert.ReferenceIdeal.S2x1280000, .i32⟩ : BufTy).Contents (Elt F)) (x2 : (⟨Cert.ReferenceIdeal.S1280000, .f32⟩ : BufTy).Contents (Elt F)) :
    Cert.ReferenceIdeal.Read.val_main_v96 (F := F) x1 x2 = shapeCast Cert.ReferenceIdeal.S200000x1 (Cert.ReferenceIdeal.Read.val_main_v26 (F := F) x1 x2) (by decide) :=
  (reshape_col_eq _ _ _).symm
theorem val118_eq (x1 : (⟨Cert.ReferenceIdeal.S2x1280000, .i32⟩ : BufTy).Contents (Elt F)) (x2 : (⟨Cert.ReferenceIdeal.S1280000, .f32⟩ : BufTy).Contents (Elt F)) :
    Cert.ReferenceIdeal.Read.val_main_v118 (F := F) x1 x2 = shapeCast Cert.ReferenceIdeal.S200000x1 (Cert.ReferenceIdeal.Read.val_main_v26 (F := F) x1 x2) (by decide) :=
  (reshape_col_eq _ _ _).symm
theorem val56_eq (x8 : (⟨Cert.ReferenceIdeal.S64, .f32⟩ : BufTy).Contents (Elt F)) :
    Cert.ReferenceIdeal.Read.val_main_v56 (F := F) x8 = shapeCast Cert.ReferenceIdeal.S1x64 x8 (by decide) :=
  (reshape_row_eq _ _ _).symm
theorem val78_eq (x10 : (⟨Cert.ReferenceIdeal.S64, .f32⟩ : BufTy).Contents (Elt F)) :
    Cert.ReferenceIdeal.Read.val_main_v78 (F := F) x10 = shapeCast Cert.ReferenceIdeal.S1x64 x10 (by decide) :=
  (reshape_row_eq _ _ _).symm
theorem val100_eq (x12 : (⟨Cert.ReferenceIdeal.S64, .f32⟩ : BufTy).Contents (Elt F)) :
    Cert.ReferenceIdeal.Read.val_main_v100 (F := F) x12 = shapeCast Cert.ReferenceIdeal.S1x64 x12 (by decide) :=
  (reshape_row_eq _ _ _).symm
theorem val122_eq (x14 : (⟨Cert.ReferenceIdeal.S64, .f32⟩ : BufTy).Contents (Elt F)) :
    Cert.ReferenceIdeal.Read.val_main_v122 (F := F) x14 = shapeCast Cert.ReferenceIdeal.S1x64 x14 (by decide) :=
  (reshape_row_eq _ _ _).symm
theorem val127_eq (x16 : (⟨Cert.ReferenceIdeal.S64, .f32⟩ : BufTy).Contents (Elt F)) :
    Cert.ReferenceIdeal.Read.val_main_v127 (F := F) x16 = shapeCast Cert.ReferenceIdeal.S1x64 x16 (by decide) :=
  (reshape_row_eq _ _ _).symm
theorem val149_eq (x18 : (⟨Cert.ReferenceIdeal.S128, .f32⟩ : BufTy).Contents (Elt F)) :
    Cert.ReferenceIdeal.Read.val_main_v149 (F := F) x18 = shapeCast Cert.ReferenceIdeal.S1x128 x18 (by decide) :=
  (reshape_row_eq _ _ _).symm
theorem val154_eq (x20 : (⟨Cert.ReferenceIdeal.S96, .f32⟩ : BufTy).Contents (Elt F)) :
    Cert.ReferenceIdeal.Read.val_main_v154 (F := F) x20 = shapeCast Cert.ReferenceIdeal.S1x96 x20 (by decide) :=
  (reshape_row_eq _ _ _).symm
theorem val159_eq (x22 : (⟨Cert.ReferenceIdeal.S32, .f32⟩ : BufTy).Contents (Elt F)) :
    Cert.ReferenceIdeal.Read.val_main_v159 (F := F) x22 = shapeCast Cert.ReferenceIdeal.S1x32 x22 (by decide) :=
  (reshape_row_eq _ _ _).symm
theorem val164_eq (x24 : (⟨Cert.ReferenceIdeal.S1, .f32⟩ : BufTy).Contents (Elt F)) :
    Cert.ReferenceIdeal.Read.val_main_v164 (F := F) x24 = shapeCast Cert.ReferenceIdeal.S1x1 x24 (by decide) :=
  (reshape_row_eq _ _ _).symm

/-! ## The kernel program's host stretches -/

variable (W : Valuation τ sig (Elt F))

set_option maxHeartbeats 4000000 in
theorem host0_v1 : StableHlo.after hostOps0 W (Proc.devRef .tc main_v1)
    = Cert.ReferenceIdeal.Read.val_main_v1 (F := F) (W (Proc.devRef .tc main_arg1)) := by
  dsimp only [hostOps0]
  after_results_simp <;> rfl
set_option maxHeartbeats 4000000 in
theorem host0_v3 : StableHlo.after hostOps0 W (Proc.devRef .tc main_v3)
    = Cert.ReferenceIdeal.Read.val_main_v3 (F := F) (W (Proc.devRef .tc main_arg1)) := by
  dsimp only [hostOps0]
  after_results_simp <;> rfl
set_option maxHeartbeats 4000000 in
theorem host0_v25 : StableHlo.after hostOps0 W (Proc.devRef .tc main_v25)
    = Cert.ReferenceIdeal.Read.val_main_v25 (F := F) (W (Proc.devRef .tc main_arg1)) (W (Proc.devRef .tc main_arg2)) := by
  dsimp only [hostOps0]
  after_results_simp <;> rfl
set_option maxHeartbeats 4000000 in
theorem host0_v26 : StableHlo.after hostOps0 W (Proc.devRef .tc main_v26)
    = Cert.ReferenceIdeal.Read.val_main_v26 (F := F) (W (Proc.devRef .tc main_arg1)) (W (Proc.devRef .tc main_arg2)) := by
  dsimp only [hostOps0]
  after_results_simp <;> rfl

set_option maxHeartbeats 4000000 in
theorem host2_v41 : StableHlo.after hostOps2 W (Proc.devRef .tc main_v41)
    = Spec.aggRef (F := F) (W (Proc.devRef .tc main_v28)) (W (Proc.devRef .tc main_v1)) (W (Proc.devRef .tc main_v3)) (W (Proc.devRef .tc main_v25)) := by
  dsimp only [hostOps2]
  after_results_simp <;> rfl
set_option maxHeartbeats 4000000 in
theorem host2_v42 : StableHlo.after hostOps2 W (Proc.devRef .tc main_v42)
    = shapeCast S200000x1 ((W (Proc.devRef .tc main_v26)) : FVec F S200000 .f32) := by
  dsimp only [hostOps2]
  after_results_simp <;> rfl
set_option maxHeartbeats 4000000 in
theorem host2_v43 : StableHlo.after hostOps2 W (Proc.devRef .tc main_v43)
    = shapeCast S1x64 ((W (Proc.devRef .tc main_arg8)) : FVec F S64 .f32) := by
  dsimp only [hostOps2]
  after_results_simp <;> rfl
set_option maxHeartbeats 4000000 in
theorem host4_v58 : StableHlo.after hostOps4 W (Proc.devRef .tc main_v58)
    = Spec.aggRef (F := F) (W (Proc.devRef .tc main_v45)) (W (Proc.devRef .tc main_v1)) (W (Proc.devRef .tc main_v3)) (W (Proc.devRef .tc main_v25)) := by
  dsimp only [hostOps4]
  after_results_simp <;> rfl
set_option maxHeartbeats 4000000 in
theorem host4_v59 : StableHlo.after hostOps4 W (Proc.devRef .tc main_v59)
    = shapeCast S200000x1 ((W (Proc.devRef .tc main_v26)) : FVec F S200000 .f32) := by
  dsimp only [hostOps4]
  after_results_simp <;> rfl
set_option maxHeartbeats 4000000 in
theorem host4_v60 : StableHlo.after hostOps4 W (Proc.devRef .tc main_v60)
    = shapeCast S1x64 ((W (Proc.devRef .tc main_arg10)) : FVec F S64 .f32) := by
  dsimp only [hostOps4]
  after_results_simp <;> rfl
set_option maxHeartbeats 4000000 in
theorem host6_v75 : StableHlo.after hostOps6 W (Proc.devRef .tc main_v75)
    = Spec.aggRef (F := F) (W (Proc.devRef .tc main_v62)) (W (Proc.devRef .tc main_v1)) (W (Proc.devRef .tc main_v3)) (W (Proc.devRef .tc main_v25)) := by
  dsimp only [hostOps6]
  after_results_simp <;> rfl
set_option maxHeartbeats 4000000 in
theorem host6_v76 : StableHlo.after hostOps6 W (Proc.devRef .tc main_v76)
    = shapeCast S200000x1 ((W (Proc.devRef .tc main_v26)) : FVec F S200000 .f32) := by
  dsimp only [hostOps6]
  after_results_simp <;> rfl
set_option maxHeartbeats 4000000 in
theorem host6_v77 : StableHlo.after hostOps6 W (Proc.devRef .tc main_v77)
    = shapeCast S1x64 ((W (Proc.devRef .tc main_arg12)) : FVec F S64 .f32) := by
  dsimp only [hostOps6]
  after_results_simp <;> rfl
set_option maxHeartbeats 4000000 in
theorem host8_v92 : StableHlo.after hostOps8 W (Proc.devRef .tc main_v92)
    = Spec.aggRef (F := F) (W (Proc.devRef .tc main_v79)) (W (Proc.devRef .tc main_v1)) (W (Proc.devRef .tc main_v3)) (W (Proc.devRef .tc main_v25)) := by
  dsimp only [hostOps8]
  after_results_simp <;> rfl
set_option maxHeartbeats 4000000 in
theorem host8_v93 : StableHlo.after hostOps8 W (Proc.devRef .tc main_v93)
    = shapeCast S200000x1 ((W (Proc.devRef .tc main_v26)) : FVec F S200000 .f32) := by
  dsimp only [hostOps8]
  after_results_simp <;> rfl
set_option maxHeartbeats 4000000 in
theorem host8_v94 : StableHlo.after hostOps8 W (Proc.devRef .tc main_v94)
    = shapeCast S1x64 ((W (Proc.devRef .tc main_arg14)) : FVec F S64 .f32) := by
  dsimp only [hostOps8]
  after_results_simp <;> rfl
set_option maxHeartbeats 4000000 in
theorem host9_v96 : StableHlo.after hostOps9 W (Proc.devRef .tc main_v96)
    = shapeCast S1x64 ((W (Proc.devRef .tc main_arg16)) : FVec F S64 .f32) := by
  dsimp only [hostOps9]
  after_results_simp <;> rfl
set_option maxHeartbeats 4000000 in
theorem host10_v106 : StableHlo.after hostOps10 W (Proc.devRef .tc main_v106)
    = Spec.poolRef (F := F) (W (Proc.devRef .tc main_v97)) (W (Proc.devRef .tc main_arg3)) := by
  dsimp only [hostOps10]
  after_results_simp <;> rfl
set_option maxHeartbeats 4000000 in
theorem host10_v107 : StableHlo.after hostOps10 W (Proc.devRef .tc main_v107)
    = shapeCast S4096x1 ((W (Proc.devRef .tc main_arg4)) : IVec S4096 32) := by
  dsimp only [hostOps10]
  after_results_simp <;> rfl
set_option maxHeartbeats 4000000 in
theorem host10_v108 : StableHlo.after hostOps10 W (Proc.devRef .tc main_v108)
    = shapeCast S1x128 ((W (Proc.devRef .tc main_arg18)) : FVec F S128 .f32) := by
  dsimp only [hostOps10]
  after_results_simp <;> rfl
set_option maxHeartbeats 4000000 in
theorem host10_v109 : StableHlo.after hostOps10 W (Proc.devRef .tc main_v109)
    = shapeCast S1x96 ((W (Proc.devRef .tc main_arg20)) : FVec F S96 .f32) := by
  dsimp only [hostOps10]
  after_results_simp <;> rfl
set_option maxHeartbeats 4000000 in
theorem host10_v110 : StableHlo.after hostOps10 W (Proc.devRef .tc main_v110)
    = shapeCast S1x32 ((W (Proc.devRef .tc main_arg22)) : FVec F S32 .f32) := by
  dsimp only [hostOps10]
  after_results_simp <;> rfl
set_option maxHeartbeats 4000000 in
theorem host10_v111 : StableHlo.after hostOps10 W (Proc.devRef .tc main_v111)
    = shapeCast S1x1 ((W (Proc.devRef .tc main_arg24)) : FVec F S1 .f32) := by
  dsimp only [hostOps10]
  after_results_simp <;> rfl

end Cert.KernelIdeal.Chain

end
-- ==== Proof.PreDecode.lean ====
import proofs.«424127_j32091995635825_2_alg».proof.Defs
import proofs.«424127_j32091995635825_2_alg».proof.Proof.Gen.KernelIdeal
import proofs.«424127_j32091995635825_2_alg».proof.Proof.Gen.Pre_finite_inputs
import Idealize.ShloMosaic.Lib.ValueIdx
import Idealize.ShloMosaic.Lib.Pipeline.Value
import Idealize.ShloMosaic.Lib.ReduceAll
import Idealize.ShloMosaic.Lib.StableHlo.Predicate

noncomputable section

namespace Cert.Proof.PreDecode

open Idealize.ShloMosaic Idealize.ShloMosaic.ValueIdx Idealize.SL.Sem
open Cert.KernelIdeal

/-- The rank-0 shape has exactly one index. -/
instance subsingleton_scalar_idx : Subsingleton ((⟨0, ![]⟩ : Shape).Idx) := ⟨fun a b => funext fun d => d.elim0⟩

/-- A 32-bit word whose signed value lies in [0, n), n small, is the word of a natural number below n. -/
theorem word_of_range (w : BitVec 32) (n : Nat) (hn : n < 2 ^ 31) (h0 : 0 ≤ w.toInt) (h1 : w.toInt < n) :
    ∃ k : Fin n, w = BitVec.ofNat 32 k.val := by
  have hk : w.toInt.toNat < n := by omega
  refine ⟨⟨w.toInt.toNat, hk⟩, ?_⟩
  apply BitVec.eq_of_toInt_eq
  show w.toInt = (BitVec.ofNat 32 w.toInt.toNat).toInt
  rw [StableHlo.Predicate.toInt_ofNat_small _ (by omega)]
  omega

/-- Column 0 of the node features, reshaped to a vector, read at node r, is the feature array at (r, 0). -/
theorem atom_column_read (x : FVec Ideal Cert.Pre_finite_inputs.S200000x8 .f32)
    (hs : Cert.Pre_finite_inputs.S200000x8.Slices ![0, 0] Cert.Pre_finite_inputs.S200000x1)
    (hc : Cert.Pre_finite_inputs.S200000x1.ShapeCasts Cert.Pre_finite_inputs.S200000) (r : Fin 200000) :
    shapeCast Cert.Pre_finite_inputs.S200000 (extractStridedSlice Cert.Pre_finite_inputs.S200000x1 ![0, 0] x hs) hc (ix1 r)
      = x (ix2 r (0 : Fin 8)) := by
  rw [shapeCast_apply _ hc (ix1 r) (ix2 r (0 : Fin 1))
    (by rw [Shape.rowMajor_val_two, Shape.rowMajor_val_one]; show r.val * 1 + 0 = r.val; omega)]
  exact extractStridedSlice_apply ![0, 0] x hs (ix2 r (0 : Fin 1)) (ix2 r (0 : Fin 8)) (fun a => match a with
    | ⟨0, _⟩ => by show r.val = 0 + r.val; omega
    | ⟨1, _⟩ => by show (0 : Nat) = 0 + 0; rfl)

/-- The last part of the precondition being all ones says: its incoming conjunct for the atom ids is one,
    and every graph's protein id, read signed, lies in [0, 3). -/
theorem part7_read (arg4 : IVec Cert.Pre_finite_inputs.S4096 32) (v108 v120 : IVec Cert.Pre_finite_inputs.S_ 1)
    (h : Cert.Pre_finite_inputs.fn_part7 (F := Ideal) arg4 v108 v120 = fun _ => 1#1) :
    v120 ix0 = 1#1 ∧ ∀ g : Fin 4096, 0 ≤ (arg4 (ix1 g)).toInt ∧ (arg4 (ix1 g)).toInt < 3 := by
  have hj := congrFun h ix0
  unfold Cert.Pre_finite_inputs.fn_part7 at hj
  dsimp only at hj
  obtain ⟨h121, h127⟩ := IntOp.andi_eq_one.1 hj
  obtain ⟨-, h120⟩ := IntOp.andi_eq_one.1 h121
  refine ⟨h120, fun g => ?_⟩
  have hg := Host.reduce_andi_all _ _ _ _ ix0 h127 (ix1 g)
  obtain ⟨hge, hlt⟩ := IntOp.andi_eq_one.1 hg
  have a : (0#32 : BitVec 32).toInt ≤ (arg4 (ix1 g)).toInt := IntOp.cmpi_sge.1 hge
  have b : (arg4 (ix1 g)).toInt < (3#32 : BitVec 32).toInt := IntOp.cmpi_slt.1 hlt
  have z0 : (0#32 : BitVec 32).toInt = 0 := by decide
  have z3 : (3#32 : BitVec 32).toInt = 3 := by decide
  rw [z0] at a; rw [z3] at b
  exact ⟨a, b⟩

/-- The sixth part of the precondition being all ones says: every node's atom id (column 0 of its features,
    converted to an integer), read signed, lies in [0, 20), and every graph's protein id lies in [0, 3). -/
theorem part6_read (arg0 : FVec Ideal Cert.Pre_finite_inputs.S200000x8 .f32) (arg4 : IVec Cert.Pre_finite_inputs.S4096 32)
    (arg24 : FVec Ideal Cert.Pre_finite_inputs.S1 .f32) (v98 : IVec Cert.Pre_finite_inputs.S_ 1)
    (v101 : IVec Cert.Pre_finite_inputs.S32x1 1) (c39 : IVec Cert.Pre_finite_inputs.S_ 1)
    (h : Cert.Pre_finite_inputs.fn_part6 (F := Ideal) arg0 arg4 arg24 v98 v101 c39 = fun _ => 1#1) :
    (∀ r : Fin 200000,
      0 ≤ (FloatOps.fptosi (F := Ideal) (φ := .f32) 32 (arg0 (ix2 r (0 : Fin 8)))).toInt
      ∧ (FloatOps.fptosi (F := Ideal) (φ := .f32) 32 (arg0 (ix2 r (0 : Fin 8)))).toInt < 20)
    ∧ ∀ g : Fin 4096, 0 ≤ (arg4 (ix1 g)).toInt ∧ (arg4 (ix1 g)).toInt < 3 := by
  unfold Cert.Pre_finite_inputs.fn_part6 at h
  dsimp only at h
  obtain ⟨h120, hp⟩ := part7_read _ _ _ h
  refine ⟨fun r => ?_, hp⟩
  have hr := Host.reduce_andi_all _ _ _ _ ix0 h120 (ix1 r)
  obtain ⟨hge, hlt⟩ := IntOp.andi_eq_one.1 hr
  have e := atom_column_read arg0 Cert.Pre_finite_inputs.Facts.slices_S200000x8_S200000x1_0_0
    Cert.Pre_finite_inputs.Facts.shapeCasts_S200000x1_S200000 r
  have z0 : (0#32 : BitVec 32).toInt = 0 := by decide
  have z20 : (20#32 : BitVec 32).toInt = 20 := by decide
  rw [← e, ← z0, ← z20]
  exact ⟨IntOp.cmpi_sge.1 hge, IntOp.cmpi_slt.1 hlt⟩

/-- The whole precondition being all ones on a device gives both ranges: the earlier conjuncts (finiteness of
    the float arguments) are carried along unopened. -/
theorem ranges_of_pre (m : (ℓ : Loc nD τ sig) → Buf (Elt Ideal) ℓ) (h : Cert.Pre_KernelIdeal m) (c : Dev nD) :
    (∀ r : Fin 200000,
      0 ≤ (FloatOps.fptosi (F := Ideal) (φ := .f32) 32
        ((m ((c.tc : Thread nD τ).loc main_arg0) : Vec Ideal S200000x8 .f32) (ix2 r (0 : Fin 8)))).toInt
      ∧ (FloatOps.fptosi (F := Ideal) (φ := .f32) 32
        ((m ((c.tc : Thread nD τ).loc main_arg0) : Vec Ideal S200000x8 .f32) (ix2 r (0 : Fin 8)))).toInt < 20)
    ∧ ∀ g : Fin 4096, 0 ≤ ((m ((c.tc : Thread nD τ).loc main_arg4) : IVec S4096 32) (ix1 g)).toInt
      ∧ ((m ((c.tc : Thread nD τ).loc main_arg4) : IVec S4096 32) (ix1 g)).toInt < 3 :=
  part6_read _ _ _ _ _ _ (h c)

/-- Under the precondition every node's atom id (column 0 of its features, converted to an integer) is one of 0 … 19. -/
theorem atom_id_in_range (m : (ℓ : Loc nD τ sig) → Buf (Elt Ideal) ℓ) (h : Cert.Pre_KernelIdeal m) (c : Dev nD) (r : Fin 200000) :
    ∃ k : Fin 20, FloatOps.fptosi (F := Ideal) (φ := .f32) 32
      ((m ((c.tc : Thread nD τ).loc main_arg0) : Vec Ideal S200000x8 .f32) (ix2 r (0 : Fin 8))) = BitVec.ofNat 32 k.val := by
  obtain ⟨h0, h1⟩ := (ranges_of_pre m h c).1 r
  exact word_of_range _ 20 (by norm_num) h0 h1

/-- Under the precondition every graph's protein id is one of 0, 1, 2. -/
theorem protein_in_range (m : (ℓ : Loc nD τ sig) → Buf (Elt Ideal) ℓ) (h : Cert.Pre_KernelIdeal m) (c : Dev nD) (g : Fin 4096) :
    ∃ k : Fin 3, (m ((c.tc : Thread nD τ).loc main_arg4) : IVec S4096 32) (ix1 g) = BitVec.ofNat 32 k.val := by
  obtain ⟨h0, h1⟩ := (ranges_of_pre m h c).2 g
  exact word_of_range _ 3 (by norm_num) h0 h1

end Cert.Proof.PreDecode

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.RegEmbed.lean ====
import proofs.«424127_j32091995635825_2_alg».proof.Proof.Gen.KernelIdeal.Frame
import proofs.«424127_j32091995635825_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«424127_j32091995635825_2_alg».proof.Proof.LibGatherScatter

set_option maxRecDepth 16384

noncomputable section

namespace Cert.KernelIdeal.RV0

open Idealize.ShloMosaic Idealize.ShloMosaic.TcCoe Idealize.ShloMosaic.ValueIdx Idealize.SL.Sem
open Cert.KernelIdeal Cert.KernelIdeal.Gen
open Cert.Proof

/-- The 0/1 word of the comparison of two column numbers below 20, read as a signed integer. -/
theorem onehot_word : ∀ j k : Fin 20,
    ((IntOp.cmpi .eq (BitVec.ofNat 32 j.val) (BitVec.ofNat 32 k.val)).setWidth 32).toInt = if j = k then 1 else 0 := by
  decide +kernel

theorem lhs_mm_0 (i : S5000x32.Idx) (q : dot_S5000x20_S20x32_S5000x32_1_0_0_1_n_n.contr.Idx) :
    (dot_S5000x20_S20x32_S5000x32_1_0_0_1_n_n.lhsIdx i q 0).val = (i 0).val := by
  unfold DotDims.lhsIdx
  rw [dif_neg (show ¬(0 : Fin S5000x20.rank) ∈ dot_S5000x20_S20x32_S5000x32_1_0_0_1_n_n.lhsBatch by decide), dif_pos (show (0 : Fin S5000x20.rank) ∈ dot_S5000x20_S20x32_S5000x32_1_0_0_1_n_n.lhsNonContracting by decide)]
  rfl
theorem lhs_mm_1 (i : S5000x32.Idx) (q : dot_S5000x20_S20x32_S5000x32_1_0_0_1_n_n.contr.Idx) :
    (dot_S5000x20_S20x32_S5000x32_1_0_0_1_n_n.lhsIdx i q 1).val = (q ⟨0, by decide⟩).val :=
  dot_S5000x20_S20x32_S5000x32_1_0_0_1_n_n.lhsIdx_val_of_single rfl i q
theorem rhs_mm_0 (i : S5000x32.Idx) (q : dot_S5000x20_S20x32_S5000x32_1_0_0_1_n_n.contr.Idx) :
    (dot_S5000x20_S20x32_S5000x32_1_0_0_1_n_n.rhsIdx i q 0).val = (q ⟨0, by decide⟩).val :=
  dot_S5000x20_S20x32_S5000x32_1_0_0_1_n_n.rhsIdx_val_of_single rfl i q
theorem rhs_mm_1 (i : S5000x32.Idx) (q : dot_S5000x20_S20x32_S5000x32_1_0_0_1_n_n.contr.Idx) :
    (dot_S5000x20_S20x32_S5000x32_1_0_0_1_n_n.rhsIdx i q 1).val = (i 1).val := by
  unfold DotDims.rhsIdx
  rw [dif_neg (show ¬(1 : Fin S20x32.rank) ∈ dot_S5000x20_S20x32_S5000x32_1_0_0_1_n_n.rhsBatch by decide), dif_pos (show (1 : Fin S20x32.rank) ∈ dot_S5000x20_S20x32_S5000x32_1_0_0_1_n_n.rhsNonContracting by decide)]
  rfl

/-- The block's product with the table at (p, q): the sum over the 20 table rows. -/
theorem mm_apply (a : FVec Ideal S5000x20 .f32) (b : FVec Ideal S20x32 .f32) (p : Fin 5000) (q : Fin 32) :
    matmul dot_S5000x20_S20x32_S5000x32_1_0_0_1_n_n (some .fp32) a b (constant (F := Ideal) S5000x32 .f32 0x00000000#32) (ix2 p q)
      = ∑ k : Fin 20, a (ix2 p k) * b (ix2 k q) := by
  show FloatOps.matmul dot_S5000x20_S20x32_S5000x32_1_0_0_1_n_n (some .fp32) a b (constant (F := Ideal) S5000x32 .f32 0x00000000#32) (ix2 p q) = _
  rw [Ideal.matmul_constant_zero_apply, ← Equiv.sum_comp (ValueIdx.contrEquiv1 dot_S5000x20_S20x32_S5000x32_1_0_0_1_n_n 20 rfl rfl).symm]
  refine Finset.sum_congr rfl fun k _ => ?_
  have hk := ValueIdx.contrEquiv1_symm_val dot_S5000x20_S20x32_S5000x32_1_0_0_1_n_n 20 rfl rfl k
  have el : dot_S5000x20_S20x32_S5000x32_1_0_0_1_n_n.lhsIdx (ix2 p q) ((ValueIdx.contrEquiv1 dot_S5000x20_S20x32_S5000x32_1_0_0_1_n_n 20 rfl rfl).symm k) = ix2 p k := funext fun a => Fin.ext (by
    match a with
    | ⟨0, _⟩ => exact lhs_mm_0 _ _
    | ⟨1, _⟩ => exact (lhs_mm_1 _ _).trans hk)
  have er : dot_S5000x20_S20x32_S5000x32_1_0_0_1_n_n.rhsIdx (ix2 p q) ((ValueIdx.contrEquiv1 dot_S5000x20_S20x32_S5000x32_1_0_0_1_n_n 20 rfl rfl).symm k) = ix2 k q := funext fun a => Fin.ext (by
    match a with
    | ⟨0, _⟩ => exact (rhs_mm_0 _ _).trans hk
    | ⟨1, _⟩ => exact rhs_mm_1 _ _)
  rw [el, er]

theorem cmpi_apply' {s : Shape} {w : Nat} (pr : CmpIPredicate) (x y : IVec s w) (i : s.Idx) : cmpi pr x y i = IntOp.cmpi pr (x i) (y i) := rfl
theorem fptosi_apply' {s : Shape} {φ : FTy} (w : Nat) (x : FVec Ideal s φ) (i : s.Idx) : (fptosi w x : IVec s w) i = FloatOps.fptosi w (x i) := rfl

/-- The one-hot row of a block at (p, j), when row p's id word is the numeral k: 1 in column k, 0 elsewhere. -/
theorem onehot_apply (x0 : Vec Ideal S5000x8 .f32) (p : Fin 5000) (j k : Fin 20)
    (hk : FloatOps.fptosi (F := Ideal) (φ := .f32) 32 (x0 (ix2 p (0 : Fin 8))) = BitVec.ofNat 32 k.val) :
    (sitofp .f32 (extui 32 (cmpi .eq (iota .tc S5000x20 32 [1] iota_S5000x20_d1_w32)
      (broadcastTo S5000x20 (fptosi 32 (extractStridedSlice S5000x1 ![0, 0] x0 slices_S5000x8_o0_0_S5000x1 : FVec Ideal S5000x1 .f32) : IVec S5000x1 32) broadcasts_S5000x1_S5000x20)) natLt_1_32) : FVec Ideal S5000x20 .f32) (ix2 p j)
      = if j = k then 1 else 0 := by
  rw [sitofp_apply, extui_apply, cmpi_apply']
  rw [iota_single_apply, broadcastTo_apply _ broadcasts_S5000x1_S5000x20 (ix2 p j) (ix2 p (0 : Fin 1)) (fun a => by
    match a with
    | ⟨0, _⟩ => show p.val = if (5000 : Nat) = 1 then 0 else p.val; rw [if_neg (by decide)]
    | ⟨1, _⟩ => show (0 : Nat) = if (1 : Nat) = 1 then 0 else _; rw [if_pos rfl])]
  rw [fptosi_apply']
  rw [extractStridedSlice_apply ![0, 0] x0 slices_S5000x8_o0_0_S5000x1 (ix2 p (0 : Fin 1)) (ix2 p (0 : Fin 8)) (fun a => by
    match a with
    | ⟨0, _⟩ => show p.val = 0 + p.val; omega
    | ⟨1, _⟩ => show (0 : Nat) = 0 + 0; rfl)]
  rw [hk]
  show (((((IntOp.cmpi .eq (BitVec.ofNat 32 j.val) (BitVec.ofNat 32 k.val)).setWidth 32).toInt : ℝ)) : EReal) = _
  rw [onehot_word]
  split_ifs <;> simp

/-- The payload at a column below 8: the node-feature block, copied. -/
theorem pay_left (x0 : Vec Ideal S5000x8 .f32) (x1 : Vec Ideal S20x32 .f32) (p : Fin 5000) (q : Fin 40) (hq : q.val < 8) :
    k0_pay1 x0 x1 (ix2 p q) = x0 (ix2 p (⟨q.val, hq⟩ : Fin 8)) := by
  unfold k0_pay1
  exact concatenate_pair_apply_left 1 x0 _ concatenates_S5000x8_S5000x32_S5000x40_d1 (ix2 p q) rfl (ix2 p (⟨q.val, hq⟩ : Fin 8))
    (fun b => by match b with | ⟨0, _⟩ => rfl | ⟨1, _⟩ => rfl)

/-- The payload at a column from 8 on, when row p's id word is the numeral k: row k of the table, the one-hot row
    times the table having one non-zero term. -/
theorem pay_right (x0 : Vec Ideal S5000x8 .f32) (x1 : Vec Ideal S20x32 .f32) (p : Fin 5000) (q : Fin 40) (hq : 8 ≤ q.val) (k : Fin 20)
    (hk : FloatOps.fptosi (F := Ideal) (φ := .f32) 32 (x0 (ix2 p (0 : Fin 8))) = BitVec.ofNat 32 k.val) :
    k0_pay1 x0 x1 (ix2 p q) = x1 (ix2 k (⟨q.val - 8, by have := q.isLt; omega⟩ : Fin 32)) := by
  unfold k0_pay1
  refine (concatenate_pair_apply_right 1 x0 _ concatenates_S5000x8_S5000x32_S5000x40_d1 (ix2 p q) rfl rfl
    (ix2 p (⟨q.val - 8, by have := q.isLt; omega⟩ : Fin 32)) (fun b hb => ?_) ?_).trans ?_
  · match b with
    | ⟨0, _⟩ => rfl
    | ⟨1, _⟩ => exact absurd rfl hb
  · show (q.val - 8) + 8 = q.val
    omega
  · rw [mm_apply, Finset.sum_eq_single k]
    · rw [onehot_apply x0 p k k hk, if_pos rfl, one_mul]
    · intro j _ hj
      rw [onehot_apply x0 p j k hk, if_neg hj, zero_mul]
    · intro h
      exact absurd (Finset.mem_univ k) h

theorem addi_apply' {s : Shape} {w : Nat} (x y : IVec s w) (i : s.Idx) : addi x y i = IntOp.addi (x i) (y i) := rfl

/-- A node's atom id in the reference: the integer conversion of column 0 of its features. -/
theorem atomIds_apply (x : Vec Ideal S200000x8 .f32) (r : Fin 200000) :
    Spec.atomIds (F := Ideal) x (ix1 r) = FloatOps.fptosi (F := Ideal) (φ := .f32) 32 (x (ix2 r (0 : Fin 8))) := by
  unfold Spec.atomIds
  rw [fptosi_apply']
  rw [shapeCast_apply _ Cert.ReferenceIdeal.Facts₀.shapeCasts_S200000x1_S200000 (ix1 r) (ix2 r (0 : Fin 1))
    (by rewrite [Shape.rowMajor_val_two, Shape.rowMajor_val_one]; show r.val * 1 + 0 = r.val; omega)]
  rw [extractStridedSlice_apply ![0, 0] x Cert.ReferenceIdeal.Facts₀.slices_S200000x8_S200000x1_0_0 (ix2 r (0 : Fin 1)) (ix2 r (0 : Fin 8)) (fun a => by
    match a with
    | ⟨0, _⟩ => show r.val = 0 + r.val; omega
    | ⟨1, _⟩ => show (0 : Nat) = 0 + 0; rfl)]

/-- An id below 20 is not negative as a signed word, so the wrap leaves it alone. -/
theorem wrap_word : ∀ k : Fin 20,
    Scalar.select (IntOp.cmpi .slt (BitVec.ofNat 32 k.val) 0#32) (IntOp.addi (BitVec.ofNat 32 k.val) 20#32) (BitVec.ofNat 32 k.val)
      = BitVec.ofNat 32 k.val := by
  decide +kernel

/-- The signed value of the numeral of an id below 20 is the id. -/
theorem toInt_word : ∀ k : Fin 20, (BitVec.ofNat 32 k.val).toInt = (k.val : Int) := by
  decide +kernel

/-- The gather's start index for node r, when the node's id word is the numeral k: that numeral. -/
theorem startIdx_apply (x : Vec Ideal S200000x8 .f32) (r : Fin 200000) (k : Fin 20)
    (hk : FloatOps.fptosi (F := Ideal) (φ := .f32) 32 (x (ix2 r (0 : Fin 8))) = BitVec.ofNat 32 k.val) :
    (broadcastInDim Cert.ReferenceIdeal.S200000x1 ![0] Cert.ReferenceIdeal.Facts₀.bcast_S200000_S200000x1_0
        (select (cmpi .slt (Spec.atomIds (F := Ideal) x) (broadcastInDim Cert.ReferenceIdeal.S200000 ![] Cert.ReferenceIdeal.Facts₀.bcast_S_S200000 (constantI Cert.ReferenceIdeal.S_ 32 0#32)))
          (addi (Spec.atomIds (F := Ideal) x) (broadcastInDim Cert.ReferenceIdeal.S200000 ![] Cert.ReferenceIdeal.Facts₀.bcast_S_S200000 (constantI Cert.ReferenceIdeal.S_ 32 20#32))) (Spec.atomIds (F := Ideal) x)) : IVec Cert.ReferenceIdeal.S200000x1 32)
      (ix2 r (0 : Fin 1)) = BitVec.ofNat 32 k.val := by
  rw [broadcastInDim_apply _ Cert.ReferenceIdeal.Facts₀.bcast_S200000_S200000x1_0 _ (ix2 r (0 : Fin 1)) (ix1 r) (fun a => by
    match a with
    | ⟨0, _⟩ => show r.val = if (200000 : Nat) = 1 then 0 else r.val; rw [if_neg (by decide)])]
  rw [select_apply, cmpi_apply', addi_apply',
    broadcastInDim_apply _ Cert.ReferenceIdeal.Facts₀.bcast_S_S200000 (constantI Cert.ReferenceIdeal.S_ 32 0#32) (ix1 r) ix0 (fun a => a.elim0),
    broadcastInDim_apply _ Cert.ReferenceIdeal.Facts₀.bcast_S_S200000 (constantI Cert.ReferenceIdeal.S_ 32 20#32) (ix1 r) ix0 (fun a => a.elim0),
    atomIds_apply, hk]
  exact wrap_word k

/-- The reference at a column below 8: the node features. -/
theorem embedRef_left (x : Vec Ideal S200000x8 .f32) (emb : Vec Ideal S20x32 .f32) (r : Fin 200000) (q : Fin 40) (hq : q.val < 8) :
    Spec.embedRef (F := Ideal) x emb (ix2 r q) = x (ix2 r (⟨q.val, hq⟩ : Fin 8)) := by
  unfold Spec.embedRef
  exact concatenate_pair_apply_left 1 x _ Cert.ReferenceIdeal.Facts₀.concatenates_S200000x8_S200000x32_S200000x40_d1 (ix2 r q) rfl (ix2 r (⟨q.val, hq⟩ : Fin 8))
    (fun b => by match b with | ⟨0, _⟩ => rfl | ⟨1, _⟩ => rfl)

/-- The reference at a column from 8 on, when the node's id word is the numeral k: row k of the table. -/
theorem embedRef_right (x : Vec Ideal S200000x8 .f32) (emb : Vec Ideal S20x32 .f32) (r : Fin 200000) (q : Fin 40) (hq : 8 ≤ q.val) (k : Fin 20)
    (hk : FloatOps.fptosi (F := Ideal) (φ := .f32) 32 (x (ix2 r (0 : Fin 8))) = BitVec.ofNat 32 k.val) :
    Spec.embedRef (F := Ideal) x emb (ix2 r q) = emb (ix2 k (⟨q.val - 8, by have := q.isLt; omega⟩ : Fin 32)) := by
  unfold Spec.embedRef
  refine (concatenate_pair_apply_right 1 x _ Cert.ReferenceIdeal.Facts₀.concatenates_S200000x8_S200000x32_S200000x40_d1 (ix2 r q) rfl rfl
    (ix2 r (⟨q.val - 8, by have := q.isLt; omega⟩ : Fin 32)) (fun b hb => ?_) ?_).trans ?_
  · match b with
    | ⟨0, _⟩ => rfl
    | ⟨1, _⟩ => exact absurd rfl hb
  · show (q.val - 8) + 8 = q.val
    omega
  · refine (GS.gather_gathD_apply (N := 20) (E := 200000) (D := 32) (by decide) Cert.ReferenceIdeal.Facts₀.gather_S20x32_S200000x1_S200000x32_1_0_n_n_0_1_132_wf emb _ r _).trans ?_
    rw [startIdx_apply x r k hk, GS.row_of_toInt (by decide) _ k (toInt_word k)]

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: the node-feature and output windows are row-tiled, the table
    window is the whole table. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node-feature block at point t is rows 5000·t … 5000·t + 4999 of the node features. -/
theorem xblk_apply (c : Dev nD) (t : Fin cfg0.N) (p : Fin 5000) (j : Fin 8) (r : Fin 200000) (hr : r.val = 5000 * t.val + p.val) :
    (iblk0 V c 0 t : Vec Ideal S5000x8 .f32) (ix2 p j) = (V c main_arg0 : Vec Ideal S200000x8 .f32) (ix2 r j) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 8 + 1 * j.val = j.val; rw [e1]; omega

/-- The table block at every point is the table. -/
theorem eblk_apply (c : Dev nD) (t : Fin cfg0.N) (k : Fin 20) (q : Fin 32) :
    (iblk0 V c 1 t : Vec Ideal S20x32 .f32) (ix2 k q) = (V c main_arg5 : Vec Ideal S20x32 .f32) (ix2 k q) := by
  obtain ⟨-, -, e2, e3, -⟩ := idx_facts0 t
  unfold iblk0
  rw [View.read_apply]
  show V c main_arg5 _ = V c main_arg5 _
  congr 1
  funext a
  apply Fin.ext
  match a with
  | ⟨0, _⟩ => show win0_1.index t 0 * 20 + 1 * k.val = k.val; rw [e2]; omega
  | ⟨1, _⟩ => show win0_1.index t 1 * 32 + 1 * q.val = q.val; rw [e3]; omega

/-- What point t writes back is block t of the reference's joined array. -/
theorem flushed0_eq (c : Dev nD)
    (hid : ∀ r : Fin 200000, ∃ k : Fin 20,
      FloatOps.fptosi (F := Ideal) (φ := .f32) 32 ((V c main_arg0 : Vec Ideal S200000x8 .f32) (ix2 r (0 : Fin 8))) = BitVec.ofNat 32 k.val)
    (t : Fin cfg0.N) :
    (dat0 V c).flushed 2 t = ((cfg0.win 2).blk t).view.read (Elt Ideal) (Spec.embedRef (F := Ideal) (V c main_arg0) (V c main_arg5)) := by
  show (cfg0.win 2).cut (grid0.coords t) ((dat0 V c).after 2 t) = _
  rw [after0_2]
  unfold out0_2
  rw [View.canon_unit_zero hz0]
  simp only [View.ld_unit_zero (S := S5000x8) hz0, View.ld_unit_zero (S := S20x32) hz0]
  obtain ⟨-, -, -, -, e4, e5⟩ := idx_facts0 t
  funext y
  obtain ⟨p, q, rfl⟩ : ∃ (p : Fin 5000) (q : Fin 40), y = ix2 p q := ⟨y 0, y 1, eq_ix2 y⟩
  have hN : cfg0.N = 40 := rfl
  have hr : 5000 * t.val + p.val < 200000 := by have := t.isLt; have := p.isLt; omega
  have hemb : ((cfg0.win 2).blk t).view.emb (ix2 p q) = ix2 (⟨5000 * t.val + p.val, hr⟩ : Fin 200000) q := by
    funext a
    apply Fin.ext
    match a with
    | ⟨0, _⟩ => show win0_2.index t 0 * 5000 + 1 * p.val = 5000 * t.val + p.val; rw [e4]; omega
    | ⟨1, _⟩ => show win0_2.index t 1 * 40 + 1 * q.val = q.val; rw [e5]; omega
  show k0_pay1 (iblk0 V c 0 t) (iblk0 V c 1 t) (ix2 p q) = Spec.embedRef (F := Ideal) (V c main_arg0) (V c main_arg5) (((cfg0.win 2).blk t).view.emb (ix2 p q))
  rw [hemb]
  obtain ⟨k, hk⟩ := hid ⟨5000 * t.val + p.val, hr⟩
  by_cases hq : q.val < 8
  · refine (pay_left (iblk0 V c 0 t) (iblk0 V c 1 t) p q hq).trans ?_
    refine (xblk_apply V c t p _ ⟨5000 * t.val + p.val, hr⟩ rfl).trans ?_
    exact (embedRef_left _ _ _ q hq).symm
  · have hk' : FloatOps.fptosi (F := Ideal) (φ := .f32) 32 ((iblk0 V c 0 t : Vec Ideal S5000x8 .f32) (ix2 p (0 : Fin 8))) = BitVec.ofNat 32 k.val :=
      (congrArg (FloatOps.fptosi (F := Ideal) (φ := .f32) 32) (xblk_apply V c t p 0 ⟨5000 * t.val + p.val, hr⟩ rfl)).trans hk
    refine (pay_right (iblk0 V c 0 t) (iblk0 V c 1 t) p q (by omega) k hk').trans ?_
    refine (eblk_apply V c t k _).trans ?_
    exact (embedRef_right _ _ _ q (by omega) k hk).symm

/-- An index of the array is in point t's block iff each coordinate is in the block's range on its axis. -/
theorem mem_blk0 (t : Fin cfg0.N) (i : S200000x40.Idx) :
    i ∈ ((cfg0.win 2).blk t).view.set ↔ ∀ a : Fin 2, win0_2.index t a * S5000x40.size a ≤ (i a).val ∧ (i a).val < win0_2.index t a * S5000x40.size a + S5000x40.size a := by
  show i ∈ ((View.whole main_v27).slice (win0_2.rect t)).set ↔ _
  rw [View.set_slice_whole, Rect.mem_set_unit]
  exact Iff.rfl

theorem reg0_value (c : Dev nD)
    (hid : ∀ r : Fin 200000, ∃ k : Fin 20,
      FloatOps.fptosi (F := Ideal) (φ := .f32) 32 ((V c main_arg0 : Vec Ideal S200000x8 .f32) (ix2 r (0 : Fin 8))) = BitVec.ofNat 32 k.val) :
    ((dat0 V c).arrAt 2 cfg0.N : Vec Ideal S200000x40 .f32) = Spec.embedRef (F := Ideal) (V c main_arg0) (V c main_arg5) := by
  refine (dat0 V c).arrAt_eq_of_cover 2 (Spec.embedRef (F := Ideal) (V c main_arg0) (V c main_arg5)) (fun t _ => flushed0_eq V c hid t) fun i => ?_
  have hi0 : (i 0).val < 200000 := (i 0).isLt
  have hi1 : (i 1).val < 40 := (i 1).isLt
  have hN : cfg0.N = 40 := rfl
  have ht : (i 0).val / 5000 < cfg0.N := by omega
  obtain ⟨-, -, -, -, e4, e5⟩ := idx_facts0 ⟨(i 0).val / 5000, ht⟩
  refine ⟨⟨(i 0).val / 5000, ht⟩, flush0_2 _, ?_⟩
  rw [mem_blk0]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e4]; show (i 0).val / 5000 * 5000 ≤ (i 0).val ∧ (i 0).val < (i 0).val / 5000 * 5000 + 5000; omega
  | ⟨1, _⟩ => show win0_2.index ⟨(i 0).val / 5000, ht⟩ (1 : Fin 2) * 40 ≤ (i 1).val ∧ (i 1).val < win0_2.index ⟨(i 0).val / 5000, ht⟩ (1 : Fin 2) * 40 + 40; rw [e5]; omega

end Cert.KernelIdeal.RV0

end
-- ==== Proof.RegLin1.lean ====
import proofs.«424127_j32091995635825_2_alg».proof.Proof.Gen.KernelIdeal.Frame
import proofs.«424127_j32091995635825_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RV

open Idealize.ShloMosaic Idealize.ShloMosaic.TcCoe Idealize.ShloMosaic.ValueIdx Idealize.SL.Sem
open Cert.KernelIdeal Cert.KernelIdeal.Gen
open Cert.Proof

/-! ## The block's matrix product, entry by entry -/

theorem lin_klhs_0 (i : S5000x64.Idx) (q : dot_S5000x40_S40x64_S5000x64_1_0_0_1_n_n.contr.Idx) :
    (dot_S5000x40_S40x64_S5000x64_1_0_0_1_n_n.lhsIdx i q 0).val = (i 0).val := by
  unfold DotDims.lhsIdx
  rw [dif_neg (show ¬(0 : Fin S5000x40.rank) ∈ dot_S5000x40_S40x64_S5000x64_1_0_0_1_n_n.lhsBatch by decide), dif_pos (show (0 : Fin S5000x40.rank) ∈ dot_S5000x40_S40x64_S5000x64_1_0_0_1_n_n.lhsNonContracting by decide)]
  rfl
theorem lin_klhs_1 (i : S5000x64.Idx) (q : dot_S5000x40_S40x64_S5000x64_1_0_0_1_n_n.contr.Idx) :
    (dot_S5000x40_S40x64_S5000x64_1_0_0_1_n_n.lhsIdx i q 1).val = (q ⟨0, by decide⟩).val :=
  dot_S5000x40_S40x64_S5000x64_1_0_0_1_n_n.lhsIdx_val_of_single rfl i q
theorem lin_krhs_0 (i : S5000x64.Idx) (q : dot_S5000x40_S40x64_S5000x64_1_0_0_1_n_n.contr.Idx) :
    (dot_S5000x40_S40x64_S5000x64_1_0_0_1_n_n.rhsIdx i q 0).val = (q ⟨0, by decide⟩).val :=
  dot_S5000x40_S40x64_S5000x64_1_0_0_1_n_n.rhsIdx_val_of_single rfl i q
theorem lin_krhs_1 (i : S5000x64.Idx) (q : dot_S5000x40_S40x64_S5000x64_1_0_0_1_n_n.contr.Idx) :
    (dot_S5000x40_S40x64_S5000x64_1_0_0_1_n_n.rhsIdx i q 1).val = (i 1).val := by
  unfold DotDims.rhsIdx
  rw [dif_neg (show ¬(1 : Fin S40x64.rank) ∈ dot_S5000x40_S40x64_S5000x64_1_0_0_1_n_n.rhsBatch by decide), dif_pos (show (1 : Fin S40x64.rank) ∈ dot_S5000x40_S40x64_S5000x64_1_0_0_1_n_n.rhsNonContracting by decide)]
  rfl

/-- The body rounds both operands to bf16 (the identity on the extended reals) and multiplies them into a zero
    accumulator: entry (p, q) of the block is the sum over k of x0 (p, k) · x1 (k, q). -/
theorem lin_pay (x0 : Vec Ideal S5000x40 .f32) (x1 : Vec Ideal S40x64 .f32) (p : Fin 5000) (q : Fin 64) :
    k1_pay1 x0 x1 (ix2 p q) = ∑ k : Fin 40, x0 (ix2 p k) * x1 (ix2 k q) := by
  unfold k1_pay1
  rw [shapeCast_self]
  simp only [matmul]
  rw [Ideal.matmul_constant_zero_apply, ← Equiv.sum_comp (ValueIdx.contrEquiv1 dot_S5000x40_S40x64_S5000x64_1_0_0_1_n_n 40 rfl rfl).symm]
  refine Finset.sum_congr rfl fun k _ => ?_
  have hk := ValueIdx.contrEquiv1_symm_val dot_S5000x40_S40x64_S5000x64_1_0_0_1_n_n 40 rfl rfl k
  have el : dot_S5000x40_S40x64_S5000x64_1_0_0_1_n_n.lhsIdx (ix2 p q) ((ValueIdx.contrEquiv1 dot_S5000x40_S40x64_S5000x64_1_0_0_1_n_n 40 rfl rfl).symm k) = ix2 p k := funext fun a => Fin.ext (by
    match a with
    | ⟨0, _⟩ => exact lin_klhs_0 _ _
    | ⟨1, _⟩ => exact (lin_klhs_1 _ _).trans hk)
  have er : dot_S5000x40_S40x64_S5000x64_1_0_0_1_n_n.rhsIdx (ix2 p q) ((ValueIdx.contrEquiv1 dot_S5000x40_S40x64_S5000x64_1_0_0_1_n_n 40 rfl rfl).symm k) = ix2 k q := funext fun a => Fin.ext (by
    match a with
    | ⟨0, _⟩ => exact (lin_krhs_0 _ _).trans hk
    | ⟨1, _⟩ => exact lin_krhs_1 _ _)
  rw [el, er]
  rfl

/-! ## The reference's matrix product, entry by entry -/

theorem lin_rlhs_0 (i : Cert.ReferenceIdeal.S200000x64.Idx) (q : Cert.ReferenceIdeal.dot_S200000x40_S40x64_S200000x64_1_0_0_1_n_n.contr.Idx) :
    (Cert.ReferenceIdeal.dot_S200000x40_S40x64_S200000x64_1_0_0_1_n_n.lhsIdx i q 0).val = (i 0).val := by
  unfold DotDims.lhsIdx
  rw [dif_neg (show ¬(0 : Fin Cert.ReferenceIdeal.S200000x40.rank) ∈ Cert.ReferenceIdeal.dot_S200000x40_S40x64_S200000x64_1_0_0_1_n_n.lhsBatch by decide), dif_pos (show (0 : Fin Cert.ReferenceIdeal.S200000x40.rank) ∈ Cert.ReferenceIdeal.dot_S200000x40_S40x64_S200000x64_1_0_0_1_n_n.lhsNonContracting by decide)]
  rfl
theorem lin_rlhs_1 (i : Cert.ReferenceIdeal.S200000x64.Idx) (q : Cert.ReferenceIdeal.dot_S200000x40_S40x64_S200000x64_1_0_0_1_n_n.contr.Idx) :
    (Cert.ReferenceIdeal.dot_S200000x40_S40x64_S200000x64_1_0_0_1_n_n.lhsIdx i q 1).val = (q ⟨0, by decide⟩).val :=
  Cert.ReferenceIdeal.dot_S200000x40_S40x64_S200000x64_1_0_0_1_n_n.lhsIdx_val_of_single rfl i q
theorem lin_rrhs_0 (i : Cert.ReferenceIdeal.S200000x64.Idx) (q : Cert.ReferenceIdeal.dot_S200000x40_S40x64_S200000x64_1_0_0_1_n_n.contr.Idx) :
    (Cert.ReferenceIdeal.dot_S200000x40_S40x64_S200000x64_1_0_0_1_n_n.rhsIdx i q 0).val = (q ⟨0, by decide⟩).val :=
  Cert.ReferenceIdeal.dot_S200000x40_S40x64_S200000x64_1_0_0_1_n_n.rhsIdx_val_of_single rfl i q
theorem lin_rrhs_1 (i : Cert.ReferenceIdeal.S200000x64.Idx) (q : Cert.ReferenceIdeal.dot_S200000x40_S40x64_S200000x64_1_0_0_1_n_n.contr.Idx) :
    (Cert.ReferenceIdeal.dot_S200000x40_S40x64_S200000x64_1_0_0_1_n_n.rhsIdx i q 1).val = (i 1).val := by
  unfold DotDims.rhsIdx
  rw [dif_neg (show ¬(1 : Fin Cert.ReferenceIdeal.S40x64.rank) ∈ Cert.ReferenceIdeal.dot_S200000x40_S40x64_S200000x64_1_0_0_1_n_n.rhsBatch by decide), dif_pos (show (1 : Fin Cert.ReferenceIdeal.S40x64.rank) ∈ Cert.ReferenceIdeal.dot_S200000x40_S40x64_S200000x64_1_0_0_1_n_n.rhsNonContracting by decide)]
  rfl

/-- The reference's product of the whole arrays: entry (r, q) is the sum over k of H (r, k) · W (k, q). -/
theorem lin_ref (H : FVec Ideal Cert.ReferenceIdeal.S200000x40 .f32) (W : FVec Ideal Cert.ReferenceIdeal.S40x64 .f32) (r : Fin 200000) (q : Fin 64) :
    Spec.linRef40 (F := Ideal) H W (ix2 r q) = ∑ k : Fin 40, H (ix2 r k) * W (ix2 k q) := by
  unfold Spec.linRef40
  simp only [Host.dotGeneral]
  rw [Ideal.dotGeneral_apply, ← Equiv.sum_comp (ValueIdx.contrEquiv1 Cert.ReferenceIdeal.dot_S200000x40_S40x64_S200000x64_1_0_0_1_n_n 40 rfl rfl).symm]
  refine Finset.sum_congr rfl fun k _ => ?_
  have hk := ValueIdx.contrEquiv1_symm_val Cert.ReferenceIdeal.dot_S200000x40_S40x64_S200000x64_1_0_0_1_n_n 40 rfl rfl k
  have el : Cert.ReferenceIdeal.dot_S200000x40_S40x64_S200000x64_1_0_0_1_n_n.lhsIdx (ix2 r q) ((ValueIdx.contrEquiv1 Cert.ReferenceIdeal.dot_S200000x40_S40x64_S200000x64_1_0_0_1_n_n 40 rfl rfl).symm k) = ix2 r k := funext fun a => Fin.ext (by
    match a with
    | ⟨0, _⟩ => exact lin_rlhs_0 _ _
    | ⟨1, _⟩ => exact (lin_rlhs_1 _ _).trans hk)
  have er : Cert.ReferenceIdeal.dot_S200000x40_S40x64_S200000x64_1_0_0_1_n_n.rhsIdx (ix2 r q) ((ValueIdx.contrEquiv1 Cert.ReferenceIdeal.dot_S200000x40_S40x64_S200000x64_1_0_0_1_n_n 40 rfl rfl).symm k) = ix2 k q := funext fun a => Fin.ext (by
    match a with
    | ⟨0, _⟩ => exact (lin_rrhs_0 _ _).trans hk
    | ⟨1, _⟩ => exact lin_rrhs_1 _ _)
  rw [el, er]

variable (V : (c : Dev nD) → (b : Ref sig .tc) → Buf (Elt Ideal) ((c : Thread nD τ).loc b))

/-! ## From the blocks to the array -/

theorem lin_hz : (![0, 0] : Fin 2 → Nat) = fun _ => 0 := funext fun a => by fin_cases a <;> rfl

/-- The printed index maps over the grid: the row-tiled windows sit at block row t, the whole weight array at 0. -/
theorem lin_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lin_flushed (c : Dev nD) (t : Fin cfg1.N) :
    (dat1 V c).flushed 2 t = ((cfg1.win 2).blk t).view.read (Elt Ideal) (Spec.linRef40 (F := Ideal) (V c main_v27) (V c main_arg7)) := by
  show (cfg1.win 2).cut (grid1.coords t) ((dat1 V c).after 2 t) = _
  rw [after1_2]
  unfold out1_2
  rw [View.canon_unit_zero lin_hz]
  simp only [View.ld_unit_zero (S := S5000x40) lin_hz, View.ld_unit_zero (S := S40x64) lin_hz]
  funext y
  obtain ⟨p, q, rfl⟩ : ∃ (p : Fin 5000) (q : Fin 64), y = ix2 p q := ⟨y 0, y 1, eq_ix2 y⟩
  obtain ⟨e0, e1, e2, e3, e4, e5⟩ := lin_idx t
  have ht : t.val < 40 := t.isLt
  have hp : p.val < 5000 := p.isLt
  show k1_pay1 (iblk1 V c 0 t) (iblk1 V c 1 t) (ix2 p q)
    = Spec.linRef40 (F := Ideal) (V c main_v27) (V c main_arg7) (((cfg1.win 2).blk t).view.emb (ix2 p q))
  have hout : ((cfg1.win 2).blk t).view.emb (ix2 p q) = ix2 (⟨t.val * 5000 + p.val, by omega⟩ : Fin 200000) q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  rw [hout]
  refine (lin_pay _ _ p q).trans ((Finset.sum_congr rfl fun k _ => ?_).trans (lin_ref _ _ _ q).symm)
  have hl : ((cfg1.win 0).blk t).view.emb (ix2 p k) = ix2 (⟨t.val * 5000 + p.val, by omega⟩ : Fin 200000) k := by
    funext a; apply Fin.ext
    match a with
    | ⟨0, _⟩ => show win1_0.index t (0 : Fin 2) * 5000 + 1 * p.val = t.val * 5000 + p.val; omega
    | ⟨1, _⟩ => show win1_0.index t (1 : Fin 2) * 40 + 1 * k.val = k.val; omega
  have hr : ((cfg1.win 1).blk t).view.emb (ix2 k q) = ix2 k q := by
    funext a; apply Fin.ext
    match a with
    | ⟨0, _⟩ => show win1_1.index t (0 : Fin 2) * 40 + 1 * k.val = k.val; omega
    | ⟨1, _⟩ => show win1_1.index t (1 : Fin 2) * 64 + 1 * q.val = q.val; omega
  have h0 : (iblk1 V c 0 t : Vec Ideal S5000x40 .f32) (ix2 p k)
      = (V c main_v27 : Vec Ideal S200000x40 .f32) (ix2 (⟨t.val * 5000 + p.val, by omega⟩ : Fin 200000) k) :=
    congrArg (V c main_v27) hl
  have h1 : (iblk1 V c 1 t : Vec Ideal S40x64 .f32) (ix2 k q) = (V c main_arg7 : Vec Ideal S40x64 .f32) (ix2 k q) :=
    congrArg (V c main_arg7) hr
  exact congrArg₂ (· * ·) h0 h1

/-- An index of the array is in point t's block iff each coordinate is in the block's range on its axis. -/
theorem lin_mem_blk (t : Fin cfg1.N) (i : S200000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v28).slice (win1_2.rect t)).set ↔ _
  rw [View.set_slice_whole, Rect.mem_set_unit]
  exact Iff.rfl

/-- Row r of the array lies in the block of point r / 5000: the 40 row blocks tile the 200000 rows. -/
theorem lin_cover (i : S200000x64.Idx) :
    ∃ t : Fin cfg1.N, (cfg1.win 2).flush t = true ∧ i ∈ ((cfg1.win 2).blk t).view.set := by
  have hi0 : (i 0).val < 200000 := (i 0).isLt
  have hi1 : (i 1).val < 64 := (i 1).isLt
  have hN : (i 0).val / 5000 < 40 := by omega
  refine ⟨⟨(i 0).val / 5000, hN⟩, flush1_2 _, ?_⟩
  rw [lin_mem_blk]
  obtain ⟨e0, e1, e2, e3, e4, e5⟩ := lin_idx ⟨(i 0).val / 5000, hN⟩
  have e4' : win1_2.index ⟨(i 0).val / 5000, hN⟩ (0 : Fin 2) = (i 0).val / 5000 := e4
  intro a
  match a with
  | ⟨0, _⟩ => show win1_2.index ⟨(i 0).val / 5000, hN⟩ (0 : Fin 2) * 5000 ≤ (i 0).val ∧ (i 0).val < win1_2.index ⟨(i 0).val / 5000, hN⟩ (0 : Fin 2) * 5000 + 5000; omega
  | ⟨1, _⟩ => show win1_2.index ⟨(i 0).val / 5000, hN⟩ (1 : Fin 2) * 64 ≤ (i 1).val ∧ (i 1).val < win1_2.index ⟨(i 0).val / 5000, hN⟩ (1 : Fin 2) * 64 + 64; omega

/-- Region 1's output array after all 40 grid points is the reference's product of its two input arrays. -/
theorem reg1_value (c : Dev nD) :
    ((dat1 V c).arrAt 2 cfg1.N : Vec Ideal S200000x64 .f32) = Spec.linRef40 (F := Ideal) (V c main_v27) (V c main_arg7) := by
  exact (dat1 V c).arrAt_eq_of_cover 2 (Spec.linRef40 (F := Ideal) (V c main_v27) (V c main_arg7))
    (fun t _ => lin_flushed V c t) lin_cover

end Cert.KernelIdeal.RV

end
-- ==== Proof.RegComb2.lean ====
import proofs.«424127_j32091995635825_2_alg».proof.Proof.Gen.KernelIdeal.Frame
import proofs.«424127_j32091995635825_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RV

open Idealize.ShloMosaic Idealize.ShloMosaic.TcCoe Idealize.ShloMosaic.ValueIdx Idealize.SL.Sem
open Cert.KernelIdeal Cert.KernelIdeal.Gen
open Cert.Proof

/-! ## Broadcasts of a column and of a row, read at an index -/

/-- An `[a, 1]` column broadcast to `[a, b]` reads, at `(p, c)`, the column's entry of row `p`. -/
theorem comb_broadcastTo_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same column broadcast along the axes `(0, 1)` by the host operation. -/
theorem comb_bcastInDim_col {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast along the axes `(0, 1)` by the host operation reads, at `(p, c)`, the row's entry `c`. -/
theorem comb_bcastInDim_row {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-! ## The two sides entry by entry -/

/-- The body's arithmetic at row `p`, column `q` of its block: relu of the aggregate plus the row's self coefficient
    times the transformed feature plus the column's bias. -/
theorem comb_pay_apply (x0 x1 : Vec Ideal S5000x64 .f32) (x2 : Vec Ideal S5000x1 .f32) (x3 : Vec Ideal S1x64 .f32)
    (p : Fin 5000) (q : Fin 64) :
    k2_pay1 x0 x2 x1 x3 (ix2 p q)
      = max (x0 (ix2 p q) + x2 (ix2 p (0 : Fin 1)) * x1 (ix2 p q) + x3 (ix2 (0 : Fin 1) q)) (Ideal.ofBits .f32 0x00000000#32) := by
  unfold k2_pay1
  simp only [shapeCast_self]
  rw [maximumf_apply, addf_apply, addf_apply, mulf_apply, broadcast_apply]
  rw [comb_broadcastTo_col x2 _ p q, broadcastTo_1b_ab_apply x3 _ p q]
  rfl

/-- The reference's stage at row `r`, column `q`: the same expression of the whole arrays. -/
theorem comb_ref_apply (agg hw : Vec Ideal S200000x64 .f32) (sc : Vec Ideal S200000x1 .f32) (b : Vec Ideal S1x64 .f32)
    (r : Fin 200000) (q : Fin 64) :
    Spec.combRef (F := Ideal) agg hw sc b (ix2 r q)
      = max (agg (ix2 r q) + sc (ix2 r (0 : Fin 1)) * hw (ix2 r q) + b (ix2 (0 : Fin 1) q)) (Ideal.ofBits .f32 0x00000000#32) := by
  unfold Spec.combRef
  rw [maximumf_apply, addf_apply, addf_apply, mulf_apply]
  rw [comb_bcastInDim_col sc _ r q, comb_bcastInDim_row b _ r q]
  rfl

variable (V : (c : Dev nD) → (b : Ref sig .tc) → Buf (Elt Ideal) ((c : Thread nD τ).loc b))

/-! ## From the blocks to the array -/

theorem comb_hz : (![0, 0] : Fin 2 → Nat) = fun _ => 0 := funext fun a => by fin_cases a <;> rfl

/-- The printed index maps, decided over the grid: the row-tiled windows sit at block `(t, 0)`, the bias row at `(0, 0)`. -/
theorem comb_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p`, column `q` of the aggregate's block at point `t` is row `5000 t + p` of the array. -/
theorem comb_iblk_agg (c : Dev nD) (t : Fin cfg2.N) (p : Fin 5000) (q : Fin 64) (r : Fin 200000)
    (hr : r.val = t.val * 5000 + p.val) :
    (iblk2 V c 0 t : Vec Ideal S5000x64 .f32) (ix2 p q) = (V c main_v41 : Vec Ideal S200000x64 .f32) (ix2 r q) := by
  obtain ⟨e0, e1, -⟩ := comb_idx_facts t
  unfold iblk2
  rw [View.read_apply]
  show V c main_v41 _ = V c main_v41 _
  refine congrArg (V c main_v41) (funext fun a => Fin.ext ?_)
  match a with
  | ⟨0, _⟩ => show win2_0.index t (0 : Fin 2) * 5000 + 1 * p.val = r.val; rw [e0, hr]; omega
  | ⟨1, _⟩ => show win2_0.index t (1 : Fin 2) * 64 + 1 * q.val = q.val; rw [e1]; omega

/-- The same for the transformed features' block. -/
theorem comb_iblk_hw (c : Dev nD) (t : Fin cfg2.N) (p : Fin 5000) (q : Fin 64) (r : Fin 200000)
    (hr : r.val = t.val * 5000 + p.val) :
    (iblk2 V c 1 t : Vec Ideal S5000x64 .f32) (ix2 p q) = (V c main_v28 : Vec Ideal S200000x64 .f32) (ix2 r q) := by
  obtain ⟨-, -, e0, e1, -⟩ := comb_idx_facts t
  unfold iblk2
  rw [View.read_apply]
  show V c main_v28 _ = V c main_v28 _
  refine congrArg (V c main_v28) (funext fun a => Fin.ext ?_)
  match a with
  | ⟨0, _⟩ => show win2_1.index t (0 : Fin 2) * 5000 + 1 * p.val = r.val; rw [e0, hr]; omega
  | ⟨1, _⟩ => show win2_1.index t (1 : Fin 2) * 64 + 1 * q.val = q.val; rw [e1]; omega

/-- Row `p` of the self coefficients' block at point `t` is row `5000 t + p` of the column. -/
theorem comb_iblk_sc (c : Dev nD) (t : Fin cfg2.N) (p : Fin 5000) (r : Fin 200000)
    (hr : r.val = t.val * 5000 + p.val) :
    (iblk2 V c 2 t : Vec Ideal S5000x1 .f32) (ix2 p (0 : Fin 1)) = (V c main_v42 : Vec Ideal S200000x1 .f32) (ix2 r (0 : Fin 1)) := by
  obtain ⟨-, -, -, -, e0, e1, -⟩ := comb_idx_facts t
  unfold iblk2
  rw [View.read_apply]
  show V c main_v42 _ = V c main_v42 _
  refine congrArg (V c main_v42) (funext fun a => Fin.ext ?_)
  match a with
  | ⟨0, _⟩ => show win2_2.index t (0 : Fin 2) * 5000 + 1 * p.val = r.val; rw [e0, hr]; omega
  | ⟨1, _⟩ => show win2_2.index t (1 : Fin 2) * 1 + 1 * 0 = 0; rw [e1]

/-- The bias row's block is the whole row at every point. -/
theorem comb_iblk_b (c : Dev nD) (t : Fin cfg2.N) (q : Fin 64) :
    (iblk2 V c 3 t : Vec Ideal S1x64 .f32) (ix2 (0 : Fin 1) q) = (V c main_v43 : Vec Ideal S1x64 .f32) (ix2 (0 : Fin 1) q) := by
  obtain ⟨-, -, -, -, -, -, e0, e1, -⟩ := comb_idx_facts t
  unfold iblk2
  rw [View.read_apply]
  show V c main_v43 _ = V c main_v43 _
  refine congrArg (V c main_v43) (funext fun a => Fin.ext ?_)
  match a with
  | ⟨0, _⟩ => show win2_3.index t (0 : Fin 2) * 1 + 1 * 0 = 0; rw [e0]
  | ⟨1, _⟩ => show win2_3.index t (1 : Fin 2) * 64 + 1 * q.val = q.val; rw [e1]; omega

/-- WHAT POINT `t` WRITES BACK is block `t` of the reference's stage applied to the arrays as the region finds them. -/
theorem comb_flushed (c : Dev nD) (t : Fin cfg2.N) :
    (dat2 V c).flushed 4 t = ((cfg2.win 4).blk t).view.read (Elt Ideal)
      (Spec.combRef (F := Ideal) (V c main_v41) (V c main_v28) (V c main_v42) (V c main_v43)) := by
  show (cfg2.win 4).cut (grid2.coords t) ((dat2 V c).after 4 t) = _
  rw [after2_4]
  unfold out2_4
  rw [View.canon_unit_zero comb_hz]
  simp only [View.ld_unit_zero (S := S5000x64) comb_hz, View.ld_unit_zero (S := S5000x1) comb_hz, View.ld_unit_zero (S := S1x64) comb_hz]
  obtain ⟨-, -, -, -, -, -, -, -, e0, e1⟩ := comb_idx_facts t
  have hN : t.val < 40 := t.isLt
  funext j
  obtain ⟨p, q, hp, hq⟩ : ∃ (p : Fin 5000) (q : Fin 64), (j 0).val = p.val ∧ (j 1).val = q.val :=
    ⟨⟨(j 0).val, (j 0).isLt⟩, ⟨(j 1).val, (j 1).isLt⟩, rfl, rfl⟩
  have hpl : p.val < 5000 := p.isLt
  obtain ⟨r, hr⟩ : ∃ r : Fin 200000, r.val = t.val * 5000 + p.val := ⟨⟨t.val * 5000 + p.val, by omega⟩, rfl⟩
  have e_in : (cfg2.win 4).xinj (grid2.coords t) j = ix2 p q := funext fun a => Fin.ext (by
    match a with
    | ⟨0, _⟩ => exact hp
    | ⟨1, _⟩ => exact hq)
  have e_out : ((cfg2.win 4).blk t).view.emb j = ix2 r q := funext fun a => Fin.ext (by
    match a with
    | ⟨0, _⟩ => show win2_4.index t (0 : Fin 2) * 5000 + 1 * (j 0).val = r.val; rw [e0, hr, hp]; omega
    | ⟨1, _⟩ => show win2_4.index t (1 : Fin 2) * 64 + 1 * (j 1).val = q.val; rw [e1, hq]; omega)
  show k2_pay1 (iblk2 V c 0 t) (iblk2 V c 2 t) (iblk2 V c 1 t) (iblk2 V c 3 t) ((cfg2.win 4).xinj (grid2.coords t) j)
    = Spec.combRef (F := Ideal) (V c main_v41) (V c main_v28) (V c main_v42) (V c main_v43) (((cfg2.win 4).blk t).view.emb j)
  rw [e_in, e_out, comb_pay_apply, comb_ref_apply, comb_iblk_agg V c t p q r hr, comb_iblk_hw V c t p q r hr,
    comb_iblk_sc V c t p r hr, comb_iblk_b V c t q]

/-- An index of the array is in point `t`'s block iff each coordinate is in the block's range on its axis. -/
theorem comb_mem_blk (t : Fin cfg2.N) (i : S200000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v44).slice (win2_4.rect t)).set ↔ _
  rw [View.set_slice_whole, Rect.mem_set_unit]
  exact Iff.rfl

/-- Every row is in the block of the point numbered by its quotient by 5000. -/
theorem comb_cover (i : S200000x64.Idx) :
    ∃ t : Fin cfg2.N, (cfg2.win 4).flush t = true ∧ i ∈ ((cfg2.win 4).blk t).view.set := by
  have hi0 : (i 0).val < 200000 := (i 0).isLt
  have hi1 : (i 1).val < 64 := (i 1).isLt
  obtain ⟨t, ht⟩ : ∃ t : Fin cfg2.N, t.val = (i 0).val / 5000 := ⟨⟨(i 0).val / 5000, by show (i 0).val / 5000 < 40; omega⟩, rfl⟩
  obtain ⟨-, -, -, -, -, -, -, -, e0, e1⟩ := comb_idx_facts t
  refine ⟨t, flush2_4 t, ?_⟩
  rw [comb_mem_blk]
  intro a
  match a with
  | ⟨0, _⟩ => show win2_4.index t (0 : Fin 2) * 5000 ≤ (i 0).val ∧ (i 0).val < win2_4.index t (0 : Fin 2) * 5000 + 5000; rw [e0, ht]; omega
  | ⟨1, _⟩ => show win2_4.index t (1 : Fin 2) * 64 ≤ (i 1).val ∧ (i 1).val < win2_4.index t (1 : Fin 2) * 64 + 64; rw [e1]; omega

theorem reg2_value (c : Dev nD) :
    ((dat2 V c).arrAt 4 cfg2.N : Vec Ideal S200000x64 .f32) = Spec.combRef (F := Ideal) (V c main_v41) (V c main_v28) (V c main_v42) (V c main_v43) := by
  exact (dat2 V c).arrAt_eq_of_cover 4 _ (fun t _ => comb_flushed V c t) comb_cover

end Cert.KernelIdeal.RV

end
-- ==== Proof.RegLin3.lean ====
import proofs.«424127_j32091995635825_2_alg».proof.Proof.Gen.KernelIdeal.Frame
import proofs.«424127_j32091995635825_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RV3

open Idealize.ShloMosaic Idealize.ShloMosaic.TcCoe Idealize.ShloMosaic.ValueIdx Idealize.SL.Sem
open Cert.KernelIdeal Cert.KernelIdeal.Gen
open Cert.Proof

/-! ## The block's matrix product, entry by entry -/

theorem lin_klhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lin_klhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem lin_krhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem lin_krhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body rounds both operands to bf16 (the identity on the extended reals) and multiplies them into a zero
    accumulator: entry (p, q) of the block is the sum over k of x0 (p, k) · x1 (k, q). -/
theorem lin_pay (x0 : Vec Ideal S5000x64 .f32) (x1 : Vec Ideal S64x64 .f32) (p : Fin 5000) (q : Fin 64) :
    k3_pay1 x0 x1 (ix2 p q) = ∑ k : Fin 64, x0 (ix2 p k) * x1 (ix2 k q) := by
  unfold k3_pay1
  rw [shapeCast_self]
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lin_klhs_0 _ _
    | ⟨1, _⟩ => exact (lin_klhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (lin_krhs_0 _ _).trans hk
    | ⟨1, _⟩ => exact lin_krhs_1 _ _)
  rw [el, er]
  rfl

/-! ## The reference's matrix product, entry by entry -/

theorem lin_rlhs_0 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.lhsIdx i q 0).val = (i 0).val := by
  unfold DotDims.lhsIdx
  rw [dif_neg (show ¬(0 : Fin Cert.ReferenceIdeal.S200000x64.rank) ∈ Cert.ReferenceIdeal.dot_S200000x64_S64x64_S200000x64_1_0_0_1_n_n.lhsBatch by decide), dif_pos (show (0 : Fin Cert.ReferenceIdeal.S200000x64.rank) ∈ Cert.ReferenceIdeal.dot_S200000x64_S64x64_S200000x64_1_0_0_1_n_n.lhsNonContracting by decide)]
  rfl
theorem lin_rlhs_1 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.lhsIdx i q 1).val = (q ⟨0, by decide⟩).val :=
  Cert.ReferenceIdeal.dot_S200000x64_S64x64_S200000x64_1_0_0_1_n_n.lhsIdx_val_of_single rfl i q
theorem lin_rrhs_0 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.rhsIdx i q 0).val = (q ⟨0, by decide⟩).val :=
  Cert.ReferenceIdeal.dot_S200000x64_S64x64_S200000x64_1_0_0_1_n_n.rhsIdx_val_of_single rfl i q
theorem lin_rrhs_1 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.rhsIdx i q 1).val = (i 1).val := by
  unfold DotDims.rhsIdx
  rw [dif_neg (show ¬(1 : Fin Cert.ReferenceIdeal.S64x64.rank) ∈ Cert.ReferenceIdeal.dot_S200000x64_S64x64_S200000x64_1_0_0_1_n_n.rhsBatch by decide), dif_pos (show (1 : Fin Cert.ReferenceIdeal.S64x64.rank) ∈ Cert.ReferenceIdeal.dot_S200000x64_S64x64_S200000x64_1_0_0_1_n_n.rhsNonContracting by decide)]
  rfl

/-- The reference's product of the whole arrays: entry (r, q) is the sum over k of H (r, k) · W (k, q). -/
theorem lin_ref (H : FVec Ideal Cert.ReferenceIdeal.S200000x64 .f32) (W : FVec Ideal Cert.ReferenceIdeal.S64x64 .f32) (r : Fin 200000) (q : Fin 64) :
    Spec.linRef64 (F := Ideal) H W (ix2 r q) = ∑ k : Fin 64, H (ix2 r k) * W (ix2 k q) := by
  unfold Spec.linRef64
  simp only [Host.dotGeneral]
  rw [Ideal.dotGeneral_apply, ← Equiv.sum_comp (ValueIdx.contrEquiv1 Cert.ReferenceIdeal.dot_S200000x64_S64x64_S200000x64_1_0_0_1_n_n 64 rfl rfl).symm]
  refine Finset.sum_congr rfl fun k _ => ?_
  have hk := ValueIdx.contrEquiv1_symm_val Cert.ReferenceIdeal.dot_S200000x64_S64x64_S200000x64_1_0_0_1_n_n 64 rfl rfl k
  have el : Cert.ReferenceIdeal.dot_S200000x64_S64x64_S200000x64_1_0_0_1_n_n.lhsIdx (ix2 r q) ((ValueIdx.contrEquiv1 Cert.ReferenceIdeal.dot_S200000x64_S64x64_S200000x64_1_0_0_1_n_n 64 rfl rfl).symm k) = ix2 r k := funext fun a => Fin.ext (by
    match a with
    | ⟨0, _⟩ => exact lin_rlhs_0 _ _
    | ⟨1, _⟩ => exact (lin_rlhs_1 _ _).trans hk)
  have er : Cert.ReferenceIdeal.dot_S200000x64_S64x64_S200000x64_1_0_0_1_n_n.rhsIdx (ix2 r q) ((ValueIdx.contrEquiv1 Cert.ReferenceIdeal.dot_S200000x64_S64x64_S200000x64_1_0_0_1_n_n 64 rfl rfl).symm k) = ix2 k q := funext fun a => Fin.ext (by
    match a with
    | ⟨0, _⟩ => exact (lin_rrhs_0 _ _).trans hk
    | ⟨1, _⟩ => exact lin_rrhs_1 _ _)
  rw [el, er]

variable (V : (c : Dev nD) → (b : Ref sig .tc) → Buf (Elt Ideal) ((c : Thread nD τ).loc b))

/-! ## From the blocks to the array -/

theorem lin_hz : (![0, 0] : Fin 2 → Nat) = fun _ => 0 := funext fun a => by fin_cases a <;> rfl

/-- The index maps over the grid: the row-tiled windows sit at block row t, the whole weight array at block 0. -/
theorem lin_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the reference's product: entry (p, q) of the block is the sum over k of
    H (5000 · t + p, k) · W (k, q), the reference's entry at row 5000 · t + p. -/
theorem lin_flushed (c : Dev nD) (t : Fin cfg3.N) :
    (dat3 V c).flushed 2 t = ((cfg3.win 2).blk t).view.read (Elt Ideal) (Spec.linRef64 (F := Ideal) (V c main_v44) (V c main_arg9)) := by
  show (cfg3.win 2).cut (grid3.coords t) ((dat3 V c).after 2 t) = _
  rw [after3_2]
  unfold out3_2
  rw [View.canon_unit_zero lin_hz]
  simp only [View.ld_unit_zero (S := S5000x64) lin_hz, View.ld_unit_zero (S := S64x64) lin_hz]
  funext y
  obtain ⟨p, q, rfl⟩ : ∃ (p : Fin 5000) (q : Fin 64), y = ix2 p q := ⟨y 0, y 1, eq_ix2 y⟩
  obtain ⟨ea, eb, ec, ed, ee, ef⟩ := lin_idx t
  have ht : t.val < 40 := t.isLt
  have hp : p.val < 5000 := p.isLt
  show k3_pay1 (iblk3 V c 0 t) (iblk3 V c 1 t) (ix2 p q)
    = Spec.linRef64 (F := Ideal) (V c main_v44) (V c main_arg9) (((cfg3.win 2).blk t).view.emb (ix2 p q))
  have hout : ((cfg3.win 2).blk t).view.emb (ix2 p q) = ix2 (⟨t.val * 5000 + p.val, by omega⟩ : Fin 200000) q := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * q.val = q.val; omega
  rw [hout]
  refine (lin_pay _ _ p q).trans ((Finset.sum_congr rfl fun k _ => ?_).trans (lin_ref _ _ _ q).symm)
  have hl : ((cfg3.win 0).blk t).view.emb (ix2 p k) = ix2 (⟨t.val * 5000 + p.val, by omega⟩ : Fin 200000) k := by
    funext a; apply Fin.ext
    match a with
    | ⟨0, _⟩ => show win3_0.index t (0 : Fin 2) * 5000 + 1 * p.val = t.val * 5000 + p.val; omega
    | ⟨1, _⟩ => show win3_0.index t (1 : Fin 2) * 64 + 1 * k.val = k.val; omega
  have hr : ((cfg3.win 1).blk t).view.emb (ix2 k q) = ix2 k q := by
    funext a; apply Fin.ext
    match a with
    | ⟨0, _⟩ => show win3_1.index t (0 : Fin 2) * 64 + 1 * k.val = k.val; omega
    | ⟨1, _⟩ => show win3_1.index t (1 : Fin 2) * 64 + 1 * q.val = q.val; omega
  have h0 : (iblk3 V c 0 t : Vec Ideal S5000x64 .f32) (ix2 p k)
      = (V c main_v44 : Vec Ideal S200000x64 .f32) (ix2 (⟨t.val * 5000 + p.val, by omega⟩ : Fin 200000) k) :=
    congrArg (V c main_v44) hl
  have h1 : (iblk3 V c 1 t : Vec Ideal S64x64 .f32) (ix2 k q) = (V c main_arg9 : Vec Ideal S64x64 .f32) (ix2 k q) :=
    congrArg (V c main_arg9) hr
  exact congrArg₂ (· * ·) h0 h1

/-- An index of the array is in point t's block iff each coordinate is in the block's range on its axis. -/
theorem lin_mem_blk (t : Fin cfg3.N) (i : S200000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole win3_2.arr.view.ref).slice (win3_2.rect t)).set ↔ _
  rw [View.set_slice_whole, Rect.mem_set_unit]
  exact Iff.rfl

/-- Row r of the array lies in the block of point r / 5000: the 40 row blocks tile the 200000 rows. -/
theorem lin_cover (i : S200000x64.Idx) :
    ∃ t : Fin cfg3.N, (cfg3.win 2).flush t = true ∧ i ∈ ((cfg3.win 2).blk t).view.set := by
  have hi0 : (i 0).val < 200000 := (i 0).isLt
  have hi1 : (i 1).val < 64 := (i 1).isLt
  have hN : (i 0).val / 5000 < 40 := by omega
  refine ⟨⟨(i 0).val / 5000, hN⟩, flush3_2 _, ?_⟩
  rw [lin_mem_blk]
  obtain ⟨ea, eb, ec, ed, ee, ef⟩ := lin_idx ⟨(i 0).val / 5000, hN⟩
  have ee' : win3_2.index ⟨(i 0).val / 5000, hN⟩ (0 : Fin 2) = (i 0).val / 5000 := ee
  intro a
  match a with
  | ⟨0, _⟩ => show win3_2.index ⟨(i 0).val / 5000, hN⟩ (0 : Fin 2) * 5000 ≤ (i 0).val ∧ (i 0).val < win3_2.index ⟨(i 0).val / 5000, hN⟩ (0 : Fin 2) * 5000 + 5000; omega
  | ⟨1, _⟩ => show win3_2.index ⟨(i 0).val / 5000, hN⟩ (1 : Fin 2) * 64 ≤ (i 1).val ∧ (i 1).val < win3_2.index ⟨(i 0).val / 5000, hN⟩ (1 : Fin 2) * 64 + 64; omega

/-- Region 3's output array after all 40 grid points is the reference's product of its two input arrays. -/
theorem reg3_value (c : Dev nD) :
    ((dat3 V c).arrAt 2 cfg3.N : Vec Ideal S200000x64 .f32) = Spec.linRef64 (F := Ideal) (V c main_v44) (V c main_arg9) := by
  exact (dat3 V c).arrAt_eq_of_cover 2 (Spec.linRef64 (F := Ideal) (V c main_v44) (V c main_arg9))
    (fun t _ => lin_flushed V c t) lin_cover

end Cert.KernelIdeal.RV3

end
-- ==== Proof.RegComb4.lean ====
import proofs.«424127_j32091995635825_2_alg».proof.Proof.Gen.KernelIdeal.Frame
import proofs.«424127_j32091995635825_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RV4

open Idealize.ShloMosaic Idealize.ShloMosaic.TcCoe Idealize.ShloMosaic.ValueIdx Idealize.SL.Sem
open Cert.KernelIdeal Cert.KernelIdeal.Gen
open Cert.Proof

/-! ## Broadcasts of a column and of a row, read at an index -/

/-- An `[a, 1]` column broadcast to `[a, b]` reads, at `(p, c)`, the column's entry of row `p`. -/
theorem comb_broadcastTo_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same column broadcast along the axes `(0, 1)` by the host operation. -/
theorem comb_bcastInDim_col {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast along the axes `(0, 1)` by the host operation reads, at `(p, c)`, the row's entry `c`. -/
theorem comb_bcastInDim_row {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-! ## The two sides entry by entry -/

/-- The body's arithmetic at row `p`, column `q` of its block: relu of the aggregate plus the row's self coefficient
    times the transformed feature plus the column's bias. -/
theorem comb_pay_apply (x0 x1 : Vec Ideal S5000x64 .f32) (x2 : Vec Ideal S5000x1 .f32) (x3 : Vec Ideal S1x64 .f32)
    (p : Fin 5000) (q : Fin 64) :
    k4_pay1 x0 x2 x1 x3 (ix2 p q)
      = max (x0 (ix2 p q) + x2 (ix2 p (0 : Fin 1)) * x1 (ix2 p q) + x3 (ix2 (0 : Fin 1) q)) (Ideal.ofBits .f32 0x00000000#32) := by
  unfold k4_pay1
  simp only [shapeCast_self]
  rw [maximumf_apply, addf_apply, addf_apply, mulf_apply, broadcast_apply]
  rw [comb_broadcastTo_col x2 _ p q, broadcastTo_1b_ab_apply x3 _ p q]
  rfl

/-- The reference's stage at row `r`, column `q`: the same expression of the whole arrays. -/
theorem comb_ref_apply (agg hw : Vec Ideal S200000x64 .f32) (sc : Vec Ideal S200000x1 .f32) (b : Vec Ideal S1x64 .f32)
    (r : Fin 200000) (q : Fin 64) :
    Spec.combRef (F := Ideal) agg hw sc b (ix2 r q)
      = max (agg (ix2 r q) + sc (ix2 r (0 : Fin 1)) * hw (ix2 r q) + b (ix2 (0 : Fin 1) q)) (Ideal.ofBits .f32 0x00000000#32) := by
  unfold Spec.combRef
  rw [maximumf_apply, addf_apply, addf_apply, mulf_apply]
  rw [comb_bcastInDim_col sc _ r q, comb_bcastInDim_row b _ r q]
  rfl

variable (V : (c : Dev nD) → (b : Ref sig .tc) → Buf (Elt Ideal) ((c : Thread nD τ).loc b))

/-! ## From the blocks to the array -/

theorem comb_hz : (![0, 0] : Fin 2 → Nat) = fun _ => 0 := funext fun a => by fin_cases a <;> rfl

/-- The printed index maps, decided over the grid: the row-tiled windows sit at block `(t, 0)`, the bias row at `(0, 0)`. -/
theorem comb_idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row `p`, column `q` of the aggregate's block at point `t` is row `5000 t + p` of the array. -/
theorem comb_iblk_agg (c : Dev nD) (t : Fin cfg4.N) (p : Fin 5000) (q : Fin 64) (r : Fin 200000)
    (hr : r.val = t.val * 5000 + p.val) :
    (iblk4 V c 0 t : Vec Ideal S5000x64 .f32) (ix2 p q) = (V c main_v58 : Vec Ideal S200000x64 .f32) (ix2 r q) := by
  obtain ⟨e0, e1, -⟩ := comb_idx_facts t
  unfold iblk4
  rw [View.read_apply]
  show V c main_v58 _ = V c main_v58 _
  refine congrArg (V c main_v58) (funext fun a => Fin.ext ?_)
  match a with
  | ⟨0, _⟩ => show win4_0.index t (0 : Fin 2) * 5000 + 1 * p.val = r.val; rw [e0, hr]; omega
  | ⟨1, _⟩ => show win4_0.index t (1 : Fin 2) * 64 + 1 * q.val = q.val; rw [e1]; omega

/-- The same for the transformed features' block. -/
theorem comb_iblk_hw (c : Dev nD) (t : Fin cfg4.N) (p : Fin 5000) (q : Fin 64) (r : Fin 200000)
    (hr : r.val = t.val * 5000 + p.val) :
    (iblk4 V c 1 t : Vec Ideal S5000x64 .f32) (ix2 p q) = (V c main_v45 : Vec Ideal S200000x64 .f32) (ix2 r q) := by
  obtain ⟨-, -, e0, e1, -⟩ := comb_idx_facts t
  unfold iblk4
  rw [View.read_apply]
  show V c main_v45 _ = V c main_v45 _
  refine congrArg (V c main_v45) (funext fun a => Fin.ext ?_)
  match a with
  | ⟨0, _⟩ => show win4_1.index t (0 : Fin 2) * 5000 + 1 * p.val = r.val; rw [e0, hr]; omega
  | ⟨1, _⟩ => show win4_1.index t (1 : Fin 2) * 64 + 1 * q.val = q.val; rw [e1]; omega

/-- Row `p` of the self coefficients' block at point `t` is row `5000 t + p` of the column. -/
theorem comb_iblk_sc (c : Dev nD) (t : Fin cfg4.N) (p : Fin 5000) (r : Fin 200000)
    (hr : r.val = t.val * 5000 + p.val) :
    (iblk4 V c 2 t : Vec Ideal S5000x1 .f32) (ix2 p (0 : Fin 1)) = (V c main_v59 : Vec Ideal S200000x1 .f32) (ix2 r (0 : Fin 1)) := by
  obtain ⟨-, -, -, -, e0, e1, -⟩ := comb_idx_facts t
  unfold iblk4
  rw [View.read_apply]
  show V c main_v59 _ = V c main_v59 _
  refine congrArg (V c main_v59) (funext fun a => Fin.ext ?_)
  match a with
  | ⟨0, _⟩ => show win4_2.index t (0 : Fin 2) * 5000 + 1 * p.val = r.val; rw [e0, hr]; omega
  | ⟨1, _⟩ => show win4_2.index t (1 : Fin 2) * 1 + 1 * 0 = 0; rw [e1]

/-- The bias row's block is the whole row at every point. -/
theorem comb_iblk_b (c : Dev nD) (t : Fin cfg4.N) (q : Fin 64) :
    (iblk4 V c 3 t : Vec Ideal S1x64 .f32) (ix2 (0 : Fin 1) q) = (V c main_v60 : Vec Ideal S1x64 .f32) (ix2 (0 : Fin 1) q) := by
  obtain ⟨-, -, -, -, -, -, e0, e1, -⟩ := comb_idx_facts t
  unfold iblk4
  rw [View.read_apply]
  show V c main_v60 _ = V c main_v60 _
  refine congrArg (V c main_v60) (funext fun a => Fin.ext ?_)
  match a with
  | ⟨0, _⟩ => show win4_3.index t (0 : Fin 2) * 1 + 1 * 0 = 0; rw [e0]
  | ⟨1, _⟩ => show win4_3.index t (1 : Fin 2) * 64 + 1 * q.val = q.val; rw [e1]; omega

/-- WHAT POINT `t` WRITES BACK is block `t` of the reference's stage applied to the arrays as the region finds them. -/
theorem comb_flushed (c : Dev nD) (t : Fin cfg4.N) :
    (dat4 V c).flushed 4 t = ((cfg4.win 4).blk t).view.read (Elt Ideal)
      (Spec.combRef (F := Ideal) (V c main_v58) (V c main_v45) (V c main_v59) (V c main_v60)) := by
  show (cfg4.win 4).cut (grid4.coords t) ((dat4 V c).after 4 t) = _
  rw [after4_4]
  unfold out4_4
  rw [View.canon_unit_zero comb_hz]
  simp only [View.ld_unit_zero (S := S5000x64) comb_hz, View.ld_unit_zero (S := S5000x1) comb_hz, View.ld_unit_zero (S := S1x64) comb_hz]
  obtain ⟨-, -, -, -, -, -, -, -, e0, e1⟩ := comb_idx_facts t
  have hN : t.val < 40 := t.isLt
  funext j
  obtain ⟨p, q, hp, hq⟩ : ∃ (p : Fin 5000) (q : Fin 64), (j 0).val = p.val ∧ (j 1).val = q.val :=
    ⟨⟨(j 0).val, (j 0).isLt⟩, ⟨(j 1).val, (j 1).isLt⟩, rfl, rfl⟩
  have hpl : p.val < 5000 := p.isLt
  obtain ⟨r, hr⟩ : ∃ r : Fin 200000, r.val = t.val * 5000 + p.val := ⟨⟨t.val * 5000 + p.val, by omega⟩, rfl⟩
  have e_in : (cfg4.win 4).xinj (grid4.coords t) j = ix2 p q := funext fun a => Fin.ext (by
    match a with
    | ⟨0, _⟩ => exact hp
    | ⟨1, _⟩ => exact hq)
  have e_out : ((cfg4.win 4).blk t).view.emb j = ix2 r q := funext fun a => Fin.ext (by
    match a with
    | ⟨0, _⟩ => show win4_4.index t (0 : Fin 2) * 5000 + 1 * (j 0).val = r.val; rw [e0, hr, hp]; omega
    | ⟨1, _⟩ => show win4_4.index t (1 : Fin 2) * 64 + 1 * (j 1).val = q.val; rw [e1, hq]; omega)
  show k4_pay1 (iblk4 V c 0 t) (iblk4 V c 2 t) (iblk4 V c 1 t) (iblk4 V c 3 t) ((cfg4.win 4).xinj (grid4.coords t) j)
    = Spec.combRef (F := Ideal) (V c main_v58) (V c main_v45) (V c main_v59) (V c main_v60) (((cfg4.win 4).blk t).view.emb j)
  rw [e_in, e_out, comb_pay_apply, comb_ref_apply, comb_iblk_agg V c t p q r hr, comb_iblk_hw V c t p q r hr,
    comb_iblk_sc V c t p r hr, comb_iblk_b V c t q]

/-- An index of the array is in point `t`'s block iff each coordinate is in the block's range on its axis. -/
theorem comb_mem_blk (t : Fin cfg4.N) (i : S200000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole main_v61).slice (win4_4.rect t)).set ↔ _
  rw [View.set_slice_whole, Rect.mem_set_unit]
  exact Iff.rfl

/-- Every row is in the block of the point numbered by its quotient by 5000. -/
theorem comb_cover (i : S200000x64.Idx) :
    ∃ t : Fin cfg4.N, (cfg4.win 4).flush t = true ∧ i ∈ ((cfg4.win 4).blk t).view.set := by
  have hi0 : (i 0).val < 200000 := (i 0).isLt
  have hi1 : (i 1).val < 64 := (i 1).isLt
  obtain ⟨t, ht⟩ : ∃ t : Fin cfg4.N, t.val = (i 0).val / 5000 := ⟨⟨(i 0).val / 5000, by show (i 0).val / 5000 < 40; omega⟩, rfl⟩
  obtain ⟨-, -, -, -, -, -, -, -, e0, e1⟩ := comb_idx_facts t
  refine ⟨t, flush4_4 t, ?_⟩
  rw [comb_mem_blk]
  intro a
  match a with
  | ⟨0, _⟩ => show win4_4.index t (0 : Fin 2) * 5000 ≤ (i 0).val ∧ (i 0).val < win4_4.index t (0 : Fin 2) * 5000 + 5000; rw [e0, ht]; omega
  | ⟨1, _⟩ => show win4_4.index t (1 : Fin 2) * 64 ≤ (i 1).val ∧ (i 1).val < win4_4.index t (1 : Fin 2) * 64 + 64; rw [e1]; omega

theorem reg4_value (c : Dev nD) :
    ((dat4 V c).arrAt 4 cfg4.N : Vec Ideal S200000x64 .f32) = Spec.combRef (F := Ideal) (V c main_v58) (V c main_v45) (V c main_v59) (V c main_v60) := by
  exact (dat4 V c).arrAt_eq_of_cover 4 _ (fun t _ => comb_flushed V c t) comb_cover

end Cert.KernelIdeal.RV4

end
-- ==== Proof.RegLin5.lean ====
import proofs.«424127_j32091995635825_2_alg».proof.Proof.Gen.KernelIdeal.Frame
import proofs.«424127_j32091995635825_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RV5

open Idealize.ShloMosaic Idealize.ShloMosaic.TcCoe Idealize.ShloMosaic.ValueIdx Idealize.SL.Sem
open Cert.KernelIdeal Cert.KernelIdeal.Gen
open Cert.Proof

/-! ## The block's matrix product, entry by entry -/

theorem lin_klhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lin_klhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem lin_krhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem lin_krhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body rounds both operands to bf16 (the identity on the extended reals) and multiplies them into a zero
    accumulator: entry (p, q) of the block is the sum over k of x0 (p, k) · x1 (k, q). -/
theorem lin_pay (x0 : Vec Ideal S5000x64 .f32) (x1 : Vec Ideal S64x64 .f32) (p : Fin 5000) (q : Fin 64) :
    k5_pay1 x0 x1 (ix2 p q) = ∑ k : Fin 64, x0 (ix2 p k) * x1 (ix2 k q) := by
  unfold k5_pay1
  rw [shapeCast_self]
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lin_klhs_0 _ _
    | ⟨1, _⟩ => exact (lin_klhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (lin_krhs_0 _ _).trans hk
    | ⟨1, _⟩ => exact lin_krhs_1 _ _)
  rw [el, er]
  rfl

/-! ## The reference's matrix product, entry by entry -/

theorem lin_rlhs_0 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.lhsIdx i q 0).val = (i 0).val := by
  unfold DotDims.lhsIdx
  rw [dif_neg (show ¬(0 : Fin Cert.ReferenceIdeal.S200000x64.rank) ∈ Cert.ReferenceIdeal.dot_S200000x64_S64x64_S200000x64_1_0_0_1_n_n.lhsBatch by decide), dif_pos (show (0 : Fin Cert.ReferenceIdeal.S200000x64.rank) ∈ Cert.ReferenceIdeal.dot_S200000x64_S64x64_S200000x64_1_0_0_1_n_n.lhsNonContracting by decide)]
  rfl
theorem lin_rlhs_1 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.lhsIdx i q 1).val = (q ⟨0, by decide⟩).val :=
  Cert.ReferenceIdeal.dot_S200000x64_S64x64_S200000x64_1_0_0_1_n_n.lhsIdx_val_of_single rfl i q
theorem lin_rrhs_0 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.rhsIdx i q 0).val = (q ⟨0, by decide⟩).val :=
  Cert.ReferenceIdeal.dot_S200000x64_S64x64_S200000x64_1_0_0_1_n_n.rhsIdx_val_of_single rfl i q
theorem lin_rrhs_1 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.rhsIdx i q 1).val = (i 1).val := by
  unfold DotDims.rhsIdx
  rw [dif_neg (show ¬(1 : Fin Cert.ReferenceIdeal.S64x64.rank) ∈ Cert.ReferenceIdeal.dot_S200000x64_S64x64_S200000x64_1_0_0_1_n_n.rhsBatch by decide), dif_pos (show (1 : Fin Cert.ReferenceIdeal.S64x64.rank) ∈ Cert.ReferenceIdeal.dot_S200000x64_S64x64_S200000x64_1_0_0_1_n_n.rhsNonContracting by decide)]
  rfl

/-- The reference's product of the whole arrays: entry (r, q) is the sum over k of H (r, k) · W (k, q). -/
theorem lin_ref (H : FVec Ideal Cert.ReferenceIdeal.S200000x64 .f32) (W : FVec Ideal Cert.ReferenceIdeal.S64x64 .f32) (r : Fin 200000) (q : Fin 64) :
    Spec.linRef64 (F := Ideal) H W (ix2 r q) = ∑ k : Fin 64, H (ix2 r k) * W (ix2 k q) := by
  unfold Spec.linRef64
  simp only [Host.dotGeneral]
  rw [Ideal.dotGeneral_apply, ← Equiv.sum_comp (ValueIdx.contrEquiv1 Cert.ReferenceIdeal.dot_S200000x64_S64x64_S200000x64_1_0_0_1_n_n 64 rfl rfl).symm]
  refine Finset.sum_congr rfl fun k _ => ?_
  have hk := ValueIdx.contrEquiv1_symm_val Cert.ReferenceIdeal.dot_S200000x64_S64x64_S200000x64_1_0_0_1_n_n 64 rfl rfl k
  have el : Cert.ReferenceIdeal.dot_S200000x64_S64x64_S200000x64_1_0_0_1_n_n.lhsIdx (ix2 r q) ((ValueIdx.contrEquiv1 Cert.ReferenceIdeal.dot_S200000x64_S64x64_S200000x64_1_0_0_1_n_n 64 rfl rfl).symm k) = ix2 r k := funext fun a => Fin.ext (by
    match a with
    | ⟨0, _⟩ => exact lin_rlhs_0 _ _
    | ⟨1, _⟩ => exact (lin_rlhs_1 _ _).trans hk)
  have er : Cert.ReferenceIdeal.dot_S200000x64_S64x64_S200000x64_1_0_0_1_n_n.rhsIdx (ix2 r q) ((ValueIdx.contrEquiv1 Cert.ReferenceIdeal.dot_S200000x64_S64x64_S200000x64_1_0_0_1_n_n 64 rfl rfl).symm k) = ix2 k q := funext fun a => Fin.ext (by
    match a with
    | ⟨0, _⟩ => exact (lin_rrhs_0 _ _).trans hk
    | ⟨1, _⟩ => exact lin_rrhs_1 _ _)
  rw [el, er]

variable (V : (c : Dev nD) → (b : Ref sig .tc) → Buf (Elt Ideal) ((c : Thread nD τ).loc b))

/-! ## From the blocks to the array -/

theorem lin_hz : (![0, 0] : Fin 2 → Nat) = fun _ => 0 := funext fun a => by fin_cases a <;> rfl

/-- The index maps over the grid: the row-tiled windows sit at block row t, the whole weight array at block 0. -/
theorem lin_idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the reference's product: entry (p, q) of the block is the sum over k of
    H (5000 · t + p, k) · W (k, q), the reference's entry at row 5000 · t + p. -/
theorem lin_flushed (c : Dev nD) (t : Fin cfg5.N) :
    (dat5 V c).flushed 2 t = ((cfg5.win 2).blk t).view.read (Elt Ideal) (Spec.linRef64 (F := Ideal) (V c main_v61) (V c main_arg11)) := by
  show (cfg5.win 2).cut (grid5.coords t) ((dat5 V c).after 2 t) = _
  rw [after5_2]
  unfold out5_2
  rw [View.canon_unit_zero lin_hz]
  simp only [View.ld_unit_zero (S := S5000x64) lin_hz, View.ld_unit_zero (S := S64x64) lin_hz]
  funext y
  obtain ⟨p, q, rfl⟩ : ∃ (p : Fin 5000) (q : Fin 64), y = ix2 p q := ⟨y 0, y 1, eq_ix2 y⟩
  obtain ⟨ea, eb, ec, ed, ee, ef⟩ := lin_idx t
  have ht : t.val < 40 := t.isLt
  have hp : p.val < 5000 := p.isLt
  show k5_pay1 (iblk5 V c 0 t) (iblk5 V c 1 t) (ix2 p q)
    = Spec.linRef64 (F := Ideal) (V c main_v61) (V c main_arg11) (((cfg5.win 2).blk t).view.emb (ix2 p q))
  have hout : ((cfg5.win 2).blk t).view.emb (ix2 p q) = ix2 (⟨t.val * 5000 + p.val, by omega⟩ : Fin 200000) q := by
    funext a; apply Fin.ext
    match a with
    | ⟨0, _⟩ => show win5_2.index t (0 : Fin 2) * 5000 + 1 * p.val = t.val * 5000 + p.val; omega
    | ⟨1, _⟩ => show win5_2.index t (1 : Fin 2) * 64 + 1 * q.val = q.val; omega
  rw [hout]
  refine (lin_pay _ _ p q).trans ((Finset.sum_congr rfl fun k _ => ?_).trans (lin_ref _ _ _ q).symm)
  have hl : ((cfg5.win 0).blk t).view.emb (ix2 p k) = ix2 (⟨t.val * 5000 + p.val, by omega⟩ : Fin 200000) k := by
    funext a; apply Fin.ext
    match a with
    | ⟨0, _⟩ => show win5_0.index t (0 : Fin 2) * 5000 + 1 * p.val = t.val * 5000 + p.val; omega
    | ⟨1, _⟩ => show win5_0.index t (1 : Fin 2) * 64 + 1 * k.val = k.val; omega
  have hr : ((cfg5.win 1).blk t).view.emb (ix2 k q) = ix2 k q := by
    funext a; apply Fin.ext
    match a with
    | ⟨0, _⟩ => show win5_1.index t (0 : Fin 2) * 64 + 1 * k.val = k.val; omega
    | ⟨1, _⟩ => show win5_1.index t (1 : Fin 2) * 64 + 1 * q.val = q.val; omega
  have h0 : (iblk5 V c 0 t : Vec Ideal S5000x64 .f32) (ix2 p k)
      = (V c main_v61 : Vec Ideal S200000x64 .f32) (ix2 (⟨t.val * 5000 + p.val, by omega⟩ : Fin 200000) k) :=
    congrArg (V c main_v61) hl
  have h1 : (iblk5 V c 1 t : Vec Ideal S64x64 .f32) (ix2 k q) = (V c main_arg11 : Vec Ideal S64x64 .f32) (ix2 k q) :=
    congrArg (V c main_arg11) hr
  exact congrArg₂ (· * ·) h0 h1

/-- An index of the array is in point t's block iff each coordinate is in the block's range on its axis. -/
theorem lin_mem_blk (t : Fin cfg5.N) (i : S200000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole win5_2.arr.view.ref).slice (win5_2.rect t)).set ↔ _
  rw [View.set_slice_whole, Rect.mem_set_unit]
  exact Iff.rfl

/-- Row r of the array lies in the block of point r / 5000: the 40 row blocks tile the 200000 rows. -/
theorem lin_cover (i : S200000x64.Idx) :
    ∃ t : Fin cfg5.N, (cfg5.win 2).flush t = true ∧ i ∈ ((cfg5.win 2).blk t).view.set := by
  have hi0 : (i 0).val < 200000 := (i 0).isLt
  have hi1 : (i 1).val < 64 := (i 1).isLt
  have hN : (i 0).val / 5000 < 40 := by omega
  refine ⟨⟨(i 0).val / 5000, hN⟩, flush5_2 _, ?_⟩
  rw [lin_mem_blk]
  obtain ⟨ea, eb, ec, ed, ee, ef⟩ := lin_idx ⟨(i 0).val / 5000, hN⟩
  have ee' : win5_2.index ⟨(i 0).val / 5000, hN⟩ (0 : Fin 2) = (i 0).val / 5000 := ee
  intro a
  match a with
  | ⟨0, _⟩ => show win5_2.index ⟨(i 0).val / 5000, hN⟩ (0 : Fin 2) * 5000 ≤ (i 0).val ∧ (i 0).val < win5_2.index ⟨(i 0).val / 5000, hN⟩ (0 : Fin 2) * 5000 + 5000; omega
  | ⟨1, _⟩ => show win5_2.index ⟨(i 0).val / 5000, hN⟩ (1 : Fin 2) * 64 ≤ (i 1).val ∧ (i 1).val < win5_2.index ⟨(i 0).val / 5000, hN⟩ (1 : Fin 2) * 64 + 64; omega

/-- Region 5's output array after all 40 grid points is the reference's product of its two input arrays. -/
theorem reg5_value (c : Dev nD) :
    ((dat5 V c).arrAt 2 cfg5.N : Vec Ideal S200000x64 .f32) = Spec.linRef64 (F := Ideal) (V c main_v61) (V c main_arg11) := by
  exact (dat5 V c).arrAt_eq_of_cover 2 (Spec.linRef64 (F := Ideal) (V c main_v61) (V c main_arg11))
    (fun t _ => lin_flushed V c t) lin_cover

end Cert.KernelIdeal.RV5

end
-- ==== Proof.RegComb6.lean ====
import proofs.«424127_j32091995635825_2_alg».proof.Proof.Gen.KernelIdeal.Frame
import proofs.«424127_j32091995635825_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RV6

open Idealize.ShloMosaic Idealize.ShloMosaic.TcCoe Idealize.ShloMosaic.ValueIdx Idealize.SL.Sem
open Cert.KernelIdeal Cert.KernelIdeal.Gen
open Cert.Proof

/-! ## Broadcasts of a column and of a row, read at an index -/

/-- An `[a, 1]` column broadcast to `[a, b]` reads, at `(p, c)`, the column's entry of row `p`. -/
theorem comb_broadcastTo_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same column broadcast along the axes `(0, 1)` by the host operation. -/
theorem comb_bcastInDim_col {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast along the axes `(0, 1)` by the host operation reads, at `(p, c)`, the row's entry `c`. -/
theorem comb_bcastInDim_row {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-! ## The two sides entry by entry -/

/-- The body's arithmetic at row `p`, column `q` of its block: relu of the aggregate plus the row's self coefficient
    times the transformed feature plus the column's bias. -/
theorem comb_pay_apply (x0 x1 : Vec Ideal S5000x64 .f32) (x2 : Vec Ideal S5000x1 .f32) (x3 : Vec Ideal S1x64 .f32)
    (p : Fin 5000) (q : Fin 64) :
    k6_pay1 x0 x2 x1 x3 (ix2 p q)
      = max (x0 (ix2 p q) + x2 (ix2 p (0 : Fin 1)) * x1 (ix2 p q) + x3 (ix2 (0 : Fin 1) q)) (Ideal.ofBits .f32 0x00000000#32) := by
  unfold k6_pay1
  simp only [shapeCast_self]
  rw [maximumf_apply, addf_apply, addf_apply, mulf_apply, broadcast_apply]
  rw [comb_broadcastTo_col x2 _ p q, broadcastTo_1b_ab_apply x3 _ p q]
  rfl

/-- The reference's stage at row `r`, column `q`: the same expression of the whole arrays. -/
theorem comb_ref_apply (agg hw : Vec Ideal S200000x64 .f32) (sc : Vec Ideal S200000x1 .f32) (b : Vec Ideal S1x64 .f32)
    (r : Fin 200000) (q : Fin 64) :
    Spec.combRef (F := Ideal) agg hw sc b (ix2 r q)
      = max (agg (ix2 r q) + sc (ix2 r (0 : Fin 1)) * hw (ix2 r q) + b (ix2 (0 : Fin 1) q)) (Ideal.ofBits .f32 0x00000000#32) := by
  unfold Spec.combRef
  rw [maximumf_apply, addf_apply, addf_apply, mulf_apply]
  rw [comb_bcastInDim_col sc _ r q, comb_bcastInDim_row b _ r q]
  rfl

variable (V : (c : Dev nD) → (b : Ref sig .tc) → Buf (Elt Ideal) ((c : Thread nD τ).loc b))

/-! ## From the blocks to the array -/

theorem comb_hz : (![0, 0] : Fin 2 → Nat) = fun _ => 0 := funext fun a => by fin_cases a <;> rfl

/-- The printed index maps, decided over the grid: the row-tiled windows sit at block `(t, 0)`, the bias row at `(0, 0)`. -/
theorem comb_idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Row `p`, column `q` of the aggregate's block at point `t` is row `5000 t + p` of the array. -/
theorem comb_iblk_agg (c : Dev nD) (t : Fin cfg6.N) (p : Fin 5000) (q : Fin 64) (r : Fin 200000)
    (hr : r.val = t.val * 5000 + p.val) :
    (iblk6 V c 0 t : Vec Ideal S5000x64 .f32) (ix2 p q) = (V c main_v75 : Vec Ideal S200000x64 .f32) (ix2 r q) := by
  obtain ⟨e0, e1, -⟩ := comb_idx_facts t
  unfold iblk6
  rw [View.read_apply]
  show V c main_v75 _ = V c main_v75 _
  refine congrArg (V c main_v75) (funext fun a => Fin.ext ?_)
  match a with
  | ⟨0, _⟩ => show win6_0.index t (0 : Fin 2) * 5000 + 1 * p.val = r.val; rw [e0, hr]; omega
  | ⟨1, _⟩ => show win6_0.index t (1 : Fin 2) * 64 + 1 * q.val = q.val; rw [e1]; omega

/-- The same for the transformed features' block. -/
theorem comb_iblk_hw (c : Dev nD) (t : Fin cfg6.N) (p : Fin 5000) (q : Fin 64) (r : Fin 200000)
    (hr : r.val = t.val * 5000 + p.val) :
    (iblk6 V c 1 t : Vec Ideal S5000x64 .f32) (ix2 p q) = (V c main_v62 : Vec Ideal S200000x64 .f32) (ix2 r q) := by
  obtain ⟨-, -, e0, e1, -⟩ := comb_idx_facts t
  unfold iblk6
  rw [View.read_apply]
  show V c main_v62 _ = V c main_v62 _
  refine congrArg (V c main_v62) (funext fun a => Fin.ext ?_)
  match a with
  | ⟨0, _⟩ => show win6_1.index t (0 : Fin 2) * 5000 + 1 * p.val = r.val; rw [e0, hr]; omega
  | ⟨1, _⟩ => show win6_1.index t (1 : Fin 2) * 64 + 1 * q.val = q.val; rw [e1]; omega

/-- Row `p` of the self coefficients' block at point `t` is row `5000 t + p` of the column. -/
theorem comb_iblk_sc (c : Dev nD) (t : Fin cfg6.N) (p : Fin 5000) (r : Fin 200000)
    (hr : r.val = t.val * 5000 + p.val) :
    (iblk6 V c 2 t : Vec Ideal S5000x1 .f32) (ix2 p (0 : Fin 1)) = (V c main_v76 : Vec Ideal S200000x1 .f32) (ix2 r (0 : Fin 1)) := by
  obtain ⟨-, -, -, -, e0, e1, -⟩ := comb_idx_facts t
  unfold iblk6
  rw [View.read_apply]
  show V c main_v76 _ = V c main_v76 _
  refine congrArg (V c main_v76) (funext fun a => Fin.ext ?_)
  match a with
  | ⟨0, _⟩ => show win6_2.index t (0 : Fin 2) * 5000 + 1 * p.val = r.val; rw [e0, hr]; omega
  | ⟨1, _⟩ => show win6_2.index t (1 : Fin 2) * 1 + 1 * 0 = 0; rw [e1]

/-- The bias row's block is the whole row at every point. -/
theorem comb_iblk_b (c : Dev nD) (t : Fin cfg6.N) (q : Fin 64) :
    (iblk6 V c 3 t : Vec Ideal S1x64 .f32) (ix2 (0 : Fin 1) q) = (V c main_v77 : Vec Ideal S1x64 .f32) (ix2 (0 : Fin 1) q) := by
  obtain ⟨-, -, -, -, -, -, e0, e1, -⟩ := comb_idx_facts t
  unfold iblk6
  rw [View.read_apply]
  show V c main_v77 _ = V c main_v77 _
  refine congrArg (V c main_v77) (funext fun a => Fin.ext ?_)
  match a with
  | ⟨0, _⟩ => show win6_3.index t (0 : Fin 2) * 1 + 1 * 0 = 0; rw [e0]
  | ⟨1, _⟩ => show win6_3.index t (1 : Fin 2) * 64 + 1 * q.val = q.val; rw [e1]; omega

/-- WHAT POINT `t` WRITES BACK is block `t` of the reference's stage applied to the arrays as the region finds them. -/
theorem comb_flushed (c : Dev nD) (t : Fin cfg6.N) :
    (dat6 V c).flushed 4 t = ((cfg6.win 4).blk t).view.read (Elt Ideal)
      (Spec.combRef (F := Ideal) (V c main_v75) (V c main_v62) (V c main_v76) (V c main_v77)) := by
  show (cfg6.win 4).cut (grid6.coords t) ((dat6 V c).after 4 t) = _
  rw [after6_4]
  unfold out6_4
  rw [View.canon_unit_zero comb_hz]
  simp only [View.ld_unit_zero (S := S5000x64) comb_hz, View.ld_unit_zero (S := S5000x1) comb_hz, View.ld_unit_zero (S := S1x64) comb_hz]
  obtain ⟨-, -, -, -, -, -, -, -, e0, e1⟩ := comb_idx_facts t
  have hN : t.val < 40 := t.isLt
  funext j
  obtain ⟨p, q, hp, hq⟩ : ∃ (p : Fin 5000) (q : Fin 64), (j 0).val = p.val ∧ (j 1).val = q.val :=
    ⟨⟨(j 0).val, (j 0).isLt⟩, ⟨(j 1).val, (j 1).isLt⟩, rfl, rfl⟩
  have hpl : p.val < 5000 := p.isLt
  obtain ⟨r, hr⟩ : ∃ r : Fin 200000, r.val = t.val * 5000 + p.val := ⟨⟨t.val * 5000 + p.val, by omega⟩, rfl⟩
  have e_in : (cfg6.win 4).xinj (grid6.coords t) j = ix2 p q := funext fun a => Fin.ext (by
    match a with
    | ⟨0, _⟩ => exact hp
    | ⟨1, _⟩ => exact hq)
  have e_out : ((cfg6.win 4).blk t).view.emb j = ix2 r q := funext fun a => Fin.ext (by
    match a with
    | ⟨0, _⟩ => show win6_4.index t (0 : Fin 2) * 5000 + 1 * (j 0).val = r.val; rw [e0, hr, hp]; omega
    | ⟨1, _⟩ => show win6_4.index t (1 : Fin 2) * 64 + 1 * (j 1).val = q.val; rw [e1, hq]; omega)
  show k6_pay1 (iblk6 V c 0 t) (iblk6 V c 2 t) (iblk6 V c 1 t) (iblk6 V c 3 t) ((cfg6.win 4).xinj (grid6.coords t) j)
    = Spec.combRef (F := Ideal) (V c main_v75) (V c main_v62) (V c main_v76) (V c main_v77) (((cfg6.win 4).blk t).view.emb j)
  rw [e_in, e_out, comb_pay_apply, comb_ref_apply, comb_iblk_agg V c t p q r hr, comb_iblk_hw V c t p q r hr,
    comb_iblk_sc V c t p r hr, comb_iblk_b V c t q]

/-- An index of the array is in point `t`'s block iff each coordinate is in the block's range on its axis. -/
theorem comb_mem_blk (t : Fin cfg6.N) (i : S200000x64.Idx) :
    i ∈ ((cfg6.win 4).blk t).view.set ↔ ∀ a : Fin 2, win6_4.index t a * S5000x64.size a ≤ (i a).val
      ∧ (i a).val < win6_4.index t a * S5000x64.size a + S5000x64.size a := by
  show i ∈ ((View.whole main_v78).slice (win6_4.rect t)).set ↔ _
  rw [View.set_slice_whole, Rect.mem_set_unit]
  exact Iff.rfl

/-- Every row is in the block of the point numbered by its quotient by 5000. -/
theorem comb_cover (i : S200000x64.Idx) :
    ∃ t : Fin cfg6.N, (cfg6.win 4).flush t = true ∧ i ∈ ((cfg6.win 4).blk t).view.set := by
  have hi0 : (i 0).val < 200000 := (i 0).isLt
  have hi1 : (i 1).val < 64 := (i 1).isLt
  obtain ⟨t, ht⟩ : ∃ t : Fin cfg6.N, t.val = (i 0).val / 5000 := ⟨⟨(i 0).val / 5000, by show (i 0).val / 5000 < 40; omega⟩, rfl⟩
  obtain ⟨-, -, -, -, -, -, -, -, e0, e1⟩ := comb_idx_facts t
  refine ⟨t, flush6_4 t, ?_⟩
  rw [comb_mem_blk]
  intro a
  match a with
  | ⟨0, _⟩ => show win6_4.index t (0 : Fin 2) * 5000 ≤ (i 0).val ∧ (i 0).val < win6_4.index t (0 : Fin 2) * 5000 + 5000; rw [e0, ht]; omega
  | ⟨1, _⟩ => show win6_4.index t (1 : Fin 2) * 64 ≤ (i 1).val ∧ (i 1).val < win6_4.index t (1 : Fin 2) * 64 + 64; rw [e1]; omega

theorem reg6_value (c : Dev nD) :
    ((dat6 V c).arrAt 4 cfg6.N : Vec Ideal S200000x64 .f32) = Spec.combRef (F := Ideal) (V c main_v75) (V c main_v62) (V c main_v76) (V c main_v77) := by
  exact (dat6 V c).arrAt_eq_of_cover 4 _ (fun t _ => comb_flushed V c t) comb_cover

end Cert.KernelIdeal.RV6

end
-- ==== Proof.RegLin7.lean ====
import proofs.«424127_j32091995635825_2_alg».proof.Proof.Gen.KernelIdeal.Frame
import proofs.«424127_j32091995635825_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RV7

open Idealize.ShloMosaic Idealize.ShloMosaic.TcCoe Idealize.ShloMosaic.ValueIdx Idealize.SL.Sem
open Cert.KernelIdeal Cert.KernelIdeal.Gen
open Cert.Proof

/-! ## The block's matrix product, entry by entry -/

theorem lin_klhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lin_klhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem lin_krhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem lin_krhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body rounds both operands to bf16 (the identity on the extended reals) and multiplies them into a zero
    accumulator: entry (p, q) of the block is the sum over k of x0 (p, k) · x1 (k, q). -/
theorem lin_pay (x0 : Vec Ideal S5000x64 .f32) (x1 : Vec Ideal S64x64 .f32) (p : Fin 5000) (q : Fin 64) :
    k7_pay1 x0 x1 (ix2 p q) = ∑ k : Fin 64, x0 (ix2 p k) * x1 (ix2 k q) := by
  unfold k7_pay1
  rw [shapeCast_self]
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lin_klhs_0 _ _
    | ⟨1, _⟩ => exact (lin_klhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (lin_krhs_0 _ _).trans hk
    | ⟨1, _⟩ => exact lin_krhs_1 _ _)
  rw [el, er]
  rfl

/-! ## The reference's matrix product, entry by entry -/

theorem lin_rlhs_0 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.lhsIdx i q 0).val = (i 0).val := by
  unfold DotDims.lhsIdx
  rw [dif_neg (show ¬(0 : Fin Cert.ReferenceIdeal.S200000x64.rank) ∈ Cert.ReferenceIdeal.dot_S200000x64_S64x64_S200000x64_1_0_0_1_n_n.lhsBatch by decide), dif_pos (show (0 : Fin Cert.ReferenceIdeal.S200000x64.rank) ∈ Cert.ReferenceIdeal.dot_S200000x64_S64x64_S200000x64_1_0_0_1_n_n.lhsNonContracting by decide)]
  rfl
theorem lin_rlhs_1 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.lhsIdx i q 1).val = (q ⟨0, by decide⟩).val :=
  Cert.ReferenceIdeal.dot_S200000x64_S64x64_S200000x64_1_0_0_1_n_n.lhsIdx_val_of_single rfl i q
theorem lin_rrhs_0 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.rhsIdx i q 0).val = (q ⟨0, by decide⟩).val :=
  Cert.ReferenceIdeal.dot_S200000x64_S64x64_S200000x64_1_0_0_1_n_n.rhsIdx_val_of_single rfl i q
theorem lin_rrhs_1 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.rhsIdx i q 1).val = (i 1).val := by
  unfold DotDims.rhsIdx
  rw [dif_neg (show ¬(1 : Fin Cert.ReferenceIdeal.S64x64.rank) ∈ Cert.ReferenceIdeal.dot_S200000x64_S64x64_S200000x64_1_0_0_1_n_n.rhsBatch by decide), dif_pos (show (1 : Fin Cert.ReferenceIdeal.S64x64.rank) ∈ Cert.ReferenceIdeal.dot_S200000x64_S64x64_S200000x64_1_0_0_1_n_n.rhsNonContracting by decide)]
  rfl

/-- The reference's product of the whole arrays: entry (r, q) is the sum over k of H (r, k) · W (k, q). -/
theorem lin_ref (H : FVec Ideal Cert.ReferenceIdeal.S200000x64 .f32) (W : FVec Ideal Cert.ReferenceIdeal.S64x64 .f32) (r : Fin 200000) (q : Fin 64) :
    Spec.linRef64 (F := Ideal) H W (ix2 r q) = ∑ k : Fin 64, H (ix2 r k) * W (ix2 k q) := by
  unfold Spec.linRef64
  simp only [Host.dotGeneral]
  rw [Ideal.dotGeneral_apply, ← Equiv.sum_comp (ValueIdx.contrEquiv1 Cert.ReferenceIdeal.dot_S200000x64_S64x64_S200000x64_1_0_0_1_n_n 64 rfl rfl).symm]
  refine Finset.sum_congr rfl fun k _ => ?_
  have hk := ValueIdx.contrEquiv1_symm_val Cert.ReferenceIdeal.dot_S200000x64_S64x64_S200000x64_1_0_0_1_n_n 64 rfl rfl k
  have el : Cert.ReferenceIdeal.dot_S200000x64_S64x64_S200000x64_1_0_0_1_n_n.lhsIdx (ix2 r q) ((ValueIdx.contrEquiv1 Cert.ReferenceIdeal.dot_S200000x64_S64x64_S200000x64_1_0_0_1_n_n 64 rfl rfl).symm k) = ix2 r k := funext fun a => Fin.ext (by
    match a with
    | ⟨0, _⟩ => exact lin_rlhs_0 _ _
    | ⟨1, _⟩ => exact (lin_rlhs_1 _ _).trans hk)
  have er : Cert.ReferenceIdeal.dot_S200000x64_S64x64_S200000x64_1_0_0_1_n_n.rhsIdx (ix2 r q) ((ValueIdx.contrEquiv1 Cert.ReferenceIdeal.dot_S200000x64_S64x64_S200000x64_1_0_0_1_n_n 64 rfl rfl).symm k) = ix2 k q := funext fun a => Fin.ext (by
    match a with
    | ⟨0, _⟩ => exact (lin_rrhs_0 _ _).trans hk
    | ⟨1, _⟩ => exact lin_rrhs_1 _ _)
  rw [el, er]

variable (V : (c : Dev nD) → (b : Ref sig .tc) → Buf (Elt Ideal) ((c : Thread nD τ).loc b))

/-! ## From the blocks to the array -/

theorem lin_hz : (![0, 0] : Fin 2 → Nat) = fun _ => 0 := funext fun a => by fin_cases a <;> rfl

/-- The index maps over the grid: the row-tiled windows sit at block row t, the whole weight array at block 0. -/
theorem lin_idx : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of the reference's product: entry (p, q) of the block is the sum over k of
    H (5000 · t + p, k) · W (k, q), the reference's entry at row 5000 · t + p. -/
theorem lin_flushed (c : Dev nD) (t : Fin cfg7.N) :
    (dat7 V c).flushed 2 t = ((cfg7.win 2).blk t).view.read (Elt Ideal) (Spec.linRef64 (F := Ideal) (V c main_v78) (V c main_arg13)) := by
  show (cfg7.win 2).cut (grid7.coords t) ((dat7 V c).after 2 t) = _
  rw [after7_2]
  unfold out7_2
  rw [View.canon_unit_zero lin_hz]
  simp only [View.ld_unit_zero (S := S5000x64) lin_hz, View.ld_unit_zero (S := S64x64) lin_hz]
  funext y
  obtain ⟨p, q, rfl⟩ : ∃ (p : Fin 5000) (q : Fin 64), y = ix2 p q := ⟨y 0, y 1, eq_ix2 y⟩
  obtain ⟨ea, eb, ec, ed, ee, ef⟩ := lin_idx t
  have ht : t.val < 40 := t.isLt
  have hp : p.val < 5000 := p.isLt
  show k7_pay1 (iblk7 V c 0 t) (iblk7 V c 1 t) (ix2 p q)
    = Spec.linRef64 (F := Ideal) (V c main_v78) (V c main_arg13) (((cfg7.win 2).blk t).view.emb (ix2 p q))
  have hout : ((cfg7.win 2).blk t).view.emb (ix2 p q) = ix2 (⟨t.val * 5000 + p.val, by omega⟩ : Fin 200000) q := by
    funext a; apply Fin.ext
    match a with
    | ⟨0, _⟩ => show win7_2.index t (0 : Fin 2) * 5000 + 1 * p.val = t.val * 5000 + p.val; omega
    | ⟨1, _⟩ => show win7_2.index t (1 : Fin 2) * 64 + 1 * q.val = q.val; omega
  rw [hout]
  refine (lin_pay _ _ p q).trans ((Finset.sum_congr rfl fun k _ => ?_).trans (lin_ref _ _ _ q).symm)
  have hl : ((cfg7.win 0).blk t).view.emb (ix2 p k) = ix2 (⟨t.val * 5000 + p.val, by omega⟩ : Fin 200000) k := by
    funext a; apply Fin.ext
    match a with
    | ⟨0, _⟩ => show win7_0.index t (0 : Fin 2) * 5000 + 1 * p.val = t.val * 5000 + p.val; omega
    | ⟨1, _⟩ => show win7_0.index t (1 : Fin 2) * 64 + 1 * k.val = k.val; omega
  have hr : ((cfg7.win 1).blk t).view.emb (ix2 k q) = ix2 k q := by
    funext a; apply Fin.ext
    match a with
    | ⟨0, _⟩ => show win7_1.index t (0 : Fin 2) * 64 + 1 * k.val = k.val; omega
    | ⟨1, _⟩ => show win7_1.index t (1 : Fin 2) * 64 + 1 * q.val = q.val; omega
  have h0 : (iblk7 V c 0 t : Vec Ideal S5000x64 .f32) (ix2 p k)
      = (V c main_v78 : Vec Ideal S200000x64 .f32) (ix2 (⟨t.val * 5000 + p.val, by omega⟩ : Fin 200000) k) :=
    congrArg (V c main_v78) hl
  have h1 : (iblk7 V c 1 t : Vec Ideal S64x64 .f32) (ix2 k q) = (V c main_arg13 : Vec Ideal S64x64 .f32) (ix2 k q) :=
    congrArg (V c main_arg13) hr
  exact congrArg₂ (· * ·) h0 h1

/-- An index of the array is in point t's block iff each coordinate is in the block's range on its axis. -/
theorem lin_mem_blk (t : Fin cfg7.N) (i : S200000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole win7_2.arr.view.ref).slice (win7_2.rect t)).set ↔ _
  rw [View.set_slice_whole, Rect.mem_set_unit]
  exact Iff.rfl

/-- Row r of the array lies in the block of point r / 5000: the 40 row blocks tile the 200000 rows. -/
theorem lin_cover (i : S200000x64.Idx) :
    ∃ t : Fin cfg7.N, (cfg7.win 2).flush t = true ∧ i ∈ ((cfg7.win 2).blk t).view.set := by
  have hi0 : (i 0).val < 200000 := (i 0).isLt
  have hi1 : (i 1).val < 64 := (i 1).isLt
  have hN : (i 0).val / 5000 < 40 := by omega
  refine ⟨⟨(i 0).val / 5000, hN⟩, flush7_2 _, ?_⟩
  rw [lin_mem_blk]
  obtain ⟨ea, eb, ec, ed, ee, ef⟩ := lin_idx ⟨(i 0).val / 5000, hN⟩
  have ee' : win7_2.index ⟨(i 0).val / 5000, hN⟩ (0 : Fin 2) = (i 0).val / 5000 := ee
  intro a
  match a with
  | ⟨0, _⟩ => show win7_2.index ⟨(i 0).val / 5000, hN⟩ (0 : Fin 2) * 5000 ≤ (i 0).val ∧ (i 0).val < win7_2.index ⟨(i 0).val / 5000, hN⟩ (0 : Fin 2) * 5000 + 5000; omega
  | ⟨1, _⟩ => show win7_2.index ⟨(i 0).val / 5000, hN⟩ (1 : Fin 2) * 64 ≤ (i 1).val ∧ (i 1).val < win7_2.index ⟨(i 0).val / 5000, hN⟩ (1 : Fin 2) * 64 + 64; omega

/-- Region 7's output array after all 40 grid points is the reference's product of its two input arrays. -/
theorem reg7_value (c : Dev nD) :
    ((dat7 V c).arrAt 2 cfg7.N : Vec Ideal S200000x64 .f32) = Spec.linRef64 (F := Ideal) (V c main_v78) (V c main_arg13) := by
  exact (dat7 V c).arrAt_eq_of_cover 2 (Spec.linRef64 (F := Ideal) (V c main_v78) (V c main_arg13))
    (fun t _ => lin_flushed V c t) lin_cover

end Cert.KernelIdeal.RV7

end
-- ==== Proof.RegComb8.lean ====
import proofs.«424127_j32091995635825_2_alg».proof.Proof.Gen.KernelIdeal.Frame
import proofs.«424127_j32091995635825_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RV8

open Idealize.ShloMosaic Idealize.ShloMosaic.TcCoe Idealize.ShloMosaic.ValueIdx Idealize.SL.Sem
open Cert.KernelIdeal Cert.KernelIdeal.Gen
open Cert.Proof

/-! ## Broadcasts of a column and of a row, read at an index -/

/-- An `[a, 1]` column broadcast to `[a, b]` reads, at `(p, c)`, the column's entry of row `p`. -/
theorem comb_broadcastTo_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same column broadcast along the axes `(0, 1)` by the host operation. -/
theorem comb_bcastInDim_col {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast along the axes `(0, 1)` by the host operation reads, at `(p, c)`, the row's entry `c`. -/
theorem comb_bcastInDim_row {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-! ## The two sides entry by entry -/

/-- The body's arithmetic at row `p`, column `q` of its block: relu of the aggregate plus the row's self coefficient
    times the transformed feature plus the column's bias. -/
theorem comb_pay_apply (x0 x1 : Vec Ideal S5000x64 .f32) (x2 : Vec Ideal S5000x1 .f32) (x3 : Vec Ideal S1x64 .f32)
    (p : Fin 5000) (q : Fin 64) :
    k8_pay1 x0 x2 x1 x3 (ix2 p q)
      = max (x0 (ix2 p q) + x2 (ix2 p (0 : Fin 1)) * x1 (ix2 p q) + x3 (ix2 (0 : Fin 1) q)) (Ideal.ofBits .f32 0x00000000#32) := by
  unfold k8_pay1
  simp only [shapeCast_self]
  rw [maximumf_apply, addf_apply, addf_apply, mulf_apply, broadcast_apply]
  rw [comb_broadcastTo_col x2 _ p q, broadcastTo_1b_ab_apply x3 _ p q]
  rfl

/-- The reference's stage at row `r`, column `q`: the same expression of the whole arrays. -/
theorem comb_ref_apply (agg hw : Vec Ideal S200000x64 .f32) (sc : Vec Ideal S200000x1 .f32) (b : Vec Ideal S1x64 .f32)
    (r : Fin 200000) (q : Fin 64) :
    Spec.combRef (F := Ideal) agg hw sc b (ix2 r q)
      = max (agg (ix2 r q) + sc (ix2 r (0 : Fin 1)) * hw (ix2 r q) + b (ix2 (0 : Fin 1) q)) (Ideal.ofBits .f32 0x00000000#32) := by
  unfold Spec.combRef
  rw [maximumf_apply, addf_apply, addf_apply, mulf_apply]
  rw [comb_bcastInDim_col sc _ r q, comb_bcastInDim_row b _ r q]
  rfl

variable (V : (c : Dev nD) → (b : Ref sig .tc) → Buf (Elt Ideal) ((c : Thread nD τ).loc b))

/-! ## From the blocks to the array -/

theorem comb_hz : (![0, 0] : Fin 2 → Nat) = fun _ => 0 := funext fun a => by fin_cases a <;> rfl

/-- The printed index maps, decided over the grid: the row-tiled windows sit at block `(t, 0)`, the bias row at `(0, 0)`. -/
theorem comb_idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- Row `p`, column `q` of the aggregate's block at point `t` is row `5000 t + p` of the array. -/
theorem comb_iblk_agg (c : Dev nD) (t : Fin cfg8.N) (p : Fin 5000) (q : Fin 64) (r : Fin 200000)
    (hr : r.val = t.val * 5000 + p.val) :
    (iblk8 V c 0 t : Vec Ideal S5000x64 .f32) (ix2 p q) = (V c main_v92 : Vec Ideal S200000x64 .f32) (ix2 r q) := by
  obtain ⟨e0, e1, -⟩ := comb_idx_facts t
  unfold iblk8
  rw [View.read_apply]
  show V c main_v92 _ = V c main_v92 _
  refine congrArg (V c main_v92) (funext fun a => Fin.ext ?_)
  match a with
  | ⟨0, _⟩ => show win8_0.index t (0 : Fin 2) * 5000 + 1 * p.val = r.val; rw [e0, hr]; omega
  | ⟨1, _⟩ => show win8_0.index t (1 : Fin 2) * 64 + 1 * q.val = q.val; rw [e1]; omega

/-- The same for the transformed features' block. -/
theorem comb_iblk_hw (c : Dev nD) (t : Fin cfg8.N) (p : Fin 5000) (q : Fin 64) (r : Fin 200000)
    (hr : r.val = t.val * 5000 + p.val) :
    (iblk8 V c 1 t : Vec Ideal S5000x64 .f32) (ix2 p q) = (V c main_v79 : Vec Ideal S200000x64 .f32) (ix2 r q) := by
  obtain ⟨-, -, e0, e1, -⟩ := comb_idx_facts t
  unfold iblk8
  rw [View.read_apply]
  show V c main_v79 _ = V c main_v79 _
  refine congrArg (V c main_v79) (funext fun a => Fin.ext ?_)
  match a with
  | ⟨0, _⟩ => show win8_1.index t (0 : Fin 2) * 5000 + 1 * p.val = r.val; rw [e0, hr]; omega
  | ⟨1, _⟩ => show win8_1.index t (1 : Fin 2) * 64 + 1 * q.val = q.val; rw [e1]; omega

/-- Row `p` of the self coefficients' block at point `t` is row `5000 t + p` of the column. -/
theorem comb_iblk_sc (c : Dev nD) (t : Fin cfg8.N) (p : Fin 5000) (r : Fin 200000)
    (hr : r.val = t.val * 5000 + p.val) :
    (iblk8 V c 2 t : Vec Ideal S5000x1 .f32) (ix2 p (0 : Fin 1)) = (V c main_v93 : Vec Ideal S200000x1 .f32) (ix2 r (0 : Fin 1)) := by
  obtain ⟨-, -, -, -, e0, e1, -⟩ := comb_idx_facts t
  unfold iblk8
  rw [View.read_apply]
  show V c main_v93 _ = V c main_v93 _
  refine congrArg (V c main_v93) (funext fun a => Fin.ext ?_)
  match a with
  | ⟨0, _⟩ => show win8_2.index t (0 : Fin 2) * 5000 + 1 * p.val = r.val; rw [e0, hr]; omega
  | ⟨1, _⟩ => show win8_2.index t (1 : Fin 2) * 1 + 1 * 0 = 0; rw [e1]

/-- The bias row's block is the whole row at every point. -/
theorem comb_iblk_b (c : Dev nD) (t : Fin cfg8.N) (q : Fin 64) :
    (iblk8 V c 3 t : Vec Ideal S1x64 .f32) (ix2 (0 : Fin 1) q) = (V c main_v94 : Vec Ideal S1x64 .f32) (ix2 (0 : Fin 1) q) := by
  obtain ⟨-, -, -, -, -, -, e0, e1, -⟩ := comb_idx_facts t
  unfold iblk8
  rw [View.read_apply]
  show V c main_v94 _ = V c main_v94 _
  refine congrArg (V c main_v94) (funext fun a => Fin.ext ?_)
  match a with
  | ⟨0, _⟩ => show win8_3.index t (0 : Fin 2) * 1 + 1 * 0 = 0; rw [e0]
  | ⟨1, _⟩ => show win8_3.index t (1 : Fin 2) * 64 + 1 * q.val = q.val; rw [e1]; omega

/-- WHAT POINT `t` WRITES BACK is block `t` of the reference's stage applied to the arrays as the region finds them. -/
theorem comb_flushed (c : Dev nD) (t : Fin cfg8.N) :
    (dat8 V c).flushed 4 t = ((cfg8.win 4).blk t).view.read (Elt Ideal)
      (Spec.combRef (F := Ideal) (V c main_v92) (V c main_v79) (V c main_v93) (V c main_v94)) := by
  show (cfg8.win 4).cut (grid8.coords t) ((dat8 V c).after 4 t) = _
  rw [after8_4]
  unfold out8_4
  rw [View.canon_unit_zero comb_hz]
  simp only [View.ld_unit_zero (S := S5000x64) comb_hz, View.ld_unit_zero (S := S5000x1) comb_hz, View.ld_unit_zero (S := S1x64) comb_hz]
  obtain ⟨-, -, -, -, -, -, -, -, e0, e1⟩ := comb_idx_facts t
  have hN : t.val < 40 := t.isLt
  funext j
  obtain ⟨p, q, hp, hq⟩ : ∃ (p : Fin 5000) (q : Fin 64), (j 0).val = p.val ∧ (j 1).val = q.val :=
    ⟨⟨(j 0).val, (j 0).isLt⟩, ⟨(j 1).val, (j 1).isLt⟩, rfl, rfl⟩
  have hpl : p.val < 5000 := p.isLt
  obtain ⟨r, hr⟩ : ∃ r : Fin 200000, r.val = t.val * 5000 + p.val := ⟨⟨t.val * 5000 + p.val, by omega⟩, rfl⟩
  have e_in : (cfg8.win 4).xinj (grid8.coords t) j = ix2 p q := funext fun a => Fin.ext (by
    match a with
    | ⟨0, _⟩ => exact hp
    | ⟨1, _⟩ => exact hq)
  have e_out : ((cfg8.win 4).blk t).view.emb j = ix2 r q := funext fun a => Fin.ext (by
    match a with
    | ⟨0, _⟩ => show win8_4.index t (0 : Fin 2) * 5000 + 1 * (j 0).val = r.val; rw [e0, hr, hp]; omega
    | ⟨1, _⟩ => show win8_4.index t (1 : Fin 2) * 64 + 1 * (j 1).val = q.val; rw [e1, hq]; omega)
  show k8_pay1 (iblk8 V c 0 t) (iblk8 V c 2 t) (iblk8 V c 1 t) (iblk8 V c 3 t) ((cfg8.win 4).xinj (grid8.coords t) j)
    = Spec.combRef (F := Ideal) (V c main_v92) (V c main_v79) (V c main_v93) (V c main_v94) (((cfg8.win 4).blk t).view.emb j)
  rw [e_in, e_out, comb_pay_apply, comb_ref_apply, comb_iblk_agg V c t p q r hr, comb_iblk_hw V c t p q r hr,
    comb_iblk_sc V c t p r hr, comb_iblk_b V c t q]

/-- An index of the array is in point `t`'s block iff each coordinate is in the block's range on its axis. -/
theorem comb_mem_blk (t : Fin cfg8.N) (i : S200000x64.Idx) :
    i ∈ ((cfg8.win 4).blk t).view.set ↔ ∀ a : Fin 2, win8_4.index t a * S5000x64.size a ≤ (i a).val
      ∧ (i a).val < win8_4.index t a * S5000x64.size a + S5000x64.size a := by
  show i ∈ ((View.whole main_v95).slice (win8_4.rect t)).set ↔ _
  rw [View.set_slice_whole, Rect.mem_set_unit]
  exact Iff.rfl

/-- Every row is in the block of the point numbered by its quotient by 5000. -/
theorem comb_cover (i : S200000x64.Idx) :
    ∃ t : Fin cfg8.N, (cfg8.win 4).flush t = true ∧ i ∈ ((cfg8.win 4).blk t).view.set := by
  have hi0 : (i 0).val < 200000 := (i 0).isLt
  have hi1 : (i 1).val < 64 := (i 1).isLt
  obtain ⟨t, ht⟩ : ∃ t : Fin cfg8.N, t.val = (i 0).val / 5000 := ⟨⟨(i 0).val / 5000, by show (i 0).val / 5000 < 40; omega⟩, rfl⟩
  obtain ⟨-, -, -, -, -, -, -, -, e0, e1⟩ := comb_idx_facts t
  refine ⟨t, flush8_4 t, ?_⟩
  rw [comb_mem_blk]
  intro a
  match a with
  | ⟨0, _⟩ => show win8_4.index t (0 : Fin 2) * 5000 ≤ (i 0).val ∧ (i 0).val < win8_4.index t (0 : Fin 2) * 5000 + 5000; rw [e0, ht]; omega
  | ⟨1, _⟩ => show win8_4.index t (1 : Fin 2) * 64 ≤ (i 1).val ∧ (i 1).val < win8_4.index t (1 : Fin 2) * 64 + 64; rw [e1]; omega

theorem reg8_value (c : Dev nD) :
    ((dat8 V c).arrAt 4 cfg8.N : Vec Ideal S200000x64 .f32) = Spec.combRef (F := Ideal) (V c main_v92) (V c main_v79) (V c main_v93) (V c main_v94) := by
  exact (dat8 V c).arrAt_eq_of_cover 4 _ (fun t _ => comb_flushed V c t) comb_cover

end Cert.KernelIdeal.RV8

end
-- ==== Proof.RegLinB9.lean ====
import proofs.«424127_j32091995635825_2_alg».proof.Proof.Gen.KernelIdeal.Frame
import proofs.«424127_j32091995635825_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RV9

open Idealize.ShloMosaic Idealize.ShloMosaic.TcCoe Idealize.ShloMosaic.ValueIdx Idealize.SL.Sem
open Cert.KernelIdeal Cert.KernelIdeal.Gen
open Cert.Proof

/-- The zero offset of a whole-buffer rectangle. -/
theorem hz9 : (![0, 0] : Fin 2 → Nat) = fun _ => 0 := funext fun a => by fin_cases a <;> rfl

/-! ## The body's matrix product at an index -/

theorem klhs9_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem klhs9_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem krhs9_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem krhs9_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Row `i 0`, column `k` of the left operand's block. -/
abbrev klidx9 (i : S5000x64.Idx) (k : Fin 64) : S5000x64.Idx := fun a => match a with
  | ⟨0, _⟩ => ⟨(i 0).val, (i 0).isLt⟩
  | ⟨1, _⟩ => ⟨k.val, k.isLt⟩
/-- Row `k`, column `i 1` of the weights. -/
abbrev kridx9 (i : S5000x64.Idx) (k : Fin 64) : S64x64.Idx := fun a => match a with
  | ⟨0, _⟩ => ⟨k.val, k.isLt⟩
  | ⟨1, _⟩ => ⟨(i 1).val, (i 1).isLt⟩
/-- The bias row's entry for column `i 1`. -/
abbrev kbidx9 (i : S5000x64.Idx) : S1x64.Idx := fun a => match a with
  | ⟨0, _⟩ => ⟨0, Nat.one_pos⟩
  | ⟨1, _⟩ => ⟨(i 1).val, (i 1).isLt⟩

/-- The body's result at an index of the block: the row of the left block times the column of the weights, plus the bias. -/
theorem pay9_apply (x0 : Vec Ideal S5000x64 .f32) (x1 : Vec Ideal S64x64 .f32) (x2 : Vec Ideal S1x64 .f32) (i : S5000x64.Idx) :
    k9_pay1 (F := Ideal) x0 x1 x2 i = (∑ k : Fin 64, x0 (klidx9 i k) * x1 (kridx9 i k)) + x2 (kbidx9 i) := by
  unfold k9_pay1
  simp only [shapeCast_self]
  rw [addf_apply]
  refine congrArg₂ (· + ·) ?_ ?_
  · refine (Ideal.matmul_constant_zero_apply dot_S5000x64_S64x64_S5000x64_1_0_0_1_n_n none _ _ i).trans ?_
    rw [← Equiv.sum_comp (ValueIdx.contrEquiv1 dot_S5000x64_S64x64_S5000x64_1_0_0_1_n_n 64 rfl rfl).symm]
    refine Finset.sum_congr rfl fun k _ => ?_
    have hk := ValueIdx.contrEquiv1_symm_val dot_S5000x64_S64x64_S5000x64_1_0_0_1_n_n 64 rfl rfl k
    have el : dot_S5000x64_S64x64_S5000x64_1_0_0_1_n_n.lhsIdx i ((ValueIdx.contrEquiv1 dot_S5000x64_S64x64_S5000x64_1_0_0_1_n_n 64 rfl rfl).symm k) = klidx9 i k := funext fun a => Fin.ext (by
      match a with
      | ⟨0, _⟩ => exact klhs9_0 _ _
      | ⟨1, _⟩ => exact (klhs9_1 _ _).trans hk)
    have er : dot_S5000x64_S64x64_S5000x64_1_0_0_1_n_n.rhsIdx i ((ValueIdx.contrEquiv1 dot_S5000x64_S64x64_S5000x64_1_0_0_1_n_n 64 rfl rfl).symm k) = kridx9 i k := funext fun a => Fin.ext (by
      match a with
      | ⟨0, _⟩ => exact (krhs9_0 _ _).trans hk
      | ⟨1, _⟩ => exact krhs9_1 _ _)
    rw [el, er]
    rfl
  · exact broadcastTo_apply x2 broadcasts_S1x64_S5000x64 i (kbidx9 i) (fun a => match a with
      | ⟨0, _⟩ => by show 0 = if (1 : Nat) = 1 then 0 else _; rw [if_pos rfl]
      | ⟨1, _⟩ => by show (i 1).val = if (64 : Nat) = 1 then 0 else (i 1).val; rw [if_neg (by decide)])

/-! ## The host's product and bias at an index -/

theorem rlhs9_0 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.lhsIdx i q 0).val = (i 0).val := by
  unfold DotDims.lhsIdx
  rw [dif_neg (show ¬(0 : Fin Cert.ReferenceIdeal.S200000x64.rank) ∈ Cert.ReferenceIdeal.dot_S200000x64_S64x64_S200000x64_1_0_0_1_n_n.lhsBatch by decide), dif_pos (show (0 : Fin Cert.ReferenceIdeal.S200000x64.rank) ∈ Cert.ReferenceIdeal.dot_S200000x64_S64x64_S200000x64_1_0_0_1_n_n.lhsNonContracting by decide)]
  rfl
theorem rlhs9_1 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.lhsIdx i q 1).val = (q ⟨0, by decide⟩).val :=
  Cert.ReferenceIdeal.dot_S200000x64_S64x64_S200000x64_1_0_0_1_n_n.lhsIdx_val_of_single rfl i q
theorem rrhs9_0 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.rhsIdx i q 0).val = (q ⟨0, by decide⟩).val :=
  Cert.ReferenceIdeal.dot_S200000x64_S64x64_S200000x64_1_0_0_1_n_n.rhsIdx_val_of_single rfl i q
theorem rrhs9_1 (i : Cert.ReferenceIdeal.S200000x64.Idx) (q : Cert.ReferenceIdeal.dot_S200000x64_S64x64_S200000x64_1_0_0_1_n_n.contr.Idx) :
    (Cert.ReferenceIdeal.dot_S200000x64_S64x64_S200000x64_1_0_0_1_n_n.rhsIdx i q 1).val = (i 1).val := by
  unfold DotDims.rhsIdx
  rw [dif_neg (show ¬(1 : Fin Cert.ReferenceIdeal.S64x64.rank) ∈ Cert.ReferenceIdeal.dot_S200000x64_S64x64_S200000x64_1_0_0_1_n_n.rhsBatch by decide), dif_pos (show (1 : Fin Cert.ReferenceIdeal.S64x64.rank) ∈ Cert.ReferenceIdeal.dot_S200000x64_S64x64_S200000x64_1_0_0_1_n_n.rhsNonContracting by decide)]
  rfl

/-- Row `i 0`, column `k` of the whole left operand. -/
abbrev rlidx9 (i : S200000x64.Idx) (k : Fin 64) : S200000x64.Idx := fun a => match a with
  | ⟨0, _⟩ => ⟨(i 0).val, (i 0).isLt⟩
  | ⟨1, _⟩ => ⟨k.val, k.isLt⟩
/-- Row `k`, column `i 1` of the weights. -/
abbrev rridx9 (i : S200000x64.Idx) (k : Fin 64) : S64x64.Idx := fun a => match a with
  | ⟨0, _⟩ => ⟨k.val, k.isLt⟩
  | ⟨1, _⟩ => ⟨(i 1).val, (i 1).isLt⟩
/-- The bias row's entry for column `i 1`. -/
abbrev rbidx9 (i : S200000x64.Idx) : S1x64.Idx := fun a => match a with
  | ⟨0, _⟩ => ⟨0, Nat.one_pos⟩
  | ⟨1, _⟩ => ⟨(i 1).val, (i 1).isLt⟩

/-- The reference's value at an index: the row of the left operand times the column of the weights, plus the bias. -/
theorem linbRef_apply (H : FVec Ideal S200000x64 .f32) (W : FVec Ideal S64x64 .f32) (b : FVec Ideal S1x64 .f32) (i : S200000x64.Idx) :
    Spec.linbRef (F := Ideal) H W b i = (∑ k : Fin 64, H (rlidx9 i k) * W (rridx9 i k)) + b (rbidx9 i) := by
  unfold Spec.linbRef
  rw [addf_apply]
  refine congrArg₂ (· + ·) ?_ ?_
  · simp only [Host.dotGeneral]
    rw [Ideal.dotGeneral_apply, ← Equiv.sum_comp (ValueIdx.contrEquiv1 Cert.ReferenceIdeal.dot_S200000x64_S64x64_S200000x64_1_0_0_1_n_n 64 rfl rfl).symm]
    refine Finset.sum_congr rfl fun k _ => ?_
    have hk := ValueIdx.contrEquiv1_symm_val Cert.ReferenceIdeal.dot_S200000x64_S64x64_S200000x64_1_0_0_1_n_n 64 rfl rfl k
    have el : Cert.ReferenceIdeal.dot_S200000x64_S64x64_S200000x64_1_0_0_1_n_n.lhsIdx i ((ValueIdx.contrEquiv1 Cert.ReferenceIdeal.dot_S200000x64_S64x64_S200000x64_1_0_0_1_n_n 64 rfl rfl).symm k) = rlidx9 i k := funext fun a => Fin.ext (by
      match a with
      | ⟨0, _⟩ => exact rlhs9_0 _ _
      | ⟨1, _⟩ => exact (rlhs9_1 _ _).trans hk)
    have er : Cert.ReferenceIdeal.dot_S200000x64_S64x64_S200000x64_1_0_0_1_n_n.rhsIdx i ((ValueIdx.contrEquiv1 Cert.ReferenceIdeal.dot_S200000x64_S64x64_S200000x64_1_0_0_1_n_n 64 rfl rfl).symm k) = rridx9 i k := funext fun a => Fin.ext (by
      match a with
      | ⟨0, _⟩ => exact (rrhs9_0 _ _).trans hk
      | ⟨1, _⟩ => exact rrhs9_1 _ _)
    rw [el, er]
  · exact broadcastInDim_apply _ _ b i (rbidx9 i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])

variable (V : (c : Dev nD) → (b : Ref sig .tc) → Buf (Elt Ideal) ((c : Thread nD τ).loc b))

/-- The windows' block indices at every grid point: the row-tiled windows sit at block row `t`, the whole-array windows at the origin. -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- What point `t` writes back is block `t` of the reference's array. -/
theorem flushed9_eq (c : Dev nD) (t : Fin cfg9.N) :
    (dat9 V c).flushed 3 t = ((cfg9.win 3).blk t).view.read (Elt Ideal) (Spec.linbRef (F := Ideal) (V c main_v95) (V c main_arg15) (V c main_v96)) := by
  show (cfg9.win 3).cut (grid9.coords t) ((dat9 V c).after 3 t) = _
  rw [after9_3]
  unfold out9_3
  rw [View.canon_unit_zero hz9]
  simp only [View.ld_unit_zero (S := S5000x64) hz9, View.ld_unit_zero (S := S64x64) hz9, View.ld_unit_zero (S := S1x64) hz9]
  obtain ⟨e00, e01, e10, e11, e20, e21, e30, e31⟩ := idx_facts9 t
  funext y
  show k9_pay1 (F := Ideal) (iblk9 V c 0 t) (iblk9 V c 1 t) (iblk9 V c 2 t) y = Spec.linbRef (F := Ideal) (V c main_v95) (V c main_arg15) (V c main_v96) (((cfg9.win 3).blk t).view.emb y)
  refine (pay9_apply _ _ _ _).trans ((congrArg₂ (· + ·) ?_ ?_).trans (linbRef_apply _ _ _ _).symm)
  · refine Finset.sum_congr rfl fun k _ => congrArg₂ (· * ·) ?_ ?_
    · show V c main_v95 (((cfg9.win 0).blk t).view.emb (klidx9 y k)) = V c main_v95 (rlidx9 (((cfg9.win 3).blk t).view.emb y) k)
      refine congrArg (V c main_v95) (funext fun a => Fin.ext ?_)
      match a with
      | ⟨0, _⟩ => show win9_0.index t (0 : Fin 2) * 5000 + 1 * (y 0).val = win9_3.index t (0 : Fin 2) * 5000 + 1 * (y 0).val; omega
      | ⟨1, _⟩ => show win9_0.index t (1 : Fin 2) * 64 + 1 * k.val = k.val; omega
    · show V c main_arg15 (((cfg9.win 1).blk t).view.emb (kridx9 y k)) = V c main_arg15 (rridx9 (((cfg9.win 3).blk t).view.emb y) k)
      refine congrArg (V c main_arg15) (funext fun a => Fin.ext ?_)
      match a with
      | ⟨0, _⟩ => show win9_1.index t (0 : Fin 2) * 64 + 1 * k.val = k.val; omega
      | ⟨1, _⟩ => show win9_1.index t (1 : Fin 2) * 64 + 1 * (y 1).val = win9_3.index t (1 : Fin 2) * 64 + 1 * (y 1).val; omega
  · show V c main_v96 (((cfg9.win 2).blk t).view.emb (kbidx9 y)) = V c main_v96 (rbidx9 (((cfg9.win 3).blk t).view.emb y))
    refine congrArg (V c main_v96) (funext fun a => Fin.ext ?_)
    match a with
    | ⟨0, _⟩ => show win9_2.index t (0 : Fin 2) * 1 + 1 * 0 = 0; omega
    | ⟨1, _⟩ => show win9_2.index t (1 : Fin 2) * 64 + 1 * (y 1).val = win9_3.index t (1 : Fin 2) * 64 + 1 * (y 1).val; omega

/-- An index of the array is in point `t`'s block iff each coordinate is in the block's range on its axis. -/
theorem mem_blk9 (t : Fin cfg9.N) (i : S200000x64.Idx) :
    i ∈ ((cfg9.win 3).blk t).view.set ↔ ∀ a : Fin 2, win9_3.index t a * S5000x64.size a ≤ (i a).val ∧ (i a).val < win9_3.index t a * S5000x64.size a + S5000x64.size a := by
  show i ∈ ((View.whole main_v97).slice (win9_3.rect t)).set ↔ _
  rw [View.set_slice_whole, Rect.mem_set_unit]
  exact Iff.rfl

/-- Every row `r` of the array lies in the block of point `r / 5000`. -/
theorem cover9 (i : S200000x64.Idx) : ∃ t : Fin cfg9.N, (cfg9.win 3).flush t = true ∧ i ∈ ((cfg9.win 3).blk t).view.set := by
  have hi0 : (i 0).val < 200000 := (i 0).isLt
  have hi1 : (i 1).val < 64 := (i 1).isLt
  have hN : cfg9.N = 40 := N_9
  have ht : (i 0).val / 5000 < cfg9.N := by rw [hN]; omega
  obtain ⟨-, -, -, -, -, -, e30, e31⟩ := idx_facts9 ⟨(i 0).val / 5000, ht⟩
  refine ⟨⟨(i 0).val / 5000, ht⟩, flush9_3 _, ?_⟩
  rw [mem_blk9]
  intro a
  match a with
  | ⟨0, _⟩ =>
    show win9_3.index ⟨(i 0).val / 5000, ht⟩ (0 : Fin 2) * 5000 ≤ (i 0).val ∧ (i 0).val < win9_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win9_3.index ⟨(i 0).val / 5000, ht⟩ (1 : Fin 2) * 64 ≤ (i 1).val ∧ (i 1).val < win9_3.index ⟨(i 0).val / 5000, ht⟩ (1 : Fin 2) * 64 + 64
    rw [e31]
    omega

theorem reg9_value (c : Dev nD) :
    ((dat9 V c).arrAt 3 cfg9.N : Vec Ideal S200000x64 .f32) = Spec.linbRef (F := Ideal) (V c main_v95) (V c main_arg15) (V c main_v96) := by
  exact (dat9 V c).arrAt_eq_of_cover 3 (Spec.linbRef (F := Ideal) (V c main_v95) (V c main_arg15) (V c main_v96))
    (fun t _ => flushed9_eq V c t) cover9

end Cert.KernelIdeal.RV9

end
-- ==== Proof.RegHead10.lean ====
import proofs.«424127_j32091995635825_2_alg».proof.Proof.Gen.KernelIdeal.Frame
import proofs.«424127_j32091995635825_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«424127_j32091995635825_2_alg».proof.Proof.LibGatherScatter

set_option maxRecDepth 16384

noncomputable section

namespace Cert.KernelIdeal.RV10

open Idealize.ShloMosaic Idealize.ShloMosaic.TcCoe Idealize.ShloMosaic.ValueIdx Idealize.SL.Sem
open Cert.KernelIdeal Cert.KernelIdeal.Gen
open Cert.Proof

/-! ## The pieces every layer shares -/

/-- A matrix product accumulated into zeros is the plain sum of products the reference's dot_general is,
    the two dimension records being the same data. -/
theorem matmul_zero_eq_dot {sl sr so : Shape} {φ₁ φ₂ : FTy} (d d' : DotDims sl sr so) (h : d = d')
    (prec prec' : Option ContractPrecision) (lhs : FVec Ideal sl φ₁) (rhs : FVec Ideal sr φ₂) :
    matmul d prec lhs rhs (constant (F := Ideal) so .f32 0x00000000#32) = Host.dotGeneral d' prec' lhs rhs := by
  subst h
  funext j
  simp only [matmul, Host.dotGeneral]
  rw [Ideal.matmul_constant_zero_apply, Ideal.dotGeneral_apply]

/-- A bias row [1,N] spread over M rows: the trailing-axes broadcast and the broadcast along axes (0,1) read the same entry. -/
theorem bias_row_eq {α : Type} {M N : Nat} (b : (⟨2, ![1, N]⟩ : Shape).Idx → α)
    (h : (⟨2, ![1, N]⟩ : Shape).Broadcasts ⟨2, ![M, N]⟩)
    (h' : (⟨2, ![1, N]⟩ : Shape).BroadcastsInDim ⟨2, ![M, N]⟩ (![0, 1] : Fin 2 → Fin 2)) :
    broadcastTo ⟨2, ![M, N]⟩ b h = broadcastInDim ⟨2, ![M, N]⟩ ![0, 1] h' b := by
  funext j
  unfold broadcastTo broadcastInDim
  refine congrArg b (funext fun a => ?_)
  by_cases h1 : (⟨2, ![1, N]⟩ : Shape).size a = 1
  · rw [dif_pos h1, dif_pos h1]
  · rw [dif_neg h1, dif_neg h1]
    refine Fin.ext ?_
    match a with
    | ⟨0, _⟩ => rfl
    | ⟨1, _⟩ => rfl

/-- The zero array a relu compares against: a scalar splat either way. -/
theorem zero_splat_eq (S : Shape) (h : (Cert.ReferenceIdeal.S_).BroadcastsInDim S ![]) :
    (broadcast S (Scalar.ofBits (F := Ideal) .f32 0x00000000#32) : FVec Ideal S .f32)
      = broadcastInDim S ![] h (constant (F := Ideal) Cert.ReferenceIdeal.S_ .f32 0x00000000#32) := by
  funext j
  rfl

/-! ## The three hidden layers and the output layer, each over variables -/

theorem z1_eq (z : FVec Ideal S4096x74 .f32) (w : FVec Ideal S74x128 .f32) (b : FVec Ideal S1x128 .f32) :
    maximumf (addf (matmul dot_S4096x74_S74x128_S4096x128_1_0_0_1_n_n none (truncf .bf16 z bitsLt_bf16_f32)
        (truncf .bf16 w bitsLt_bf16_f32) (constant S4096x128 .f32 0x00000000#32))
      (broadcastTo S4096x128 (shapeCast S1x128 b shapeCasts_S1x128_S1x128) broadcasts_S1x128_S4096x128))
      (broadcast S4096x128 (Scalar.ofBits .f32 0x00000000#32)) = Spec.headZ1 z w b := by
  unfold Spec.headZ1
  rw [shapeCast_self, bias_row_eq b _ Cert.ReferenceIdeal.Gen.bcast_S1x128_S4096x128_0_1,
    zero_splat_eq _ Cert.ReferenceIdeal.Gen.bcast_S_S4096x128,
    matmul_zero_eq_dot dot_S4096x74_S74x128_S4096x128_1_0_0_1_n_n
      Cert.ReferenceIdeal.dot_S4096x74_S74x128_S4096x128_1_0_0_1_n_n rfl none none]
  rfl

theorem z2_eq (z : FVec Ideal S4096x128 .f32) (w : FVec Ideal S128x96 .f32) (b : FVec Ideal S1x96 .f32) :
    maximumf (addf (matmul dot_S4096x128_S128x96_S4096x96_1_0_0_1_n_n none (truncf .bf16 z bitsLt_bf16_f32)
        (truncf .bf16 w bitsLt_bf16_f32) (constant S4096x96 .f32 0x00000000#32))
      (broadcastTo S4096x96 (shapeCast S1x96 b shapeCasts_S1x96_S1x96) broadcasts_S1x96_S4096x96))
      (broadcast S4096x96 (Scalar.ofBits .f32 0x00000000#32)) = Spec.headZ2 z w b := by
  unfold Spec.headZ2
  rw [shapeCast_self, bias_row_eq b _ Cert.ReferenceIdeal.Gen.bcast_S1x96_S4096x96_0_1,
    zero_splat_eq _ Cert.ReferenceIdeal.Gen.bcast_S_S4096x96,
    matmul_zero_eq_dot dot_S4096x128_S128x96_S4096x96_1_0_0_1_n_n
      Cert.ReferenceIdeal.dot_S4096x128_S128x96_S4096x96_1_0_0_1_n_n rfl none none]
  rfl

/-- The third layer, its operands already in the narrow format (which at the extended reals is no change). -/
theorem z3_eq (z : FVec Ideal S4096x96 .bf16) (w : FVec Ideal S96x32 .bf16) (b : FVec Ideal S1x32 .f32) :
    maximumf (addf (matmul dot_S4096x96_S96x32_S4096x32_1_0_0_1_n_n none z w (constant S4096x32 .f32 0x00000000#32))
      (broadcastTo S4096x32 (shapeCast S1x32 b shapeCasts_S1x32_S1x32) broadcasts_S1x32_S4096x32))
      (broadcast S4096x32 (Scalar.ofBits .f32 0x00000000#32)) = Spec.headZ3 (F := Ideal) z w b := by
  unfold Spec.headZ3
  rw [shapeCast_self, bias_row_eq b _ Cert.ReferenceIdeal.Gen.bcast_S1x32_S4096x32_0_1,
    zero_splat_eq _ Cert.ReferenceIdeal.Gen.bcast_S_S4096x32,
    matmul_zero_eq_dot dot_S4096x96_S96x32_S4096x32_1_0_0_1_n_n
      Cert.ReferenceIdeal.dot_S4096x96_S96x32_S4096x32_1_0_0_1_n_n rfl none none]
  rfl

/-- The word of 1.0 is the extended real 1. -/
theorem ofBits_one_f32 : Ideal.ofBits .f32 0x3F800000#32 = 1 := IdealRules.sign_bit.ideal_onePat .f32

/-- The logistic is 1 / (1 + exp(−y)) in the reference's spelling. -/
theorem logistic_eq (S : Shape) (h : (Cert.ReferenceIdeal.S_).BroadcastsInDim S ![]) (y : FVec Ideal S .f32) :
    logistic y = Host.divf (broadcastInDim S ![] h (constant (F := Ideal) Cert.ReferenceIdeal.S_ .f32 0x3F800000#32))
      (addf (broadcastInDim S ![] h (constant (F := Ideal) Cert.ReferenceIdeal.S_ .f32 0x3F800000#32))
        (Host.exp (Host.negf y))) := by
  funext j
  show Ideal.logistic (y j) = Ideal.div (Ideal.ofBits .f32 0x3F800000#32) (Ideal.ofBits .f32 0x3F800000#32 + Ideal.exp (-(y j)))
  rw [ofBits_one_f32]
  rfl

theorem out_eq (z : FVec Ideal S4096x32 .f32) (w : FVec Ideal S32x1 .f32) (b : FVec Ideal S1x1 .f32) :
    logistic (addf (matmul dot_S4096x32_S32x1_S4096x1_1_0_0_1_n_n none (truncf .bf16 z bitsLt_bf16_f32)
        (truncf .bf16 w bitsLt_bf16_f32) (constant S4096x1 .f32 0x00000000#32))
      (broadcastTo S4096x1 (shapeCast S1x1 b shapeCasts_S1x1_S1x1) broadcasts_S1x1_S4096x1)) = Spec.headOut z w b := by
  unfold Spec.headOut
  rw [shapeCast_self, bias_row_eq b _ Cert.ReferenceIdeal.Gen.bcast_S1x1_S4096x1_0_1,
    matmul_zero_eq_dot dot_S4096x32_S32x1_S4096x1_1_0_0_1_n_n
      Cert.ReferenceIdeal.dot_S4096x32_S32x1_S4096x1_1_0_0_1_n_n rfl none none,
    logistic_eq _ Cert.ReferenceIdeal.Gen.bcast_S_S4096x1]
  rfl

/-- The body's last payload is the reference's last two stages. -/
theorem pay1_eq (z : FVec Ideal S4096x96 .bf16) (w3 : FVec Ideal S96x32 .bf16) (b3 : FVec Ideal S1x32 .f32)
    (w4 : FVec Ideal S32x1 .f32) (b4 : FVec Ideal S1x1 .f32) :
    k10_pay1 z w3 b3 w4 b4 = Spec.headOut (F := Ideal) (Spec.headZ3 (F := Ideal) z w3 b3) w4 b4 := by
  unfold k10_pay1
  exact (congrArg (fun t => logistic (addf (matmul dot_S4096x32_S32x1_S4096x1_1_0_0_1_n_n none (truncf .bf16 t bitsLt_bf16_f32)
        (truncf .bf16 w4 bitsLt_bf16_f32) (constant S4096x1 .f32 0x00000000#32))
      (broadcastTo S4096x1 (shapeCast S1x1 b4 shapeCasts_S1x1_S1x1) broadcasts_S1x1_S4096x1))) (z3_eq z w3 b3)).trans (out_eq _ w4 b4)

/-! ## The head's input: the one-hot product is the row gather -/

/-- The compare-and-widen word of two small numerals, read signed: 1 where they agree, 0 elsewhere. -/
theorem onehot_word : ∀ kk k0 : Fin 3,
    ((IntOp.cmpi .eq (BitVec.ofNat 32 kk.val) (BitVec.ofNat 32 k0.val)).setWidth 32).toInt = if kk = k0 then 1 else 0 := by
  decide

/-- A numeral below 3 read signed is itself. -/
theorem toInt_small : ∀ k0 : Fin 3, (BitVec.ofNat 32 k0.val).toInt = (k0.val : Int) := by decide

/-- The one-hot matrix at (g, kk), when row g's id word is the numeral k0. -/
theorem onehot_entry (q : IVec S4096x1 32) (g : Fin 4096) (kk k0 : Fin 3)
    (hk0 : q (ix2 g (0 : Fin 1)) = BitVec.ofNat 32 k0.val) :
    (sitofp (F := Ideal) .f32 (extui 32 (cmpi .eq (iota .tc S4096x3 32 [1] iota_S4096x3_d1_w32)
      (broadcastTo S4096x3 q broadcasts_S4096x1_S4096x3)) natLt_1_32)) (ix2 g kk) = if kk = k0 then 1 else 0 := by
  show ((((IntOp.cmpi .eq (iota .tc S4096x3 32 [1] iota_S4096x3_d1_w32 (ix2 g kk))
      (broadcastTo S4096x3 q broadcasts_S4096x1_S4096x3 (ix2 g kk))).setWidth 32).toInt : ℝ) : EReal) = _
  rw [iota_single_apply, broadcastTo_apply q _ (ix2 g kk) (ix2 g (0 : Fin 1)) (fun a => by
    match a with
    | ⟨0, _⟩ => rfl
    | ⟨1, _⟩ => rfl), hk0]
  show ((((IntOp.cmpi .eq (BitVec.ofNat 32 kk.val) (BitVec.ofNat 32 k0.val)).setWidth 32).toInt : ℝ) : EReal) = _
  rw [onehot_word kk k0]
  split_ifs <;> simp

/-- The one-hot product's operand indices, axis by axis. -/
theorem lhs_oh_0 (i : S4096x10.Idx) (q : dot_S4096x3_S3x10_S4096x10_1_0_0_1_n_n.contr.Idx) :
    (dot_S4096x3_S3x10_S4096x10_1_0_0_1_n_n.lhsIdx i q 0).val = (i 0).val := by
  unfold DotDims.lhsIdx
  rw [dif_neg (show ¬(0 : Fin S4096x3.rank) ∈ dot_S4096x3_S3x10_S4096x10_1_0_0_1_n_n.lhsBatch by decide), dif_pos (show (0 : Fin S4096x3.rank) ∈ dot_S4096x3_S3x10_S4096x10_1_0_0_1_n_n.lhsNonContracting by decide)]
  rfl
theorem lhs_oh_1 (i : S4096x10.Idx) (q : dot_S4096x3_S3x10_S4096x10_1_0_0_1_n_n.contr.Idx) :
    (dot_S4096x3_S3x10_S4096x10_1_0_0_1_n_n.lhsIdx i q 1).val = (q ⟨0, by decide⟩).val :=
  dot_S4096x3_S3x10_S4096x10_1_0_0_1_n_n.lhsIdx_val_of_single rfl i q
theorem rhs_oh_0 (i : S4096x10.Idx) (q : dot_S4096x3_S3x10_S4096x10_1_0_0_1_n_n.contr.Idx) :
    (dot_S4096x3_S3x10_S4096x10_1_0_0_1_n_n.rhsIdx i q 0).val = (q ⟨0, by decide⟩).val :=
  dot_S4096x3_S3x10_S4096x10_1_0_0_1_n_n.rhsIdx_val_of_single rfl i q
theorem rhs_oh_1 (i : S4096x10.Idx) (q : dot_S4096x3_S3x10_S4096x10_1_0_0_1_n_n.contr.Idx) :
    (dot_S4096x3_S3x10_S4096x10_1_0_0_1_n_n.rhsIdx i q 1).val = (i 1).val := by
  unfold DotDims.rhsIdx
  rw [dif_neg (show ¬(1 : Fin S3x10.rank) ∈ dot_S4096x3_S3x10_S4096x10_1_0_0_1_n_n.rhsBatch by decide), dif_pos (show (1 : Fin S3x10.rank) ∈ dot_S4096x3_S3x10_S4096x10_1_0_0_1_n_n.rhsNonContracting by decide)]
  rfl

/-- The one-hot product at an entry is the sum over the three table rows. -/
theorem onehot_matmul_apply (oh : FVec Ideal S4096x3 .f32) (pe : FVec Ideal S3x10 .f32) (g : Fin 4096) (c : Fin 10) :
    matmul dot_S4096x3_S3x10_S4096x10_1_0_0_1_n_n (some .fp32) oh pe (constant S4096x10 .f32 0x00000000#32) (ix2 g c)
      = ∑ k : Fin 3, oh (ix2 g k) * pe (ix2 k c) := by
  simp only [matmul]
  rw [Ideal.matmul_constant_zero_apply, ← Equiv.sum_comp (ValueIdx.contrEquiv1 dot_S4096x3_S3x10_S4096x10_1_0_0_1_n_n 3 rfl rfl).symm]
  refine Finset.sum_congr rfl fun k _ => ?_
  have hk := ValueIdx.contrEquiv1_symm_val dot_S4096x3_S3x10_S4096x10_1_0_0_1_n_n 3 rfl rfl k
  have el : dot_S4096x3_S3x10_S4096x10_1_0_0_1_n_n.lhsIdx (ix2 g c) ((ValueIdx.contrEquiv1 dot_S4096x3_S3x10_S4096x10_1_0_0_1_n_n 3 rfl rfl).symm k) = ix2 g k := funext fun a => Fin.ext (by
    match a with
    | ⟨0, _⟩ => exact lhs_oh_0 _ _
    | ⟨1, _⟩ => exact (lhs_oh_1 _ _).trans hk)
  have er : dot_S4096x3_S3x10_S4096x10_1_0_0_1_n_n.rhsIdx (ix2 g c) ((ValueIdx.contrEquiv1 dot_S4096x3_S3x10_S4096x10_1_0_0_1_n_n 3 rfl rfl).symm k) = ix2 k c := funext fun a => Fin.ext (by
    match a with
    | ⟨0, _⟩ => exact (rhs_oh_0 _ _).trans hk
    | ⟨1, _⟩ => exact rhs_oh_1 _ _)
  rw [el, er]

/-- Under the id hypothesis the one-hot product IS the row gather. -/
theorem onehot_eq (q : IVec S4096x1 32) (pe : FVec Ideal S3x10 .f32)
    (hq : ∀ g : Fin 4096, ∃ k : Fin 3, q (ix2 g (0 : Fin 1)) = BitVec.ofNat 32 k.val) :
    matmul dot_S4096x3_S3x10_S4096x10_1_0_0_1_n_n (some .fp32)
      (sitofp (F := Ideal) .f32 (extui 32 (cmpi .eq (iota .tc S4096x3 32 [1] iota_S4096x3_d1_w32)
        (broadcastTo S4096x3 (shapeCast S4096x1 q shapeCasts_S4096x1_S4096x1) broadcasts_S4096x1_S4096x3)) natLt_1_32))
      pe (constant S4096x10 .f32 0x00000000#32)
      = Host.gather Cert.ReferenceIdeal.gather_S3x10_S4096x1_S4096x10_1_0_n_n_0_1_110 pe q := by
  funext j
  obtain ⟨g, c, rfl⟩ : ∃ (g : Fin 4096) (c : Fin 10), j = ix2 g c := ⟨j 0, j 1, eq_ix2 j⟩
  obtain ⟨k0, hk0⟩ := hq g
  rw [shapeCast_self, onehot_matmul_apply]
  have hR : Host.gather Cert.ReferenceIdeal.gather_S3x10_S4096x1_S4096x10_1_0_n_n_0_1_110 pe q (ix2 g c) = pe (ix2 k0 c) := by
    refine (GS.gather_gathD_apply (by decide : 0 < 3) Cert.ReferenceIdeal.gather_S3x10_S4096x1_S4096x10_1_0_n_n_0_1_110.wf pe q g c).trans ?_
    rw [GS.row_of_toInt _ _ k0 (by rw [hk0]; exact toInt_small k0)]
  rw [hR, Finset.sum_eq_single k0]
  · rw [onehot_entry q g k0 k0 hk0, if_pos rfl, one_mul]
  · intro b _ hb
    rw [onehot_entry q g b k0 hk0, if_neg hb, zero_mul]
  · intro h; exact absurd (Finset.mem_univ k0) h

/-- The head's input stage. -/
theorem z0_eq (P : FVec Ideal S4096x64 .f32) (q : IVec S4096x1 32) (pe : FVec Ideal S3x10 .f32)
    (hq : ∀ g : Fin 4096, ∃ k : Fin 3, q (ix2 g (0 : Fin 1)) = BitVec.ofNat 32 k.val) :
    concatenate S4096x74 1 [⟨S4096x64, shapeCast S4096x64 P shapeCasts_S4096x64_S4096x64⟩, ⟨S4096x10,
      maximumf (matmul dot_S4096x3_S3x10_S4096x10_1_0_0_1_n_n (some .fp32)
        (sitofp (F := Ideal) .f32 (extui 32 (cmpi .eq (iota .tc S4096x3 32 [1] iota_S4096x3_d1_w32)
          (broadcastTo S4096x3 (shapeCast S4096x1 q shapeCasts_S4096x1_S4096x1) broadcasts_S4096x1_S4096x3)) natLt_1_32))
        pe (constant S4096x10 .f32 0x00000000#32)) (broadcast S4096x10 (Scalar.ofBits .f32 0x00000000#32))⟩]
      concatenates_S4096x64_S4096x10_S4096x74_d1 = Spec.headZ0 P q pe := by
  unfold Spec.headZ0
  rw [shapeCast_self P, onehot_eq q pe hq, zero_splat_eq _ Cert.ReferenceIdeal.Gen.bcast_S_S4096x10]

/-- The body's first payload is the reference's first three stages (in the narrow format, no change here). -/
theorem pay2_eq (x0 : Vec Ideal S4096x64 .f32) (x1 : Vec Ideal S4096x1 .i32) (x2 : Vec Ideal S3x10 .f32)
    (x3 : Vec Ideal S74x128 .f32) (x4 : Vec Ideal S1x128 .f32) (x5 : Vec Ideal S128x96 .f32) (x6 : Vec Ideal S1x96 .f32)
    (hq : ∀ g : Fin 4096, ∃ k : Fin 3, (x1 : IVec S4096x1 32) (ix2 g (0 : Fin 1)) = BitVec.ofNat 32 k.val) :
    k10_pay2 x0 x1 x2 x3 x4 x5 x6
      = (Spec.headZ2 (F := Ideal) (Spec.headZ1 (F := Ideal) (Spec.headZ0 (F := Ideal) x0 x1 x2) x3 x4) x5 x6 : FVec Ideal S4096x96 .f32) := by
  rw [← z2_eq, ← z1_eq, ← z0_eq x0 x1 x2 hq]
  rfl

/-- THE BODY'S ARITHMETIC is the reference's head, whole array by whole array. -/
theorem head_eq (x0 : Vec Ideal S4096x64 .f32) (x1 : Vec Ideal S4096x1 .i32) (x2 : Vec Ideal S3x10 .f32)
    (x3 : Vec Ideal S74x128 .f32) (x4 : Vec Ideal S1x128 .f32) (x5 : Vec Ideal S128x96 .f32) (x6 : Vec Ideal S1x96 .f32)
    (x7 : Vec Ideal S96x32 .f32) (x8 : Vec Ideal S1x32 .f32) (x9 : Vec Ideal S32x1 .f32) (x10 : Vec Ideal S1x1 .f32)
    (hq : ∀ g : Fin 4096, ∃ k : Fin 3, (x1 : IVec S4096x1 32) (ix2 g (0 : Fin 1)) = BitVec.ofNat 32 k.val) :
    k10_pay1 (k10_pay2 x0 x1 x2 x3 x4 x5 x6) (k10_pay3 x7) x8 x9 x10
      = Spec.headRef (F := Ideal) x0 x1 x2 x3 x4 x5 x6 x7 x8 x9 x10 := by
  rw [pay1_eq, pay2_eq x0 x1 x2 x3 x4 x5 x6 hq]
  rfl

/-! ## From the one block to the array -/

theorem hz10 : (![0, 0] : Fin 2 → Nat) = fun _ => 0 := funext fun a => by fin_cases a <;> rfl

/-- Every window's block index is zero on both axes at the grid's one point. -/
theorem idx_zero10 : ∀ t : Fin cfg10.N,
    (win10_0.index t (0 : Fin 2) = 0 ∧ win10_0.index t (1 : Fin 2) = 0)
    ∧ (win10_1.index t (0 : Fin 2) = 0 ∧ win10_1.index t (1 : Fin 2) = 0)
    ∧ (win10_2.index t (0 : Fin 2) = 0 ∧ win10_2.index t (1 : Fin 2) = 0)
    ∧ (win10_3.index t (0 : Fin 2) = 0 ∧ win10_3.index t (1 : Fin 2) = 0)
    ∧ (win10_4.index t (0 : Fin 2) = 0 ∧ win10_4.index t (1 : Fin 2) = 0)
    ∧ (win10_5.index t (0 : Fin 2) = 0 ∧ win10_5.index t (1 : Fin 2) = 0)
    ∧ (win10_6.index t (0 : Fin 2) = 0 ∧ win10_6.index t (1 : Fin 2) = 0)
    ∧ (win10_7.index t (0 : Fin 2) = 0 ∧ win10_7.index t (1 : Fin 2) = 0)
    ∧ (win10_8.index t (0 : Fin 2) = 0 ∧ win10_8.index t (1 : Fin 2) = 0)
    ∧ (win10_9.index t (0 : Fin 2) = 0 ∧ win10_9.index t (1 : Fin 2) = 0)
    ∧ (win10_10.index t (0 : Fin 2) = 0 ∧ win10_10.index t (1 : Fin 2) = 0)
    ∧ (win10_11.index t (0 : Fin 2) = 0 ∧ win10_11.index t (1 : Fin 2) = 0) :=
  (by decide +kernel : ∀ t : Fin grid10.N, _)

/-- What the body leaves in the output buffer, over variables: its one whole-buffer store of the head. -/
theorem out10_eq_head (x0 : Vec Ideal S4096x64 .f32) (x1 : Vec Ideal S4096x1 .i32) (x2 : Vec Ideal S3x10 .f32)
    (x3 : Vec Ideal S74x128 .f32) (x4 : Vec Ideal S1x128 .f32) (x5 : Vec Ideal S128x96 .f32) (x6 : Vec Ideal S1x96 .f32)
    (x7 : Vec Ideal S96x32 .f32) (x8 : Vec Ideal S1x32 .f32) (x9 : Vec Ideal S32x1 .f32) (x10 : Vec Ideal S1x1 .f32)
    (hq : ∀ g : Fin 4096, ∃ k : Fin 3, (x1 : IVec S4096x1 32) (ix2 g (0 : Fin 1)) = BitVec.ofNat 32 k.val) :
    out10_11 x0 x1 x2 x3 x4 x5 x6 x7 x8 x9 x10 = Spec.headRef (F := Ideal) x0 x1 x2 x3 x4 x5 x6 x7 x8 x9 x10 := by
  unfold out10_11
  rw [View.canon_unit_zero hz10]
  simp only [View.ld_unit_zero (S := S4096x64) hz10, View.ld_unit_zero (S := S4096x1) hz10, View.ld_unit_zero (S := S3x10) hz10,
    View.ld_unit_zero (S := S74x128) hz10, View.ld_unit_zero (S := S1x128) hz10, View.ld_unit_zero (S := S128x96) hz10,
    View.ld_unit_zero (S := S1x96) hz10, View.ld_unit_zero (S := S96x32) hz10, View.ld_unit_zero (S := S1x32) hz10,
    View.ld_unit_zero (S := S32x1) hz10, View.ld_unit_zero (S := S1x1) hz10]
  exact head_eq x0 x1 x2 x3 x4 x5 x6 x7 x8 x9 x10 hq

variable (V : (c : Dev nD) → (b : Ref sig .tc) → Buf (Elt Ideal) ((c : Thread nD τ).loc b))
/-- Each input window's one block is its whole array: the block sits at offset zero and has the array's extent. -/
theorem blk10_0 (c : Dev nD) (t : Fin cfg10.N) : (iblk10 V c 0 t : Vec Ideal S4096x64 .f32) = V c main_v106 := by
  have hi := (idx_zero10 t).1
  have hz' : (fun a => win10_0.index t a * main_v106.ty.shape.size a) = fun _ => 0 := funext fun a => by
    match a with
    | ⟨0, _⟩ => show win10_0.index t (0 : Fin 2) * _ = 0; rw [hi.1, Nat.zero_mul]
    | ⟨1, _⟩ => show win10_0.index t (1 : Fin 2) * _ = 0; rw [hi.2, Nat.zero_mul]
  unfold iblk10
  exact Memref.read_access_unit_zero (Elt Ideal) main_v106 hz' (fun a => by rw [congrFun hz' a]; simp) (V c main_v106)
theorem blk10_1 (c : Dev nD) (t : Fin cfg10.N) : (iblk10 V c 1 t : Vec Ideal S4096x1 .i32) = V c main_v107 := by
  have hi := (idx_zero10 t).2.1
  have hz' : (fun a => win10_1.index t a * main_v107.ty.shape.size a) = fun _ => 0 := funext fun a => by
    match a with
    | ⟨0, _⟩ => show win10_1.index t (0 : Fin 2) * _ = 0; rw [hi.1, Nat.zero_mul]
    | ⟨1, _⟩ => show win10_1.index t (1 : Fin 2) * _ = 0; rw [hi.2, Nat.zero_mul]
  unfold iblk10
  exact Memref.read_access_unit_zero (Elt Ideal) main_v107 hz' (fun a => by rw [congrFun hz' a]; simp) (V c main_v107)
theorem blk10_2 (c : Dev nD) (t : Fin cfg10.N) : (iblk10 V c 2 t : Vec Ideal S3x10 .f32) = V c main_arg6 := by
  have hi := (idx_zero10 t).2.2.1
  have hz' : (fun a => win10_2.index t a * main_arg6.ty.shape.size a) = fun _ => 0 := funext fun a => by
    match a with
    | ⟨0, _⟩ => show win10_2.index t (0 : Fin 2) * _ = 0; rw [hi.1, Nat.zero_mul]
    | ⟨1, _⟩ => show win10_2.index t (1 : Fin 2) * _ = 0; rw [hi.2, Nat.zero_mul]
  unfold iblk10
  exact Memref.read_access_unit_zero (Elt Ideal) main_arg6 hz' (fun a => by rw [congrFun hz' a]; simp) (V c main_arg6)
theorem blk10_3 (c : Dev nD) (t : Fin cfg10.N) : (iblk10 V c 3 t : Vec Ideal S74x128 .f32) = V c main_arg17 := by
  have hi := (idx_zero10 t).2.2.2.1
  have hz' : (fun a => win10_3.index t a * main_arg17.ty.shape.size a) = fun _ => 0 := funext fun a => by
    match a with
    | ⟨0, _⟩ => show win10_3.index t (0 : Fin 2) * _ = 0; rw [hi.1, Nat.zero_mul]
    | ⟨1, _⟩ => show win10_3.index t (1 : Fin 2) * _ = 0; rw [hi.2, Nat.zero_mul]
  unfold iblk10
  exact Memref.read_access_unit_zero (Elt Ideal) main_arg17 hz' (fun a => by rw [congrFun hz' a]; simp) (V c main_arg17)
theorem blk10_4 (c : Dev nD) (t : Fin cfg10.N) : (iblk10 V c 4 t : Vec Ideal S1x128 .f32) = V c main_v108 := by
  have hi := (idx_zero10 t).2.2.2.2.1
  have hz' : (fun a => win10_4.index t a * main_v108.ty.shape.size a) = fun _ => 0 := funext fun a => by
    match a with
    | ⟨0, _⟩ => show win10_4.index t (0 : Fin 2) * _ = 0; rw [hi.1, Nat.zero_mul]
    | ⟨1, _⟩ => show win10_4.index t (1 : Fin 2) * _ = 0; rw [hi.2, Nat.zero_mul]
  unfold iblk10
  exact Memref.read_access_unit_zero (Elt Ideal) main_v108 hz' (fun a => by rw [congrFun hz' a]; simp) (V c main_v108)
theorem blk10_5 (c : Dev nD) (t : Fin cfg10.N) : (iblk10 V c 5 t : Vec Ideal S128x96 .f32) = V c main_arg19 := by
  have hi := (idx_zero10 t).2.2.2.2.2.1
  have hz' : (fun a => win10_5.index t a * main_arg19.ty.shape.size a) = fun _ => 0 := funext fun a => by
    match a with
    | ⟨0, _⟩ => show win10_5.index t (0 : Fin 2) * _ = 0; rw [hi.1, Nat.zero_mul]
    | ⟨1, _⟩ => show win10_5.index t (1 : Fin 2) * _ = 0; rw [hi.2, Nat.zero_mul]
  unfold iblk10
  exact Memref.read_access_unit_zero (Elt Ideal) main_arg19 hz' (fun a => by rw [congrFun hz' a]; simp) (V c main_arg19)
theorem blk10_6 (c : Dev nD) (t : Fin cfg10.N) : (iblk10 V c 6 t : Vec Ideal S1x96 .f32) = V c main_v109 := by
  have hi := (idx_zero10 t).2.2.2.2.2.2.1
  have hz' : (fun a => win10_6.index t a * main_v109.ty.shape.size a) = fun _ => 0 := funext fun a => by
    match a with
    | ⟨0, _⟩ => show win10_6.index t (0 : Fin 2) * _ = 0; rw [hi.1, Nat.zero_mul]
    | ⟨1, _⟩ => show win10_6.index t (1 : Fin 2) * _ = 0; rw [hi.2, Nat.zero_mul]
  unfold iblk10
  exact Memref.read_access_unit_zero (Elt Ideal) main_v109 hz' (fun a => by rw [congrFun hz' a]; simp) (V c main_v109)
theorem blk10_7 (c : Dev nD) (t : Fin cfg10.N) : (iblk10 V c 7 t : Vec Ideal S96x32 .f32) = V c main_arg21 := by
  have hi := (idx_zero10 t).2.2.2.2.2.2.2.1
  have hz' : (fun a => win10_7.index t a * main_arg21.ty.shape.size a) = fun _ => 0 := funext fun a => by
    match a with
    | ⟨0, _⟩ => show win10_7.index t (0 : Fin 2) * _ = 0; rw [hi.1, Nat.zero_mul]
    | ⟨1, _⟩ => show win10_7.index t (1 : Fin 2) * _ = 0; rw [hi.2, Nat.zero_mul]
  unfold iblk10
  exact Memref.read_access_unit_zero (Elt Ideal) main_arg21 hz' (fun a => by rw [congrFun hz' a]; simp) (V c main_arg21)
theorem blk10_8 (c : Dev nD) (t : Fin cfg10.N) : (iblk10 V c 8 t : Vec Ideal S1x32 .f32) = V c main_v110 := by
  have hi := (idx_zero10 t).2.2.2.2.2.2.2.2.1
  have hz' : (fun a => win10_8.index t a * main_v110.ty.shape.size a) = fun _ => 0 := funext fun a => by
    match a with
    | ⟨0, _⟩ => show win10_8.index t (0 : Fin 2) * _ = 0; rw [hi.1, Nat.zero_mul]
    | ⟨1, _⟩ => show win10_8.index t (1 : Fin 2) * _ = 0; rw [hi.2, Nat.zero_mul]
  unfold iblk10
  exact Memref.read_access_unit_zero (Elt Ideal) main_v110 hz' (fun a => by rw [congrFun hz' a]; simp) (V c main_v110)
theorem blk10_9 (c : Dev nD) (t : Fin cfg10.N) : (iblk10 V c 9 t : Vec Ideal S32x1 .f32) = V c main_arg23 := by
  have hi := (idx_zero10 t).2.2.2.2.2.2.2.2.2.1
  have hz' : (fun a => win10_9.index t a * main_arg23.ty.shape.size a) = fun _ => 0 := funext fun a => by
    match a with
    | ⟨0, _⟩ => show win10_9.index t (0 : Fin 2) * _ = 0; rw [hi.1, Nat.zero_mul]
    | ⟨1, _⟩ => show win10_9.index t (1 : Fin 2) * _ = 0; rw [hi.2, Nat.zero_mul]
  unfold iblk10
  exact Memref.read_access_unit_zero (Elt Ideal) main_arg23 hz' (fun a => by rw [congrFun hz' a]; simp) (V c main_arg23)
theorem blk10_10 (c : Dev nD) (t : Fin cfg10.N) : (iblk10 V c 10 t : Vec Ideal S1x1 .f32) = V c main_v111 := by
  have hi := (idx_zero10 t).2.2.2.2.2.2.2.2.2.2.1
  have hz' : (fun a => win10_10.index t a * main_v111.ty.shape.size a) = fun _ => 0 := funext fun a => by
    match a with
    | ⟨0, _⟩ => show win10_10.index t (0 : Fin 2) * _ = 0; rw [hi.1, Nat.zero_mul]
    | ⟨1, _⟩ => show win10_10.index t (1 : Fin 2) * _ = 0; rw [hi.2, Nat.zero_mul]
  unfold iblk10
  exact Memref.read_access_unit_zero (Elt Ideal) main_v111 hz' (fun a => by rw [congrFun hz' a]; simp) (V c main_v111)

/-- WHAT THE ONE POINT WRITES BACK is the head of the arrays as the region finds them, read through its block. -/
theorem flushed10 (c : Dev nD)
    (hq : ∀ g : Fin 4096, ∃ k : Fin 3, (V c main_v107 : IVec S4096x1 32) (ix2 g (0 : Fin 1)) = BitVec.ofNat 32 k.val)
    (t : Fin cfg10.N) :
    (dat10 V c).flushed 11 t = ((cfg10.win 11).blk t).view.read (Elt Ideal)
      (Spec.headRef (F := Ideal) (V c main_v106) (V c main_v107) (V c main_arg6) (V c main_arg17) (V c main_v108)
        (V c main_arg19) (V c main_v109) (V c main_arg21) (V c main_v110) (V c main_arg23) (V c main_v111)) := by
  show (cfg10.win 11).cut (grid10.coords t) ((dat10 V c).after 11 t) = _
  rw [after10_11, blk10_0 V c t, blk10_1 V c t, blk10_2 V c t, blk10_3 V c t, blk10_4 V c t, blk10_5 V c t, blk10_6 V c t,
    blk10_7 V c t, blk10_8 V c t, blk10_9 V c t, blk10_10 V c t,
    out10_eq_head (V c main_v106) (V c main_v107) (V c main_arg6) (V c main_arg17) (V c main_v108)
        (V c main_arg19) (V c main_v109) (V c main_arg21) (V c main_v110) (V c main_arg23) (V c main_v111) hq]
  have hi := (idx_zero10 t).2.2.2.2.2.2.2.2.2.2.2
  have hz' : (fun a => win10_11.index t a * main_v112.ty.shape.size a) = fun _ => 0 := funext fun a => by
    match a with
    | ⟨0, _⟩ => show win10_11.index t (0 : Fin 2) * _ = 0; rw [hi.1, Nat.zero_mul]
    | ⟨1, _⟩ => show win10_11.index t (1 : Fin 2) * _ = 0; rw [hi.2, Nat.zero_mul]
  exact (Memref.read_access_unit_zero (Elt Ideal) main_v112 hz' (fun a => by rw [congrFun hz' a]; simp) _).symm

/-- An index of the output array is in the point's block iff each coordinate is in the block's range on its axis. -/
theorem mem_blk10 (t : Fin cfg10.N) (i : S4096x1.Idx) :
    i ∈ ((cfg10.win 11).blk t).view.set ↔ ∀ a : Fin 2, win10_11.index t a * S4096x1.size a ≤ (i a).val ∧ (i a).val < win10_11.index t a * S4096x1.size a + S4096x1.size a := by
  show i ∈ ((View.whole main_v112).slice (win10_11.rect t)).set ↔ _
  rw [View.set_slice_whole, Rect.mem_set_unit]
  exact Iff.rfl

theorem reg10_value (c : Dev nD)
    (hq : ∀ g : Fin 4096, ∃ k : Fin 3, (V c main_v107 : IVec S4096x1 32) (ix2 g (0 : Fin 1)) = BitVec.ofNat 32 k.val) :
    ((dat10 V c).arrAt 11 cfg10.N : Vec Ideal S4096x1 .f32) = Spec.headRef (F := Ideal) (V c main_v106) (V c main_v107) (V c main_arg6)
      (V c main_arg17) (V c main_v108) (V c main_arg19) (V c main_v109) (V c main_arg21) (V c main_v110) (V c main_arg23) (V c main_v111) := by
  refine (dat10 V c).arrAt_eq_of_cover 11 _ (fun t _ => flushed10 V c hq t) fun i => ?_
  refine ⟨⟨0, by decide⟩, flush10_11 _, ?_⟩
  rw [mem_blk10]
  have hi := (idx_zero10 ⟨0, by decide⟩).2.2.2.2.2.2.2.2.2.2.2
  intro a
  match a with
  | ⟨0, _⟩ => show win10_11.index _ (0 : Fin 2) * 4096 ≤ (i 0).val ∧ (i 0).val < win10_11.index _ (0 : Fin 2) * 4096 + 4096; rw [hi.1]; have h0 : (i 0).val < 4096 := (i 0).isLt; omega
  | ⟨1, _⟩ => show win10_11.index _ (1 : Fin 2) * 1 ≤ (i 1).val ∧ (i 1).val < win10_11.index _ (1 : Fin 2) * 1 + 1; rw [hi.2]; have h1 : (i 1).val < 1 := (i 1).isLt; omega

end Cert.KernelIdeal.RV10

end
-- ==== Proof.Chain.lean ====
/-
  The kernel program's buffers at each boundary of its run are the reference's stages of the arguments: by the
  host stretches (the same host operations as the reference's), the regions' array-level values, and the
  precondition's index ranges (for the two embedding look-ups).
-/
import proofs.«424127_j32091995635825_2_alg».proof.Proof.ChainCarry
import proofs.«424127_j32091995635825_2_alg».proof.Proof.ChainHost
import proofs.«424127_j32091995635825_2_alg».proof.Proof.PreDecode
import proofs.«424127_j32091995635825_2_alg».proof.Proof.RegEmbed
import proofs.«424127_j32091995635825_2_alg».proof.Proof.RegLin1
import proofs.«424127_j32091995635825_2_alg».proof.Proof.RegComb2
import proofs.«424127_j32091995635825_2_alg».proof.Proof.RegLin3
import proofs.«424127_j32091995635825_2_alg».proof.Proof.RegComb4
import proofs.«424127_j32091995635825_2_alg».proof.Proof.RegLin5
import proofs.«424127_j32091995635825_2_alg».proof.Proof.RegComb6
import proofs.«424127_j32091995635825_2_alg».proof.Proof.RegLin7
import proofs.«424127_j32091995635825_2_alg».proof.Proof.RegComb8
import proofs.«424127_j32091995635825_2_alg».proof.Proof.RegLinB9
import proofs.«424127_j32091995635825_2_alg».proof.Proof.RegHead10

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen
open Cert.Proof

/-- With every protein id one of 0, 1, 2 the reference's wrap of a negative id is never taken, so its gather index column
    is the ids reshaped to a column. -/
theorem val144_eq_of_range {F : FTy → Type} [FloatOps F] (x4 : IVec Cert.ReferenceIdeal.S4096 32)
    (hp : ∀ g : Fin 4096, ∃ k : Fin 3, x4 (ix1 g) = BitVec.ofNat 32 k.val) :
    Cert.ReferenceIdeal.Read.val_main_v144 (F := F) x4 = shapeCast Cert.ReferenceIdeal.S4096x1 x4 (by decide) := by
  have hsel : Cert.ReferenceIdeal.Read.val_main_v143 (F := F) x4 = x4 := by
    funext i
    obtain ⟨g, rfl⟩ : ∃ g : Fin 4096, i = ix1 g := ⟨i 0, eq_ix1 i⟩
    obtain ⟨k, hk⟩ := hp g
    have e : Cert.ReferenceIdeal.Read.val_main_v143 (F := F) x4 (ix1 g)
        = Scalar.select (IntOp.cmpi .slt (x4 (ix1 g)) 0#32) (IntOp.addi (x4 (ix1 g)) 3#32) (x4 (ix1 g)) := rfl
    rw [e, hk]
    have hc : IntOp.cmpi .slt (BitVec.ofNat 32 k.val) 0#32 = 0#1 := by fin_cases k <;> decide
    rw [hc]
    rfl
  unfold Cert.ReferenceIdeal.Read.val_main_v144
  rw [hsel]
  exact (reshape_col_eq _ _ _).symm

variable (m : (ℓ : Loc nD τ sig) → Buf (Elt Ideal) ℓ) (ρ : Dev nD → PrngReg) (c : Dev nD)

/-- The argument arrays of device `c`. -/
abbrev ax0 : (⟨S200000x8, .f32⟩ : BufTy).Contents (Elt Ideal) := m ((c.tc : Thread nD τ).loc main_arg0)
abbrev ax1 : (⟨S2x1280000, .i32⟩ : BufTy).Contents (Elt Ideal) := m ((c.tc : Thread nD τ).loc main_arg1)
abbrev ax2 : (⟨S1280000, .f32⟩ : BufTy).Contents (Elt Ideal) := m ((c.tc : Thread nD τ).loc main_arg2)
abbrev ax3 : (⟨S200000, .i32⟩ : BufTy).Contents (Elt Ideal) := m ((c.tc : Thread nD τ).loc main_arg3)
abbrev ax4 : (⟨S4096, .i32⟩ : BufTy).Contents (Elt Ideal) := m ((c.tc : Thread nD τ).loc main_arg4)
abbrev ax5 : (⟨S20x32, .f32⟩ : BufTy).Contents (Elt Ideal) := m ((c.tc : Thread nD τ).loc main_arg5)
abbrev ax6 : (⟨S3x10, .f32⟩ : BufTy).Contents (Elt Ideal) := m ((c.tc : Thread nD τ).loc main_arg6)
abbrev ax7 : (⟨S40x64, .f32⟩ : BufTy).Contents (Elt Ideal) := m ((c.tc : Thread nD τ).loc main_arg7)
abbrev ax8 : (⟨S64, .f32⟩ : BufTy).Contents (Elt Ideal) := m ((c.tc : Thread nD τ).loc main_arg8)
abbrev ax9 : (⟨S64x64, .f32⟩ : BufTy).Contents (Elt Ideal) := m ((c.tc : Thread nD τ).loc main_arg9)
abbrev ax10 : (⟨S64, .f32⟩ : BufTy).Contents (Elt Ideal) := m ((c.tc : Thread nD τ).loc main_arg10)
abbrev ax11 : (⟨S64x64, .f32⟩ : BufTy).Contents (Elt Ideal) := m ((c.tc : Thread nD τ).loc main_arg11)
abbrev ax12 : (⟨S64, .f32⟩ : BufTy).Contents (Elt Ideal) := m ((c.tc : Thread nD τ).loc main_arg12)
abbrev ax13 : (⟨S64x64, .f32⟩ : BufTy).Contents (Elt Ideal) := m ((c.tc : Thread nD τ).loc main_arg13)
abbrev ax14 : (⟨S64, .f32⟩ : BufTy).Contents (Elt Ideal) := m ((c.tc : Thread nD τ).loc main_arg14)
abbrev ax15 : (⟨S64x64, .f32⟩ : BufTy).Contents (Elt Ideal) := m ((c.tc : Thread nD τ).loc main_arg15)
abbrev ax16 : (⟨S64, .f32⟩ : BufTy).Contents (Elt Ideal) := m ((c.tc : Thread nD τ).loc main_arg16)
abbrev ax17 : (⟨S74x128, .f32⟩ : BufTy).Contents (Elt Ideal) := m ((c.tc : Thread nD τ).loc main_arg17)
abbrev ax18 : (⟨S128, .f32⟩ : BufTy).Contents (Elt Ideal) := m ((c.tc : Thread nD τ).loc main_arg18)
abbrev ax19 : (⟨S128x96, .f32⟩ : BufTy).Contents (Elt Ideal) := m ((c.tc : Thread nD τ).loc main_arg19)
abbrev ax20 : (⟨S96, .f32⟩ : BufTy).Contents (Elt Ideal) := m ((c.tc : Thread nD τ).loc main_arg20)
abbrev ax21 : (⟨S96x32, .f32⟩ : BufTy).Contents (Elt Ideal) := m ((c.tc : Thread nD τ).loc main_arg21)
abbrev ax22 : (⟨S32, .f32⟩ : BufTy).Contents (Elt Ideal) := m ((c.tc : Thread nD τ).loc main_arg22)
abbrev ax23 : (⟨S32x1, .f32⟩ : BufTy).Contents (Elt Ideal) := m ((c.tc : Thread nD τ).loc main_arg23)
abbrev ax24 : (⟨S1, .f32⟩ : BufTy).Contents (Elt Ideal) := m ((c.tc : Thread nD τ).loc main_arg24)

/-- The reference's last stage of the arguments: what both programs return. -/
abbrev result : (⟨S4096x1, .f32⟩ : BufTy).Contents (Elt Ideal) := Cert.ReferenceIdeal.Read.val_main_v172 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) (ax17 m c) (ax18 m c) (ax19 m c) (ax20 m c) (ax21 m c) (ax22 m c) (ax23 m c) (ax24 m c)

theorem L_v1 : W1 m ρ c (Proc.devRef .tc main_v1) = Cert.ReferenceIdeal.Read.val_main_v1 (F := Ideal) (ax1 m c) :=
  host0_v1 (W0 m ρ c)

theorem L_v3 : W1 m ρ c (Proc.devRef .tc main_v3) = Cert.ReferenceIdeal.Read.val_main_v3 (F := Ideal) (ax1 m c) :=
  host0_v3 (W0 m ρ c)

theorem L_v25 : W1 m ρ c (Proc.devRef .tc main_v25) = Cert.ReferenceIdeal.Read.val_main_v25 (F := Ideal) (ax1 m c) (ax2 m c) :=
  host0_v25 (W0 m ρ c)

theorem L_v26 : W1 m ρ c (Proc.devRef .tc main_v26) = Cert.ReferenceIdeal.Read.val_main_v26 (F := Ideal) (ax1 m c) (ax2 m c) :=
  host0_v26 (W0 m ρ c)

/-- The atom ids as region 0 finds them are the arguments' (no stage before it writes the node features). -/
theorem hid1 (h : Cert.Pre_KernelIdeal m) : ∀ r : Fin 200000, ∃ k : Fin 20,
    FloatOps.fptosi (F := Ideal) (φ := .f32) 32 ((V1 m ρ c main_arg0 : Vec Ideal S200000x8 .f32) (ix2 r (0 : Fin 8))) = BitVec.ofNat 32 k.val := by
  intro r
  have e : (V1 m ρ c main_arg0 : Vec Ideal S200000x8 .f32) = m ((c.tc : Thread nD τ).loc main_arg0) := carry_arg0_0_1 m ρ c
  rw [e]
  exact Cert.Proof.PreDecode.atom_id_in_range m h c r

theorem L_v27 (h : Cert.Pre_KernelIdeal m) : W2 m ρ c (Proc.devRef .tc main_v27) = Cert.ReferenceIdeal.Read.val_main_v37 (F := Ideal) (ax0 m c) (ax5 m c) :=
  (W2_arr m ρ c 2).trans ((Cert.KernelIdeal.RV0.reg0_value (V1 m ρ) c (hid1 m ρ c h)).trans (by
    show Spec.embedRef (F := Ideal) (W1 m ρ c (Proc.devRef .tc main_arg0)) (W1 m ρ c (Proc.devRef .tc main_arg5)) = _
    rw [show W1 m ρ c (Proc.devRef .tc main_arg0) = ax0 m c from carry_arg0_0_1 m ρ c,
      show W1 m ρ c (Proc.devRef .tc main_arg5) = ax5 m c from carry_arg5_0_1 m ρ c]
    exact (val37_eq _ _).symm))

theorem L_v28 (h : Cert.Pre_KernelIdeal m) : W3 m ρ c (Proc.devRef .tc main_v28) = Cert.ReferenceIdeal.Read.val_main_v38 (F := Ideal) (ax0 m c) (ax5 m c) (ax7 m c) :=
  (W3_arr m ρ c 2).trans ((Cert.KernelIdeal.RV.reg1_value (V2 m ρ) c).trans (by
    show Spec.linRef40 (F := Ideal) (W2 m ρ c (Proc.devRef .tc main_v27)) (W2 m ρ c (Proc.devRef .tc main_arg7)) = _
    rw [show W2 m ρ c (Proc.devRef .tc main_v27) = Cert.ReferenceIdeal.Read.val_main_v37 (F := Ideal) (ax0 m c) (ax5 m c) from L_v27 m ρ c h,
      show W2 m ρ c (Proc.devRef .tc main_arg7) = ax7 m c from carry_arg7_0_2 m ρ c]
    exact (val38_eq _ _ _).symm))

theorem L_v41 (h : Cert.Pre_KernelIdeal m) : W4 m ρ c (Proc.devRef .tc main_v41) = Cert.ReferenceIdeal.Read.val_main_v51 (F := Ideal) (ax0 m c) (ax1 m c) (ax2 m c) (ax5 m c) (ax7 m c) :=
  (host2_v41 (W3 m ρ c)).trans (by
    rw [show W3 m ρ c (Proc.devRef .tc main_v28) = Cert.ReferenceIdeal.Read.val_main_v38 (F := Ideal) (ax0 m c) (ax5 m c) (ax7 m c) from L_v28 m ρ c h,
      show W3 m ρ c (Proc.devRef .tc main_v1) = Cert.ReferenceIdeal.Read.val_main_v1 (F := Ideal) (ax1 m c) from (carry_v1_1_3 m ρ c).trans (L_v1 m ρ c),
      show W3 m ρ c (Proc.devRef .tc main_v3) = Cert.ReferenceIdeal.Read.val_main_v3 (F := Ideal) (ax1 m c) from (carry_v3_1_3 m ρ c).trans (L_v3 m ρ c),
      show W3 m ρ c (Proc.devRef .tc main_v25) = Cert.ReferenceIdeal.Read.val_main_v25 (F := Ideal) (ax1 m c) (ax2 m c) from (carry_v25_1_3 m ρ c).trans (L_v25 m ρ c)]
    exact (val51_eq _ _ _ _ _).symm)

theorem L_v42 (h : Cert.Pre_KernelIdeal m) : W4 m ρ c (Proc.devRef .tc main_v42) = Cert.ReferenceIdeal.Read.val_main_v52 (F := Ideal) (ax1 m c) (ax2 m c) :=
  (host2_v42 (W3 m ρ c)).trans (by
    rw [show W3 m ρ c (Proc.devRef .tc main_v26) = Cert.ReferenceIdeal.Read.val_main_v26 (F := Ideal) (ax1 m c) (ax2 m c) from (carry_v26_1_3 m ρ c).trans (L_v26 m ρ c)]
    exact (val52_eq _ _).symm)

theorem L_v43 (h : Cert.Pre_KernelIdeal m) : W4 m ρ c (Proc.devRef .tc main_v43) = Cert.ReferenceIdeal.Read.val_main_v56 (F := Ideal) (ax8 m c) :=
  (host2_v43 (W3 m ρ c)).trans (by
    rw [show W3 m ρ c (Proc.devRef .tc main_arg8) = ax8 m c from carry_arg8_0_3 m ρ c]
    exact (val56_eq _).symm)

theorem L_v44 (h : Cert.Pre_KernelIdeal m) : W5 m ρ c (Proc.devRef .tc main_v44) = Cert.ReferenceIdeal.Read.val_main_v59 (F := Ideal) (ax0 m c) (ax1 m c) (ax2 m c) (ax5 m c) (ax7 m c) (ax8 m c) :=
  (W5_arr m ρ c 4).trans ((Cert.KernelIdeal.RV.reg2_value (V4 m ρ) c).trans (by
    show Spec.combRef (F := Ideal) (W4 m ρ c (Proc.devRef .tc main_v41)) (W4 m ρ c (Proc.devRef .tc main_v28)) (W4 m ρ c (Proc.devRef .tc main_v42)) (W4 m ρ c (Proc.devRef .tc main_v43)) = _
    rw [show W4 m ρ c (Proc.devRef .tc main_v41) = Cert.ReferenceIdeal.Read.val_main_v51 (F := Ideal) (ax0 m c) (ax1 m c) (ax2 m c) (ax5 m c) (ax7 m c) from L_v41 m ρ c h,
      show W4 m ρ c (Proc.devRef .tc main_v28) = Cert.ReferenceIdeal.Read.val_main_v38 (F := Ideal) (ax0 m c) (ax5 m c) (ax7 m c) from (carry_v28_3_4 m ρ c).trans (L_v28 m ρ c h),
      show W4 m ρ c (Proc.devRef .tc main_v42) = Cert.ReferenceIdeal.Read.val_main_v52 (F := Ideal) (ax1 m c) (ax2 m c) from L_v42 m ρ c h,
      show W4 m ρ c (Proc.devRef .tc main_v43) = Cert.ReferenceIdeal.Read.val_main_v56 (F := Ideal) (ax8 m c) from L_v43 m ρ c h]
    exact (val59_eq _ _ _ _ _ _).symm))

theorem L_v45 (h : Cert.Pre_KernelIdeal m) : W6 m ρ c (Proc.devRef .tc main_v45) = Cert.ReferenceIdeal.Read.val_main_v60 (F := Ideal) (ax0 m c) (ax1 m c) (ax2 m c) (ax5 m c) (ax7 m c) (ax8 m c) (ax9 m c) :=
  (W6_arr m ρ c 2).trans ((Cert.KernelIdeal.RV3.reg3_value (V5 m ρ) c).trans (by
    show Spec.linRef64 (F := Ideal) (W5 m ρ c (Proc.devRef .tc main_v44)) (W5 m ρ c (Proc.devRef .tc main_arg9)) = _
    rw [show W5 m ρ c (Proc.devRef .tc main_v44) = Cert.ReferenceIdeal.Read.val_main_v59 (F := Ideal) (ax0 m c) (ax1 m c) (ax2 m c) (ax5 m c) (ax7 m c) (ax8 m c) from L_v44 m ρ c h,
      show W5 m ρ c (Proc.devRef .tc main_arg9) = ax9 m c from carry_arg9_0_5 m ρ c]
    exact (val60_eq _ _ _ _ _ _ _).symm))

theorem L_v58 (h : Cert.Pre_KernelIdeal m) : W7 m ρ c (Proc.devRef .tc main_v58) = Cert.ReferenceIdeal.Read.val_main_v73 (F := Ideal) (ax0 m c) (ax1 m c) (ax2 m c) (ax5 m c) (ax7 m c) (ax8 m c) (ax9 m c) :=
  (host4_v58 (W6 m ρ c)).trans (by
    rw [show W6 m ρ c (Proc.devRef .tc main_v45) = Cert.ReferenceIdeal.Read.val_main_v60 (F := Ideal) (ax0 m c) (ax1 m c) (ax2 m c) (ax5 m c) (ax7 m c) (ax8 m c) (ax9 m c) from L_v45 m ρ c h,
      show W6 m ρ c (Proc.devRef .tc main_v1) = Cert.ReferenceIdeal.Read.val_main_v1 (F := Ideal) (ax1 m c) from (carry_v1_3_6 m ρ c).trans ((carry_v1_1_3 m ρ c).trans (L_v1 m ρ c)),
      show W6 m ρ c (Proc.devRef .tc main_v3) = Cert.ReferenceIdeal.Read.val_main_v3 (F := Ideal) (ax1 m c) from (carry_v3_3_6 m ρ c).trans ((carry_v3_1_3 m ρ c).trans (L_v3 m ρ c)),
      show W6 m ρ c (Proc.devRef .tc main_v25) = Cert.ReferenceIdeal.Read.val_main_v25 (F := Ideal) (ax1 m c) (ax2 m c) from (carry_v25_3_6 m ρ c).trans ((carry_v25_1_3 m ρ c).trans (L_v25 m ρ c))]
    exact (val73_eq _ _ _ _ _ _ _).symm)

theorem L_v59 (h : Cert.Pre_KernelIdeal m) : W7 m ρ c (Proc.devRef .tc main_v59) = Cert.ReferenceIdeal.Read.val_main_v74 (F := Ideal) (ax1 m c) (ax2 m c) :=
  (host4_v59 (W6 m ρ c)).trans (by
    rw [show W6 m ρ c (Proc.devRef .tc main_v26) = Cert.ReferenceIdeal.Read.val_main_v26 (F := Ideal) (ax1 m c) (ax2 m c) from (carry_v26_3_6 m ρ c).trans ((carry_v26_1_3 m ρ c).trans (L_v26 m ρ c))]
    exact (val74_eq _ _).symm)

theorem L_v60 (h : Cert.Pre_KernelIdeal m) : W7 m ρ c (Proc.devRef .tc main_v60) = Cert.ReferenceIdeal.Read.val_main_v78 (F := Ideal) (ax10 m c) :=
  (host4_v60 (W6 m ρ c)).trans (by
    rw [show W6 m ρ c (Proc.devRef .tc main_arg10) = ax10 m c from carry_arg10_0_6 m ρ c]
    exact (val78_eq _).symm)

theorem L_v61 (h : Cert.Pre_KernelIdeal m) : W8 m ρ c (Proc.devRef .tc main_v61) = Cert.ReferenceIdeal.Read.val_main_v81 (F := Ideal) (ax0 m c) (ax1 m c) (ax2 m c) (ax5 m c) (ax7 m c) (ax8 m c) (ax9 m c) (ax10 m c) :=
  (W8_arr m ρ c 4).trans ((Cert.KernelIdeal.RV4.reg4_value (V7 m ρ) c).trans (by
    show Spec.combRef (F := Ideal) (W7 m ρ c (Proc.devRef .tc main_v58)) (W7 m ρ c (Proc.devRef .tc main_v45)) (W7 m ρ c (Proc.devRef .tc main_v59)) (W7 m ρ c (Proc.devRef .tc main_v60)) = _
    rw [show W7 m ρ c (Proc.devRef .tc main_v58) = Cert.ReferenceIdeal.Read.val_main_v73 (F := Ideal) (ax0 m c) (ax1 m c) (ax2 m c) (ax5 m c) (ax7 m c) (ax8 m c) (ax9 m c) from L_v58 m ρ c h,
      show W7 m ρ c (Proc.devRef .tc main_v45) = Cert.ReferenceIdeal.Read.val_main_v60 (F := Ideal) (ax0 m c) (ax1 m c) (ax2 m c) (ax5 m c) (ax7 m c) (ax8 m c) (ax9 m c) from (carry_v45_6_7 m ρ c).trans (L_v45 m ρ c h),
      show W7 m ρ c (Proc.devRef .tc main_v59) = Cert.ReferenceIdeal.Read.val_main_v74 (F := Ideal) (ax1 m c) (ax2 m c) from L_v59 m ρ c h,
      show W7 m ρ c (Proc.devRef .tc main_v60) = Cert.ReferenceIdeal.Read.val_main_v78 (F := Ideal) (ax10 m c) from L_v60 m ρ c h]
    exact (val81_eq _ _ _ _ _ _ _ _).symm))

theorem L_v62 (h : Cert.Pre_KernelIdeal m) : W9 m ρ c (Proc.devRef .tc main_v62) = Cert.ReferenceIdeal.Read.val_main_v82 (F := Ideal) (ax0 m c) (ax1 m c) (ax2 m c) (ax5 m c) (ax7 m c) (ax8 m c) (ax9 m c) (ax10 m c) (ax11 m c) :=
  (W9_arr m ρ c 2).trans ((Cert.KernelIdeal.RV5.reg5_value (V8 m ρ) c).trans (by
    show Spec.linRef64 (F := Ideal) (W8 m ρ c (Proc.devRef .tc main_v61)) (W8 m ρ c (Proc.devRef .tc main_arg11)) = _
    rw [show W8 m ρ c (Proc.devRef .tc main_v61) = Cert.ReferenceIdeal.Read.val_main_v81 (F := Ideal) (ax0 m c) (ax1 m c) (ax2 m c) (ax5 m c) (ax7 m c) (ax8 m c) (ax9 m c) (ax10 m c) from L_v61 m ρ c h,
      show W8 m ρ c (Proc.devRef .tc main_arg11) = ax11 m c from carry_arg11_0_8 m ρ c]
    exact (val82_eq _ _ _ _ _ _ _ _ _).symm))

theorem L_v75 (h : Cert.Pre_KernelIdeal m) : W10 m ρ c (Proc.devRef .tc main_v75) = Cert.ReferenceIdeal.Read.val_main_v95 (F := Ideal) (ax0 m c) (ax1 m c) (ax2 m c) (ax5 m c) (ax7 m c) (ax8 m c) (ax9 m c) (ax10 m c) (ax11 m c) :=
  (host6_v75 (W9 m ρ c)).trans (by
    rw [show W9 m ρ c (Proc.devRef .tc main_v62) = Cert.ReferenceIdeal.Read.val_main_v82 (F := Ideal) (ax0 m c) (ax1 m c) (ax2 m c) (ax5 m c) (ax7 m c) (ax8 m c) (ax9 m c) (ax10 m c) (ax11 m c) from L_v62 m ρ c h,
      show W9 m ρ c (Proc.devRef .tc main_v1) = Cert.ReferenceIdeal.Read.val_main_v1 (F := Ideal) (ax1 m c) from (carry_v1_6_9 m ρ c).trans ((carry_v1_3_6 m ρ c).trans ((carry_v1_1_3 m ρ c).trans (L_v1 m ρ c))),
      show W9 m ρ c (Proc.devRef .tc main_v3) = Cert.ReferenceIdeal.Read.val_main_v3 (F := Ideal) (ax1 m c) from (carry_v3_6_9 m ρ c).trans ((carry_v3_3_6 m ρ c).trans ((carry_v3_1_3 m ρ c).trans (L_v3 m ρ c))),
      show W9 m ρ c (Proc.devRef .tc main_v25) = Cert.ReferenceIdeal.Read.val_main_v25 (F := Ideal) (ax1 m c) (ax2 m c) from (carry_v25_6_9 m ρ c).trans ((carry_v25_3_6 m ρ c).trans ((carry_v25_1_3 m ρ c).trans (L_v25 m ρ c)))]
    exact (val95_eq _ _ _ _ _ _ _ _ _).symm)

theorem L_v76 (h : Cert.Pre_KernelIdeal m) : W10 m ρ c (Proc.devRef .tc main_v76) = Cert.ReferenceIdeal.Read.val_main_v96 (F := Ideal) (ax1 m c) (ax2 m c) :=
  (host6_v76 (W9 m ρ c)).trans (by
    rw [show W9 m ρ c (Proc.devRef .tc main_v26) = Cert.ReferenceIdeal.Read.val_main_v26 (F := Ideal) (ax1 m c) (ax2 m c) from (carry_v26_6_9 m ρ c).trans ((carry_v26_3_6 m ρ c).trans ((carry_v26_1_3 m ρ c).trans (L_v26 m ρ c)))]
    exact (val96_eq _ _).symm)

theorem L_v77 (h : Cert.Pre_KernelIdeal m) : W10 m ρ c (Proc.devRef .tc main_v77) = Cert.ReferenceIdeal.Read.val_main_v100 (F := Ideal) (ax12 m c) :=
  (host6_v77 (W9 m ρ c)).trans (by
    rw [show W9 m ρ c (Proc.devRef .tc main_arg12) = ax12 m c from carry_arg12_0_9 m ρ c]
    exact (val100_eq _).symm)

theorem L_v78 (h : Cert.Pre_KernelIdeal m) : W11 m ρ c (Proc.devRef .tc main_v78) = Cert.ReferenceIdeal.Read.val_main_v103 (F := Ideal) (ax0 m c) (ax1 m c) (ax2 m c) (ax5 m c) (ax7 m c) (ax8 m c) (ax9 m c) (ax10 m c) (ax11 m c) (ax12 m c) :=
  (W11_arr m ρ c 4).trans ((Cert.KernelIdeal.RV6.reg6_value (V10 m ρ) c).trans (by
    show Spec.combRef (F := Ideal) (W10 m ρ c (Proc.devRef .tc main_v75)) (W10 m ρ c (Proc.devRef .tc main_v62)) (W10 m ρ c (Proc.devRef .tc main_v76)) (W10 m ρ c (Proc.devRef .tc main_v77)) = _
    rw [show W10 m ρ c (Proc.devRef .tc main_v75) = Cert.ReferenceIdeal.Read.val_main_v95 (F := Ideal) (ax0 m c) (ax1 m c) (ax2 m c) (ax5 m c) (ax7 m c) (ax8 m c) (ax9 m c) (ax10 m c) (ax11 m c) from L_v75 m ρ c h,
      show W10 m ρ c (Proc.devRef .tc main_v62) = Cert.ReferenceIdeal.Read.val_main_v82 (F := Ideal) (ax0 m c) (ax1 m c) (ax2 m c) (ax5 m c) (ax7 m c) (ax8 m c) (ax9 m c) (ax10 m c) (ax11 m c) from (carry_v62_9_10 m ρ c).trans (L_v62 m ρ c h),
      show W10 m ρ c (Proc.devRef .tc main_v76) = Cert.ReferenceIdeal.Read.val_main_v96 (F := Ideal) (ax1 m c) (ax2 m c) from L_v76 m ρ c h,
      show W10 m ρ c (Proc.devRef .tc main_v77) = Cert.ReferenceIdeal.Read.val_main_v100 (F := Ideal) (ax12 m c) from L_v77 m ρ c h]
    exact (val103_eq _ _ _ _ _ _ _ _ _ _).symm))

theorem L_v79 (h : Cert.Pre_KernelIdeal m) : W12 m ρ c (Proc.devRef .tc main_v79) = Cert.ReferenceIdeal.Read.val_main_v104 (F := Ideal) (ax0 m c) (ax1 m c) (ax2 m c) (ax5 m c) (ax7 m c) (ax8 m c) (ax9 m c) (ax10 m c) (ax11 m c) (ax12 m c) (ax13 m c) :=
  (W12_arr m ρ c 2).trans ((Cert.KernelIdeal.RV7.reg7_value (V11 m ρ) c).trans (by
    show Spec.linRef64 (F := Ideal) (W11 m ρ c (Proc.devRef .tc main_v78)) (W11 m ρ c (Proc.devRef .tc main_arg13)) = _
    rw [show W11 m ρ c (Proc.devRef .tc main_v78) = Cert.ReferenceIdeal.Read.val_main_v103 (F := Ideal) (ax0 m c) (ax1 m c) (ax2 m c) (ax5 m c) (ax7 m c) (ax8 m c) (ax9 m c) (ax10 m c) (ax11 m c) (ax12 m c) from L_v78 m ρ c h,
      show W11 m ρ c (Proc.devRef .tc main_arg13) = ax13 m c from carry_arg13_0_11 m ρ c]
    exact (val104_eq _ _ _ _ _ _ _ _ _ _ _).symm))

theorem L_v92 (h : Cert.Pre_KernelIdeal m) : W13 m ρ c (Proc.devRef .tc main_v92) = Cert.ReferenceIdeal.Read.val_main_v117 (F := Ideal) (ax0 m c) (ax1 m c) (ax2 m c) (ax5 m c) (ax7 m c) (ax8 m c) (ax9 m c) (ax10 m c) (ax11 m c) (ax12 m c) (ax13 m c) :=
  (host8_v92 (W12 m ρ c)).trans (by
    rw [show W12 m ρ c (Proc.devRef .tc main_v79) = Cert.ReferenceIdeal.Read.val_main_v104 (F := Ideal) (ax0 m c) (ax1 m c) (ax2 m c) (ax5 m c) (ax7 m c) (ax8 m c) (ax9 m c) (ax10 m c) (ax11 m c) (ax12 m c) (ax13 m c) from L_v79 m ρ c h,
      show W12 m ρ c (Proc.devRef .tc main_v1) = Cert.ReferenceIdeal.Read.val_main_v1 (F := Ideal) (ax1 m c) from (carry_v1_9_12 m ρ c).trans ((carry_v1_6_9 m ρ c).trans ((carry_v1_3_6 m ρ c).trans ((carry_v1_1_3 m ρ c).trans (L_v1 m ρ c)))),
      show W12 m ρ c (Proc.devRef .tc main_v3) = Cert.ReferenceIdeal.Read.val_main_v3 (F := Ideal) (ax1 m c) from (carry_v3_9_12 m ρ c).trans ((carry_v3_6_9 m ρ c).trans ((carry_v3_3_6 m ρ c).trans ((carry_v3_1_3 m ρ c).trans (L_v3 m ρ c)))),
      show W12 m ρ c (Proc.devRef .tc main_v25) = Cert.ReferenceIdeal.Read.val_main_v25 (F := Ideal) (ax1 m c) (ax2 m c) from (carry_v25_9_12 m ρ c).trans ((carry_v25_6_9 m ρ c).trans ((carry_v25_3_6 m ρ c).trans ((carry_v25_1_3 m ρ c).trans (L_v25 m ρ c))))]
    exact (val117_eq _ _ _ _ _ _ _ _ _ _ _).symm)

theorem L_v93 (h : Cert.Pre_KernelIdeal m) : W13 m ρ c (Proc.devRef .tc main_v93) = Cert.ReferenceIdeal.Read.val_main_v118 (F := Ideal) (ax1 m c) (ax2 m c) :=
  (host8_v93 (W12 m ρ c)).trans (by
    rw [show W12 m ρ c (Proc.devRef .tc main_v26) = Cert.ReferenceIdeal.Read.val_main_v26 (F := Ideal) (ax1 m c) (ax2 m c) from (carry_v26_9_12 m ρ c).trans ((carry_v26_6_9 m ρ c).trans ((carry_v26_3_6 m ρ c).trans ((carry_v26_1_3 m ρ c).trans (L_v26 m ρ c))))]
    exact (val118_eq _ _).symm)

theorem L_v94 (h : Cert.Pre_KernelIdeal m) : W13 m ρ c (Proc.devRef .tc main_v94) = Cert.ReferenceIdeal.Read.val_main_v122 (F := Ideal) (ax14 m c) :=
  (host8_v94 (W12 m ρ c)).trans (by
    rw [show W12 m ρ c (Proc.devRef .tc main_arg14) = ax14 m c from carry_arg14_0_12 m ρ c]
    exact (val122_eq _).symm)

theorem L_v95 (h : Cert.Pre_KernelIdeal m) : W14 m ρ c (Proc.devRef .tc main_v95) = Cert.ReferenceIdeal.Read.val_main_v125 (F := Ideal) (ax0 m c) (ax1 m c) (ax2 m c) (ax5 m c) (ax7 m c) (ax8 m c) (ax9 m c) (ax10 m c) (ax11 m c) (ax12 m c) (ax13 m c) (ax14 m c) :=
  (W14_arr m ρ c 4).trans ((Cert.KernelIdeal.RV8.reg8_value (V13 m ρ) c).trans (by
    show Spec.combRef (F := Ideal) (W13 m ρ c (Proc.devRef .tc main_v92)) (W13 m ρ c (Proc.devRef .tc main_v79)) (W13 m ρ c (Proc.devRef .tc main_v93)) (W13 m ρ c (Proc.devRef .tc main_v94)) = _
    rw [show W13 m ρ c (Proc.devRef .tc main_v92) = Cert.ReferenceIdeal.Read.val_main_v117 (F := Ideal) (ax0 m c) (ax1 m c) (ax2 m c) (ax5 m c) (ax7 m c) (ax8 m c) (ax9 m c) (ax10 m c) (ax11 m c) (ax12 m c) (ax13 m c) from L_v92 m ρ c h,
      show W13 m ρ c (Proc.devRef .tc main_v79) = Cert.ReferenceIdeal.Read.val_main_v104 (F := Ideal) (ax0 m c) (ax1 m c) (ax2 m c) (ax5 m c) (ax7 m c) (ax8 m c) (ax9 m c) (ax10 m c) (ax11 m c) (ax12 m c) (ax13 m c) from (carry_v79_12_13 m ρ c).trans (L_v79 m ρ c h),
      show W13 m ρ c (Proc.devRef .tc main_v93) = Cert.ReferenceIdeal.Read.val_main_v118 (F := Ideal) (ax1 m c) (ax2 m c) from L_v93 m ρ c h,
      show W13 m ρ c (Proc.devRef .tc main_v94) = Cert.ReferenceIdeal.Read.val_main_v122 (F := Ideal) (ax14 m c) from L_v94 m ρ c h]
    exact (val125_eq _ _ _ _ _ _ _ _ _ _ _ _).symm))

theorem L_v96 (h : Cert.Pre_KernelIdeal m) : W15 m ρ c (Proc.devRef .tc main_v96) = Cert.ReferenceIdeal.Read.val_main_v127 (F := Ideal) (ax16 m c) :=
  (host9_v96 (W14 m ρ c)).trans (by
    rw [show W14 m ρ c (Proc.devRef .tc main_arg16) = ax16 m c from carry_arg16_0_14 m ρ c]
    exact (val127_eq _).symm)

theorem L_v97 (h : Cert.Pre_KernelIdeal m) : W16 m ρ c (Proc.devRef .tc main_v97) = Cert.ReferenceIdeal.Read.val_main_v129 (F := Ideal) (ax0 m c) (ax1 m c) (ax2 m c) (ax5 m c) (ax7 m c) (ax8 m c) (ax9 m c) (ax10 m c) (ax11 m c) (ax12 m c) (ax13 m c) (ax14 m c) (ax15 m c) (ax16 m c) :=
  (W16_arr m ρ c 3).trans ((Cert.KernelIdeal.RV9.reg9_value (V15 m ρ) c).trans (by
    show Spec.linbRef (F := Ideal) (W15 m ρ c (Proc.devRef .tc main_v95)) (W15 m ρ c (Proc.devRef .tc main_arg15)) (W15 m ρ c (Proc.devRef .tc main_v96)) = _
    rw [show W15 m ρ c (Proc.devRef .tc main_v95) = Cert.ReferenceIdeal.Read.val_main_v125 (F := Ideal) (ax0 m c) (ax1 m c) (ax2 m c) (ax5 m c) (ax7 m c) (ax8 m c) (ax9 m c) (ax10 m c) (ax11 m c) (ax12 m c) (ax13 m c) (ax14 m c) from (carry_v95_14_15 m ρ c).trans (L_v95 m ρ c h),
      show W15 m ρ c (Proc.devRef .tc main_arg15) = ax15 m c from carry_arg15_0_15 m ρ c,
      show W15 m ρ c (Proc.devRef .tc main_v96) = Cert.ReferenceIdeal.Read.val_main_v127 (F := Ideal) (ax16 m c) from L_v96 m ρ c h]
    exact (val129_eq _ _ _ _ _ _ _ _ _ _ _ _ _ _).symm))

theorem L_v106 (h : Cert.Pre_KernelIdeal m) : W17 m ρ c (Proc.devRef .tc main_v106) = Cert.ReferenceIdeal.Read.val_main_v138 (F := Ideal) (ax0 m c) (ax1 m c) (ax2 m c) (ax3 m c) (ax5 m c) (ax7 m c) (ax8 m c) (ax9 m c) (ax10 m c) (ax11 m c) (ax12 m c) (ax13 m c) (ax14 m c) (ax15 m c) (ax16 m c) :=
  (host10_v106 (W16 m ρ c)).trans (by
    rw [show W16 m ρ c (Proc.devRef .tc main_v97) = Cert.ReferenceIdeal.Read.val_main_v129 (F := Ideal) (ax0 m c) (ax1 m c) (ax2 m c) (ax5 m c) (ax7 m c) (ax8 m c) (ax9 m c) (ax10 m c) (ax11 m c) (ax12 m c) (ax13 m c) (ax14 m c) (ax15 m c) (ax16 m c) from L_v97 m ρ c h,
      show W16 m ρ c (Proc.devRef .tc main_arg3) = ax3 m c from carry_arg3_0_16 m ρ c]
    exact (val138_eq _ _ _ _ _ _ _ _ _ _ _ _ _ _ _).symm)

theorem L_v108 (h : Cert.Pre_KernelIdeal m) : W17 m ρ c (Proc.devRef .tc main_v108) = Cert.ReferenceIdeal.Read.val_main_v149 (F := Ideal) (ax18 m c) :=
  (host10_v108 (W16 m ρ c)).trans (by
    rw [show W16 m ρ c (Proc.devRef .tc main_arg18) = ax18 m c from carry_arg18_0_16 m ρ c]
    exact (val149_eq _).symm)

theorem L_v109 (h : Cert.Pre_KernelIdeal m) : W17 m ρ c (Proc.devRef .tc main_v109) = Cert.ReferenceIdeal.Read.val_main_v154 (F := Ideal) (ax20 m c) :=
  (host10_v109 (W16 m ρ c)).trans (by
    rw [show W16 m ρ c (Proc.devRef .tc main_arg20) = ax20 m c from carry_arg20_0_16 m ρ c]
    exact (val154_eq _).symm)

theorem L_v110 (h : Cert.Pre_KernelIdeal m) : W17 m ρ c (Proc.devRef .tc main_v110) = Cert.ReferenceIdeal.Read.val_main_v159 (F := Ideal) (ax22 m c) :=
  (host10_v110 (W16 m ρ c)).trans (by
    rw [show W16 m ρ c (Proc.devRef .tc main_arg22) = ax22 m c from carry_arg22_0_16 m ρ c]
    exact (val159_eq _).symm)

theorem L_v111 (h : Cert.Pre_KernelIdeal m) : W17 m ρ c (Proc.devRef .tc main_v111) = Cert.ReferenceIdeal.Read.val_main_v164 (F := Ideal) (ax24 m c) :=
  (host10_v111 (W16 m ρ c)).trans (by
    rw [show W16 m ρ c (Proc.devRef .tc main_arg24) = ax24 m c from carry_arg24_0_16 m ρ c]
    exact (val164_eq _).symm)

/-- The protein ids as the head finds them: the argument reshaped to a column. -/
theorem L_v107raw : W17 m ρ c (Proc.devRef .tc main_v107) = shapeCast S4096x1 (ax4 m c : IVec S4096 32) (by decide) :=
  (host10_v107 (W16 m ρ c)).trans (by
    rw [show W16 m ρ c (Proc.devRef .tc main_arg4) = ax4 m c from carry_arg4_0_16 m ρ c])

theorem L_v107 (h : Cert.Pre_KernelIdeal m) : W17 m ρ c (Proc.devRef .tc main_v107) = Cert.ReferenceIdeal.Read.val_main_v144 (F := Ideal) (ax4 m c) :=
  (L_v107raw m ρ c).trans (val144_eq_of_range (F := Ideal) (ax4 m c) (fun g => Cert.Proof.PreDecode.protein_in_range m h c g)).symm

theorem hq17 (h : Cert.Pre_KernelIdeal m) : ∀ g : Fin 4096, ∃ k : Fin 3,
    (V17 m ρ c main_v107 : IVec S4096x1 32) (ix2 g (0 : Fin 1)) = BitVec.ofNat 32 k.val := by
  intro g
  have e : (V17 m ρ c main_v107 : IVec S4096x1 32) = shapeCast S4096x1 (ax4 m c : IVec S4096 32) (by decide) := L_v107raw m ρ c
  rw [e, shapeCast_apply (ax4 m c : IVec S4096 32) _ (ix2 g (0 : Fin 1)) (ix1 g) (by
    rewrite [Shape.rowMajor_val_one, Shape.rowMajor_val_two]; show g.val = g.val * 1 + 0; omega)]
  exact Cert.Proof.PreDecode.protein_in_range m h c g

theorem L_v112 (h : Cert.Pre_KernelIdeal m) : W18 m ρ c (Proc.devRef .tc main_v112) = Cert.ReferenceIdeal.Read.val_main_v172 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) (ax17 m c) (ax18 m c) (ax19 m c) (ax20 m c) (ax21 m c) (ax22 m c) (ax23 m c) (ax24 m c) :=
  (W18_arr m ρ c 11).trans ((Cert.KernelIdeal.RV10.reg10_value (V17 m ρ) c (hq17 m ρ c h)).trans (by
    show Spec.headRef (F := Ideal) (W17 m ρ c (Proc.devRef .tc main_v106)) (W17 m ρ c (Proc.devRef .tc main_v107)) (W17 m ρ c (Proc.devRef .tc main_arg6)) (W17 m ρ c (Proc.devRef .tc main_arg17)) (W17 m ρ c (Proc.devRef .tc main_v108)) (W17 m ρ c (Proc.devRef .tc main_arg19)) (W17 m ρ c (Proc.devRef .tc main_v109)) (W17 m ρ c (Proc.devRef .tc main_arg21)) (W17 m ρ c (Proc.devRef .tc main_v110)) (W17 m ρ c (Proc.devRef .tc main_arg23)) (W17 m ρ c (Proc.devRef .tc main_v111)) = _
    rw [show W17 m ρ c (Proc.devRef .tc main_v106) = Cert.ReferenceIdeal.Read.val_main_v138 (F := Ideal) (ax0 m c) (ax1 m c) (ax2 m c) (ax3 m c) (ax5 m c) (ax7 m c) (ax8 m c) (ax9 m c) (ax10 m c) (ax11 m c) (ax12 m c) (ax13 m c) (ax14 m c) (ax15 m c) (ax16 m c) from L_v106 m ρ c h,
      show W17 m ρ c (Proc.devRef .tc main_v107) = Cert.ReferenceIdeal.Read.val_main_v144 (F := Ideal) (ax4 m c) from L_v107 m ρ c h,
      show W17 m ρ c (Proc.devRef .tc main_arg6) = ax6 m c from carry_arg6_0_17 m ρ c,
      show W17 m ρ c (Proc.devRef .tc main_arg17) = ax17 m c from carry_arg17_0_17 m ρ c,
      show W17 m ρ c (Proc.devRef .tc main_v108) = Cert.ReferenceIdeal.Read.val_main_v149 (F := Ideal) (ax18 m c) from L_v108 m ρ c h,
      show W17 m ρ c (Proc.devRef .tc main_arg19) = ax19 m c from carry_arg19_0_17 m ρ c,
      show W17 m ρ c (Proc.devRef .tc main_v109) = Cert.ReferenceIdeal.Read.val_main_v154 (F := Ideal) (ax20 m c) from L_v109 m ρ c h,
      show W17 m ρ c (Proc.devRef .tc main_arg21) = ax21 m c from carry_arg21_0_17 m ρ c,
      show W17 m ρ c (Proc.devRef .tc main_v110) = Cert.ReferenceIdeal.Read.val_main_v159 (F := Ideal) (ax22 m c) from L_v110 m ρ c h,
      show W17 m ρ c (Proc.devRef .tc main_arg23) = ax23 m c from carry_arg23_0_17 m ρ c,
      show W17 m ρ c (Proc.devRef .tc main_v111) = Cert.ReferenceIdeal.Read.val_main_v164 (F := Ideal) (ax24 m c) from L_v111 m ρ c h]
    exact (val172_eq _ _ _ _ _ _ _ _ _ _ _ _ _ _ _ _ _ _ _ _ _ _ _ _ _).symm))

end Cert.KernelIdeal.Chain

end
-- ==== Proof.lean ====
/-
  The certificate: a four-layer graph convolution with mean pooling and an MLP head, its dense stages run as eleven
  pallas regions, against the plain reference, over the extended reals.
  The kernel program and the reference apply the SAME host operations between the regions (degree normalisation,
  the edge gather / scatter-add, the pooling), so the proof is a walk along the program: at every boundary of the
  kernel's run each live buffer holds the reference's corresponding stage of the arguments (Proof/Chain.lean). Each
  region is shown to compute the array-level function the reference computes with host operations at that stage
  (Proof/Reg*.lean: a bf16-operand matmul into a zero accumulator is the host dot_general, entry by entry, at the
  ideal instance; the combine stage is pointwise; the two embedding look-ups done as one-hot matmuls are the
  reference's gathers WHEN the index is in range, which the precondition states — Proof/PreDecode.lean reads the two
  ranges off it); the logistic is 1/(1+exp(−y)) on both sides. The three frames are the generated ones, the
  reference's being its generated run with the result dropped; the idealization rewrote nothing.
-/
import proofs.«424127_j32091995635825_2_alg».proof.Defs
import proofs.«424127_j32091995635825_2_alg».proof.Proof.Gen.Kernel
import proofs.«424127_j32091995635825_2_alg».proof.Proof.Gen.Kernel.Frame
import proofs.«424127_j32091995635825_2_alg».proof.Proof.Gen.KernelIdeal
import proofs.«424127_j32091995635825_2_alg».proof.Proof.Gen.KernelIdeal.Frame
import proofs.«424127_j32091995635825_2_alg».proof.Proof.Gen.ReferenceIdeal
import proofs.«424127_j32091995635825_2_alg».proof.Proof.Gen.Pre_finite_inputs
import proofs.«424127_j32091995635825_2_alg».proof.Proof.RunW
import proofs.«424127_j32091995635825_2_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) arguments in their result buffer: the kernel by
    the walk along its run, the reference by its generated run read stage by stage. -/
theorem algebraic : Cert.algebraic_KernelIdeal_ReferenceIdeal := by
  intro m g m' g' hpre hagree
  refine ⟨fun c => Cert.KernelIdeal.Chain.result m c, ?_, ?_⟩
  · exact (θ_run Cert.KernelIdeal.defs _ _).mono
      (fun r h c => ⟨(h c).1.trans (Cert.KernelIdeal.Chain.L_v112 m g c hpre), (h c).2⟩)
      (Cert.KernelIdeal.Gen.run_values (F := Ideal) m g)
  · refine (θ_run Cert.ReferenceIdeal.defs _ _).mono (fun r h c => ⟨(h c).1.trans ?_, (h c).2⟩)
      (Cert.ReferenceIdeal.Value.run (F := Ideal) m' g')
    show Cert.ReferenceIdeal.Value.res_main_v172 m' c = Cert.KernelIdeal.Chain.result m c
    rw [Cert.ReferenceIdeal.Read.val_main_v172_eq]
    obtain ⟨e0, e1, e2, e3, e4, e5, e6, e7, e8, e9, e10, e11, e12, e13, e14, e15, e16, e17, e18, e19, e20, e21, e22, e23, e24⟩ := hagree c
    rw [e0, e1, e2, e3, e4, e5, e6, e7, e8, e9, e10, e11, e12, e13, e14, e15, e16, e17, e18, e19, e20, e21, e22, e23, e24]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
